-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S14x32 : Shape := ⟨2, ![14, 32]⟩
abbrev S32 : Shape := ⟨1, ![32]⟩
abbrev S4x32x32 : Shape := ⟨3, ![4, 32, 32]⟩
abbrev S4x32 : Shape := ⟨2, ![4, 32]⟩
abbrev S32x32 : Shape := ⟨2, ![32, 32]⟩
abbrev S32x2 : Shape := ⟨2, ![32, 2]⟩
abbrev S2 : Shape := ⟨1, ![2]⟩
abbrev S2x2500000 : Shape := ⟨2, ![2, 2500000]⟩
abbrev S100000 : Shape := ⟨1, ![100000]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S14x32 : S_.BroadcastsInDim S14x32 (![] : Fin 0 → Fin S14x32.rank)
  reducesTo_S14x32_S_d0_1 : S14x32.ReducesTo [0, 1] S_
  bcast_S_S32 : S_.BroadcastsInDim S32 (![] : Fin 0 → Fin S32.rank)
  reducesTo_S32_S_d0 : S32.ReducesTo [0] S_
  bcast_S_S4x32x32 : S_.BroadcastsInDim S4x32x32 (![] : Fin 0 → Fin S4x32x32.rank)
  reducesTo_S4x32x32_S_d0_1_2 : S4x32x32.ReducesTo [0, 1, 2] S_
  bcast_S_S4x32 : S_.BroadcastsInDim S4x32 (![] : Fin 0 → Fin S4x32.rank)
  reducesTo_S4x32_S_d0_1 : S4x32.ReducesTo [0, 1] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S32x32 .f32) (main_arg8 : FVec F S32 .f32) (main_arg9 : FVec F S32x2 .f32) (main_arg10 : FVec F S2 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg9
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S4x32x32 .f32) (main_arg5 : FVec F S4x32 .f32) (main_arg6 : FVec F S4x32x32 .f32) (main_arg7 : FVec F S32x32 .f32) (main_arg8 : FVec F S32 .f32) (main_arg9 : FVec F S32x2 .f32) (main_arg10 : FVec F S2 .f32) (main_v13 : IVec S_ 1) (main_v16 : IVec S14x32 1) : IVec S_ 1 :=
  let main_c_5 : IVec S_ 1 := constantI S_ 1 1#1
  let main_v17 : IVec S_ 1 := (fun x v => Host.reduce IntOp.andi x v reducesTo_S14x32_S_d0_1 h_S_) main_v16 main_c_5
  let main_v18 : IVec S_ 1 := andi main_v13 main_v17
  let main_v19 : FVec F S4x32x32 .f32 := Host.absf main_arg4
  let main_cst_6 : FVec F S_ .f32 := constant S_ .f32 0x7F800000#32
  let main_v20 : FVec F S4x32x32 .f32 := broadcastInDim S4x32x32 ![] bcast_S_S4x32x32 main_cst_6
  let main_v21 : IVec S4x32x32 1 := cmpf .olt main_v19 main_v20
  let main_c_7 : IVec S_ 1 := constantI S_ 1 1#1
  let main_v22 : IVec S_ 1 := (fun x v => Host.reduce IntOp.andi x v reducesTo_S4x32x32_S_d0_1_2 h_S_) main_v21 main_c_7
  let main_v23 : IVec S_ 1 := andi main_v18 main_v22
  let main_v24 : FVec F S4x32 .f32 := Host.absf main_arg5
  let main_cst_8 : FVec F S_ .f32 := constant S_ .f32 0x7F800000#32
  let main_v25 : FVec F S4x32 .f32 := broadcastInDim S4x32 ![] bcast_S_S4x32 main_cst_8
  let main_v26 : IVec S4x32 1 := cmpf .olt main_v24 main_v25
  let main_c_9 : IVec S_ 1 := constantI S_ 1 1#1
  let main_v27 : IVec S_ 1 := (fun x v => Host.reduce IntOp.andi x v reducesTo_S4x32_S_d0_1 h_S_) main_v26 main_c_9
  let main_v28 : IVec S_ 1 := andi main_v23 main_v27
  let main_v29 : FVec F S4x32x32 .f32 := Host.absf main_arg6
  let main_cst_10 : FVec F S_ .f32 := constant S_ .f32 0x7F800000#32
  let main_v30 : FVec F S4x32x32 .f32 := broadcastInDim S4x32x32 ![] bcast_S_S4x32x32 main_cst_10
  let main_v31 : IVec S4x32x32 1 := cmpf .olt main_v29 main_v30
  let main_c_11 : IVec S_ 1 := constantI S_ 1 1#1
  let main_v32 : IVec S_ 1 := (fun x v => Host.reduce IntOp.andi x v reducesTo_S4x32x32_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x14 .f32) (main_arg1 : FVec F S14x32 .f32) (main_arg2 : FVec F S32 .f32) (main_arg3 : FVec F S14x32 .f32) (main_arg4 : FVec F S4x32x32 .f32) (main_arg5 : FVec F S4x32 .f32) (main_arg6 : FVec F S4x32x32 .f32) (main_arg7 : FVec F S32x32 .f32) (main_arg8 : FVec F S32 .f32) (main_arg9 : FVec F S32x2 .f32) (main_arg10 : FVec F S2 .f32) (main_arg11 : IVec S2x2500000 32) (main_arg12 : IVec S100000 32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S14x32 .f32 := Host.absf main_arg1
  let main_cst_0 : FVec F S_ .f32 := constant S_ .f32 0x7F800000#32
  let main_v5 : FVec F S14x32 .f32 := broadcastInDim S14x32 ![] bcast_S_S14x32 main_cst_0
  let main_v6 : IVec S14x32 1 := cmpf .olt main_v4 main_v5
  let main_c_1 : IVec S_ 1 := constantI S_ 1 1#1
  let main_v7 : IVec S_ 1 := (fun x v => Host.reduce IntOp.andi x v reducesTo_S14x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S14x32 .f32 := Host.absf main_arg3
  let main_cst_4 : FVec F S_ .f32 := constant S_ .f32 0x7F800000#32
  let main_v15 : FVec F S14x32 .f32 := broadcastInDim S14x32 ![] bcast_S_S14x32 main_cst_4
  let main_v16 : IVec S14x32 1 := cmpf .olt main_v14 main_v15
  fn_part1 (F := F) main_arg4 main_arg5 main_arg6 main_arg7 main_arg8 main_arg9 main_arg10 main_v13 main_v16
-- ==== Kernel.lean ====
abbrev S100000x14 : Shape := ⟨2, ![100000, 14]⟩
abbrev S14x32 : Shape := ⟨2, ![14, 32]⟩
abbrev S32 : Shape := ⟨1, ![32]⟩
abbrev S4x32x32 : Shape := ⟨3, ![4, 32, 32]⟩
abbrev S4x32 : Shape := ⟨2, ![4, 32]⟩
abbrev S32x32 : Shape := ⟨2, ![32, 32]⟩
abbrev S32x2 : Shape := ⟨2, ![32, 2]⟩
abbrev S2 : Shape := ⟨1, ![2]⟩
abbrev S2x2500000 : Shape := ⟨2, ![2, 2500000]⟩
abbrev S100000 : Shape := ⟨1, ![100000]⟩
abbrev S1x2500000 : Shape := ⟨2, ![1, 2500000]⟩
abbrev S2500000 : Shape := ⟨1, ![2500000]⟩
abbrev S100000x1 : Shape := ⟨2, ![100000, 1]⟩
abbrev S14x64 : Shape := ⟨2, ![14, 64]⟩
abbrev S100000x32 : Shape := ⟨2, ![100000, 32]⟩
abbrev S10000x14 : Shape := ⟨2, ![10000, 14]⟩
abbrev S10000x32 : Shape := ⟨2, ![10000, 32]⟩
abbrev S10000x64 : Shape := ⟨2, ![10000, 64]⟩
abbrev S_ : Shape := ⟨0, ![]⟩
abbrev S2500000x1 : Shape := ⟨2, ![2500000, 1]⟩
abbrev S2500000x32 : Shape := ⟨2, ![2500000, 32]⟩
abbrev S1x32 : Shape := ⟨2, ![1, 32]⟩
abbrev S1x32x32 : Shape := ⟨3, ![1, 32, 32]⟩
abbrev S32x64 : Shape := ⟨2, ![32, 64]⟩
abbrev S512x32 : Shape := ⟨2, ![512, 32]⟩
abbrev S2000x32 : Shape := ⟨2, ![2000, 32]⟩
abbrev S2000x1 : Shape := ⟨2, ![2000, 1]⟩
abbrev S2000x512 : Shape := ⟨2, ![2000, 512]⟩
abbrev S1x2 : Shape := ⟨2, ![1, 2]⟩
abbrev S512x2 : Shape := ⟨2, ![512, 2]⟩
abbrev S512 : Shape := ⟨1, ![512]⟩
abbrev S512x1 : Shape := ⟨2, ![512, 1]⟩

abbrev nBuf : Space → Nat
  | .hbm => 136
  | .vmem => 81
  | .smem => 0
  | _ => 0

abbrev hbmTy0_0 (i : Nat) : BufTy := match i % 128 with
  | 0 => ⟨S100000x14, .f32⟩
  | 1 => ⟨S14x32, .f32⟩
  | 2 => ⟨S32, .f32⟩
  | 3 => ⟨S14x32, .f32⟩
  | 4 => ⟨S4x32x32, .f32⟩
  | 5 => ⟨S4x32, .f32⟩
  | 6 => ⟨S4x32x32, .f32⟩
  | 7 => ⟨S32x32, .f32⟩
  | 8 => ⟨S32, .f32⟩
  | 9 => ⟨S32x2, .f32⟩
  | 10 => ⟨S2, .f32⟩
  | 11 => ⟨S2x2500000, .i32⟩
  | 12 => ⟨S100000, .i32⟩
  | 13 => ⟨S1x2500000, .i32⟩
  | 14 => ⟨S2500000, .i32⟩
  | 15 => ⟨S1x2500000, .i32⟩
  | 16 => ⟨S2500000, .i32⟩
  | 17 => ⟨S100000x1, .i32⟩
  | 18 => ⟨S14x64, .f32⟩
  | 19 => ⟨S100000x32, .f32⟩
  | 20 => ⟨S100000x32, .f32⟩
  | 21 => ⟨S_, .i32⟩
  | 22 => ⟨S2500000, .i32⟩
  | 23 => ⟨S2500000, .i1⟩
  | 24 => ⟨S_, .i32⟩
  | 25 => ⟨S2500000, .i32⟩
  | 26 => ⟨S2500000, .i32⟩
  | 27 => ⟨S2500000, .i32⟩
  | 28 => ⟨S2500000x1, .i32⟩
  | 29 => ⟨S2500000x32, .f32⟩
  | 30 => ⟨S_, .f32⟩
  | 31 => ⟨S100000x32, .f32⟩
  | 32 => ⟨S2500000x1, .i32⟩
  | 33 => ⟨S100000x32, .f32⟩
  | 34 => ⟨S1x32, .f32⟩
  | 35 => ⟨S100000x32, .f32⟩
  | 36 => ⟨S1x32x32, .f32⟩
  | 37 => ⟨S32x32, .f32⟩
  | 38 => ⟨S1x32, .f32⟩
  | 39 => ⟨S32, .f32⟩
  | 40 => ⟨S1x32x32, .f32⟩
  | 41 => ⟨S32x32, .f32⟩
  | 42 => ⟨S32x64, .f32⟩
  | 43 => ⟨S100000x32, .f32⟩
  | 44 => ⟨S100000x32, .f32⟩
  | 45 => ⟨S_, .i32⟩
  | 46 => ⟨S2500000, .i32⟩
  | 47 => ⟨S2500000, .i1⟩
  | 48 => ⟨S_, .i32⟩
  | 49 => ⟨S2500000, .i32⟩
  | 50 => ⟨S2500000, .i32⟩
  | 51 => ⟨S2500000, .i32⟩
  | 52 => ⟨S2500000x1, .i32⟩
  | 53 => ⟨S2500000x32, .f32⟩
  | 54 => ⟨S_, .f32⟩
  | 55 => ⟨S100000x32, .f32⟩
  | 56 => ⟨S2500000x1, .i32⟩
  | 57 => ⟨S100000x32, .f32⟩
  | 58 => ⟨S1x32, .f32⟩
  | 59 => ⟨S100000x32, .f32⟩
  | 60 => ⟨S1x32x32, .f32⟩
  | 61 => ⟨S32x32, .f32⟩
  | 62 => ⟨S1x32, .f32⟩
  | 63 => ⟨S32, .f32⟩
  | 64 => ⟨S1x32x32, .f32⟩
  | 65 => ⟨S32x32, .f32⟩
  | 66 => ⟨S32x64, .f32⟩
  | 67 => ⟨S100000x32, .f32⟩
  | 68 => ⟨S100000x32, .f32⟩
  | 69 => ⟨S_, .i32⟩
  | 70 => ⟨S2500000, .i32⟩
  | 71 => ⟨S2500000, .i1⟩
  | 72 => ⟨S_, .i32⟩
  | 73 => ⟨S2500000, .i32⟩
  | 74 => ⟨S2500000, .i32⟩
  | 75 => ⟨S2500000, .i32⟩
  | 76 => ⟨S2500000x1, .i32⟩
  | 77 => ⟨S2500000x32, .f32⟩
  | 78 => ⟨S_, .f32⟩
  | 79 => ⟨S100000x32, .f32⟩
  | 80 => ⟨S2500000x1, .i32⟩
  | 81 => ⟨S100000x32, .f32⟩
  | 82 => ⟨S1x32, .f32⟩
  | 83 => ⟨S100000x32, .f32⟩
  | 84 => ⟨S1x32x32, .f32⟩
  | 85 => ⟨S32x32, .f32⟩
  | 86 => ⟨S1x32, .f32⟩
  | 87 => ⟨S32, .f32⟩
  | 88 => ⟨S1x32x32, .f32⟩
  | 89 => ⟨S32x32, .f32⟩
  | 90 => ⟨S32x64, .f32⟩
  | 91 => ⟨S100000x32, .f32⟩
  | 92 => ⟨S100000x32, .f32⟩
  | 93 => ⟨S_, .i32⟩
  | 94 => ⟨S2500000, .i32⟩
  | 95 => ⟨S2500000, .i1⟩
  | 96 => ⟨S_, .i32⟩
  | 97 => ⟨S2500000, .i32⟩
  | 98 => ⟨S2500000, .i32⟩
  | 99 => ⟨S2500000, .i32⟩
  | 100 => ⟨S2500000x1, .i32⟩
  | 101 => ⟨S2500000x32, .f32⟩
  | 102 => ⟨S_, .f32⟩
  | 103 => ⟨S100000x32, .f32⟩
  | 104 => ⟨S2500000x1, .i32⟩
  | 105 => ⟨S100000x32, .f32⟩
  | 106 => ⟨S1x32, .f32⟩
  | 107 => ⟨S100000x32, .f32⟩
  | 108 => ⟨S1x32x32, .f32⟩
  | 109 => ⟨S32x32, .f32⟩
  | 110 => ⟨S1x32, .f32⟩
  | 111 => ⟨S32, .f32⟩
  | 112 => ⟨S1x32x32, .f32⟩
  | 113 => ⟨S32x32, .f32⟩
  | 114 => ⟨S32x64, .f32⟩
  | 115 => ⟨S100000x32, .f32⟩
  | 116 => ⟨S100000x32, .f32⟩
  | 117 => ⟨S_, .i32⟩
  | 118 => ⟨S2500000, .i32⟩
  | 119 => ⟨S2500000, .i1⟩
  | 120 => ⟨S_, .i32⟩
  | 121 => ⟨S2500000, .i32⟩
  | 122 => ⟨S2500000, .i32⟩
  | 123 => ⟨S2500000, .i32⟩
  | 124 => ⟨S2500000x1, .i32⟩
  | 125 => ⟨S2500000x32, .f32⟩
  | 126 => ⟨S_, .f32⟩
  | 127 => ⟨S100000x32, .f32⟩
  | _ => ⟨S100000x14, .f32⟩

abbrev hbmTy0_1 (i : Nat) : BufTy := match i % 128 with
  | 0 => ⟨S2500000x1, .i32⟩
  | 1 => ⟨S100000x32, .f32⟩
  | 2 => ⟨S1x32, .f32⟩
  | 3 => ⟨S100000x32, .f32⟩
  | 4 => ⟨S512x32, .f32⟩
  | 5 => ⟨S1x32, .f32⟩
  | 6 => ⟨S1x2, .f32⟩
  | 7 => ⟨S512x2, .f32⟩
  | _ => ⟨S100000x14, .f32⟩

abbrev hbmTy (i : Nat) : BufTy := match i / 128 with
  | 0 => hbmTy0_0 i
  | 1 => hbmTy0_1 i
  | _ => ⟨S100000x14, .f32⟩

abbrev bufTy : (tb : Table) → Fin (tcTables nBuf tb) → BufTy
  | .hbm, ⟨i, _⟩ => hbmTy i
  | .local _ .vmem, ⟨0, _⟩ => ⟨S10000x14, .f32⟩
  | .local _ .vmem, ⟨1, _⟩ => ⟨S10000x14, .f32⟩
  | .local _ .vmem, ⟨2, _⟩ => ⟨S14x64, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x64, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S32x64, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S32x64, .f32⟩
  | .local _ .vmem, ⟨45, _⟩ => ⟨S10000x32, .f32⟩
  | .local _ .vmem, ⟨46, _⟩ => ⟨S10000x32, .f32⟩
  | .local _ .vmem, ⟨47, _⟩ => ⟨S10000x32, .f32⟩
  | .local _ .vmem, ⟨48, _⟩ => ⟨S10000x32, .f32⟩
  | .local _ .vmem, ⟨49, _⟩ => ⟨S10000x32, .f32⟩
  | .local _ .vmem, ⟨50, _⟩ => ⟨S10000x32, .f32⟩
  | .local _ .vmem, ⟨51, _⟩ => ⟨S10000x32, .f32⟩
  | .local _ .vmem, ⟨52, _⟩ => ⟨S10000x32, .f32⟩
  | .local _ .vmem, ⟨53, _⟩ => ⟨S1x32, .f32⟩
  | .local _ .vmem, ⟨54, _⟩ => ⟨S10000x32, .f32⟩
  | .local _ .vmem, ⟨55, _⟩ => ⟨S10000x32, .f32⟩
  | .local _ .vmem, ⟨56, _⟩ => ⟨S10000x32, .f32⟩
  | .local _ .vmem, ⟨57, _⟩ => ⟨S10000x32, .f32⟩
  | .local _ .vmem, ⟨58, _⟩ => ⟨S32x64, .f32⟩
  | .local _ .vmem, ⟨59, _⟩ => ⟨S10000x32, .f32⟩
  | .local _ .vmem, ⟨60, _⟩ => ⟨S10000x32, .f32⟩
  | .local _ .vmem, ⟨61, _⟩ => ⟨S10000x32, .f32⟩
  | .local _ .vmem, ⟨62, _⟩ => ⟨S10000x32, .f32⟩
  | .local _ .vmem, ⟨63, _⟩ => ⟨S10000x32, .f32⟩
  | .local _ .vmem, ⟨64, _⟩ => ⟨S10000x32, .f32⟩
  | .local _ .vmem, ⟨65, _⟩ => ⟨S10000x32, .f32⟩
  | .local _ .vmem, ⟨66, _⟩ => ⟨S10000x32, .f32⟩
  | .local _ .vmem, ⟨67, _⟩ => ⟨S1x32, .f32⟩
  | .local _ .vmem, ⟨68, _⟩ => ⟨S10000x32, .f32⟩
  | .local _ .vmem, ⟨69, _⟩ => ⟨S10000x32, .f32⟩
  | .local _ .vmem, ⟨70, _⟩ => ⟨S2000x32, .f32⟩
  | .local _ .vmem, ⟨71, _⟩ => ⟨S2000x32, .f32⟩
  | .local _ .vmem, ⟨72, _⟩ => ⟨S2000x1, .i32⟩
  | .local _ .vmem, ⟨73, _⟩ => ⟨S2000x1, .i32⟩
  | .local _ .vmem, ⟨74, _⟩ => ⟨S512x32, .f32⟩
  | .local _ .vmem, ⟨75, _⟩ => ⟨S512x32, .f32⟩
  | .local _ .vmem, ⟨76, _⟩ => ⟨S32x32, .f32⟩
  | .local _ .vmem, ⟨77, _⟩ => ⟨S1x32, .f32⟩
  | .local _ .vmem, ⟨78, _⟩ => ⟨S32x2, .f32⟩
  | .local _ .vmem, ⟨79, _⟩ => ⟨S1x2, .f32⟩
  | .local _ .vmem, ⟨80, _⟩ => ⟨S512x2, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_c_4 : Ref sig .tc := ⟨.hbm, 69, rfl⟩
abbrev main_v47 : Ref sig .tc := ⟨.hbm, 70, rfl⟩
abbrev main_v48 : Ref sig .tc := ⟨.hbm, 71, rfl⟩
abbrev main_c_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66_0 : Ref sig .tc := ⟨.hbm, 91, rfl⟩
abbrev main_v66_1 : Ref sig .tc := ⟨.hbm, 92, rfl⟩
abbrev main_c_7 : Ref sig .tc := ⟨.hbm, 93, rfl⟩
abbrev main_v67 : Ref sig .tc := ⟨.hbm, 94, rfl⟩
abbrev main_v68 : Ref sig .tc := ⟨.hbm, 95, rfl⟩
abbrev main_c_8 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86_0 : Ref sig .tc := ⟨.hbm, 115, rfl⟩
abbrev main_v86_1 : Ref sig .tc := ⟨.hbm, 116, rfl⟩
abbrev main_c_10 : Ref sig .tc := ⟨.hbm, 117, rfl⟩
abbrev main_v87 : Ref sig .tc := ⟨.hbm, 118, rfl⟩
abbrev main_v88 : Ref sig .tc := ⟨.hbm, 119, rfl⟩
abbrev main_c_11 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_12 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg3_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc11_stg0_0 : Ref sig .tc := ⟨.vmem, 75, rfl⟩
abbrev cc11_stg1_0 : Ref sig .tc := ⟨.vmem, 76, rfl⟩
abbrev cc11_stg2_0 : Ref sig .tc := ⟨.vmem, 77, rfl⟩
abbrev cc11_stg3_0 : Ref sig .tc := ⟨.vmem, 78, rfl⟩
abbrev cc11_stg4_0 : Ref sig .tc := ⟨.vmem, 79, rfl⟩
abbrev cc11_stg5_0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc8_sem3_0 : DmaSem sig := 61
abbrev cc8_sem3_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc11_sem0_0 : DmaSem sig := 75
abbrev cc11_sem1_0 : DmaSem sig := 76
abbrev cc11_sem2_0 : DmaSem sig := 77
abbrev cc11_sem3_0 : DmaSem sig := 78
abbrev cc11_sem4_0 : DmaSem sig := 79
abbrev cc11_sem5_0 : DmaSem sig := 80

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S10000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S512x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S512x32 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S32x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S32x2 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x2 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S512x2 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  shapeCasts_S100000_S100000x1 : S100000.ShapeCasts S100000x1
  concatenates_S14x32_S14x32_S14x64_d1 : Shape.Concatenates [S14x32, S14x32] S14x64 1
  inb_S10000x14_S10000x14_0_0 : ∀ a, (![0, 0] : Fin 2 → Nat) a + S10000x14.size a ≤ S10000x14.size a
  h_S10000x14 : 0 < S10000x14.numel
  bitsLt_bf16_f32 : FTy.bits .bf16 < FTy.bits .f32
  inb_S14x64_S14x64_0_0 : ∀ a, (![0, 0] : Fin 2 → Nat) a + S14x64.size a ≤ S14x64.size a
  h_S14x64 : 0 < S14x64.numel
  shapeCasts_S14x64_S14x64 : S14x64.ShapeCasts S14x64
  slices_S10000x64_o0_0_S10000x32 : S10000x64.Slices ![0, 0] S10000x32
  inb_S10000x32_S10000x32_0_0 : ∀ a, (![0, 0] : Fin 2 → Nat) a + S10000x32.size a ≤ S10000x32.size a
  h_S10000x32 : 0 < S10000x32.numel
  slices_S10000x64_o0_32_S10000x32 : S10000x64.Slices ![0, 32] S10000x32
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  shapeCasts_S1x32_S32 : S1x32.ShapeCasts S32
  concatenates_S32x32_S32x32_S32x64_d1 : Shape.Concatenates [S32x32, S32x32] S32x64 1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  inb_S512x32_S512x32_0_0 : ∀ a, (![0, 0] : Fin 2 → Nat) a + S512x32.size a ≤ S512x32.size a
  h_S512x32 : 0 < S512x32.numel
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  shapeCasts_S512x32_S512x32 : S512x32.ShapeCasts S512x32
  shapeCasts_S2_S1x2 : S2.ShapeCasts S1x2
  inb_S32x32_S32x32_0_0 : ∀ a, (![0, 0] : Fin 2 → Nat) a + S32x32.size a ≤ S32x32.size a
  h_S32x32 : 0 < S32x32.numel
  broadcasts_S1x32_S512x32 : S1x32.Broadcasts S512x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  reduces_S512x2_S512 : S512x2.Reduces [1] S512
  shapeCasts_S512_S512x1 : S512.ShapeCasts S512x1
  broadcasts_S512x1_S512x2 : S512x1.Broadcasts S512x2
  inb_S512x2_S512x2_0_0 : ∀ a, (![0, 0] : Fin 2 → Nat) a + S512x2.size a ≤ S512x2.size a
  h_S512x2 : 0 < S512x2.numel
  dot_S10000x14_S14x64_S10000x64_1_0_0_1_n_n_wf : DotDims.WF S10000x14 S14x64 S10000x64 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S10000x32_S32x64_S10000x64_1_0_0_1_n_n_wf : DotDims.WF S10000x32 S32x64 S10000x64 [1] [0] [0] [1] [] []
  dot_S2000x512_S2000x32_S512x32_0_0_1_1_n_n_wf : DotDims.WF S2000x512 S2000x32 S512x32 [0] [0] [1] [1] [] []
  dot_S512x32_S32x32_S512x32_1_0_0_1_n_n_wf : DotDims.WF S512x32 S32x32 S512x32 [1] [0] [0] [1] [] []
  dot_S512x32_S32x2_S512x2_1_0_0_1_n_n_wf : DotDims.WF S512x32 S32x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S100000x14.size a
  hwx0_0 : ∀ i : grid0.Coords, EltTy.bits .f32 = 32 ∨ (Rect.block (s := S100000x14) S10000x14.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x64.size a ≤ S14x64.size a
  hwx0_1 : ∀ i : grid0.Coords, EltTy.bits .f32 = 32 ∨ (Rect.block (s := S14x64) S14x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S100000x32.size a
  hwx5_1 : ∀ i : grid5.Coords, EltTy.bits .f32 = 32 ∨ (Rect.block (s := S100000x32) S10000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S100000x32.size a
  hwx5_3 : ∀ i : grid5.Coords, EltTy.bits .f32 = 32 ∨ (Rect.block (s := S100000x32) S10000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S100000x32.size a
  hwx6_2 : ∀ i : grid6.Coords, EltTy.bits .f32 = 32 ∨ (Rect.block (s := S100000x32) S10000x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x32.size a ≤ S100000x32.size a
  hwx6_3 : ∀ i : grid6.Coords, EltTy.bits .f32 = 32 ∨ (Rect.block (s := S100000x32) S10000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x32.size a ≤ S100000x32.size a
  hwx7_1 : ∀ i : grid7.Coords, EltTy.bits .f32 = 32 ∨ (Rect.block (s := S100000x32) S10000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x32.size a ≤ S100000x32.size a
  hwx7_3 : ∀ i : grid7.Coords, EltTy.bits .f32 = 32 ∨ (Rect.block (s := S100000x32) S10000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x64.size a ≤ S32x64.size a
  hwx8_1 : ∀ i : grid8.Coords, EltTy.bits .f32 = 32 ∨ (Rect.block (s := S32x64) S32x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x32.size a ≤ S100000x32.size a
  hwx8_2 : ∀ i : grid8.Coords, EltTy.bits .f32 = 32 ∨ (Rect.block (s := S100000x32) S10000x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x32.size a ≤ S100000x32.size a
  hwx8_3 : ∀ i : grid8.Coords, EltTy.bits .f32 = 32 ∨ (Rect.block (s := S100000x32) S10000x32.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x32.size a ≤ S100000x32.size a
  hwx9_1 : ∀ i : grid9.Coords, EltTy.bits .f32 = 32 ∨ (Rect.block (s := S100000x32) S10000x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x32.size a ≤ S100000x32.size a
  hwx9_3 : ∀ i : grid9.Coords, EltTy.bits .f32 = 32 ∨ (Rect.block (s := S100000x32) S10000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x32.size a ≤ S100000x32.size a
  hwx10_0 : ∀ i : grid10.Coords, EltTy.bits .f32 = 32 ∨ (Rect.block (s := S100000x32) S2000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S100000x1.size a
  hwx10_1 : ∀ i : grid10.Coords, EltTy.bits .i32 = 32 ∨ (Rect.block (s := S100000x1) S2000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S512x32.size a ≤ S512x32.size a
  hwx10_2 : ∀ i : grid10.Coords, EltTy.bits .f32 = 32 ∨ (Rect.block (s := S512x32) S512x32.size (cc10_transform_2 i) (hinb10_2 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S512x32.size a ≤ S512x32.size a
  hwx11_0 : ∀ i : grid11.Coords, EltTy.bits .f32 = 32 ∨ (Rect.block (s := S512x32) S512x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S32x32.size a ≤ S32x32.size a
  hwx11_1 : ∀ i : grid11.Coords, EltTy.bits .f32 = 32 ∨ (Rect.block (s := S32x32) S32x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S32x2.size a ≤ S32x2.size a
  hwx11_3 : ∀ i : grid11.Coords, EltTy.bits .f32 = 32 ∨ (Rect.block (s := S32x2) S32x2.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x2.size a ≤ S1x2.size a
  hwx11_4 : ∀ i : grid11.Coords, EltTy.bits .f32 = 32 ∨ (Rect.block (s := S1x2) S1x2.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S512x2.size a ≤ S512x2.size a
  hwx11_5 : ∀ i : grid11.Coords, EltTy.bits .f32 = 32 ∨ (Rect.block (s := S512x2) S512x2.size (cc11_transform_5 i) (hinb11_5 i)).WholeWords (EltTy.packing .f32)

variable [Facts₀]

def dot_S10000x14_S14x64_S10000x64_1_0_0_1_n_n : DotDims S10000x14 S14x64 S10000x64 where
  lhsContracting := [1]
  rhsContracting := [0]
  lhsNonContracting := [0]
  rhsNonContracting := [1]
  lhsBatch := []
  rhsBatch := []
  wf := dot_S10000x14_S14x64_S10000x64_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S2000x512_S2000x32_S512x32_0_0_1_1_n_n : DotDims S2000x512 S2000x32 S512x32 where
  lhsContracting := [0]
  rhsContracting := [0]
  lhsNonContracting := [1]
  rhsNonContracting := [1]
  lhsBatch := []
  rhsBatch := []
  wf := dot_S2000x512_S2000x32_S512x32_0_0_1_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

abbrev win0_0 : Pipeline.Window sig grid0 :=
  Pipeline.Window.ofSpec (Memref.whole main_arg0) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S14x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S10000x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26_0) S10000x32.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26_1) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26_1) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46_0) S10000x32.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v46_1) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v56) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46_1) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v57) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v58) S10000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v58) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66_0) S10000x32.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v66_1) S10000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v76) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v66_1) S10000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v77) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v78) S10000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v78) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v85) S32x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v86_0) S10000x32.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v86_1) S10000x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v96) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v86_1) S10000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v97) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v98) S10000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v98) S2000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v4) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v99) S512x32.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v99) S512x32.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg7) S32x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v100) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg9) S32x2.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v101) S1x2.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v102) S512x2.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S100000x14 : Shape := ⟨2, ![100000, 14]⟩
abbrev S14x32 : Shape := ⟨2, ![14, 32]⟩
abbrev S32 : Shape := ⟨1, ![32]⟩
abbrev S4x32x32 : Shape := ⟨3, ![4, 32, 32]⟩
abbrev S4x32 : Shape := ⟨2, ![4, 32]⟩
abbrev S32x32 : Shape := ⟨2, ![32, 32]⟩
abbrev S32x2 : Shape := ⟨2, ![32, 2]⟩
abbrev S2 : Shape := ⟨1, ![2]⟩
abbrev S2x2500000 : Shape := ⟨2, ![2, 2500000]⟩
abbrev S100000 : Shape := ⟨1, ![100000]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S2500000x14 : Shape := ⟨2, ![2500000, 14]⟩
abbrev S100000x32 : Shape := ⟨2, ![100000, 32]⟩
abbrev S1x32 : Shape := ⟨2, ![1, 32]⟩
abbrev S1x32x32 : Shape := ⟨3, ![1, 32, 32]⟩
abbrev S2500000x32 : Shape := ⟨2, ![2500000, 32]⟩
abbrev S512x32 : Shape := ⟨2, ![512, 32]⟩
abbrev S100000x1 : Shape := ⟨2, ![100000, 1]⟩
abbrev S512x2 : Shape := ⟨2, ![512, 2]⟩
abbrev S1x2 : Shape := ⟨2, ![1, 2]⟩
abbrev S512 : Shape := ⟨1, ![512]⟩
abbrev S512x1 : Shape := ⟨2, ![512, 1]⟩

abbrev nBuf : Space → Nat
  | .hbm => 181
  | .vmem => 0
  | .smem => 0
  | _ => 0

abbrev hbmTy0_0 (i : Nat) : BufTy := match i % 128 with
  | 0 => ⟨S100000x14, .f32⟩
  | 1 => ⟨S14x32, .f32⟩
  | 2 => ⟨S32, .f32⟩
  | 3 => ⟨S14x32, .f32⟩
  | 4 => ⟨S4x32x32, .f32⟩
  | 5 => ⟨S4x32, .f32⟩
  | 6 => ⟨S4x32x32, .f32⟩
  | 7 => ⟨S32x32, .f32⟩
  | 8 => ⟨S32, .f32⟩
  | 9 => ⟨S32x2, .f32⟩
  | 10 => ⟨S2, .f32⟩
  | 11 => ⟨S2x2500000, .i32⟩
  | 12 => ⟨S100000, .i32⟩
  | 13 => ⟨S1x2500000, .i32⟩
  | 14 => ⟨S2500000, .i32⟩
  | 15 => ⟨S1x2500000, .i32⟩
  | 16 => ⟨S2500000, .i32⟩
  | 17 => ⟨S_, .i32⟩
  | 18 => ⟨S2500000, .i32⟩
  | 19 => ⟨S2500000, .i1⟩
  | 20 => ⟨S_, .i32⟩
  | 21 => ⟨S2500000, .i32⟩
  | 22 => ⟨S2500000, .i32⟩
  | 23 => ⟨S2500000, .i32⟩
  | 24 => ⟨S2500000x1, .i32⟩
  | 25 => ⟨S2500000x14, .f32⟩
  | 26 => ⟨S_, .f32⟩
  | 27 => ⟨S100000x14, .f32⟩
  | 28 => ⟨S2500000x1, .i32⟩
  | 29 => ⟨S100000x14, .f32⟩
  | 30 => ⟨S100000x32, .f32⟩
  | 31 => ⟨S1x32, .f32⟩
  | 32 => ⟨S100000x32, .f32⟩
  | 33 => ⟨S100000x32, .f32⟩
  | 34 => ⟨S100000x32, .f32⟩
  | 35 => ⟨S100000x32, .f32⟩
  | 36 => ⟨S_, .f32⟩
  | 37 => ⟨S100000x32, .f32⟩
  | 38 => ⟨S100000x32, .f32⟩
  | 39 => ⟨S1x32x32, .f32⟩
  | 40 => ⟨S32x32, .f32⟩
  | 41 => ⟨S1x32, .f32⟩
  | 42 => ⟨S32, .f32⟩
  | 43 => ⟨S1x32x32, .f32⟩
  | 44 => ⟨S32x32, .f32⟩
  | 45 => ⟨S_, .i32⟩
  | 46 => ⟨S2500000, .i32⟩
  | 47 => ⟨S2500000, .i1⟩
  | 48 => ⟨S_, .i32⟩
  | 49 => ⟨S2500000, .i32⟩
  | 50 => ⟨S2500000, .i32⟩
  | 51 => ⟨S2500000, .i32⟩
  | 52 => ⟨S2500000x1, .i32⟩
  | 53 => ⟨S2500000x32, .f32⟩
  | 54 => ⟨S_, .f32⟩
  | 55 => ⟨S100000x32, .f32⟩
  | 56 => ⟨S2500000x1, .i32⟩
  | 57 => ⟨S100000x32, .f32⟩
  | 58 => ⟨S100000x32, .f32⟩
  | 59 => ⟨S1x32, .f32⟩
  | 60 => ⟨S100000x32, .f32⟩
  | 61 => ⟨S100000x32, .f32⟩
  | 62 => ⟨S100000x32, .f32⟩
  | 63 => ⟨S100000x32, .f32⟩
  | 64 => ⟨S_, .f32⟩
  | 65 => ⟨S100000x32, .f32⟩
  | 66 => ⟨S100000x32, .f32⟩
  | 67 => ⟨S1x32x32, .f32⟩
  | 68 => ⟨S32x32, .f32⟩
  | 69 => ⟨S1x32, .f32⟩
  | 70 => ⟨S32, .f32⟩
  | 71 => ⟨S1x32x32, .f32⟩
  | 72 => ⟨S32x32, .f32⟩
  | 73 => ⟨S_, .i32⟩
  | 74 => ⟨S2500000, .i32⟩
  | 75 => ⟨S2500000, .i1⟩
  | 76 => ⟨S_, .i32⟩
  | 77 => ⟨S2500000, .i32⟩
  | 78 => ⟨S2500000, .i32⟩
  | 79 => ⟨S2500000, .i32⟩
  | 80 => ⟨S2500000x1, .i32⟩
  | 81 => ⟨S2500000x32, .f32⟩
  | 82 => ⟨S_, .f32⟩
  | 83 => ⟨S100000x32, .f32⟩
  | 84 => ⟨S2500000x1, .i32⟩
  | 85 => ⟨S100000x32, .f32⟩
  | 86 => ⟨S100000x32, .f32⟩
  | 87 => ⟨S1x32, .f32⟩
  | 88 => ⟨S100000x32, .f32⟩
  | 89 => ⟨S100000x32, .f32⟩
  | 90 => ⟨S100000x32, .f32⟩
  | 91 => ⟨S100000x32, .f32⟩
  | 92 => ⟨S_, .f32⟩
  | 93 => ⟨S100000x32, .f32⟩
  | 94 => ⟨S100000x32, .f32⟩
  | 95 => ⟨S1x32x32, .f32⟩
  | 96 => ⟨S32x32, .f32⟩
  | 97 => ⟨S1x32, .f32⟩
  | 98 => ⟨S32, .f32⟩
  | 99 => ⟨S1x32x32, .f32⟩
  | 100 => ⟨S32x32, .f32⟩
  | 101 => ⟨S_, .i32⟩
  | 102 => ⟨S2500000, .i32⟩
  | 103 => ⟨S2500000, .i1⟩
  | 104 => ⟨S_, .i32⟩
  | 105 => ⟨S2500000, .i32⟩
  | 106 => ⟨S2500000, .i32⟩
  | 107 => ⟨S2500000, .i32⟩
  | 108 => ⟨S2500000x1, .i32⟩
  | 109 => ⟨S2500000x32, .f32⟩
  | 110 => ⟨S_, .f32⟩
  | 111 => ⟨S100000x32, .f32⟩
  | 112 => ⟨S2500000x1, .i32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S100000x32, .f32⟩
  | 119 => ⟨S100000x32, .f32⟩
  | 120 => ⟨S_, .f32⟩
  | 121 => ⟨S100000x32, .f32⟩
  | 122 => ⟨S100000x32, .f32⟩
  | 123 => ⟨S1x32x32, .f32⟩
  | 124 => ⟨S32x32, .f32⟩
  | 125 => ⟨S1x32, .f32⟩
  | 126 => ⟨S32, .f32⟩
  | 127 => ⟨S1x32x32, .f32⟩
  | _ => ⟨S100000x14, .f32⟩

abbrev hbmTy0_1 (i : Nat) : BufTy := match i % 128 with
  | 0 => ⟨S32x32, .f32⟩
  | 1 => ⟨S_, .i32⟩
  | 2 => ⟨S2500000, .i32⟩
  | 3 => ⟨S2500000, .i1⟩
  | 4 => ⟨S_, .i32⟩
  | 5 => ⟨S2500000, .i32⟩
  | 6 => ⟨S2500000, .i32⟩
  | 7 => ⟨S2500000, .i32⟩
  | 8 => ⟨S2500000x1, .i32⟩
  | 9 => ⟨S2500000x32, .f32⟩
  | 10 => ⟨S_, .f32⟩
  | 11 => ⟨S100000x32, .f32⟩
  | 12 => ⟨S2500000x1, .i32⟩
  | 13 => ⟨S100000x32, .f32⟩
  | 14 => ⟨S100000x32, .f32⟩
  | 15 => ⟨S1x32, .f32⟩
  | 16 => ⟨S100000x32, .f32⟩
  | 17 => ⟨S100000x32, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S_, .f32⟩
  | 24 => ⟨S512x32, .f32⟩
  | 25 => ⟨S100000x1, .i32⟩
  | 26 => ⟨S512x32, .f32⟩
  | 27 => ⟨S512x32, .f32⟩
  | 28 => ⟨S1x32, .f32⟩
  | 29 => ⟨S512x32, .f32⟩
  | 30 => ⟨S512x32, .f32⟩
  | 31 => ⟨S_, .f32⟩
  | 32 => ⟨S512x32, .f32⟩
  | 33 => ⟨S512x32, .f32⟩
  | 34 => ⟨S512x2, .f32⟩
  | 35 => ⟨S1x2, .f32⟩
  | 36 => ⟨S512x2, .f32⟩
  | 37 => ⟨S512x2, .f32⟩
  | 38 => ⟨S_, .f32⟩
  | 39 => ⟨S512, .f32⟩
  | 40 => ⟨S_, .f32⟩
  | 41 => ⟨S512, .f32⟩
  | 42 => ⟨S512, .f32⟩
  | 43 => ⟨S512x1, .f32⟩
  | 44 => ⟨S512x2, .f32⟩
  | 45 => ⟨S512x2, .f32⟩
  | 46 => ⟨S512x2, .f32⟩
  | 47 => ⟨S_, .f32⟩
  | 48 => ⟨S512, .f32⟩
  | 49 => ⟨S512x1, .f32⟩
  | 50 => ⟨S512x1, .f32⟩
  | 51 => ⟨S512x2, .f32⟩
  | 52 => ⟨S512x2, .f32⟩
  | _ => ⟨S100000x14, .f32⟩

abbrev hbmTy (i : Nat) : BufTy := match i / 128 with
  | 0 => hbmTy0_0 i
  | 1 => hbmTy0_1 i
  | _ => ⟨S100000x14, .f32⟩

abbrev bufTy : (tb : Table) → Fin (tcTables nBuf tb) → BufTy
  | .hbm, ⟨i, _⟩ => hbmTy i
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_4 : Ref sig .tc := ⟨.hbm, 73, rfl⟩
abbrev main_v50 : Ref sig .tc := ⟨.hbm, 74, rfl⟩
abbrev main_v51 : Ref sig .tc := ⟨.hbm, 75, rfl⟩
abbrev main_c_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_7 : Ref sig .tc := ⟨.hbm, 101, rfl⟩
abbrev main_v73 : Ref sig .tc := ⟨.hbm, 102, rfl⟩
abbrev main_v74 : Ref sig .tc := ⟨.hbm, 103, rfl⟩
abbrev main_c_8 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_9 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call3_cst : Ref sig .tc := ⟨.hbm, 120, rfl⟩
abbrev main_call3_v0 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_10 : Ref sig .tc := ⟨.hbm, 129, rfl⟩
abbrev main_v96 : Ref sig .tc := ⟨.hbm, 130, rfl⟩
abbrev main_v97 : Ref sig .tc := ⟨.hbm, 131, rfl⟩
abbrev main_c_11 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_12 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call4_cst : Ref sig .tc := ⟨.hbm, 148, rfl⟩
abbrev main_call4_v0 : Ref sig .tc := ⟨.hbm, 149, rfl⟩
abbrev main_v112 : Ref sig .tc := ⟨.hbm, 150, rfl⟩
abbrev main_cst_13 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_call5_cst : Ref sig .tc := ⟨.hbm, 159, rfl⟩
abbrev main_call5_v0 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_call6_cst : Ref sig .tc := ⟨.hbm, 166, rfl⟩
abbrev main_call6_v0 : Ref sig .tc := ⟨.hbm, 167, rfl⟩
abbrev main_call6_cst_0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_v6 : Ref sig .tc := ⟨.hbm, 174, rfl⟩
abbrev main_call6_cst_1 : Ref sig .tc := ⟨.hbm, 175, rfl⟩
abbrev main_call6_v7 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_v125 : Ref sig .tc := ⟨.hbm, 180, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S_S100000x14 : S_.BroadcastsInDim S100000x14 (![] : Fin 0 → Fin S100000x14.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  shapeCasts_S1x32_S32 : S1x32.ShapeCasts S32
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  bcast_S_S512x32 : S_.BroadcastsInDim S512x32 (![] : Fin 0 → Fin S512x32.rank)
  bcast_S100000_S100000x1_0 : S100000.BroadcastsInDim S100000x1 (![0] : Fin 1 → Fin S100000x1.rank)
  bcast_S1x32_S512x32_0_1 : S1x32.BroadcastsInDim S512x32 (![0, 1] : Fin 2 → Fin S512x32.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  reducesTo_S512x2_S512_d1 : S512x2.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  gather_S100000x14_S2500000x1_S2500000x14_1_0_n_n_0_1_114_wf : GatherDims.WF S100000x14 S2500000x1 S2500000x14 [1] [0] [] [0] [] 1 ![1, 14]
  scatter_S100000x14_S2500000x1_S2500000x14_1_0_0_1_wf : ScatterDims.WF S100000x14 S2500000x1 S2500000x14 [1] [0] [0] 1
  dot_S100000x14_S14x32_S100000x32_1_0_0_1_n_n_wf : DotDims.WF S100000x14 S14x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x32_S100000x32_1_0_0_1_n_n_wf : DotDims.WF S100000x32 S32x32 S100000x32 [1] [0] [0] [1] [] []
  scatter_S512x32_S100000x1_S100000x32_1_0_0_1_wf : ScatterDims.WF S512x32 S100000x1 S100000x32 [1] [0] [0] 1
  dot_S512x32_S32x32_S512x32_1_0_0_1_n_n_wf : DotDims.WF S512x32 S32x32 S512x32 [1] [0] [0] [1] [] []
  dot_S512x32_S32x2_S512x2_1_0_0_1_n_n_wf : DotDims.WF S512x32 S32x2 S512x2 [1] [0] [0] [1] [] []

variable [Facts₀]

def gather_S100000x14_S2500000x1_S2500000x14_1_0_n_n_0_1_114 : GatherDims S100000x14 S2500000x1 S2500000x14 where
  offsetDims := [1]
  collapsedSliceDims := [0]
  operandBatchingDims := []
  startIndicesBatchingDims := []
  startIndexMap := [0]
  indexVectorDim := 1
  sliceSizes := ![1, 14]
  wf := gather_S100000x14_S2500000x1_S2500000x14_1_0_n_n_0_1_114_wf
def scatter_S100000x14_S2500000x1_S2500000x14_1_0_0_1 : ScatterDims S100000x14 S2500000x1 S2500000x14 where
  updateWindowDims := [1]
  insertedWindowDims := [0]
  scatterDimsToOperandDims := [0]
  indexVectorDim := 1
  wf := scatter_S100000x14_S2500000x1_S2500000x14_1_0_0_1_wf
def dot_S100000x14_S14x32_S100000x32_1_0_0_1_n_n : DotDims S100000x14 S14x32 S100000x32 where
  lhsContracting := [1]
  rhsContracting := [0]
  lhsNonContracting := [0]
  rhsNonContracting := [1]
  lhsBatch := []
  rhsBatch := []
  wf := dot_S100000x14_S14x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

class Facts : Prop extends Facts₀ where

variable [Facts]
-- ==== Proof.LibEdgeAgg.lean ====
/-
  Whole rows of a table carried along the edges of a graph and summed at their destinations.

  Two array operations make the neighbour sum. The first reads, for every edge `e`, a whole ROW of a table
  `x : [N, C]`: the row whose number is the edge's source word `rows[e, 0]`, read as a SIGNED integer and clamped into
  `[0, N − 1]` (a row lookup always reads some row). The second adds every such row into an accumulator `acc : [N, C]`
  at the row whose number is the edge's destination word `dst[e, 0]`, read as a SIGNED integer and NOT clamped: an
  edge whose destination is not a row number of the accumulator is dropped. Read at one entry `(n, q)` the result is

      acc (n, q) + ∑ over the edges e with dst[e, 0] = n of x (clamp rows[e, 0], q).

  This file proves the two readings for the dimension numbers that say "whole rows": a row lookup
  (offset axis 1, collapsed axis 0, start index on axis 0, slices of one row) and a row accumulation
  (window axis 1, inserted axis 0, scattered to axis 0), both with the index vector along the last axis of an
  index array `[P, 1]`.
-/
import Idealize.ShloMosaic.PureOps
import Idealize.ShloMosaic.PureOps.Ideal
import Idealize.ShloMosaic.Lib.ValueIdx

noncomputable section

namespace EdgeAgg

open Idealize.ShloMosaic Idealize.ShloMosaic.ValueIdx
open scoped BigOperators

variable {α : Type}

/-! ## The row lookup -/

/-- The dimension numbers of a lookup of whole rows of a table `[N, C]` at a column `[P, 1]` of row numbers. -/
abbrev lookupDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The row a word names in a table of `N` rows: its signed value clamped into `[0, N − 1]`. -/
def clampTo (N : Nat) (hN : 0 < N) {w : Nat} (v : BitVec w) : Fin N := ⟨min v.toInt.toNat (N - 1), by omega⟩

/-- The lookup read at `(e, q)`: the table at the row the word `rows[e, 0]` names, column `q`. -/
theorem lookup_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (rows : IVec ⟨2, ![P, 1]⟩ w) (e : Fin P) (q : Fin C) :
    Host.gather (lookupDims N C P wf) x rows (ix2 e q) = x (ix2 (clampTo N hN (rows (ix2 e (0 : Fin 1)))) q) := by
  unfold Host.gather
  congr 1
  funext a
  refine Fin.ext ?_
  match a with
  | ⟨0, _⟩ =>
    show (lookupDims N C P wf).start (ix2 e q) rows 0 + (lookupDims N C P wf).batchCoord (ix2 e q) 0
      + (lookupDims N C P wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (lookupDims N C P wf).startIndexMap from List.mem_singleton.mpr rfl)]
    have hsi : (lookupDims N C P wf).siIdx (ix2 e q) ⟨List.idxOf (0 : Fin 2) (lookupDims N C P wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (lookupDims N C P wf).start (ix2 e q) rows 1 + (lookupDims N C P wf).batchCoord (ix2 e q) 1
      + (lookupDims N C P wf).offCoord (ix2 e q) 1 = q.val
    rw [GatherDims.batchCoord_eq_zero _ _ _ List.not_mem_nil]
    unfold GatherDims.start
    rw [dif_neg (show ¬ (1 : Fin 2) ∈ (lookupDims N C P wf).startIndexMap from
      (show ¬ (1 : Fin 2) ∈ ([0] : List (Fin 2)) by decide))]
    unfold GatherDims.offCoord
    rw [dif_pos (show (1 : Fin 2) ∈ (lookupDims N C P wf).sKept from
      (GatherDims.mem_sKept _ _).mpr ⟨(show ¬ (1 : Fin 2) ∈ ([0] : List (Fin 2)) by decide), List.not_mem_nil⟩)]
    simp only [Nat.zero_add, Nat.add_zero]
    rfl

/-! ## The row accumulation -/

/-- An update lands on entry `i` exactly when, on every axis, its window's start plus its window coordinate is
    `i`'s coordinate (whatever the dimension numbers). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have ha := h a
      rw [← e']
      exact (Int.toNat_of_nonneg ha.1).symm
    · intro e
      congr 1
      funext a
      refine Fin.ext ?_
      show (d.start j idx a + (d.window j a : Int)).toNat = (i a).val
      rw [e a]
      exact Int.toNat_natCast _
  · rename_i h
    constructor
    · intro e; cases e
    · intro e
      exfalso
      refine h fun a => ?_
      rw [e a]
      exact ⟨Int.natCast_nonneg _, by exact_mod_cast (i a).isLt⟩

/-- The dimension numbers of an accumulation of whole rows `[P, C]` into `[N, C]` at a column `[P, 1]` of row
    numbers. -/
abbrev accumDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section Accum

variable {N C P w : Nat} (wf : ScatterDims.WF ⟨2, ![N, C]⟩ ⟨2, ![P, 1]⟩ ⟨2, ![P, C]⟩ [1] [0] [0] 1)
  (dst : IVec ⟨2, ![P, 1]⟩ w)

/-- On the row axis the window of update `(e, c)` starts at the signed value of the destination word `dst[e, 0]`. -/
theorem accum_start_row (e : Fin P) (c : Fin C) :
    (accumDims N C P wf).start (ix2 e c) dst 0 = (dst (ix2 e (0 : Fin 1))).toInt := by
  unfold ScatterDims.start
  rw [dif_pos (show (0 : Fin 2) ∈ (accumDims N C P wf).scatterDimsToOperandDims from List.mem_singleton.mpr rfl)]
  congr 2
  funext b; refine Fin.ext ?_
  match b with
  | ⟨0, _⟩ => rfl
  | ⟨1, _⟩ => rfl

/-- On the column axis the window starts at zero. -/
theorem accum_start_col (e : Fin P) (c : Fin C) : (accumDims N C P wf).start (ix2 e c) dst 1 = 0 := by
  unfold ScatterDims.start
  rw [dif_neg (show ¬ (1 : Fin 2) ∈ (accumDims N C P wf).scatterDimsToOperandDims from
    (show ¬ (1 : Fin 2) ∈ ([0] : List (Fin 2)) by decide))]

/-- The row axis is inserted: no window coordinate. -/
theorem accum_window_row (e : Fin P) (c : Fin C) : (accumDims N C P wf).window (ix2 e c) 0 = 0 := by
  unfold ScatterDims.window
  rw [dif_neg (show ¬ (0 : Fin 2) ∈ (accumDims N C P wf).sKept from by simp [ScatterDims.sKept, Shape.kept])]

/-- The column axis is the window: its coordinate is the update's column. -/
theorem accum_window_col (e : Fin P) (c : Fin C) : (accumDims N C P wf).window (ix2 e c) 1 = c.val := by
  unfold ScatterDims.window
  rw [dif_pos (show (1 : Fin 2) ∈ (accumDims N C P wf).sKept from by simp [ScatterDims.sKept, Shape.kept])]
  rfl

/-- Update `(e, c)` lands on entry `(n, q)` exactly when the destination word of `e` is `n` and `c = q`. -/
theorem accum_lands_iff (e : Fin P) (c : Fin C) (n : Fin N) (q : Fin C) :
    (accumDims N C P wf).resultIdx? (ix2 e c) dst = some (ix2 n q)
      ↔ (dst (ix2 e (0 : Fin 1))).toInt = (n.val : Int) ∧ c = q := by
  rw [resultIdx?_eq_some_iff]
  constructor
  · intro h
    have h0 : (accumDims N C P wf).start (ix2 e c) dst 0 + ((accumDims N C P wf).window (ix2 e c) 0 : Int)
        = (n.val : Int) := h 0
    have h1 : (accumDims N C P wf).start (ix2 e c) dst 1 + ((accumDims N C P wf).window (ix2 e c) 1 : Int)
        = (q.val : Int) := h 1
    rw [accum_start_row, accum_window_row] at h0
    rw [accum_start_col, accum_window_col] at h1
    refine ⟨by simpa using h0, Fin.ext ?_⟩
    omega
  · rintro ⟨h0, rfl⟩ a
    match a with
    | ⟨0, _⟩ =>
      show (accumDims N C P wf).start (ix2 e c) dst 0 + ((accumDims N C P wf).window (ix2 e c) 0 : Int) = (n.val : Int)
      rw [accum_start_row, accum_window_row, h0]; simp
    | ⟨1, _⟩ =>
      show (accumDims N C P wf).start (ix2 e c) dst 1 + ((accumDims N C P wf).window (ix2 e c) 1 : Int) = (c.val : Int)
      rw [accum_start_col, accum_window_col]; simp

/-- The accumulation read at `(n, q)`: the accumulator's entry plus column `q` of every row whose destination word
    is `n`. -/
theorem accum_apply (acc : (⟨2, ![N, C]⟩ : Shape).Idx → EReal) (upd : (⟨2, ![P, C]⟩ : Shape).Idx → EReal)
    (n : Fin N) (q : Fin C) :
    Ideal.hostScatterAdd (accumDims N C P wf) acc dst upd (ix2 n q)
      = acc (ix2 n q) + ∑ e ∈ Finset.univ.filter (fun e : Fin P => (dst (ix2 e (0 : Fin 1))).toInt = (n.val : Int)),
          upd (ix2 e q) := by
  unfold Ideal.hostScatterAdd
  congr 1
  rw [Finset.sum_filter, sum_idx2, Finset.sum_filter]
  refine Finset.sum_congr rfl fun e _ => ?_
  by_cases he : (dst (ix2 e (0 : Fin 1))).toInt = (n.val : Int)
  · rw [if_pos he]
    rw [Finset.sum_eq_single q]
    · rw [if_pos ((accum_lands_iff wf dst e q n q).mpr ⟨he, rfl⟩)]
    · intro c _ hc
      rw [if_neg (fun h => hc ((accum_lands_iff wf dst e c n q).mp h).2)]
    · intro h; exact absurd (Finset.mem_univ q) h
  · rw [if_neg he]
    refine Finset.sum_eq_zero fun c _ => ?_
    rw [if_neg (fun h => he ((accum_lands_iff wf dst e c n q).mp h).1)]

end Accum

end EdgeAgg

end
-- ==== Proof.Spec.lean ====
/-
  The message-passing network as plain functions of its arrays.

  A node table `h : [N, K]` is carried along the edges of a graph and summed at the edges' destinations
  (`nbr`: row `n` of the result is the sum of the rows `h (r e)` over the edges `e` in `D n`), multiplied by a
  weight table, shifted by a bias, joined with the node's own projection and clipped below at zero. The same layer
  can be written with the product taken BEFORE the neighbour sum (`kLayer`: every node's row is projected once, then
  the projected rows travel) or AFTER it (`rLayer`: the rows travel, then the sum is projected). Five such layers,
  a sum of the node rows per graph (`kPool` with a zero-one weight per node and graph, `rPool` as a sum over the
  graph's nodes) and a two-layer head with a row-wise log-softmax make the network (`kNet`, `rNet`).
-/
import Idealize.ShloMosaic.PureOps
import Idealize.ShloMosaic.PureOps.Ideal
import Idealize.ShloMosaic.Lib.ValueIdx
import proofs.«401169_j5540507812347_2_alg».proof.Proof.LibEdgeAgg

noncomputable section

namespace Gnn

open Idealize.ShloMosaic Idealize.ShloMosaic.ValueIdx
open scoped BigOperators

/-- A two-axis array of extended reals, by its index. -/
abbrev Tbl (a b : Nat) : Type := (⟨2, ![a, b]⟩ : Shape).Idx → EReal
/-- The same array by its two coordinates. -/
abbrev Mat (a b : Nat) : Type := Fin a → Fin b → EReal

/-- An array from its entries by coordinates. -/
def tbl {a b : Nat} (f : Mat a b) : Tbl a b := fun i => f (i 0) (i 1)
/-- An array's entries by coordinates. -/
def cur {a b : Nat} (t : Tbl a b) : Mat a b := fun p q => t (ix2 p q)

theorem tbl_apply {a b : Nat} (f : Mat a b) (p : Fin a) (q : Fin b) : tbl f (ix2 p q) = f p q := rfl
theorem cur_apply {a b : Nat} (t : Tbl a b) (p : Fin a) (q : Fin b) : cur t p q = t (ix2 p q) := rfl
theorem cur_tbl {a b : Nat} (f : Mat a b) : cur (tbl f) = f := rfl
theorem tbl_cur {a b : Nat} (t : Tbl a b) : tbl (cur t) = t := funext fun i => congrArg t (eq_ix2 i).symm

/-- Every entry is a real number (neither infinity). -/
def IsReal {a b : Nat} (f : Mat a b) : Prop := ∀ p q, f p q ≠ ⊤ ∧ f p q ≠ ⊥
/-- The same for a vector. -/
def IsRealV {a : Nat} (f : Fin a → EReal) : Prop := ∀ p, f p ≠ ⊤ ∧ f p ≠ ⊥

/-- Two weight tables side by side: columns `0 … 31` the first, `32 … 63` the second. -/
def cat {K : Nat} (wl wr : Mat K 32) : Mat K 64 :=
  fun k j => if h : j.val < 32 then wl k ⟨j.val, h⟩ else wr k ⟨j.val - 32, by have := j.isLt; omega⟩
/-- The left half of a 64-column table. -/
def lo {K : Nat} (w : Mat K 64) : Mat K 32 := fun k j => w k ⟨j.val, by have := j.isLt; omega⟩
/-- The right half of a 64-column table. -/
def hi {K : Nat} (w : Mat K 64) : Mat K 32 := fun k j => w k ⟨32 + j.val, by have := j.isLt; omega⟩

/-- The product of a table with a weight table. -/
def mm {N K J : Nat} (x : Mat N K) (w : Mat K J) : Mat N J := fun n j => ∑ k : Fin K, x n k * w k j

/-- The neighbour sum: row `n` is the sum of the rows `x (r e)` over the edges `e ∈ D n`. -/
def nbr {N P C : Nat} (x : Mat N C) (r : Fin P → Fin N) (D : Fin N → Finset (Fin P)) : Mat N C :=
  fun n q => ∑ e ∈ D n, x (r e) q

/-- A layer with the projection taken before the neighbour sum. -/
def kLayer {N P K : Nat} (h : Mat N K) (wr wroot : Mat K 32) (b : Fin 32 → EReal)
    (r : Fin P → Fin N) (D : Fin N → Finset (Fin P)) : Mat N 32 :=
  fun n j => max (nbr (mm h wr) r D n j + mm h wroot n j + b j) 0

/-- A layer with the projection taken after the neighbour sum. -/
def rLayer {N P K : Nat} (h : Mat N K) (wr wroot : Mat K 32) (b : Fin 32 → EReal)
    (r : Fin P → Fin N) (D : Fin N → Finset (Fin P)) : Mat N 32 :=
  fun n j => max (mm (nbr h r D) wr n j + b j + mm h wroot n j) 0

/-- The per-graph sum of node rows with a zero-one weight: node `n` counts for graph `g` when its word is `g`. -/
def kPool {N : Nat} (h : Mat N 32) (bw : Fin N → BitVec 32) : Mat 512 32 :=
  fun g j => ∑ n : Fin N, (if bw n = BitVec.ofNat 32 g.val then (1 : EReal) else 0) * h n j

/-- The per-graph sum of node rows as a sum over the graph's nodes (signed reading of the word). -/
def rPool {N : Nat} (h : Mat N 32) (bw : Fin N → BitVec 32) : Mat 512 32 :=
  fun g j => ∑ n ∈ Finset.univ.filter (fun n : Fin N => (bw n).toInt = (g.val : Int)), h n j

/-- The head: a clipped affine layer, an affine layer to two logits, and the row-wise log-softmax
    `z − log (∑ exp z)` of the logits shifted by their row maximum. -/
def head (g : Mat 512 32) (w1 : Mat 32 32) (b1 : Fin 32 → EReal) (w2 : Mat 32 2) (b2 : Fin 2 → EReal) : Mat 512 2 :=
  fun r j =>
    let lg : Fin 2 → EReal := fun q => mm (fun r' j' => max (mm g w1 r' j' + b1 j') 0) w2 r q + b2 q
    let z : Fin 2 → EReal := fun q => lg q - max (lg 0) (lg 1)
    z j - Ideal.log (∑ q : Fin 2, Ideal.exp (z q))

/-- The network with every layer's projection before its neighbour sum. -/
def kNet {N P : Nat} (x : Mat N 14) (wr1 wroot1 : Mat 14 32) (b1 : Fin 32 → EReal)
    (wr wroot : Fin 4 → Mat 32 32) (b : Fin 4 → Fin 32 → EReal)
    (l1w : Mat 32 32) (l1b : Fin 32 → EReal) (l2w : Mat 32 2) (l2b : Fin 2 → EReal)
    (r : Fin P → Fin N) (D : Fin N → Finset (Fin P)) (bw : Fin N → BitVec 32) : Mat 512 2 :=
  head (kPool (kLayer (kLayer (kLayer (kLayer (kLayer x wr1 wroot1 b1 r D) (wr 0) (wroot 0) (b 0) r D)
    (wr 1) (wroot 1) (b 1) r D) (wr 2) (wroot 2) (b 2) r D) (wr 3) (wroot 3) (b 3) r D) bw) l1w l1b l2w l2b

/-- The network with every layer's projection after its neighbour sum. -/
def rNet {N P : Nat} (x : Mat N 14) (wr1 wroot1 : Mat 14 32) (b1 : Fin 32 → EReal)
    (wr wroot : Fin 4 → Mat 32 32) (b : Fin 4 → Fin 32 → EReal)
    (l1w : Mat 32 32) (l1b : Fin 32 → EReal) (l2w : Mat 32 2) (l2b : Fin 2 → EReal)
    (r : Fin P → Fin N) (D : Fin N → Finset (Fin P)) (bw : Fin N → BitVec 32) : Mat 512 2 :=
  head (rPool (rLayer (rLayer (rLayer (rLayer (rLayer x wr1 wroot1 b1 r D) (wr 0) (wroot 0) (b 0) r D)
    (wr 1) (wroot 1) (b 1) r D) (wr 2) (wroot 2) (b 2) r D) (wr 3) (wroot 3) (b 3) r D) bw) l1w l1b l2w l2b

/-! ## The network's inputs, read off the argument arrays -/

/-- A vector's entries by coordinate. -/
def vec {a : Nat} (t : (⟨1, ![a]⟩ : Shape).Idx → EReal) : Fin a → EReal := fun p => t (ix1 p)
/-- Slab `i` of a stack of tables. -/
def slab {a b d : Nat} (t : (⟨3, ![a, b, d]⟩ : Shape).Idx → EReal) (i : Fin a) : Mat b d := fun p q => t (ix3 i p q)
/-- Row `i` of a table. -/
def rowOf {a b : Nat} (t : Tbl a b) (i : Fin a) : Fin b → EReal := fun q => t (ix2 i q)

/-- A source word as a row number counts from the end when negative: `w + 100000` if `w < 0` (signed). -/
def normWord (w : BitVec 32) : BitVec 32 :=
  Scalar.select (IntOp.cmpi .slt w 0#32) (IntOp.addi w 100000#32) w

/-- The node an edge reads: its normalised source word clamped into the table's rows. -/
def srcRow {P : Nat} (ei : IVec ⟨2, ![2, P]⟩ 32) : Fin P → Fin 100000 :=
  fun e => EdgeAgg.clampTo 100000 (by decide) (normWord (ei (ix2 (0 : Fin 2) e)))

/-- The edges that land on node `n`: those whose destination word, read signed, is `n`. -/
def inEdges {P : Nat} (ei : IVec ⟨2, ![2, P]⟩ 32) : Fin 100000 → Finset (Fin P) :=
  fun n => Finset.univ.filter fun e : Fin P => (ei (ix2 (1 : Fin 2) e)).toInt = (n.val : Int)

/-- A node's graph word. -/
def graphWord {N : Nat} (bt : IVec ⟨1, ![N]⟩ 32) : Fin N → BitVec 32 := fun n => bt (ix1 n)

/-- The output as the kernel's program computes it, from the thirteen argument arrays. -/
def kOut (a0 : Tbl 100000 14) (a1 : Tbl 14 32) (a2 : (⟨1, ![32]⟩ : Shape).Idx → EReal) (a3 : Tbl 14 32)
    (a4 : (⟨3, ![4, 32, 32]⟩ : Shape).Idx → EReal) (a5 : Tbl 4 32) (a6 : (⟨3, ![4, 32, 32]⟩ : Shape).Idx → EReal)
    (a7 : Tbl 32 32) (a8 : (⟨1, ![32]⟩ : Shape).Idx → EReal) (a9 : Tbl 32 2) (a10 : (⟨1, ![2]⟩ : Shape).Idx → EReal)
    (a11 : IVec ⟨2, ![2, 2500000]⟩ 32) (a12 : IVec ⟨1, ![100000]⟩ 32) : Tbl 512 2 :=
  tbl (kNet (cur a0) (cur a1) (cur a3) (vec a2) (slab a4) (slab a6) (rowOf a5) (cur a7) (vec a8) (cur a9) (vec a10)
    (srcRow a11) (inEdges a11) (graphWord a12))

/-- The output as the reference computes it, from the same arrays. -/
def rOut (a0 : Tbl 100000 14) (a1 : Tbl 14 32) (a2 : (⟨1, ![32]⟩ : Shape).Idx → EReal) (a3 : Tbl 14 32)
    (a4 : (⟨3, ![4, 32, 32]⟩ : Shape).Idx → EReal) (a5 : Tbl 4 32) (a6 : (⟨3, ![4, 32, 32]⟩ : Shape).Idx → EReal)
    (a7 : Tbl 32 32) (a8 : (⟨1, ![32]⟩ : Shape).Idx → EReal) (a9 : Tbl 32 2) (a10 : (⟨1, ![2]⟩ : Shape).Idx → EReal)
    (a11 : IVec ⟨2, ![2, 2500000]⟩ 32) (a12 : IVec ⟨1, ![100000]⟩ 32) : Tbl 512 2 :=
  tbl (rNet (cur a0) (cur a1) (cur a3) (vec a2) (slab a4) (slab a6) (rowOf a5) (cur a7) (vec a8) (cur a9) (vec a10)
    (srcRow a11) (inEdges a11) (graphWord a12))

/-- Every entry of an array is a real number. -/
def Fin_ {s : Shape} (a : s.Idx → EReal) : Prop := ∀ i, a i ≠ ⊤ ∧ a i ≠ ⊥

end Gnn

end
-- ==== Proof.Keep.lean ====
/-
  What the segments leave alone. An argument array, and the three index arrays made before the first region (the source
  words, the destination words, the graph words as a column), are written by no later host operation and are no output
  of any region, so at every later boundary they hold what they held when made.
-/
import proofs.«401169_j5540507812347_2_alg».proof.Proof.Gen.KernelIdeal.Frame
import proofs.«401169_j5540507812347_2_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable {F : FTy → Type} [FloatOps F]
variable (m : (ℓ : Loc nD τ sig) → Buf (Elt F) ℓ) (ρ : Dev nD → PrngReg)

/-! ## What a host stretch writes

A host operation writes its one result reference. Listing a stretch's result references once, a reference outside the
list holds after the stretch what it held before it. -/

/-- The one buffer of a reference lies among the buffers of a list that holds the reference. -/
theorem one_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A result reference is in its stretch's list. -/
local macro "hit" : term => `(one_sub (by decide))

/-- The results of the stretch before region 0: the two rows of the edge array sliced and flattened, the graph words
    as a column, the first layer's two weight tables side by side. -/
def hw0 : List (Ref sig .tc) := [main_v0, main_v1, main_v2, main_v3, main_v4, main_v5]
/-- The results of the stretch before region 1: the normalised source words, the gathered rows, their sum at the
    destinations, the bias as a row. -/
def hw1 : List (Ref sig .tc) :=
  [main_c, main_v7, main_v8, main_c_0, main_v9, main_v10, main_v11, main_v12, main_v13, main_cst, main_v14, main_v15,
    main_v16, main_v17]
/-- The results of the stretch before region 2: slab 0 of the two weight stacks side by side, row 0 of the bias table. -/
def hw2 : List (Ref sig .tc) := [main_v19, main_v20, main_v21, main_v22, main_v23, main_v24, main_v25]
/-- The results of the stretch before region 3 (as before region 1). -/
def hw3 : List (Ref sig .tc) :=
  [main_c_1, main_v27, main_v28, main_c_2, main_v29, main_v30, main_v31, main_v32, main_v33, main_cst_3, main_v34,
    main_v35, main_v36, main_v37]
/-- The results of the stretch before region 4 (slab 1, row 1). -/
def hw4 : List (Ref sig .tc) := [main_v39, main_v40, main_v41, main_v42, main_v43, main_v44, main_v45]
/-- The results of the stretch before region 5 (as before region 1). -/
def hw5 : List (Ref sig .tc) :=
  [main_c_4, main_v47, main_v48, main_c_5, main_v49, main_v50, main_v51, main_v52, main_v53, main_cst_6, main_v54,
    main_v55, main_v56, main_v57]
/-- The results of the stretch before region 6 (slab 2, row 2). -/
def hw6 : List (Ref sig .tc) := [main_v59, main_v60, main_v61, main_v62, main_v63, main_v64, main_v65]
/-- The results of the stretch before region 7 (as before region 1). -/
def hw7 : List (Ref sig .tc) :=
  [main_c_7, main_v67, main_v68, main_c_8, main_v69, main_v70, main_v71, main_v72, main_v73, main_cst_9, main_v74,
    main_v75, main_v76, main_v77]
/-- The results of the stretch before region 8 (slab 3, row 3). -/
def hw8 : List (Ref sig .tc) := [main_v79, main_v80, main_v81, main_v82, main_v83, main_v84, main_v85]
/-- The results of the stretch before region 9 (as before region 1). -/
def hw9 : List (Ref sig .tc) :=
  [main_c_10, main_v87, main_v88, main_c_11, main_v89, main_v90, main_v91, main_v92, main_v93, main_cst_12, main_v94,
    main_v95, main_v96, main_v97]
/-- The results of the stretch before region 11: the head's two biases as rows. -/
def hw11 : List (Ref sig .tc) := [main_v100, main_v101]

theorem hw0_sub : (hostOps0 : List (HloOp τ sig (Elt F))).Forall fun op =>
    op.writes ⊆ (hw0.map (Proc.devRef (τ := τ) .tc)).toFinset :=
  ⟨hit, hit, hit, hit, hit, hit⟩
theorem hw1_sub : (hostOps1 : List (HloOp τ sig (Elt F))).Forall fun op =>
    op.writes ⊆ (hw1.map (Proc.devRef (τ := τ) .tc)).toFinset :=
  ⟨hit, hit, hit, hit, hit, hit, hit, hit, hit, hit, hit, hit, hit, hit⟩
theorem hw2_sub : (hostOps2 : List (HloOp τ sig (Elt F))).Forall fun op =>
    op.writes ⊆ (hw2.map (Proc.devRef (τ := τ) .tc)).toFinset :=
  ⟨hit, hit, hit, hit, hit, hit, hit⟩
theorem hw3_sub : (hostOps3 : List (HloOp τ sig (Elt F))).Forall fun op =>
    op.writes ⊆ (hw3.map (Proc.devRef (τ := τ) .tc)).toFinset :=
  ⟨hit, hit, hit, hit, hit, hit, hit, hit, hit, hit, hit, hit, hit, hit⟩
theorem hw4_sub : (hostOps4 : List (HloOp τ sig (Elt F))).Forall fun op =>
    op.writes ⊆ (hw4.map (Proc.devRef (τ := τ) .tc)).toFinset :=
  ⟨hit, hit, hit, hit, hit, hit, hit⟩
theorem hw5_sub : (hostOps5 : List (HloOp τ sig (Elt F))).Forall fun op =>
    op.writes ⊆ (hw5.map (Proc.devRef (τ := τ) .tc)).toFinset :=
  ⟨hit, hit, hit, hit, hit, hit, hit, hit, hit, hit, hit, hit, hit, hit⟩
theorem hw6_sub : (hostOps6 : List (HloOp τ sig (Elt F))).Forall fun op =>
    op.writes ⊆ (hw6.map (Proc.devRef (τ := τ) .tc)).toFinset :=
  ⟨hit, hit, hit, hit, hit, hit, hit⟩
theorem hw7_sub : (hostOps7 : List (HloOp τ sig (Elt F))).Forall fun op =>
    op.writes ⊆ (hw7.map (Proc.devRef (τ := τ) .tc)).toFinset :=
  ⟨hit, hit, hit, hit, hit, hit, hit, hit, hit, hit, hit, hit, hit, hit⟩
theorem hw8_sub : (hostOps8 : List (HloOp τ sig (Elt F))).Forall fun op =>
    op.writes ⊆ (hw8.map (Proc.devRef (τ := τ) .tc)).toFinset :=
  ⟨hit, hit, hit, hit, hit, hit, hit⟩
theorem hw9_sub : (hostOps9 : List (HloOp τ sig (Elt F))).Forall fun op =>
    op.writes ⊆ (hw9.map (Proc.devRef (τ := τ) .tc)).toFinset :=
  ⟨hit, hit, hit, hit, hit, hit, hit, hit, hit, hit, hit, hit, hit, hit⟩
theorem hw11_sub : (hostOps11 : List (HloOp τ sig (Elt F))).Forall fun op =>
    op.writes ⊆ (hw11.map (Proc.devRef (τ := τ) .tc)).toFinset :=
  ⟨hit, hit⟩

/-! ## What a region writes

A region rewrites its own arrays only. -/

/-- The reference is none of region 0's arrays; likewise below. -/
abbrev off0 (b : Ref sig .tc) : Prop := ∀ w, Pipeline.arrRef spec0 w ≠ b
abbrev off1 (b : Ref sig .tc) : Prop := ∀ w, Pipeline.arrRef spec1 w ≠ b
abbrev off2 (b : Ref sig .tc) : Prop := ∀ w, Pipeline.arrRef spec2 w ≠ b
abbrev off3 (b : Ref sig .tc) : Prop := ∀ w, Pipeline.arrRef spec3 w ≠ b
abbrev off4 (b : Ref sig .tc) : Prop := ∀ w, Pipeline.arrRef spec4 w ≠ b
abbrev off5 (b : Ref sig .tc) : Prop := ∀ w, Pipeline.arrRef spec5 w ≠ b
abbrev off6 (b : Ref sig .tc) : Prop := ∀ w, Pipeline.arrRef spec6 w ≠ b
abbrev off7 (b : Ref sig .tc) : Prop := ∀ w, Pipeline.arrRef spec7 w ≠ b
abbrev off8 (b : Ref sig .tc) : Prop := ∀ w, Pipeline.arrRef spec8 w ≠ b
abbrev off9 (b : Ref sig .tc) : Prop := ∀ w, Pipeline.arrRef spec9 w ≠ b
abbrev off10 (b : Ref sig .tc) : Prop := ∀ w, Pipeline.arrRef spec10 w ≠ b

/-! ## From the first region's entry to a later boundary

`K n b`: the reference `b` is written by no segment between boundary 1 (the first region's entry) and boundary `n`.
Each is a finite question about references, and under it boundary `n` holds at `b` what boundary 1 held. -/

abbrev K2 (b : Ref sig .tc) : Prop := off0 b
abbrev K3 (b : Ref sig .tc) : Prop := K2 b ∧ b ∉ hw1
abbrev K4 (b : Ref sig .tc) : Prop := K3 b ∧ off1 b
abbrev K5 (b : Ref sig .tc) : Prop := K4 b ∧ b ∉ hw2
abbrev K6 (b : Ref sig .tc) : Prop := K5 b ∧ off2 b
abbrev K7 (b : Ref sig .tc) : Prop := K6 b ∧ b ∉ hw3
abbrev K8 (b : Ref sig .tc) : Prop := K7 b ∧ off3 b
abbrev K9 (b : Ref sig .tc) : Prop := K8 b ∧ b ∉ hw4
abbrev K10 (b : Ref sig .tc) : Prop := K9 b ∧ off4 b
abbrev K11 (b : Ref sig .tc) : Prop := K10 b ∧ b ∉ hw5
abbrev K12 (b : Ref sig .tc) : Prop := K11 b ∧ off5 b
abbrev K13 (b : Ref sig .tc) : Prop := K12 b ∧ b ∉ hw6
abbrev K14 (b : Ref sig .tc) : Prop := K13 b ∧ off6 b
abbrev K15 (b : Ref sig .tc) : Prop := K14 b ∧ b ∉ hw7
abbrev K16 (b : Ref sig .tc) : Prop := K15 b ∧ off7 b
abbrev K17 (b : Ref sig .tc) : Prop := K16 b ∧ b ∉ hw8
abbrev K18 (b : Ref sig .tc) : Prop := K17 b ∧ off8 b
abbrev K19 (b : Ref sig .tc) : Prop := K18 b ∧ b ∉ hw9
abbrev K20 (b : Ref sig .tc) : Prop := K19 b ∧ off9 b
abbrev K21 (b : Ref sig .tc) : Prop := K20 b ∧ off10 b
abbrev K22 (b : Ref sig .tc) : Prop := K21 b ∧ b ∉ hw11

section Chain
variable (c : Dev nD) (b : Ref sig .tc)

/-- A reference the first stretch does not write holds at the first region's entry what the launch gave it. -/
theorem atLaunch (h : b ∉ hw0) : W1 m ρ c (Proc.devRef .tc b) = m ((c : Thread nD τ).loc b) :=
  StableHlo.after_of_writes_sub hostOps0 (W0 m ρ c) hw0_sub h

theorem keep2 (h : K2 b) : W2 m ρ c (Proc.devRef .tc b) = W1 m ρ c (Proc.devRef .tc b) :=
  W2_of_ne m ρ c b h
theorem keep3 (h : K3 b) : W3 m ρ c (Proc.devRef .tc b) = W1 m ρ c (Proc.devRef .tc b) :=
  (StableHlo.after_of_writes_sub hostOps1 (W2 m ρ c) hw1_sub h.2).trans (keep2 m ρ c b h.1)
theorem keep4 (h : K4 b) : W4 m ρ c (Proc.devRef .tc b) = W1 m ρ c (Proc.devRef .tc b) :=
  (W4_of_ne m ρ c b h.2).trans (keep3 m ρ c b h.1)
theorem keep5 (h : K5 b) : W5 m ρ c (Proc.devRef .tc b) = W1 m ρ c (Proc.devRef .tc b) :=
  (StableHlo.after_of_writes_sub hostOps2 (W4 m ρ c) hw2_sub h.2).trans (keep4 m ρ c b h.1)
theorem keep6 (h : K6 b) : W6 m ρ c (Proc.devRef .tc b) = W1 m ρ c (Proc.devRef .tc b) :=
  (W6_of_ne m ρ c b h.2).trans (keep5 m ρ c b h.1)
theorem keep7 (h : K7 b) : W7 m ρ c (Proc.devRef .tc b) = W1 m ρ c (Proc.devRef .tc b) :=
  (StableHlo.after_of_writes_sub hostOps3 (W6 m ρ c) hw3_sub h.2).trans (keep6 m ρ c b h.1)
theorem keep8 (h : K8 b) : W8 m ρ c (Proc.devRef .tc b) = W1 m ρ c (Proc.devRef .tc b) :=
  (W8_of_ne m ρ c b h.2).trans (keep7 m ρ c b h.1)
theorem keep9 (h : K9 b) : W9 m ρ c (Proc.devRef .tc b) = W1 m ρ c (Proc.devRef .tc b) :=
  (StableHlo.after_of_writes_sub hostOps4 (W8 m ρ c) hw4_sub h.2).trans (keep8 m ρ c b h.1)
theorem keep10 (h : K10 b) : W10 m ρ c (Proc.devRef .tc b) = W1 m ρ c (Proc.devRef .tc b) :=
  (W10_of_ne m ρ c b h.2).trans (keep9 m ρ c b h.1)
theorem keep11 (h : K11 b) : W11 m ρ c (Proc.devRef .tc b) = W1 m ρ c (Proc.devRef .tc b) :=
  (StableHlo.after_of_writes_sub hostOps5 (W10 m ρ c) hw5_sub h.2).trans (keep10 m ρ c b h.1)
theorem keep12 (h : K12 b) : W12 m ρ c (Proc.devRef .tc b) = W1 m ρ c (Proc.devRef .tc b) :=
  (W12_of_ne m ρ c b h.2).trans (keep11 m ρ c b h.1)
theorem keep13 (h : K13 b) : W13 m ρ c (Proc.devRef .tc b) = W1 m ρ c (Proc.devRef .tc b) :=
  (StableHlo.after_of_writes_sub hostOps6 (W12 m ρ c) hw6_sub h.2).trans (keep12 m ρ c b h.1)
theorem keep14 (h : K14 b) : W14 m ρ c (Proc.devRef .tc b) = W1 m ρ c (Proc.devRef .tc b) :=
  (W14_of_ne m ρ c b h.2).trans (keep13 m ρ c b h.1)
theorem keep15 (h : K15 b) : W15 m ρ c (Proc.devRef .tc b) = W1 m ρ c (Proc.devRef .tc b) :=
  (StableHlo.after_of_writes_sub hostOps7 (W14 m ρ c) hw7_sub h.2).trans (keep14 m ρ c b h.1)
theorem keep16 (h : K16 b) : W16 m ρ c (Proc.devRef .tc b) = W1 m ρ c (Proc.devRef .tc b) :=
  (W16_of_ne m ρ c b h.2).trans (keep15 m ρ c b h.1)
theorem keep17 (h : K17 b) : W17 m ρ c (Proc.devRef .tc b) = W1 m ρ c (Proc.devRef .tc b) :=
  (StableHlo.after_of_writes_sub hostOps8 (W16 m ρ c) hw8_sub h.2).trans (keep16 m ρ c b h.1)
theorem keep18 (h : K18 b) : W18 m ρ c (Proc.devRef .tc b) = W1 m ρ c (Proc.devRef .tc b) :=
  (W18_of_ne m ρ c b h.2).trans (keep17 m ρ c b h.1)
theorem keep19 (h : K19 b) : W19 m ρ c (Proc.devRef .tc b) = W1 m ρ c (Proc.devRef .tc b) :=
  (StableHlo.after_of_writes_sub hostOps9 (W18 m ρ c) hw9_sub h.2).trans (keep18 m ρ c b h.1)
theorem keep20 (h : K20 b) : W20 m ρ c (Proc.devRef .tc b) = W1 m ρ c (Proc.devRef .tc b) :=
  (W20_of_ne m ρ c b h.2).trans (keep19 m ρ c b h.1)
theorem keep21 (h : K21 b) : W21 m ρ c (Proc.devRef .tc b) = W1 m ρ c (Proc.devRef .tc b) :=
  (W21_of_ne m ρ c b h.2).trans (keep20 m ρ c b h.1)
theorem keep22 (h : K22 b) : W22 m ρ c (Proc.devRef .tc b) = W1 m ρ c (Proc.devRef .tc b) :=
  (StableHlo.after_of_writes_sub hostOps11 (W21 m ρ c) hw11_sub h.2).trans (keep21 m ρ c b h.1)

end Chain

/-! ## The arguments -/

theorem arg0_at1 (c : Dev nD) : W1 m ρ c (Proc.devRef .tc main_arg0) = m ((c : Thread nD τ).loc main_arg0) :=
  atLaunch m ρ c main_arg0 (by decide)

theorem arg2_at2 (c : Dev nD) : W2 m ρ c (Proc.devRef .tc main_arg2) = m ((c : Thread nD τ).loc main_arg2) :=
  (keep2 m ρ c main_arg2 (by decide)).trans (atLaunch m ρ c main_arg2 (by decide))

theorem arg4_at4 (c : Dev nD) : W4 m ρ c (Proc.devRef .tc main_arg4) = m ((c : Thread nD τ).loc main_arg4) :=
  (keep4 m ρ c main_arg4 (by decide)).trans (atLaunch m ρ c main_arg4 (by decide))

theorem arg5_at4 (c : Dev nD) : W4 m ρ c (Proc.devRef .tc main_arg5) = m ((c : Thread nD τ).loc main_arg5) :=
  (keep4 m ρ c main_arg5 (by decide)).trans (atLaunch m ρ c main_arg5 (by decide))

theorem arg6_at4 (c : Dev nD) : W4 m ρ c (Proc.devRef .tc main_arg6) = m ((c : Thread nD τ).loc main_arg6) :=
  (keep4 m ρ c main_arg6 (by decide)).trans (atLaunch m ρ c main_arg6 (by decide))

theorem arg4_at8 (c : Dev nD) : W8 m ρ c (Proc.devRef .tc main_arg4) = m ((c : Thread nD τ).loc main_arg4) :=
  (keep8 m ρ c main_arg4 (by decide)).trans (atLaunch m ρ c main_arg4 (by decide))

theorem arg5_at8 (c : Dev nD) : W8 m ρ c (Proc.devRef .tc main_arg5) = m ((c : Thread nD τ).loc main_arg5) :=
  (keep8 m ρ c main_arg5 (by decide)).trans (atLaunch m ρ c main_arg5 (by decide))

theorem arg6_at8 (c : Dev nD) : W8 m ρ c (Proc.devRef .tc main_arg6) = m ((c : Thread nD τ).loc main_arg6) :=
  (keep8 m ρ c main_arg6 (by decide)).trans (atLaunch m ρ c main_arg6 (by decide))

theorem arg4_at12 (c : Dev nD) : W12 m ρ c (Proc.devRef .tc main_arg4) = m ((c : Thread nD τ).loc main_arg4) :=
  (keep12 m ρ c main_arg4 (by decide)).trans (atLaunch m ρ c main_arg4 (by decide))

theorem arg5_at12 (c : Dev nD) : W12 m ρ c (Proc.devRef .tc main_arg5) = m ((c : Thread nD τ).loc main_arg5) :=
  (keep12 m ρ c main_arg5 (by decide)).trans (atLaunch m ρ c main_arg5 (by decide))

theorem arg6_at12 (c : Dev nD) : W12 m ρ c (Proc.devRef .tc main_arg6) = m ((c : Thread nD τ).loc main_arg6) :=
  (keep12 m ρ c main_arg6 (by decide)).trans (atLaunch m ρ c main_arg6 (by decide))

theorem arg4_at16 (c : Dev nD) : W16 m ρ c (Proc.devRef .tc main_arg4) = m ((c : Thread nD τ).loc main_arg4) :=
  (keep16 m ρ c main_arg4 (by decide)).trans (atLaunch m ρ c main_arg4 (by decide))

theorem arg5_at16 (c : Dev nD) : W16 m ρ c (Proc.devRef .tc main_arg5) = m ((c : Thread nD τ).loc main_arg5) :=
  (keep16 m ρ c main_arg5 (by decide)).trans (atLaunch m ρ c main_arg5 (by decide))

theorem arg6_at16 (c : Dev nD) : W16 m ρ c (Proc.devRef .tc main_arg6) = m ((c : Thread nD τ).loc main_arg6) :=
  (keep16 m ρ c main_arg6 (by decide)).trans (atLaunch m ρ c main_arg6 (by decide))

theorem arg8_at21 (c : Dev nD) : W21 m ρ c (Proc.devRef .tc main_arg8) = m ((c : Thread nD τ).loc main_arg8) :=
  (keep21 m ρ c main_arg8 (by decide)).trans (atLaunch m ρ c main_arg8 (by decide))

theorem arg10_at21 (c : Dev nD) : W21 m ρ c (Proc.devRef .tc main_arg10) = m ((c : Thread nD τ).loc main_arg10) :=
  (keep21 m ρ c main_arg10 (by decide)).trans (atLaunch m ρ c main_arg10 (by decide))

theorem arg7_at22 (c : Dev nD) : W22 m ρ c (Proc.devRef .tc main_arg7) = m ((c : Thread nD τ).loc main_arg7) :=
  (keep22 m ρ c main_arg7 (by decide)).trans (atLaunch m ρ c main_arg7 (by decide))

theorem arg9_at22 (c : Dev nD) : W22 m ρ c (Proc.devRef .tc main_arg9) = m ((c : Thread nD τ).loc main_arg9) :=
  (keep22 m ρ c main_arg9 (by decide)).trans (atLaunch m ρ c main_arg9 (by decide))

/-! ## The three index arrays -/

theorem v1_at2 (c : Dev nD) : W2 m ρ c (Proc.devRef .tc main_v1) = W1 m ρ c (Proc.devRef .tc main_v1) :=
  keep2 m ρ c main_v1 (by decide)

theorem v3_at2 (c : Dev nD) : W2 m ρ c (Proc.devRef .tc main_v3) = W1 m ρ c (Proc.devRef .tc main_v3) :=
  keep2 m ρ c main_v3 (by decide)

theorem v1_at6 (c : Dev nD) : W6 m ρ c (Proc.devRef .tc main_v1) = W1 m ρ c (Proc.devRef .tc main_v1) :=
  keep6 m ρ c main_v1 (by decide)

theorem v3_at6 (c : Dev nD) : W6 m ρ c (Proc.devRef .tc main_v3) = W1 m ρ c (Proc.devRef .tc main_v3) :=
  keep6 m ρ c main_v3 (by decide)

theorem v1_at10 (c : Dev nD) : W10 m ρ c (Proc.devRef .tc main_v1) = W1 m ρ c (Proc.devRef .tc main_v1) :=
  keep10 m ρ c main_v1 (by decide)

theorem v3_at10 (c : Dev nD) : W10 m ρ c (Proc.devRef .tc main_v3) = W1 m ρ c (Proc.devRef .tc main_v3) :=
  keep10 m ρ c main_v3 (by decide)

theorem v1_at14 (c : Dev nD) : W14 m ρ c (Proc.devRef .tc main_v1) = W1 m ρ c (Proc.devRef .tc main_v1) :=
  keep14 m ρ c main_v1 (by decide)

theorem v3_at14 (c : Dev nD) : W14 m ρ c (Proc.devRef .tc main_v3) = W1 m ρ c (Proc.devRef .tc main_v3) :=
  keep14 m ρ c main_v3 (by decide)

theorem v1_at18 (c : Dev nD) : W18 m ρ c (Proc.devRef .tc main_v1) = W1 m ρ c (Proc.devRef .tc main_v1) :=
  keep18 m ρ c main_v1 (by decide)

theorem v3_at18 (c : Dev nD) : W18 m ρ c (Proc.devRef .tc main_v3) = W1 m ρ c (Proc.devRef .tc main_v3) :=
  keep18 m ρ c main_v3 (by decide)

theorem v4_at20 (c : Dev nD) : W20 m ρ c (Proc.devRef .tc main_v4) = W1 m ρ c (Proc.devRef .tc main_v4) :=
  keep20 m ρ c main_v4 (by decide)

/-! ## What the first stretch makes

A flattened one-row array reads, at position `e`, the row's entry `(0, e)`; row `r` of the edge array cut out as a
one-row array reads there the edge array's entry `(r, e)`. A vector stood up as a column reads at `(n, 0)` its entry
`n`. -/

/-- The source words: row 0 of the edge array. -/
theorem W1_v1_apply (c : Dev nD) (e : Fin 2500000) :
    W1 m ρ c (Proc.devRef .tc main_v1) (ix1 e) = m ((c : Thread nD τ).loc main_arg11) (ix2 (0 : Fin 2) e) := by
  show StableHlo.after hostOps0 (W0 m ρ c) (Proc.devRef .tc main_v1) (ix1 e) = _
  after_results
  show shapeCast S2500000 (extractStridedSlice S1x2500000 ![0, 0] (m ((c : Thread nD τ).loc main_arg11))
    slices_S2x2500000_S1x2500000_0_0) shapeCasts_S1x2500000_S2500000 (ix1 e) = _
  refine (shapeCast_apply _ shapeCasts_S1x2500000_S2500000 (ix1 e) (ix2 (0 : Fin 1) e) ?_).trans ?_
  · rw [Shape.rowMajor_val_two, Shape.rowMajor_val_one]
    show 0 * 2500000 + e.val = e.val
    omega
  · exact extractStridedSlice_apply ![0, 0] _ slices_S2x2500000_S1x2500000_0_0 (ix2 (0 : Fin 1) e) (ix2 (0 : Fin 2) e)
      (fun a => match a with
        | ⟨0, _⟩ => rfl
        | ⟨1, _⟩ => (Nat.zero_add e.val).symm)

/-- The destination words: row 1 of the edge array. -/
theorem W1_v3_apply (c : Dev nD) (e : Fin 2500000) :
    W1 m ρ c (Proc.devRef .tc main_v3) (ix1 e) = m ((c : Thread nD τ).loc main_arg11) (ix2 (1 : Fin 2) e) := by
  show StableHlo.after hostOps0 (W0 m ρ c) (Proc.devRef .tc main_v3) (ix1 e) = _
  after_results
  show shapeCast S2500000 (extractStridedSlice S1x2500000 ![1, 0] (m ((c : Thread nD τ).loc main_arg11))
    slices_S2x2500000_S1x2500000_1_0) shapeCasts_S1x2500000_S2500000 (ix1 e) = _
  refine (shapeCast_apply _ shapeCasts_S1x2500000_S2500000 (ix1 e) (ix2 (0 : Fin 1) e) ?_).trans ?_
  · rw [Shape.rowMajor_val_two, Shape.rowMajor_val_one]
    show 0 * 2500000 + e.val = e.val
    omega
  · exact extractStridedSlice_apply ![1, 0] _ slices_S2x2500000_S1x2500000_1_0 (ix2 (0 : Fin 1) e) (ix2 (1 : Fin 2) e)
      (fun a => match a with
        | ⟨0, _⟩ => rfl
        | ⟨1, _⟩ => (Nat.zero_add e.val).symm)

/-- The graph words as a column. -/
theorem W1_v4_apply (c : Dev nD) (n : Fin 100000) :
    W1 m ρ c (Proc.devRef .tc main_v4) (ix2 n (0 : Fin 1)) = m ((c : Thread nD τ).loc main_arg12) (ix1 n) := by
  show StableHlo.after hostOps0 (W0 m ρ c) (Proc.devRef .tc main_v4) (ix2 n (0 : Fin 1)) = _
  after_results
  show shapeCast S100000x1 (m ((c : Thread nD τ).loc main_arg12)) shapeCasts_S100000_S100000x1 (ix2 n (0 : Fin 1)) = _
  refine shapeCast_apply _ shapeCasts_S100000_S100000x1 (ix2 n (0 : Fin 1)) (ix1 n) ?_
  rw [Shape.rowMajor_val_two, Shape.rowMajor_val_one]
  show n.val = n.val * 1 + 0
  omega

end Cert.KernelIdeal.Val

end
-- ==== Proof.HostRead.lean ====
/-
  Host operations read at an entry, for any sizes.

  A row lookup followed by a row accumulation into zeros is the neighbour sum: entry `(n, q)` is the sum, over the edges
  whose destination word (signed) is `n`, of entry `q` of the row the edge's source word names (signed, clamped).
  Two tables laid side by side along the column axis read back as `cat`.
-/
import Idealize.ShloMosaic.PureOps
import Idealize.ShloMosaic.PureOps.Ideal
import Idealize.ShloMosaic.Lib.ValueIdx
import Idealize.ShloMosaic.Lib.Pipeline.Value
import proofs.«401169_j5540507812347_2_alg».proof.Proof.LibEdgeAgg
import proofs.«401169_j5540507812347_2_alg».proof.Proof.Spec

noncomputable section

namespace Gnn

open Idealize.ShloMosaic Idealize.ShloMosaic.ValueIdx
open scoped BigOperators

/-- A lookup of whole rows accumulated into an all-zero table is the neighbour sum. -/
theorem nbr_of_lookup_accum {N C P : Nat} (hN : 0 < N)
    (wfg : GatherDims.WF ⟨2, ![N, C]⟩ ⟨2, ![P, 1]⟩ ⟨2, ![P, C]⟩ [1] [0] [] [0] [] 1 ![1, C])
    (wfs : ScatterDims.WF ⟨2, ![N, C]⟩ ⟨2, ![P, 1]⟩ ⟨2, ![P, C]⟩ [1] [0] [0] 1)
    (x : Tbl N C) (rows dstc : IVec ⟨2, ![P, 1]⟩ 32) (z : Tbl N C) (hz : ∀ i, z i = 0) :
    cur (Ideal.hostScatterAdd (EdgeAgg.accumDims N C P wfs) z dstc (Host.gather (EdgeAgg.lookupDims N C P wfg) x rows))
      = nbr (cur x) (fun e => EdgeAgg.clampTo N hN (rows (ix2 e (0 : Fin 1))))
          (fun n => Finset.univ.filter fun e : Fin P => (dstc (ix2 e (0 : Fin 1))).toInt = (n.val : Int)) := by
  funext n q
  unfold cur nbr
  -- the accumulation at `(n, q)`: the accumulator's entry, which is zero, plus the rows landing on `n`
  rw [EdgeAgg.accum_apply, hz, zero_add]
  -- each such row is the table's row the edge's source word names
  refine Finset.sum_congr rfl fun e _ => ?_
  exact EdgeAgg.lookup_apply hN wfg x rows e q

/-- Two `[K, 32]` tables laid side by side along axis 1 read back as `cat`. -/
theorem cur_concat {K : Nat} (a b : Tbl K 32)
    (h : Shape.Concatenates [(⟨2, ![K, 32]⟩ : Shape), (⟨2, ![K, 32]⟩ : Shape)] (⟨2, ![K, 64]⟩ : Shape) 1) :
    cur (concatenate (⟨2, ![K, 64]⟩ : Shape) 1 [⟨(⟨2, ![K, 32]⟩ : Shape), a⟩, ⟨(⟨2, ![K, 32]⟩ : Shape), b⟩] h) = cat (cur a) (cur b) := by
  funext k j
  unfold cur cat
  by_cases hj : j.val < 32
  · -- a column below 32 falls in the first piece, at the same coordinates
    rw [dif_pos hj]
    exact concatenate_pair_apply_left (t := ⟨2, ![K, 64]⟩) (s₁ := ⟨2, ![K, 32]⟩) (s₂ := ⟨2, ![K, 32]⟩)
      (1 : Fin 2) a b h (ix2 k j) rfl (ix2 k (⟨j.val, hj⟩ : Fin 32)) (by
        intro c
        match c with
        | ⟨0, _⟩ => rfl
        | ⟨1, _⟩ => rfl)
  · -- a column from 32 on falls in the second piece, 32 columns to the left
    rw [dif_neg hj]
    exact concatenate_pair_apply_right (t := ⟨2, ![K, 64]⟩) (s₁ := ⟨2, ![K, 32]⟩) (s₂ := ⟨2, ![K, 32]⟩)
      (1 : Fin 2) a b h (ix2 k j) rfl rfl
      (ix2 k (⟨j.val - 32, by have := j.isLt; omega⟩ : Fin 32)) (by
        intro c hc
        match c with
        | ⟨0, _⟩ => rfl
        | ⟨1, _⟩ => exact absurd rfl hc) (by
        show j.val - 32 + 32 = j.val
        omega)

theorem lo_cat {K : Nat} (wl wr : Mat K 32) : lo (cat wl wr) = wl := by
  funext k j
  unfold lo cat
  rw [dif_pos (show j.val < 32 from j.isLt)]

theorem hi_cat {K : Nat} (wl wr : Mat K 32) : hi (cat wl wr) = wr := by
  funext k j
  unfold hi cat
  rw [dif_neg (show ¬ 32 + j.val < 32 by omega)]
  congr 1
  exact Fin.ext (show 32 + j.val - 32 = j.val by omega)

end Gnn

end
-- ==== Proof.RegProj0.lean ====
/-
  Region 0: every block of ten thousand node rows is multiplied by the side-by-side weight table; the left half of
  the product goes to one output array and the right half to the other. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

/-! ## The product at an index -/

/-- The product's left operand is read at the output's row and the contraction's position … -/
theorem reg0_lhs_0 (i : S10000x64.Idx) (q : dot_S10000x14_S14x64_S10000x64_1_0_0_1_n_n.contr.Idx) :
    (dot_S10000x14_S14x64_S10000x64_1_0_0_1_n_n.lhsIdx i q 0).val = (i 0).val := by
  unfold DotDims.lhsIdx
  rw [dif_neg (show ¬(0 : Fin S10000x14.rank) ∈ dot_S10000x14_S14x64_S10000x64_1_0_0_1_n_n.lhsBatch by decide), dif_pos (show (0 : Fin S10000x14.rank) ∈ dot_S10000x14_S14x64_S10000x64_1_0_0_1_n_n.lhsNonContracting by decide)]
  rfl
theorem reg0_lhs_1 (i : S10000x64.Idx) (q : dot_S10000x14_S14x64_S10000x64_1_0_0_1_n_n.contr.Idx) :
    (dot_S10000x14_S14x64_S10000x64_1_0_0_1_n_n.lhsIdx i q 1).val = (q ⟨0, by decide⟩).val :=
  dot_S10000x14_S14x64_S10000x64_1_0_0_1_n_n.lhsIdx_val_of_single rfl i q
/-- … and the right operand at the contraction's position and the output's column. -/
theorem reg0_rhs_0 (i : S10000x64.Idx) (q : dot_S10000x14_S14x64_S10000x64_1_0_0_1_n_n.contr.Idx) :
    (dot_S10000x14_S14x64_S10000x64_1_0_0_1_n_n.rhsIdx i q 0).val = (q ⟨0, by decide⟩).val :=
  dot_S10000x14_S14x64_S10000x64_1_0_0_1_n_n.rhsIdx_val_of_single rfl i q
theorem reg0_rhs_1 (i : S10000x64.Idx) (q : dot_S10000x14_S14x64_S10000x64_1_0_0_1_n_n.contr.Idx) :
    (dot_S10000x14_S14x64_S10000x64_1_0_0_1_n_n.rhsIdx i q 1).val = (i 1).val := by
  unfold DotDims.rhsIdx
  rw [dif_neg (show ¬(1 : Fin S14x64.rank) ∈ dot_S10000x14_S14x64_S10000x64_1_0_0_1_n_n.rhsBatch by decide), dif_pos (show (1 : Fin S14x64.rank) ∈ dot_S10000x14_S14x64_S10000x64_1_0_0_1_n_n.rhsNonContracting by decide)]
  rfl

/-- The whole product of a block of rows with the weight table, entry by entry: the sum over the shared axis. -/
theorem reg0_prod_apply (x0 : Vec Ideal S10000x14 .f32) (x1 : Vec Ideal S14x64 .f32) (p : Fin 10000) (r : Fin 64) :
    k0_pay1 (F := Ideal) x0 x1 (ix2 p r) = ∑ k : Fin 14, x0 (ix2 p k) * x1 (ix2 k r) := by
  unfold k0_pay1
  simp only [matmul]
  rw [Ideal.matmul_constant_zero_apply, ← Equiv.sum_comp (contrEquiv1 dot_S10000x14_S14x64_S10000x64_1_0_0_1_n_n 14 rfl rfl).symm]
  refine Finset.sum_congr rfl fun k _ => ?_
  have hk := contrEquiv1_symm_val dot_S10000x14_S14x64_S10000x64_1_0_0_1_n_n 14 rfl rfl k
  have el : dot_S10000x14_S14x64_S10000x64_1_0_0_1_n_n.lhsIdx (ix2 p r) ((contrEquiv1 dot_S10000x14_S14x64_S10000x64_1_0_0_1_n_n 14 rfl rfl).symm k) = ix2 p k := funext fun a => Fin.ext (by
    match a with
    | ⟨0, _⟩ => exact reg0_lhs_0 _ _
    | ⟨1, _⟩ => exact (reg0_lhs_1 _ _).trans hk)
  have er : dot_S10000x14_S14x64_S10000x64_1_0_0_1_n_n.rhsIdx (ix2 p r) ((contrEquiv1 dot_S10000x14_S14x64_S10000x64_1_0_0_1_n_n 14 rfl rfl).symm k) = ix2 k r := funext fun a => Fin.ext (by
    match a with
    | ⟨0, _⟩ => exact (reg0_rhs_0 _ _).trans hk
    | ⟨1, _⟩ => exact reg0_rhs_1 _ _)
  rw [el, er, truncf_apply, truncf_apply, shapeCast_self]

/-- The left half of the product, entry by entry. -/
theorem reg0_left_apply (x0 : Vec Ideal S10000x14 .f32) (x1 : Vec Ideal S14x64 .f32) (p : Fin 10000) (q : Fin 32) :
    k0_pay2 (F := Ideal) x0 x1 (ix2 p q) = ∑ k : Fin 14, x0 (ix2 p k) * x1 (ix2 k (⟨q.val, by have := q.isLt; omega⟩ : Fin 64)) := by
  unfold k0_pay2
  refine (extractStridedSlice_apply _ _ _ (ix2 p q) (ix2 p (⟨q.val, by have := q.isLt; omega⟩ : Fin 64)) (fun a => ?_)).trans (reg0_prod_apply x0 x1 p _)
  match a with
  | ⟨0, _⟩ => show p.val = 0 + p.val; omega
  | ⟨1, _⟩ => show q.val = 0 + q.val; omega

/-- The right half of the product, entry by entry. -/
theorem reg0_right_apply (x0 : Vec Ideal S10000x14 .f32) (x1 : Vec Ideal S14x64 .f32) (p : Fin 10000) (q : Fin 32) :
    k0_pay3 (F := Ideal) x0 x1 (ix2 p q) = ∑ k : Fin 14, x0 (ix2 p k) * x1 (ix2 k (⟨32 + q.val, by have := q.isLt; omega⟩ : Fin 64)) := by
  unfold k0_pay3
  refine (extractStridedSlice_apply _ _ _ (ix2 p q) (ix2 p (⟨32 + q.val, by have := q.isLt; omega⟩ : Fin 64)) (fun a => ?_)).trans (reg0_prod_apply x0 x1 p _)
  match a with
  | ⟨0, _⟩ => show p.val = 0 + p.val; omega
  | ⟨1, _⟩ => show 32 + q.val = 32 + q.val; rfl

variable (V : (c : Dev nD) → (b : Ref sig .tc) → Buf (Elt Ideal) ((c : Thread nD τ).loc b))

/-! ## From the blocks to the arrays -/

/-- The zero offsets, however spelt. -/
theorem reg0_hz : (![0, 0] : Fin 2 → Nat) = fun _ => 0 :=
  funext fun a => by match a with | ⟨0, _⟩ => rfl | ⟨1, _⟩ => rfl

/-- The index maps over the grid: the node rows and both outputs move one block of rows per point, the weight
    table stays. -/
theorem reg0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the body leaves in the first output's buffer is the left half of the product of its two blocks. -/
theorem reg0_out_left (x0 : Vec Ideal S10000x14 .f32) (x1 : Vec Ideal S14x64 .f32) :
    out0_2 (F := Ideal) x0 x1 = k0_pay2 x0 x1 := by
  unfold out0_2
  rw [View.canon_unit_zero reg0_hz]
  simp only [View.ld_unit_zero (S := S10000x14) reg0_hz, View.ld_unit_zero (S := S14x64) reg0_hz]

/-- What the body leaves in the second output's buffer is the right half of the product of its two blocks. -/
theorem reg0_out_right (x0 : Vec Ideal S10000x14 .f32) (x1 : Vec Ideal S14x64 .f32) :
    out0_3 (F := Ideal) x0 x1 = k0_pay3 x0 x1 := by
  unfold out0_3
  rw [View.canon_unit_zero reg0_hz]
  simp only [View.ld_unit_zero (S := S10000x14) reg0_hz, View.ld_unit_zero (S := S14x64) reg0_hz]

/-- The node table as the region finds it. -/
abbrev reg0_nodes (c : Dev nD) : Tbl 100000 14 := V c (Pipeline.arrRef spec0 0)
/-- The side-by-side weight table as the region finds it. -/
abbrev reg0_wts (c : Dev nD) : Tbl 14 64 := V c (Pipeline.arrRef spec0 1)

/-- The node rows' block at point `t` is rows `10000 t … 10000 t + 9999` of the node table. -/
theorem reg0_rows (c : Dev nD) (t : Fin cfg0.N) (y : S10000x14.Idx) (i : S100000x14.Idx)
    (h0 : (i 0).val = 10000 * t.val + (y 0).val) (h1 : (i 1).val = (y 1).val) :
    (iblk0 (F := Ideal) V c 0 t : Vec Ideal S10000x14 .f32) y = reg0_nodes V c i := by
  obtain ⟨e0, e1, -⟩ := reg0_idx t
  unfold iblk0
  show reg0_nodes V c (((cfg0.win 0).blk t).view.emb y) = _
  refine congrArg (reg0_nodes V c) (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 14 + 1 * (y 1).val = (i 1).val; rw [e1, h1]; omega

/-- The weight table's block at every point is the whole table. -/
theorem reg0_weights (c : Dev nD) (t : Fin cfg0.N) (y : S14x64.Idx) :
    (iblk0 (F := Ideal) V c 1 t : Vec Ideal S14x64 .f32) y = reg0_wts V c y := by
  obtain ⟨-, -, e0, e1, -⟩ := reg0_idx t
  unfold iblk0
  show reg0_wts V c (((cfg0.win 1).blk t).view.emb y) = _
  refine congrArg (reg0_wts V c) (funext fun a => Fin.ext ?_)
  match a with
  | ⟨0, _⟩ => show win0_1.index t (0 : Fin 2) * 14 + 1 * (y 0).val = (y 0).val; rw [e0]; omega
  | ⟨1, _⟩ => show win0_1.index t (1 : Fin 2) * 64 + 1 * (y 1).val = (y 1).val; rw [e1]; omega

/-- One entry of the left half of the product of the blocks at point `t` is the entry of the whole arrays' product
    in the row that the block's row is of the table. -/
theorem reg0_entry_left (c : Dev nD) (t : Fin cfg0.N) (p : Fin 10000) (q : Fin 32) (P : Fin 100000)
    (hP : P.val = 10000 * t.val + p.val) :
    k0_pay2 (F := Ideal) (iblk0 V c 0 t) (iblk0 V c 1 t) (ix2 p q)
      = tbl (mm (cur (reg0_nodes V c)) (lo (cur (reg0_wts V c)))) (ix2 P q) := by
  refine (reg0_left_apply (iblk0 V c 0 t) (iblk0 V c 1 t) p q).trans ?_
  show _ = ∑ k : Fin 14, reg0_nodes V c (ix2 P k)
      * reg0_wts V c (ix2 k (⟨q.val, by have := q.isLt; omega⟩ : Fin 64))
  refine Finset.sum_congr rfl fun k _ => ?_
  exact congrArg₂ (· * ·) (reg0_rows V c t (ix2 p k) (ix2 P k) hP rfl) (reg0_weights V c t (ix2 k _))

/-- One entry of the right half, likewise. -/
theorem reg0_entry_right (c : Dev nD) (t : Fin cfg0.N) (p : Fin 10000) (q : Fin 32) (P : Fin 100000)
    (hP : P.val = 10000 * t.val + p.val) :
    k0_pay3 (F := Ideal) (iblk0 V c 0 t) (iblk0 V c 1 t) (ix2 p q)
      = tbl (mm (cur (reg0_nodes V c)) (hi (cur (reg0_wts V c)))) (ix2 P q) := by
  refine (reg0_right_apply (iblk0 V c 0 t) (iblk0 V c 1 t) p q).trans ?_
  show _ = ∑ k : Fin 14, reg0_nodes V c (ix2 P k)
      * reg0_wts V c (ix2 k (⟨32 + q.val, by have := q.isLt; omega⟩ : Fin 64))
  refine Finset.sum_congr rfl fun k _ => ?_
  exact congrArg₂ (· * ·) (reg0_rows V c t (ix2 p k) (ix2 P k) hP rfl) (reg0_weights V c t (ix2 k _))

/-- What point `t` writes back to the first output is block `t` of the left half of the whole arrays' product. -/
theorem reg0_flushed_left (c : Dev nD) (t : Fin cfg0.N) :
    (dat0 (F := Ideal) V c).flushed 2 t = ((cfg0.win 2).blk t).view.read (Elt Ideal)
      (tbl (mm (cur (reg0_nodes V c)) (lo (cur (reg0_wts V c))))) := by
  show (cfg0.win 2).cut (grid0.coords t) ((dat0 V c).after 2 t) = _
  rw [after0_2, reg0_out_left]
  obtain ⟨-, -, -, -, e0, e1, -⟩ := reg0_idx t
  funext j
  have hj0 : (j 0).val < 10000 := (j 0).isLt
  have hj1 : (j 1).val < 32 := (j 1).isLt
  have ht : t.val < 10 := lt_of_lt_of_eq t.isLt N_0
  have hx : (cfg0.win 2).xinj (grid0.coords t) j = ix2 (⟨(j 0).val, hj0⟩ : Fin 10000) (⟨(j 1).val, hj1⟩ : Fin 32) :=
    funext fun a => by match a with | ⟨0, _⟩ => rfl | ⟨1, _⟩ => rfl
  have hemb : ((cfg0.win 2).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win0_2.index t (0 : Fin 2) * 10000 + 1 * (j 0).val = 10000 * t.val + (j 0).val; rw [e0]; omega
      | ⟨1, _⟩ => show win0_2.index t (1 : Fin 2) * 32 + 1 * (j 1).val = (j 1).val; rw [e1]; omega)
  show k0_pay2 (F := Ideal) (iblk0 V c 0 t) (iblk0 V c 1 t) ((cfg0.win 2).xinj (grid0.coords t) j)
    = (tbl (mm (cur (reg0_nodes V c)) (lo (cur (reg0_wts V c)))) : S100000x32.Idx → EReal)
        (((cfg0.win 2).blk t).view.emb j)
  rw [hx, hemb]
  exact reg0_entry_left V c t _ _ _ rfl

/-- What point `t` writes back to the second output is block `t` of the right half of the whole arrays' product. -/
theorem reg0_flushed_right (c : Dev nD) (t : Fin cfg0.N) :
    (dat0 (F := Ideal) V c).flushed 3 t = ((cfg0.win 3).blk t).view.read (Elt Ideal)
      (tbl (mm (cur (reg0_nodes V c)) (hi (cur (reg0_wts V c))))) := by
  show (cfg0.win 3).cut (grid0.coords t) ((dat0 V c).after 3 t) = _
  rw [after0_3, reg0_out_right]
  obtain ⟨-, -, -, -, -, -, e0, e1⟩ := reg0_idx t
  funext j
  have hj0 : (j 0).val < 10000 := (j 0).isLt
  have hj1 : (j 1).val < 32 := (j 1).isLt
  have ht : t.val < 10 := lt_of_lt_of_eq t.isLt N_0
  have hx : (cfg0.win 3).xinj (grid0.coords t) j = ix2 (⟨(j 0).val, hj0⟩ : Fin 10000) (⟨(j 1).val, hj1⟩ : Fin 32) :=
    funext fun a => by match a with | ⟨0, _⟩ => rfl | ⟨1, _⟩ => rfl
  have hemb : ((cfg0.win 3).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win0_3.index t (0 : Fin 2) * 10000 + 1 * (j 0).val = 10000 * t.val + (j 0).val; rw [e0]; omega
      | ⟨1, _⟩ => show win0_3.index t (1 : Fin 2) * 32 + 1 * (j 1).val = (j 1).val; rw [e1]; omega)
  show k0_pay3 (F := Ideal) (iblk0 V c 0 t) (iblk0 V c 1 t) ((cfg0.win 3).xinj (grid0.coords t) j)
    = (tbl (mm (cur (reg0_nodes V c)) (hi (cur (reg0_wts V c)))) : S100000x32.Idx → EReal)
        (((cfg0.win 3).blk t).view.emb j)
  rw [hx, hemb]
  exact reg0_entry_right V c t _ _ _ rfl

/-- An index of the first output is in point `t`'s block iff each coordinate is in the block's range on its axis. -/
theorem reg0_mem_left (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole (Pipeline.arrRef spec0 2)).slice (win0_2.rect t)).set ↔ _
  rw [View.set_slice_whole, Rect.mem_set_unit]
  exact Iff.rfl

/-- The same for the second output. -/
theorem reg0_mem_right (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole (Pipeline.arrRef spec0 3)).slice (win0_3.rect t)).set ↔ _
  rw [View.set_slice_whole, Rect.mem_set_unit]
  exact Iff.rfl

/-- Every row of the first output is in the block of the point that is its row number over ten thousand. -/
theorem reg0_cover_left (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e0, e1, -⟩ := reg0_idx t
  refine ⟨t, flush0_2 t, ?_⟩
  rw [reg0_mem_left]
  intro a
  match a with
  | ⟨0, _⟩ =>
    show win0_2.index t (0 : Fin 2) * 10000 ≤ (i 0).val ∧ (i 0).val < win0_2.index t (0 : Fin 2) * 10000 + 10000
    rw [e0, ht]; omega
  | ⟨1, _⟩ =>
    show win0_2.index t (1 : Fin 2) * 32 ≤ (i 1).val ∧ (i 1).val < win0_2.index t (1 : Fin 2) * 32 + 32
    rw [e1]; omega

/-- The same for the second output. -/
theorem reg0_cover_right (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, e0, e1⟩ := reg0_idx t
  refine ⟨t, flush0_3 t, ?_⟩
  rw [reg0_mem_right]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 32 ≤ (i 1).val ∧ (i 1).val < win0_3.index t (1 : Fin 2) * 32 + 32
    rw [e1]; omega

/-- The first output array of region 0: the node table times the left half of the weight table. -/
theorem reg0_t (c : Dev nD) :
    (dat0 (F := Ideal) V c).arrAt 2 cfg0.N = tbl (mm (cur (a := 100000) (b := 14) (V c main_arg0)) (lo (cur (a := 14) (b := 64) (V c main_v5)))) :=
  (dat0 (F := Ideal) V c).arrAt_eq_of_cover 2 (tbl (mm (cur (reg0_nodes V c)) (lo (cur (reg0_wts V c)))))
    (fun t _ => reg0_flushed_left V c t) reg0_cover_left

/-- The second output array of region 0: the node table times the right half of the weight table. -/
theorem reg0_root (c : Dev nD) :
    (dat0 (F := Ideal) V c).arrAt 3 cfg0.N = tbl (mm (cur (a := 100000) (b := 14) (V c main_arg0)) (hi (cur (a := 14) (b := 64) (V c main_v5)))) :=
  (dat0 (F := Ideal) V c).arrAt_eq_of_cover 3 (tbl (mm (cur (reg0_nodes V c)) (hi (cur (reg0_wts V c)))))
    (fun t _ => reg0_flushed_right V c t) reg0_cover_right

end Cert.KernelIdeal.Val

end
-- ==== Proof.RegComb1.lean ====
/-
  Region 1: entry by entry, the neighbour sum plus the node's own projection plus the bias of its column, clipped
  below at zero. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (V : (c : Dev nD) → (b : Ref sig .tc) → Buf (Elt Ideal) ((c : Thread nD τ).loc b))

/-- The zero offsets of a whole-buffer access, as the constant function. -/
theorem reg1_zero_off : (![0, 0] : Fin 2 → Nat) = fun _ => 0 := funext fun a => by fin_cases a <;> rfl

/-- The payload at an entry: the two blocks' entries and the bias of the column added, clipped below at zero. The
    bias block has one row, so every row of the sum reads its row 0. -/
theorem reg1_pay_apply (xa xb : Vec Ideal S10000x32 .f32) (xc : Vec Ideal S1x32 .f32) (p : Fin 10000) (q : Fin 32) :
    k1_pay1 xa xb xc (ix2 p q) = max (xa (ix2 p q) + xb (ix2 p q) + xc (ix2 (0 : Fin 1) q)) 0 := by
  unfold k1_pay1
  rw [maximumf_apply, addf_apply, addf_apply, broadcast_apply, shapeCast_self, shapeCast_self, shapeCast_self,
    broadcastTo_apply xc broadcasts_S1x32_S10000x32 (ix2 p q) (ix2 (0 : Fin 1) q)
      (fun a => by match a with | ⟨0, _⟩ => rfl | ⟨1, _⟩ => rfl),
    show (FloatOps.ofBits FTy.f32 0#32 : Ideal .f32) = 0 from Ideal.ofBits_zero_f32]

/-- The index maps over the ten points: the two row-block inputs move with the output, block `t` on the row axis and
    block 0 on the column axis; the bias window stays at block (0, 0). -/
theorem reg1_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The clipped sum as one function of the three whole arrays: at row `n`, column `j`, the two tables' entries and
    the bias of column `j` added, clipped below at zero. -/
def reg1_comb (a b : S100000x32.Idx → EReal) (bias : S1x32.Idx → EReal) : S100000x32.Idx → EReal :=
  fun i => max (a (ix2 (i 0) (i 1)) + b (ix2 (i 0) (i 1)) + bias (ix2 (0 : Fin 1) (i 1))) 0

/-- An entry of the payload is the clipped sum at the array index `i`, once each block's entry is its array's entry
    at `i` and the bias block's entry is the bias of `i`'s column. -/
theorem reg1_pay_eq_comb (A B : S100000x32.Idx → EReal) (bias : S1x32.Idx → EReal)
    (xa xb : Vec Ideal S10000x32 .f32) (xc : Vec Ideal S1x32 .f32) (j : S10000x32.Idx) (i : S100000x32.Idx)
    (ha : xa (ix2 (j 0) (j 1)) = A (ix2 (i 0) (i 1))) (hb : xb (ix2 (j 0) (j 1)) = B (ix2 (i 0) (i 1)))
    (hc : xc (ix2 (0 : Fin 1) (j 1)) = bias (ix2 (0 : Fin 1) (i 1))) :
    k1_pay1 xa xb xc j = reg1_comb A B bias i := by
  refine (congrArg (k1_pay1 xa xb xc) (eq_ix2 j)).trans ((reg1_pay_apply xa xb xc (j 0) (j 1)).trans ?_)
  rw [ha, hb, hc]
  rfl

/-- WHAT POINT `t` WRITES BACK is block `t` of the clipped sum of the three arrays as the region finds them: the two
    row-block windows sit on the output block's own rows `10000 t … 10000 t + 9999` and columns, and the bias window's
    one block is the whole bias row. A block's coordinate on an axis is its index times its size plus the coordinate
    inside the block. -/
theorem reg1_flushed_eq (c : Dev nD) (t : Fin cfg1.N) :
    (dat1 (F := Ideal) V c).flushed 3 t
      = ((cfg1.win 3).blk t).view.read (Elt Ideal) (reg1_comb (V c main_v16) (V c main_v6_1) (V c main_v17)) := by
  show (cfg1.win 3).cut (grid1.coords t) ((dat1 V c).after 3 t) = _
  rw [after1_3]
  unfold out1_3
  rw [View.canon_unit_zero reg1_zero_off]
  simp only [View.ld_unit_zero (S := S10000x32) reg1_zero_off, View.ld_unit_zero (S := S1x32) reg1_zero_off]
  obtain ⟨hxrow, hxcol, hyrow, hycol, hbrow, hbcol, horow, hocol⟩ := reg1_idx_facts t
  funext j
  have hp : (j 0).val < 10000 := (j 0).isLt
  have hq : (j 1).val < 32 := (j 1).isLt
  refine reg1_pay_eq_comb (V c main_v16) (V c main_v6_1) (V c main_v17) (iblk1 V c 0 t) (iblk1 V c 1 t) (iblk1 V c 2 t) j
    (((cfg1.win 3).blk t).view.emb j) ?_ ?_ ?_
  · show V c main_v16 (((cfg1.win 0).blk t).view.emb (ix2 (j 0) (j 1))) = _
    refine congrArg (V c main_v16) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 32 + 1 * (j 1).val = win1_3.index t (1 : Fin 2) * 32 + 1 * (j 1).val; omega
  · show V c main_v6_1 (((cfg1.win 1).blk t).view.emb (ix2 (j 0) (j 1))) = _
    refine congrArg (V c main_v6_1) (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 32 + 1 * (j 1).val = win1_3.index t (1 : Fin 2) * 32 + 1 * (j 1).val; omega
  · show V c main_v17 (((cfg1.win 2).blk t).view.emb (ix2 (0 : Fin 1) (j 1))) = _
    refine congrArg (V c main_v17) (funext fun a => Fin.ext ?_)
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega

/-- An index of the array is in point `t`'s block iff each coordinate is in the block's range on its axis. -/
theorem reg1_mem_blk (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole (Pipeline.arrRef spec1 3)).slice (win1_3.rect t)).set ↔ _
  rw [View.set_slice_whole, Rect.mem_set_unit]
  exact Iff.rfl

/-- The ten row blocks tile the array: row `r` lies in the block of point `r / 10000`, and the one column block
    holds every column. -/
theorem reg1_cover (i : S100000x32.Idx) :
    ∃ t : Fin cfg1.N, (cfg1.win 3).flush t = true ∧ i ∈ ((cfg1.win 3).blk t).view.set := by
  have hrow : (i 0).val < 100000 := (i 0).isLt
  have hcol : (i 1).val < 32 := (i 1).isLt
  have hN : cfg1.N = 10 := by decide
  obtain ⟨t, ht⟩ : ∃ t : Fin cfg1.N, t.val = (i 0).val / 10000 := ⟨⟨(i 0).val / 10000, by rw [hN]; omega⟩, rfl⟩
  obtain ⟨-, -, -, -, -, -, horow, hocol⟩ := reg1_idx_facts t
  refine ⟨t, flush1_3 t, ?_⟩
  rw [reg1_mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 32 ≤ (i 1).val ∧ (i 1).val < win1_3.index t (1 : Fin 2) * 32 + 32
    omega

/-- The output array of region 1. -/
theorem reg1_out (c : Dev nD) :
    (dat1 (F := Ideal) V c).arrAt 3 cfg1.N
      = tbl (fun n j => max (cur (a := 100000) (b := 32) (V c main_v16) n j + cur (a := 100000) (b := 32) (V c main_v6_1) n j
          + cur (a := 1) (b := 32) (V c main_v17) 0 j) 0) := by
  exact (dat1 V c).arrAt_eq_of_cover 3 (reg1_comb (V c main_v16) (V c main_v6_1) (V c main_v17))
    (fun t _ => reg1_flushed_eq V c t) reg1_cover

end Cert.KernelIdeal.Val

end
-- ==== Proof.KLayer0.lean ====
/-
  Layer 0 of the kernel's program, from the boundary before its weight tables are laid side by side to the boundary after
  its second region: the node rows are projected by both weight tables at once, the first projection travels along the
  edges and is summed at the destinations, and the sum, the second projection and the bias are joined and clipped.
-/
import Idealize.ShloMosaic.PureOps.Ideal.Laws
import proofs.«401169_j5540507812347_2_alg».proof.Proof.Gen.KernelIdeal.Frame
import proofs.«401169_j5540507812347_2_alg».proof.Proof.Spec
import proofs.«401169_j5540507812347_2_alg».proof.Proof.Keep
import proofs.«401169_j5540507812347_2_alg».proof.Proof.HostRead
import proofs.«401169_j5540507812347_2_alg».proof.Proof.RegProj0
import proofs.«401169_j5540507812347_2_alg».proof.Proof.RegComb1

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (m : (ℓ : Loc nD τ sig) → Buf (Elt Ideal) ℓ) (ρ : Dev nD → PrngReg)

namespace Layer0

/-! ## The neighbour sum between the two regions, over any table and any two word vectors -/

/-- A vector stood up as a one-column array reads, at row `e` of its only column, the vector's entry `e`. -/
theorem col_apply {α : Type} (y : S2500000.Idx → α) (e : Fin 2500000) :
    broadcastInDim S2500000x1 ![0] bcast_S2500000_S2500000x1_0 y (ix2 e (0 : Fin 1)) = y (ix1 e) := by
  refine broadcastInDim_apply ![0] bcast_S2500000_S2500000x1_0 y (ix2 e (0 : Fin 1)) (ix1 e) ?_
  intro a
  match a with
  | ⟨0, _⟩ => rfl

/-- The accumulation's dimension numbers say "whole rows of a `[100000, 32]` table at a column of row numbers". -/
theorem scatter_eq : scatter_S100000x32_S2500000x1_S2500000x32_1_0_0_1
    = EdgeAgg.accumDims 100000 32 2500000 scatter_S100000x32_S2500000x1_S2500000x32_1_0_0_1_wf := rfl
/-- The lookup's dimension numbers say the same. -/
theorem gather_eq : gather_S100000x32_S2500000x1_S2500000x32_1_0_n_n_0_1_132
    = EdgeAgg.lookupDims 100000 32 2500000 gather_S100000x32_S2500000x1_S2500000x32_1_0_n_n_0_1_132_wf := rfl

/-- Whole rows of a table `x` looked up at the row numbers `rows` and accumulated into an all-zero table at the row
    numbers `dstc`: entry `(n, q)` is the sum, over the edges whose destination word is `n`, of entry `q` of the row the
    edge's row word names. -/
theorem nbr_host0 (x z : FVec Ideal S100000x32 .f32) (hz : ∀ i, z i = 0) (rows dstc : IVec S2500000x1 32) :
    cur (a := 100000) (b := 32)
      (Host.scatterAdd (F := Ideal) (φ := .f32) scatter_S100000x32_S2500000x1_S2500000x32_1_0_0_1 z dstc
        (Host.gather gather_S100000x32_S2500000x1_S2500000x32_1_0_n_n_0_1_132 x rows))
      = nbr (cur (a := 100000) (b := 32) x) (fun e : Fin 2500000 => EdgeAgg.clampTo 100000 (by decide) (rows (ix2 e (0 : Fin 1))))
          (fun n : Fin 100000 => Finset.univ.filter fun e : Fin 2500000 => (dstc (ix2 e (0 : Fin 1))).toInt = (n.val : Int)) := by
  rw [scatter_eq, gather_eq]
  unfold Host.scatterAdd
  rw [Ideal.hostScatterAdd_def]
  exact nbr_of_lookup_accum (N := 100000) (C := 32) (P := 2500000) (by decide) _ _ x rows dstc z hz

/-- The same with the accumulator the constant zero, the destination column the vector `v3` stood up, and the row column
    the vector `v1` normalised entry by entry (`w + 100000` where `w < 0`, else `w`) and stood up. -/
theorem nbr_host (x : FVec Ideal S100000x32 .f32) (v1 v3 : IVec S2500000 32) :
    cur (a := 100000) (b := 32)
      (Host.scatterAdd (F := Ideal) (φ := .f32) scatter_S100000x32_S2500000x1_S2500000x32_1_0_0_1
        (broadcastInDim S100000x32 ![] bcast_S_S100000x32 (constant (F := Ideal) S_ FTy.f32 0#32))
        (broadcastInDim S2500000x1 ![0] bcast_S2500000_S2500000x1_0 v3)
        (Host.gather gather_S100000x32_S2500000x1_S2500000x32_1_0_n_n_0_1_132 x
          (broadcastInDim S2500000x1 ![0] bcast_S2500000_S2500000x1_0
            (select
              (cmpi CmpIPredicate.slt v1 (broadcastInDim S2500000 ![] bcast_S_S2500000 (constantI S_ 32 0#32)))
              (addi v1 (broadcastInDim S2500000 ![] bcast_S_S2500000 (constantI S_ 32 100000#32)))
              v1))))
      = nbr (cur (a := 100000) (b := 32) x) (fun e : Fin 2500000 => EdgeAgg.clampTo 100000 (by decide) (normWord (v1 (ix1 e))))
          (fun n : Fin 100000 => Finset.univ.filter fun e : Fin 2500000 => (v3 (ix1 e)).toInt = (n.val : Int)) := by
  rw [nbr_host0]
  · have hr : ∀ e : Fin 2500000, (broadcastInDim S2500000x1 ![0] bcast_S2500000_S2500000x1_0
            (select
              (cmpi CmpIPredicate.slt v1 (broadcastInDim S2500000 ![] bcast_S_S2500000 (constantI S_ 32 0#32)))
              (addi v1 (broadcastInDim S2500000 ![] bcast_S_S2500000 (constantI S_ 32 100000#32)))
              v1)) (ix2 e (0 : Fin 1)) = normWord (v1 (ix1 e)) := by
      intro e
      rw [col_apply]
      show Scalar.select (IntOp.cmpi .slt (v1 (ix1 e)) (broadcastInDim S2500000 ![] bcast_S_S2500000 (constantI S_ 32 0#32) (ix1 e)))
        (IntOp.addi (v1 (ix1 e)) (broadcastInDim S2500000 ![] bcast_S_S2500000 (constantI S_ 32 100000#32) (ix1 e))) (v1 (ix1 e)) = _
      rw [broadcastInDim_apply ![] bcast_S_S2500000 (constantI S_ 32 0#32) (ix1 e) ix0 (fun a => a.elim0),
        broadcastInDim_apply ![] bcast_S_S2500000 (constantI S_ 32 100000#32) (ix1 e) ix0 (fun a => a.elim0)]
      rfl
    have hd : ∀ e : Fin 2500000, (broadcastInDim S2500000x1 ![0] bcast_S2500000_S2500000x1_0 v3) (ix2 e (0 : Fin 1)) = v3 (ix1 e) :=
      fun e => col_apply v3 e
    simp only [hr, hd]
  · intro i
    rw [broadcastInDim_apply ![] bcast_S_S100000x32 (constant (F := Ideal) S_ FTy.f32 0#32) i ix0 (fun a => a.elim0)]
    exact Ideal.ofBits_zero_f32

/-! ## What the arrays hold at the boundaries -/

/-- The side-by-side weight table at region 0's entry: the two argument tables laid side by side. -/
theorem v5_at1 (c : Dev nD) :
    cur (a := 14) (b := 64) (W1 (F := Ideal) m ρ c (Proc.devRef .tc main_v5))
      = cat (cur (a := 14) (b := 32) (m ((c : Thread nD τ).loc main_arg1))) (cur (a := 14) (b := 32) (m ((c : Thread nD τ).loc main_arg3))) := by
  show cur (a := 14) (b := 64) (StableHlo.after hostOps0 (W0 (F := Ideal) m ρ c) (Proc.devRef .tc main_v5)) = _
  after_results
  exact cur_concat _ _ _

/-- The bias as a one-row table at region 1's entry: entry `(0, j)` is the bias vector's entry `j` (the same row-major
    position). -/
theorem v17_at3 (c : Dev nD) (j : Fin 32) :
    cur (a := 1) (b := 32) (W3 (F := Ideal) m ρ c (Proc.devRef .tc main_v17)) 0 j = vec (a := 32) (m ((c : Thread nD τ).loc main_arg2)) j := by
  show (StableHlo.after hostOps1 (W2 (F := Ideal) m ρ c) (Proc.devRef .tc main_v17)) (ix2 (0 : Fin 1) j) = _
  after_results
  show shapeCast S1x32 (W2 (F := Ideal) m ρ c (Proc.devRef .tc main_arg2)) shapeCasts_S32_S1x32 (ix2 (0 : Fin 1) j) = _
  rw [arg2_at2]
  exact shapeCast_apply _ shapeCasts_S32_S1x32 (ix2 (0 : Fin 1) j) (ix1 j) (by
    rw [Shape.rowMajor_val_one, Shape.rowMajor_val_two]
    show j.val = 0 * 32 + j.val
    omega)

/-- The first output array of region 0 at its exit: the node table times the left half of the side-by-side table. -/
theorem v6_0_at2 (c : Dev nD) :
    W2 (F := Ideal) m ρ c (Proc.devRef .tc main_v6_0)
      = tbl (mm (cur (a := 100000) (b := 14) (V1 (F := Ideal) m ρ c main_arg0)) (lo (cur (a := 14) (b := 64) (V1 (F := Ideal) m ρ c main_v5)))) :=
  (W2_arr (F := Ideal) m ρ c 2).trans (reg0_t (V1 m ρ) c)

/-- The second output array of region 0 at its exit: the node table times the right half. -/
theorem v6_1_at2 (c : Dev nD) :
    W2 (F := Ideal) m ρ c (Proc.devRef .tc main_v6_1)
      = tbl (mm (cur (a := 100000) (b := 14) (V1 (F := Ideal) m ρ c main_arg0)) (hi (cur (a := 14) (b := 64) (V1 (F := Ideal) m ρ c main_v5)))) :=
  (W2_arr (F := Ideal) m ρ c 3).trans (reg0_root (V1 m ρ) c)

/-- No operation between the two regions writes region 0's second output. -/
theorem v6_1_at3 (c : Dev nD) :
    W3 (F := Ideal) m ρ c (Proc.devRef .tc main_v6_1) = W2 (F := Ideal) m ρ c (Proc.devRef .tc main_v6_1) :=
  StableHlo.after_of_forall_not_mem (b := Proc.devRef .tc main_v6_1) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The output array of region 1 at its exit: entry by entry the sum of its three inputs, clipped below at zero. -/
theorem v18_at4 (c : Dev nD) :
    W4 (F := Ideal) m ρ c (Proc.devRef .tc main_v18)
      = tbl (fun n j => max (cur (a := 100000) (b := 32) (V3 (F := Ideal) m ρ c main_v16) n j + cur (a := 100000) (b := 32) (V3 (F := Ideal) m ρ c main_v6_1) n j
          + cur (a := 1) (b := 32) (V3 (F := Ideal) m ρ c main_v17) 0 j) 0) :=
  (W4_arr (F := Ideal) m ρ c 3).trans (reg1_out (V3 m ρ) c)

/-- The array of neighbour sums at region 1's entry: the neighbour sum of region 0's first output along the source and
    destination word vectors as the boundary after region 0 holds them. -/
theorem v16_at3 (c : Dev nD) :
    cur (a := 100000) (b := 32) (W3 (F := Ideal) m ρ c (Proc.devRef .tc main_v16))
      = nbr (cur (a := 100000) (b := 32) (W2 (F := Ideal) m ρ c (Proc.devRef .tc main_v6_0)))
          (fun e : Fin 2500000 => EdgeAgg.clampTo 100000 (by decide) (normWord (W2 (F := Ideal) m ρ c (Proc.devRef .tc main_v1) (ix1 e))))
          (fun n : Fin 100000 => Finset.univ.filter fun e : Fin 2500000 => (W2 (F := Ideal) m ρ c (Proc.devRef .tc main_v3) (ix1 e)).toInt = (n.val : Int)) := by
  show cur (a := 100000) (b := 32) (StableHlo.after hostOps1 (W2 (F := Ideal) m ρ c) (Proc.devRef .tc main_v16)) = _
  after_results
  exact nbr_host _ _ _

end Layer0

open Layer0

/-- The node table after layer 0, as the layer with the projection taken before the neighbour sum. -/
theorem layer0 (c : Dev nD) :
    cur (a := 100000) (b := 32) (W4 (F := Ideal) m ρ c (Proc.devRef .tc main_v18))
      = kLayer (cur (a := 100000) (b := 14) (m ((c : Thread nD τ).loc main_arg0)))
          (cur (a := 14) (b := 32) (m ((c : Thread nD τ).loc main_arg1))) (cur (a := 14) (b := 32) (m ((c : Thread nD τ).loc main_arg3))) (vec (a := 32) (m ((c : Thread nD τ).loc main_arg2)))
          (srcRow (P := 2500000) (m ((c : Thread nD τ).loc main_arg11))) (inEdges (P := 2500000) (m ((c : Thread nD τ).loc main_arg11))) := by
  -- the node table and the side-by-side weight table at region 0's entry
  have h0 : cur (a := 100000) (b := 14) (V1 (F := Ideal) m ρ c main_arg0)
      = cur (a := 100000) (b := 14) (m ((c : Thread nD τ).loc main_arg0)) :=
    congrArg (cur (a := 100000) (b := 14)) (arg0_at1 m ρ c)
  have h5 : cur (a := 14) (b := 64) (V1 (F := Ideal) m ρ c main_v5)
      = cat (cur (a := 14) (b := 32) (m ((c : Thread nD τ).loc main_arg1))) (cur (a := 14) (b := 32) (m ((c : Thread nD τ).loc main_arg3))) :=
    v5_at1 m ρ c
  -- the two projections: the halves of the side-by-side table are the two argument tables
  have hA : cur (a := 100000) (b := 32) (W2 (F := Ideal) m ρ c (Proc.devRef .tc main_v6_0))
      = mm (cur (a := 100000) (b := 14) (m ((c : Thread nD τ).loc main_arg0))) (cur (a := 14) (b := 32) (m ((c : Thread nD τ).loc main_arg1))) := by
    rw [v6_0_at2, cur_tbl, h0, h5, lo_cat]
  have hB : cur (a := 100000) (b := 32) (V3 (F := Ideal) m ρ c main_v6_1)
      = mm (cur (a := 100000) (b := 14) (m ((c : Thread nD τ).loc main_arg0))) (cur (a := 14) (b := 32) (m ((c : Thread nD τ).loc main_arg3))) := by
    show cur (a := 100000) (b := 32) (W3 (F := Ideal) m ρ c (Proc.devRef .tc main_v6_1)) = _
    rw [v6_1_at3, v6_1_at2, cur_tbl, h0, h5, hi_cat]
  -- the rows the edges read and the edges that land on a node, off the two rows of the edge array
  have hr : (fun e : Fin 2500000 => EdgeAgg.clampTo 100000 (by decide) (normWord (W2 (F := Ideal) m ρ c (Proc.devRef .tc main_v1) (ix1 e))))
      = srcRow (P := 2500000) (m ((c : Thread nD τ).loc main_arg11)) := by
    funext e
    rw [v1_at2, W1_v1_apply]
    rfl
  have hD : (fun n : Fin 100000 => Finset.univ.filter fun e : Fin 2500000 => (W2 (F := Ideal) m ρ c (Proc.devRef .tc main_v3) (ix1 e)).toInt = (n.val : Int))
      = inEdges (P := 2500000) (m ((c : Thread nD τ).loc main_arg11)) := by
    funext n
    show (Finset.univ.filter fun e : Fin 2500000 => (W2 (F := Ideal) m ρ c (Proc.devRef .tc main_v3) (ix1 e)).toInt = (n.val : Int))
      = Finset.univ.filter fun e : Fin 2500000 => (m ((c : Thread nD τ).loc main_arg11) (ix2 (1 : Fin 2) e)).toInt = (n.val : Int)
    refine Finset.filter_congr fun e _ => ?_
    rw [v3_at2, W1_v3_apply]
  -- the neighbour sum of the first projection
  have hN : cur (a := 100000) (b := 32) (V3 (F := Ideal) m ρ c main_v16)
      = nbr (mm (cur (a := 100000) (b := 14) (m ((c : Thread nD τ).loc main_arg0))) (cur (a := 14) (b := 32) (m ((c : Thread nD τ).loc main_arg1))))
          (srcRow (P := 2500000) (m ((c : Thread nD τ).loc main_arg11))) (inEdges (P := 2500000) (m ((c : Thread nD τ).loc main_arg11))) := by
    show cur (a := 100000) (b := 32) (W3 (F := Ideal) m ρ c (Proc.devRef .tc main_v16)) = _
    rw [v16_at3, hA, hr, hD]
  -- entry by entry: the neighbour sum, the second projection and the bias, clipped
  rw [v18_at4, cur_tbl]
  funext n j
  rw [hN, hB]
  show max (_ + _ + cur (a := 1) (b := 32) (W3 (F := Ideal) m ρ c (Proc.devRef .tc main_v17)) 0 j) 0 = _
  rw [v17_at3]
  rfl

end Cert.KernelIdeal.Val

end
-- ==== Proof.RegProj2.lean ====
/-
  Region 2: every block of ten thousand node rows is multiplied by the side-by-side weight table; the left half of
  the product goes to one output array and the right half to the other. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

/-! ## The product at an index -/

/-- The product's left operand is read at the output's row and the contraction's position … -/
theorem reg2_lhs_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem reg2_lhs_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- … and the right operand at the contraction's position and the output's column. -/
theorem reg2_rhs_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem reg2_rhs_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The whole product of a block of rows with the weight table, entry by entry: the sum over the shared axis. -/
theorem reg2_prod_apply (x0 : Vec Ideal S10000x32 .f32) (x1 : Vec Ideal S32x64 .f32) (p : Fin 10000) (r : Fin 64) :
    k2_pay1 (F := Ideal) x0 x1 (ix2 p r) = ∑ k : Fin 32, x0 (ix2 p k) * x1 (ix2 k r) := by
  unfold k2_pay1
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p r) ((contrEquiv1 dot_S10000x32_S32x64_S10000x64_1_0_0_1_n_n 32 rfl rfl).symm k) = ix2 p k := funext fun a => Fin.ext (by
    match a with
    | ⟨0, _⟩ => exact reg2_lhs_0 _ _
    | ⟨1, _⟩ => exact (reg2_lhs_1 _ _).trans hk)
  have er : dot_S10000x32_S32x64_S10000x64_1_0_0_1_n_n.rhsIdx (ix2 p r) ((contrEquiv1 dot_S10000x32_S32x64_S10000x64_1_0_0_1_n_n 32 rfl rfl).symm k) = ix2 k r := funext fun a => Fin.ext (by
    match a with
    | ⟨0, _⟩ => exact (reg2_rhs_0 _ _).trans hk
    | ⟨1, _⟩ => exact reg2_rhs_1 _ _)
  rw [el, er, truncf_apply, truncf_apply, shapeCast_self, shapeCast_self]

/-- The left half of the product, entry by entry. -/
theorem reg2_left_apply (x0 : Vec Ideal S10000x32 .f32) (x1 : Vec Ideal S32x64 .f32) (p : Fin 10000) (q : Fin 32) :
    k2_pay2 (F := Ideal) x0 x1 (ix2 p q) = ∑ k : Fin 32, x0 (ix2 p k) * x1 (ix2 k (⟨q.val, by have := q.isLt; omega⟩ : Fin 64)) := by
  unfold k2_pay2
  refine (extractStridedSlice_apply _ _ _ (ix2 p q) (ix2 p (⟨q.val, by have := q.isLt; omega⟩ : Fin 64)) (fun a => ?_)).trans (reg2_prod_apply x0 x1 p _)
  match a with
  | ⟨0, _⟩ => show p.val = 0 + p.val; omega
  | ⟨1, _⟩ => show q.val = 0 + q.val; omega

/-- The right half of the product, entry by entry. -/
theorem reg2_right_apply (x0 : Vec Ideal S10000x32 .f32) (x1 : Vec Ideal S32x64 .f32) (p : Fin 10000) (q : Fin 32) :
    k2_pay3 (F := Ideal) x0 x1 (ix2 p q) = ∑ k : Fin 32, x0 (ix2 p k) * x1 (ix2 k (⟨32 + q.val, by have := q.isLt; omega⟩ : Fin 64)) := by
  unfold k2_pay3
  refine (extractStridedSlice_apply _ _ _ (ix2 p q) (ix2 p (⟨32 + q.val, by have := q.isLt; omega⟩ : Fin 64)) (fun a => ?_)).trans (reg2_prod_apply x0 x1 p _)
  match a with
  | ⟨0, _⟩ => show p.val = 0 + p.val; omega
  | ⟨1, _⟩ => show 32 + q.val = 32 + q.val; rfl

variable (V : (c : Dev nD) → (b : Ref sig .tc) → Buf (Elt Ideal) ((c : Thread nD τ).loc b))

/-! ## From the blocks to the arrays -/

/-- The zero offsets, however spelt. -/
theorem reg2_hz : (![0, 0] : Fin 2 → Nat) = fun _ => 0 :=
  funext fun a => by match a with | ⟨0, _⟩ => rfl | ⟨1, _⟩ => rfl

/-- The index maps over the grid: the node rows and both outputs move one block of rows per point, the weight
    table stays. -/
theorem reg2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What the body leaves in the first output's buffer is the left half of the product of its two blocks. -/
theorem reg2_out_left (x0 : Vec Ideal S10000x32 .f32) (x1 : Vec Ideal S32x64 .f32) :
    out2_2 (F := Ideal) x0 x1 = k2_pay2 x0 x1 := by
  unfold out2_2
  rw [View.canon_unit_zero reg2_hz]
  simp only [View.ld_unit_zero (S := S10000x32) reg2_hz, View.ld_unit_zero (S := S32x64) reg2_hz]

/-- What the body leaves in the second output's buffer is the right half of the product of its two blocks. -/
theorem reg2_out_right (x0 : Vec Ideal S10000x32 .f32) (x1 : Vec Ideal S32x64 .f32) :
    out2_3 (F := Ideal) x0 x1 = k2_pay3 x0 x1 := by
  unfold out2_3
  rw [View.canon_unit_zero reg2_hz]
  simp only [View.ld_unit_zero (S := S10000x32) reg2_hz, View.ld_unit_zero (S := S32x64) reg2_hz]

/-- The node table as the region finds it. -/
abbrev reg2_nodes (c : Dev nD) : Tbl 100000 32 := V c (Pipeline.arrRef spec2 0)
/-- The side-by-side weight table as the region finds it. -/
abbrev reg2_wts (c : Dev nD) : Tbl 32 64 := V c (Pipeline.arrRef spec2 1)

/-- The node rows' block at point `t` is rows `10000 t … 10000 t + 9999` of the node table. -/
theorem reg2_rows (c : Dev nD) (t : Fin cfg2.N) (y : S10000x32.Idx) (i : S100000x32.Idx)
    (h0 : (i 0).val = 10000 * t.val + (y 0).val) (h1 : (i 1).val = (y 1).val) :
    (iblk2 (F := Ideal) V c 0 t : Vec Ideal S10000x32 .f32) y = reg2_nodes V c i := by
  obtain ⟨e0, e1, -⟩ := reg2_idx t
  unfold iblk2
  show reg2_nodes V c (((cfg2.win 0).blk t).view.emb y) = _
  refine congrArg (reg2_nodes V c) (funext fun a => Fin.ext ?_)
  match a with
  | ⟨0, _⟩ => show win2_0.index t (0 : Fin 2) * 10000 + 1 * (y 0).val = (i 0).val; rw [e0, h0]; omega
  | ⟨1, _⟩ => show win2_0.index t (1 : Fin 2) * 32 + 1 * (y 1).val = (i 1).val; rw [e1, h1]; omega

/-- The weight table's block at every point is the whole table. -/
theorem reg2_weights (c : Dev nD) (t : Fin cfg2.N) (y : S32x64.Idx) :
    (iblk2 (F := Ideal) V c 1 t : Vec Ideal S32x64 .f32) y = reg2_wts V c y := by
  obtain ⟨-, -, e0, e1, -⟩ := reg2_idx t
  unfold iblk2
  show reg2_wts V c (((cfg2.win 1).blk t).view.emb y) = _
  refine congrArg (reg2_wts V c) (funext fun a => Fin.ext ?_)
  match a with
  | ⟨0, _⟩ => show win2_1.index t (0 : Fin 2) * 32 + 1 * (y 0).val = (y 0).val; rw [e0]; omega
  | ⟨1, _⟩ => show win2_1.index t (1 : Fin 2) * 64 + 1 * (y 1).val = (y 1).val; rw [e1]; omega

/-- One entry of the left half of the product of the blocks at point `t` is the entry of the whole arrays' product
    in the row that the block's row is of the table. -/
theorem reg2_entry_left (c : Dev nD) (t : Fin cfg2.N) (p : Fin 10000) (q : Fin 32) (P : Fin 100000)
    (hP : P.val = 10000 * t.val + p.val) :
    k2_pay2 (F := Ideal) (iblk2 V c 0 t) (iblk2 V c 1 t) (ix2 p q)
      = tbl (mm (cur (reg2_nodes V c)) (lo (cur (reg2_wts V c)))) (ix2 P q) := by
  refine (reg2_left_apply (iblk2 V c 0 t) (iblk2 V c 1 t) p q).trans ?_
  show _ = ∑ k : Fin 32, reg2_nodes V c (ix2 P k)
      * reg2_wts V c (ix2 k (⟨q.val, by have := q.isLt; omega⟩ : Fin 64))
  refine Finset.sum_congr rfl fun k _ => ?_
  exact congrArg₂ (· * ·) (reg2_rows V c t (ix2 p k) (ix2 P k) hP rfl) (reg2_weights V c t (ix2 k _))

/-- One entry of the right half, likewise. -/
theorem reg2_entry_right (c : Dev nD) (t : Fin cfg2.N) (p : Fin 10000) (q : Fin 32) (P : Fin 100000)
    (hP : P.val = 10000 * t.val + p.val) :
    k2_pay3 (F := Ideal) (iblk2 V c 0 t) (iblk2 V c 1 t) (ix2 p q)
      = tbl (mm (cur (reg2_nodes V c)) (hi (cur (reg2_wts V c)))) (ix2 P q) := by
  refine (reg2_right_apply (iblk2 V c 0 t) (iblk2 V c 1 t) p q).trans ?_
  show _ = ∑ k : Fin 32, reg2_nodes V c (ix2 P k)
      * reg2_wts V c (ix2 k (⟨32 + q.val, by have := q.isLt; omega⟩ : Fin 64))
  refine Finset.sum_congr rfl fun k _ => ?_
  exact congrArg₂ (· * ·) (reg2_rows V c t (ix2 p k) (ix2 P k) hP rfl) (reg2_weights V c t (ix2 k _))

/-- What point `t` writes back to the first output is block `t` of the left half of the whole arrays' product. -/
theorem reg2_flushed_left (c : Dev nD) (t : Fin cfg2.N) :
    (dat2 (F := Ideal) V c).flushed 2 t = ((cfg2.win 2).blk t).view.read (Elt Ideal)
      (tbl (mm (cur (reg2_nodes V c)) (lo (cur (reg2_wts V c))))) := by
  show (cfg2.win 2).cut (grid2.coords t) ((dat2 V c).after 2 t) = _
  rw [after2_2, reg2_out_left]
  obtain ⟨-, -, -, -, e0, e1, -⟩ := reg2_idx t
  funext j
  have hj0 : (j 0).val < 10000 := (j 0).isLt
  have hj1 : (j 1).val < 32 := (j 1).isLt
  have ht : t.val < 10 := lt_of_lt_of_eq t.isLt N_2
  have hx : (cfg2.win 2).xinj (grid2.coords t) j = ix2 (⟨(j 0).val, hj0⟩ : Fin 10000) (⟨(j 1).val, hj1⟩ : Fin 32) :=
    funext fun a => by match a with | ⟨0, _⟩ => rfl | ⟨1, _⟩ => rfl
  have hemb : ((cfg2.win 2).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win2_2.index t (0 : Fin 2) * 10000 + 1 * (j 0).val = 10000 * t.val + (j 0).val; rw [e0]; omega
      | ⟨1, _⟩ => show win2_2.index t (1 : Fin 2) * 32 + 1 * (j 1).val = (j 1).val; rw [e1]; omega)
  show k2_pay2 (F := Ideal) (iblk2 V c 0 t) (iblk2 V c 1 t) ((cfg2.win 2).xinj (grid2.coords t) j)
    = (tbl (mm (cur (reg2_nodes V c)) (lo (cur (reg2_wts V c)))) : S100000x32.Idx → EReal)
        (((cfg2.win 2).blk t).view.emb j)
  rw [hx, hemb]
  exact reg2_entry_left V c t _ _ _ rfl

/-- What point `t` writes back to the second output is block `t` of the right half of the whole arrays' product. -/
theorem reg2_flushed_right (c : Dev nD) (t : Fin cfg2.N) :
    (dat2 (F := Ideal) V c).flushed 3 t = ((cfg2.win 3).blk t).view.read (Elt Ideal)
      (tbl (mm (cur (reg2_nodes V c)) (hi (cur (reg2_wts V c))))) := by
  show (cfg2.win 3).cut (grid2.coords t) ((dat2 V c).after 3 t) = _
  rw [after2_3, reg2_out_right]
  obtain ⟨-, -, -, -, -, -, e0, e1⟩ := reg2_idx t
  funext j
  have hj0 : (j 0).val < 10000 := (j 0).isLt
  have hj1 : (j 1).val < 32 := (j 1).isLt
  have ht : t.val < 10 := lt_of_lt_of_eq t.isLt N_2
  have hx : (cfg2.win 3).xinj (grid2.coords t) j = ix2 (⟨(j 0).val, hj0⟩ : Fin 10000) (⟨(j 1).val, hj1⟩ : Fin 32) :=
    funext fun a => by match a with | ⟨0, _⟩ => rfl | ⟨1, _⟩ => rfl
  have hemb : ((cfg2.win 3).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win2_3.index t (0 : Fin 2) * 10000 + 1 * (j 0).val = 10000 * t.val + (j 0).val; rw [e0]; omega
      | ⟨1, _⟩ => show win2_3.index t (1 : Fin 2) * 32 + 1 * (j 1).val = (j 1).val; rw [e1]; omega)
  show k2_pay3 (F := Ideal) (iblk2 V c 0 t) (iblk2 V c 1 t) ((cfg2.win 3).xinj (grid2.coords t) j)
    = (tbl (mm (cur (reg2_nodes V c)) (hi (cur (reg2_wts V c)))) : S100000x32.Idx → EReal)
        (((cfg2.win 3).blk t).view.emb j)
  rw [hx, hemb]
  exact reg2_entry_right V c t _ _ _ rfl

/-- An index of the first output is in point `t`'s block iff each coordinate is in the block's range on its axis. -/
theorem reg2_mem_left (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole (Pipeline.arrRef spec2 2)).slice (win2_2.rect t)).set ↔ _
  rw [View.set_slice_whole, Rect.mem_set_unit]
  exact Iff.rfl

/-- The same for the second output. -/
theorem reg2_mem_right (t : Fin cfg2.N) (i : S100000x32.Idx) :
    i ∈ ((cfg2.win 3).blk t).view.set ↔ ∀ a : Fin 2, win2_3.index t a * S10000x32.size a ≤ (i a).val
      ∧ (i a).val < win2_3.index t a * S10000x32.size a + S10000x32.size a := by
  show i ∈ ((View.whole (Pipeline.arrRef spec2 3)).slice (win2_3.rect t)).set ↔ _
  rw [View.set_slice_whole, Rect.mem_set_unit]
  exact Iff.rfl

/-- Every row of the first output is in the block of the point that is its row number over ten thousand. -/
theorem reg2_cover_left (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, e0, e1, -⟩ := reg2_idx t
  refine ⟨t, flush2_2 t, ?_⟩
  rw [reg2_mem_left]
  intro a
  match a with
  | ⟨0, _⟩ =>
    show win2_2.index t (0 : Fin 2) * 10000 ≤ (i 0).val ∧ (i 0).val < win2_2.index t (0 : Fin 2) * 10000 + 10000
    rw [e0, ht]; omega
  | ⟨1, _⟩ =>
    show win2_2.index t (1 : Fin 2) * 32 ≤ (i 1).val ∧ (i 1).val < win2_2.index t (1 : Fin 2) * 32 + 32
    rw [e1]; omega

/-- The same for the second output. -/
theorem reg2_cover_right (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, e0, e1⟩ := reg2_idx t
  refine ⟨t, flush2_3 t, ?_⟩
  rw [reg2_mem_right]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 32 ≤ (i 1).val ∧ (i 1).val < win2_3.index t (1 : Fin 2) * 32 + 32
    rw [e1]; omega

/-- The first output array of region 2: the node table times the left half of the weight table. -/
theorem reg2_t (c : Dev nD) :
    (dat2 (F := Ideal) V c).arrAt 2 cfg2.N = tbl (mm (cur (a := 100000) (b := 32) (V c main_v18)) (lo (cur (a := 32) (b := 64) (V c main_v25)))) :=
  (dat2 (F := Ideal) V c).arrAt_eq_of_cover 2 (tbl (mm (cur (reg2_nodes V c)) (lo (cur (reg2_wts V c)))))
    (fun t _ => reg2_flushed_left V c t) reg2_cover_left

/-- The second output array of region 2: the node table times the right half of the weight table. -/
theorem reg2_root (c : Dev nD) :
    (dat2 (F := Ideal) V c).arrAt 3 cfg2.N = tbl (mm (cur (a := 100000) (b := 32) (V c main_v18)) (hi (cur (a := 32) (b := 64) (V c main_v25)))) :=
  (dat2 (F := Ideal) V c).arrAt_eq_of_cover 3 (tbl (mm (cur (reg2_nodes V c)) (hi (cur (reg2_wts V c)))))
    (fun t _ => reg2_flushed_right V c t) reg2_cover_right

end Cert.KernelIdeal.Val

end
-- ==== Proof.RegComb3.lean ====
/-
  Region 3: entry by entry, the neighbour sum plus the node's own projection plus the bias of its column, clipped
  below at zero. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (V : (c : Dev nD) → (b : Ref sig .tc) → Buf (Elt Ideal) ((c : Thread nD τ).loc b))

/-- The zero offsets of a whole-buffer access, as the constant function. -/
theorem reg3_zero_off : (![0, 0] : Fin 2 → Nat) = fun _ => 0 := funext fun a => by fin_cases a <;> rfl

/-- The payload at an entry: the two blocks' entries and the bias of the column added, clipped below at zero. The
    bias block has one row, so every row of the sum reads its row 0. -/
theorem reg3_pay_apply (xa xb : Vec Ideal S10000x32 .f32) (xc : Vec Ideal S1x32 .f32) (p : Fin 10000) (q : Fin 32) :
    k3_pay1 xa xb xc (ix2 p q) = max (xa (ix2 p q) + xb (ix2 p q) + xc (ix2 (0 : Fin 1) q)) 0 := by
  unfold k3_pay1
  rw [maximumf_apply, addf_apply, addf_apply, broadcast_apply, shapeCast_self, shapeCast_self, shapeCast_self,
    broadcastTo_apply xc broadcasts_S1x32_S10000x32 (ix2 p q) (ix2 (0 : Fin 1) q)
      (fun a => by match a with | ⟨0, _⟩ => rfl | ⟨1, _⟩ => rfl),
    show (FloatOps.ofBits FTy.f32 0#32 : Ideal .f32) = 0 from Ideal.ofBits_zero_f32]

/-- The index maps over the ten points: the two row-block inputs move with the output, block `t` on the row axis and
    block 0 on the column axis; the bias window stays at block (0, 0). -/
theorem reg3_idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The clipped sum as one function of the three whole arrays: at row `n`, column `j`, the two tables' entries and
    the bias of column `j` added, clipped below at zero. -/
def reg3_comb (a b : S100000x32.Idx → EReal) (bias : S1x32.Idx → EReal) : S100000x32.Idx → EReal :=
  fun i => max (a (ix2 (i 0) (i 1)) + b (ix2 (i 0) (i 1)) + bias (ix2 (0 : Fin 1) (i 1))) 0

/-- An entry of the payload is the clipped sum at the array index `i`, once each block's entry is its array's entry
    at `i` and the bias block's entry is the bias of `i`'s column. -/
theorem reg3_pay_eq_comb (A B : S100000x32.Idx → EReal) (bias : S1x32.Idx → EReal)
    (xa xb : Vec Ideal S10000x32 .f32) (xc : Vec Ideal S1x32 .f32) (j : S10000x32.Idx) (i : S100000x32.Idx)
    (ha : xa (ix2 (j 0) (j 1)) = A (ix2 (i 0) (i 1))) (hb : xb (ix2 (j 0) (j 1)) = B (ix2 (i 0) (i 1)))
    (hc : xc (ix2 (0 : Fin 1) (j 1)) = bias (ix2 (0 : Fin 1) (i 1))) :
    k3_pay1 xa xb xc j = reg3_comb A B bias i := by
  refine (congrArg (k3_pay1 xa xb xc) (eq_ix2 j)).trans ((reg3_pay_apply xa xb xc (j 0) (j 1)).trans ?_)
  rw [ha, hb, hc]
  rfl

/-- WHAT POINT `t` WRITES BACK is block `t` of the clipped sum of the three arrays as the region finds them: the two
    row-block windows sit on the output block's own rows `10000 t … 10000 t + 9999` and columns, and the bias window's
    one block is the whole bias row. A block's coordinate on an axis is its index times its size plus the coordinate
    inside the block. -/
theorem reg3_flushed_eq (c : Dev nD) (t : Fin cfg3.N) :
    (dat3 (F := Ideal) V c).flushed 3 t
      = ((cfg3.win 3).blk t).view.read (Elt Ideal) (reg3_comb (V c main_v36) (V c main_v26_1) (V c main_v37)) := by
  show (cfg3.win 3).cut (grid3.coords t) ((dat3 V c).after 3 t) = _
  rw [after3_3]
  unfold out3_3
  rw [View.canon_unit_zero reg3_zero_off]
  simp only [View.ld_unit_zero (S := S10000x32) reg3_zero_off, View.ld_unit_zero (S := S1x32) reg3_zero_off]
  obtain ⟨hxrow, hxcol, hyrow, hycol, hbrow, hbcol, horow, hocol⟩ := reg3_idx_facts t
  funext j
  have hp : (j 0).val < 10000 := (j 0).isLt
  have hq : (j 1).val < 32 := (j 1).isLt
  refine reg3_pay_eq_comb (V c main_v36) (V c main_v26_1) (V c main_v37) (iblk3 V c 0 t) (iblk3 V c 1 t) (iblk3 V c 2 t) j
    (((cfg3.win 3).blk t).view.emb j) ?_ ?_ ?_
  · show V c main_v36 (((cfg3.win 0).blk t).view.emb (ix2 (j 0) (j 1))) = _
    refine congrArg (V c main_v36) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 32 + 1 * (j 1).val = win3_3.index t (1 : Fin 2) * 32 + 1 * (j 1).val; omega
  · show V c main_v26_1 (((cfg3.win 1).blk t).view.emb (ix2 (j 0) (j 1))) = _
    refine congrArg (V c main_v26_1) (funext fun a => Fin.ext ?_)
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 32 + 1 * (j 1).val = win3_3.index t (1 : Fin 2) * 32 + 1 * (j 1).val; omega
  · show V c main_v37 (((cfg3.win 2).blk t).view.emb (ix2 (0 : Fin 1) (j 1))) = _
    refine congrArg (V c main_v37) (funext fun a => Fin.ext ?_)
    match a with
    | ⟨0, _⟩ => show win3_2.index t (0 : Fin 2) * 1 + 1 * 0 = 0; omega
    | ⟨1, _⟩ => show win3_2.index t (1 : Fin 2) * 32 + 1 * (j 1).val = win3_3.index t (1 : Fin 2) * 32 + 1 * (j 1).val; omega

/-- An index of the array is in point `t`'s block iff each coordinate is in the block's range on its axis. -/
theorem reg3_mem_blk (t : Fin cfg3.N) (i : S100000x32.Idx) :
    i ∈ ((cfg3.win 3).blk t).view.set ↔ ∀ a : Fin 2, win3_3.index t a * S10000x32.size a ≤ (i a).val
      ∧ (i a).val < win3_3.index t a * S10000x32.size a + S10000x32.size a := by
  show i ∈ ((View.whole (Pipeline.arrRef spec3 3)).slice (win3_3.rect t)).set ↔ _
  rw [View.set_slice_whole, Rect.mem_set_unit]
  exact Iff.rfl

/-- The ten row blocks tile the array: row `r` lies in the block of point `r / 10000`, and the one column block
    holds every column. -/
theorem reg3_cover (i : S100000x32.Idx) :
    ∃ t : Fin cfg3.N, (cfg3.win 3).flush t = true ∧ i ∈ ((cfg3.win 3).blk t).view.set := by
  have hrow : (i 0).val < 100000 := (i 0).isLt
  have hcol : (i 1).val < 32 := (i 1).isLt
  have hN : cfg3.N = 10 := by decide
  obtain ⟨t, ht⟩ : ∃ t : Fin cfg3.N, t.val = (i 0).val / 10000 := ⟨⟨(i 0).val / 10000, by rw [hN]; omega⟩, rfl⟩
  obtain ⟨-, -, -, -, -, -, horow, hocol⟩ := reg3_idx_facts t
  refine ⟨t, flush3_3 t, ?_⟩
  rw [reg3_mem_blk]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 32 ≤ (i 1).val ∧ (i 1).val < win3_3.index t (1 : Fin 2) * 32 + 32
    omega

/-- The output array of region 3. -/
theorem reg3_out (c : Dev nD) :
    (dat3 (F := Ideal) V c).arrAt 3 cfg3.N
      = tbl (fun n j => max (cur (a := 100000) (b := 32) (V c main_v36) n j + cur (a := 100000) (b := 32) (V c main_v26_1) n j
          + cur (a := 1) (b := 32) (V c main_v37) 0 j) 0) := by
  exact (dat3 V c).arrAt_eq_of_cover 3 (reg3_comb (V c main_v36) (V c main_v26_1) (V c main_v37))
    (fun t _ => reg3_flushed_eq V c t) reg3_cover

end Cert.KernelIdeal.Val

end
-- ==== Proof.KLayer1.lean ====
/-
  Layer 1 of the kernel's program, from the boundary before its weight tables are laid side by side to the boundary after
  its second region: the node rows are projected by both weight tables at once, the first projection travels along the
  edges and is summed at the destinations, and the sum, the second projection and the bias are joined and clipped.
-/
import Idealize.ShloMosaic.PureOps.Ideal.Laws
import Idealize.ShloMosaic.Lib.ValueIdx
import Idealize.ShloMosaic.Lib.Pipeline.Value
import proofs.«401169_j5540507812347_2_alg».proof.Proof.Gen.KernelIdeal.Frame
import proofs.«401169_j5540507812347_2_alg».proof.Proof.Spec
import proofs.«401169_j5540507812347_2_alg».proof.Proof.Keep
import proofs.«401169_j5540507812347_2_alg».proof.Proof.HostRead
import proofs.«401169_j5540507812347_2_alg».proof.Proof.RegProj2
import proofs.«401169_j5540507812347_2_alg».proof.Proof.RegComb3

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (m : (ℓ : Loc nD τ sig) → Buf (Elt Ideal) ℓ) (ρ : Dev nD → PrngReg)

/-! ## Host operations of a hidden layer read at an entry (the same for every hidden layer)

A hidden layer's weight tables are slabs of two stacks `[4, 32, 32]` and its bias a row of a table `[4, 32]`; its
neighbour sum is a row lookup at the normalised source words accumulated into zeros at the destination words. -/

namespace Hidden

/-- A slab `[1, 32, 32]` cut from a stack at offset `(o, 0, 0)` and read as a table `[32, 32]` is slab `o`. -/
theorem slab_of_slice (i : Fin 4) {o : Nat} (x : S4x32x32.Idx → EReal)
    (hs : S4x32x32.Slices ![o, 0, 0] S1x32x32) (hc : S1x32x32.ShapeCasts S32x32) (ho : o = i.val) :
    cur (a := 32) (b := 32) (shapeCast S32x32 (extractStridedSlice S1x32x32 ![o, 0, 0] x hs) hc)
      = slab (a := 4) (b := 32) (d := 32) x i := by
  funext p q
  show shapeCast S32x32 (extractStridedSlice S1x32x32 ![o, 0, 0] x hs) hc (ix2 p q) = x (ix3 i p q)
  refine (shapeCast_apply _ hc (ix2 p q) (ix3 (0 : Fin 1) p q) ?_).trans ?_
  · rw [Shape.rowMajor_val_three, Shape.rowMajor_val_two]
    show (0 * 32 + p.val) * 32 + q.val = p.val * 32 + q.val
    omega
  · refine extractStridedSlice_apply _ x hs (ix3 (0 : Fin 1) p q) (ix3 i p q) fun a => ?_
    match a with
    | ⟨0, _⟩ => show i.val = o + 0; omega
    | ⟨1, _⟩ => show p.val = 0 + p.val; omega
    | ⟨2, _⟩ => show q.val = 0 + q.val; omega

/-- A row `[1, 32]` cut from a table at offset `(o, 0)`, read as a vector `[32]` and again as a row `[1, 32]`, is
    row `o`. -/
theorem row_of_slice (i : Fin 4) {o : Nat} (x : S4x32.Idx → EReal)
    (hs : S4x32.Slices ![o, 0] S1x32) (hc : S1x32.ShapeCasts S32) (hc' : S32.ShapeCasts S1x32) (j : Fin 32) (ho : o = i.val) :
    shapeCast S1x32 (shapeCast S32 (extractStridedSlice S1x32 ![o, 0] x hs) hc) hc' (ix2 (0 : Fin 1) j)
      = rowOf (a := 4) (b := 32) x i j := by
  show _ = x (ix2 i j)
  refine (shapeCast_apply _ hc' (ix2 (0 : Fin 1) j) (ix1 j) ?_).trans ?_
  · rw [Shape.rowMajor_val_one, Shape.rowMajor_val_two]
    show j.val = 0 * 32 + j.val
    omega
  refine (shapeCast_apply _ hc (ix1 j) (ix2 (0 : Fin 1) j) ?_).trans ?_
  · rw [Shape.rowMajor_val_one, Shape.rowMajor_val_two]
    show 0 * 32 + j.val = j.val
    omega
  · refine extractStridedSlice_apply _ x hs (ix2 (0 : Fin 1) j) (ix2 i j) fun a => ?_
    match a with
    | ⟨0, _⟩ => show i.val = o + 0; omega
    | ⟨1, _⟩ => show j.val = 0 + j.val; omega

/-- The zero word spread over a table is zero at every entry. -/
theorem zeros_apply (i : S100000x32.Idx) :
    broadcastInDim S100000x32 ![] bcast_S_S100000x32 (constant (F := Ideal) S_ .f32 0x00000000#32) i = 0 := by
  refine (broadcastInDim_apply _ bcast_S_S100000x32 _ i ix0 fun a => a.elim0).trans ?_
  rw [constant_apply]
  exact Ideal.ofBits_zero_f32

/-- A vector of words as a column `[P, 1]`, read at `(e, 0)`. -/
theorem col_apply (v : IVec S2500000 32) (e : Fin 2500000) :
    broadcastInDim S2500000x1 ![0] bcast_S2500000_S2500000x1_0 v (ix2 e (0 : Fin 1)) = v (ix1 e) := by
  refine broadcastInDim_apply _ bcast_S2500000_S2500000x1_0 v (ix2 e (0 : Fin 1)) (ix1 e) fun a => ?_
  match a with
  | ⟨0, _⟩ =>
    show e.val = if (2500000 : Nat) = 1 then 0 else e.val
    rw [if_neg (by omega)]

/-- The source column: a word below zero (signed) has the row count added, read at `(e, 0)`. -/
theorem srcCol_apply (v : IVec S2500000 32) (e : Fin 2500000) :
    broadcastInDim S2500000x1 ![0] bcast_S2500000_S2500000x1_0
        (select (cmpi CmpIPredicate.slt v (broadcastInDim S2500000 ![] bcast_S_S2500000 (constantI S_ 32 0#32)))
          (addi v (broadcastInDim S2500000 ![] bcast_S_S2500000 (constantI S_ 32 100000#32))) v) (ix2 e (0 : Fin 1))
      = normWord (v (ix1 e)) := by
  rw [col_apply]
  rfl

/-- The lookup of whole rows at the source column accumulated into zeros at the destination column is the neighbour
    sum over the edges that land on a node, of the rows their normalised, clamped source words name. -/
theorem nbr_of_hostChain (x : S100000x32.Idx → EReal) (v1 v3 : IVec S2500000 32) :
    cur (a := 100000) (b := 32)
        (Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 v3)
          (Host.gather gather_S100000x32_S2500000x1_S2500000x32_1_0_n_n_0_1_132 x
            (broadcastInDim S2500000x1 ![0] bcast_S2500000_S2500000x1_0
              (select (cmpi CmpIPredicate.slt v1 (broadcastInDim S2500000 ![] bcast_S_S2500000 (constantI S_ 32 0#32)))
                (addi v1 (broadcastInDim S2500000 ![] bcast_S_S2500000 (constantI S_ 32 100000#32))) v1))))
      = nbr (cur (a := 100000) (b := 32) x) (fun e : Fin 2500000 => EdgeAgg.clampTo 100000 (by decide) (normWord (v1 (ix1 e))))
          (fun n : Fin 100000 => Finset.univ.filter fun e : Fin 2500000 => (v3 (ix1 e)).toInt = (n.val : Int)) := by
  have hrows := srcCol_apply v1
  have hdst := col_apply v3
  have hz := zeros_apply
  generalize broadcastInDim S2500000x1 ![0] bcast_S2500000_S2500000x1_0
      (select (cmpi CmpIPredicate.slt v1 (broadcastInDim S2500000 ![] bcast_S_S2500000 (constantI S_ 32 0#32)))
        (addi v1 (broadcastInDim S2500000 ![] bcast_S_S2500000 (constantI S_ 32 100000#32))) v1) = rows at hrows ⊢
  generalize broadcastInDim S2500000x1 ![0] bcast_S2500000_S2500000x1_0 v3 = dstc at hdst ⊢
  generalize broadcastInDim S100000x32 ![] bcast_S_S100000x32 (constant (F := Ideal) S_ .f32 0x00000000#32) = z at hz ⊢
  have e := nbr_of_lookup_accum (N := 100000) (C := 32) (P := 2500000) (by decide)
    gather_S100000x32_S2500000x1_S2500000x32_1_0_n_n_0_1_132_wf scatter_S100000x32_S2500000x1_S2500000x32_1_0_0_1_wf
    x rows dstc z hz
  simp only [hrows, hdst] at e
  exact e

end Hidden

/-! ## Layer 1, segment by segment -/

/-- The stretch that cuts the layer's weight tables and bias does not write the node table. -/
theorem W5_main_v18 (c : Dev nD) :
    W5 (F := Ideal) m ρ c (Proc.devRef .tc main_v18) = W4 (F := Ideal) m ρ c (Proc.devRef .tc main_v18) := by
  show StableHlo.after hostOps2 (W4 m ρ c) (Proc.devRef .tc main_v18) = _
  after_results_simp

/-- The side-by-side weight table: slab 0 of the first stack beside slab 0 of the second. -/
theorem cur_W5_main_v25 (c : Dev nD) :
    cur (a := 32) (b := 64) (W5 (F := Ideal) m ρ c (Proc.devRef .tc main_v25))
      = cat (slab (a := 4) (b := 32) (d := 32) (m ((c : Thread nD τ).loc main_arg4)) (0 : Fin 4))
          (slab (a := 4) (b := 32) (d := 32) (m ((c : Thread nD τ).loc main_arg6)) (0 : Fin 4)) := by
  have h : W5 (F := Ideal) m ρ c (Proc.devRef .tc main_v25)
      = concatenate S32x64 1
          [⟨S32x32, shapeCast S32x32 (extractStridedSlice S1x32x32 ![0, 0, 0] (W4 (F := Ideal) m ρ c (Proc.devRef .tc main_arg4))
              slices_S4x32x32_S1x32x32_0_0_0) shapeCasts_S1x32x32_S32x32⟩,
            ⟨S32x32, shapeCast S32x32 (extractStridedSlice S1x32x32 ![0, 0, 0] (W4 (F := Ideal) m ρ c (Proc.devRef .tc main_arg6))
              slices_S4x32x32_S1x32x32_0_0_0) shapeCasts_S1x32x32_S32x32⟩]
          concatenates_S32x32_S32x32_S32x64_d1 := by
    show StableHlo.after hostOps2 (W4 m ρ c) (Proc.devRef .tc main_v25) = _
    after_results
    rfl
  rw [h, cur_concat, Hidden.slab_of_slice (0 : Fin 4), Hidden.slab_of_slice (0 : Fin 4), arg4_at4, arg6_at4]
  all_goals rfl

/-- The first output of the projection region: the node table times slab 0 of the first stack. -/
theorem cur_W6_main_v26_0 (c : Dev nD) :
    cur (a := 100000) (b := 32) (W6 (F := Ideal) m ρ c (Proc.devRef .tc main_v26_0))
      = mm (cur (a := 100000) (b := 32) (W4 (F := Ideal) m ρ c (Proc.devRef .tc main_v18)))
          (slab (a := 4) (b := 32) (d := 32) (m ((c : Thread nD τ).loc main_arg4)) (0 : Fin 4)) := by
  have h6 : W6 (F := Ideal) m ρ c (Proc.devRef .tc main_v26_0) = (dat2 (F := Ideal) (V5 m ρ) c).arrAt 2 cfg2.N :=
    W6_arr m ρ c 2
  rw [h6, reg2_t, cur_tbl]
  show mm (cur (a := 100000) (b := 32) (W5 (F := Ideal) m ρ c (Proc.devRef .tc main_v18)))
      (lo (cur (a := 32) (b := 64) (W5 (F := Ideal) m ρ c (Proc.devRef .tc main_v25)))) = _
  rw [W5_main_v18, cur_W5_main_v25, lo_cat]

/-- The second output of the projection region, still there after the neighbour-sum stretch: the node table times
    slab 0 of the second stack. -/
theorem cur_W7_main_v26_1 (c : Dev nD) :
    cur (a := 100000) (b := 32) (W7 (F := Ideal) m ρ c (Proc.devRef .tc main_v26_1))
      = mm (cur (a := 100000) (b := 32) (W4 (F := Ideal) m ρ c (Proc.devRef .tc main_v18)))
          (slab (a := 4) (b := 32) (d := 32) (m ((c : Thread nD τ).loc main_arg6)) (0 : Fin 4)) := by
  have h7 : W7 (F := Ideal) m ρ c (Proc.devRef .tc main_v26_1) = W6 (F := Ideal) m ρ c (Proc.devRef .tc main_v26_1) := by
    show StableHlo.after hostOps3 (W6 m ρ c) (Proc.devRef .tc main_v26_1) = _
    after_results_simp
  have h6 : W6 (F := Ideal) m ρ c (Proc.devRef .tc main_v26_1) = (dat2 (F := Ideal) (V5 m ρ) c).arrAt 3 cfg2.N :=
    W6_arr m ρ c 3
  rw [h7, h6, reg2_root, cur_tbl]
  show mm (cur (a := 100000) (b := 32) (W5 (F := Ideal) m ρ c (Proc.devRef .tc main_v18)))
      (hi (cur (a := 32) (b := 64) (W5 (F := Ideal) m ρ c (Proc.devRef .tc main_v25)))) = _
  rw [W5_main_v18, cur_W5_main_v25, hi_cat]

/-- The neighbour-sum stretch: the first projection carried along the edges and summed at their destinations. -/
theorem cur_W7_main_v36 (c : Dev nD) :
    cur (a := 100000) (b := 32) (W7 (F := Ideal) m ρ c (Proc.devRef .tc main_v36))
      = nbr (mm (cur (a := 100000) (b := 32) (W4 (F := Ideal) m ρ c (Proc.devRef .tc main_v18)))
            (slab (a := 4) (b := 32) (d := 32) (m ((c : Thread nD τ).loc main_arg4)) (0 : Fin 4)))
          (srcRow (P := 2500000) (m ((c : Thread nD τ).loc main_arg11))) (inEdges (P := 2500000) (m ((c : Thread nD τ).loc main_arg11))) := by
  have h : W7 (F := Ideal) m ρ c (Proc.devRef .tc main_v36)
      = Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 (W6 (F := Ideal) m ρ c (Proc.devRef .tc main_v3)))
          (Host.gather gather_S100000x32_S2500000x1_S2500000x32_1_0_n_n_0_1_132 (W6 (F := Ideal) m ρ c (Proc.devRef .tc main_v26_0))
            (broadcastInDim S2500000x1 ![0] bcast_S2500000_S2500000x1_0
              (select (cmpi CmpIPredicate.slt (W6 (F := Ideal) m ρ c (Proc.devRef .tc main_v1)) (broadcastInDim S2500000 ![] bcast_S_S2500000 (constantI S_ 32 0#32)))
                (addi (W6 (F := Ideal) m ρ c (Proc.devRef .tc main_v1)) (broadcastInDim S2500000 ![] bcast_S_S2500000 (constantI S_ 32 100000#32)))
                (W6 (F := Ideal) m ρ c (Proc.devRef .tc main_v1))))) := by
    show StableHlo.after hostOps3 (W6 m ρ c) (Proc.devRef .tc main_v36) = _
    after_results_simp
  have hr : (fun e : Fin 2500000 => EdgeAgg.clampTo 100000 (by decide)
        (normWord (W6 (F := Ideal) m ρ c (Proc.devRef .tc main_v1) (ix1 e))))
      = srcRow (P := 2500000) (m ((c : Thread nD τ).loc main_arg11)) := by
    funext e
    rw [v1_at6, W1_v1_apply]
    rfl
  have hD : (fun n : Fin 100000 => Finset.univ.filter fun e : Fin 2500000 =>
        (W6 (F := Ideal) m ρ c (Proc.devRef .tc main_v3) (ix1 e)).toInt = (n.val : Int))
      = inEdges (P := 2500000) (m ((c : Thread nD τ).loc main_arg11)) := by
    funext n
    show _ = Finset.univ.filter fun e : Fin 2500000 =>
      (m ((c : Thread nD τ).loc main_arg11) (ix2 (1 : Fin 2) e)).toInt = (n.val : Int)
    refine Finset.filter_congr fun e _ => ?_
    rw [v3_at6, W1_v3_apply]
  rw [h, Hidden.nbr_of_hostChain, cur_W6_main_v26_0, hr, hD]

/-- The bias as a row `[1, 32]`: row 0 of the bias table. -/
theorem cur_W7_main_v37 (c : Dev nD) (j : Fin 32) :
    cur (a := 1) (b := 32) (W7 (F := Ideal) m ρ c (Proc.devRef .tc main_v37)) 0 j
      = rowOf (a := 4) (b := 32) (m ((c : Thread nD τ).loc main_arg5)) (0 : Fin 4) j := by
  have h7 : W7 (F := Ideal) m ρ c (Proc.devRef .tc main_v37)
      = shapeCast S1x32 (W6 (F := Ideal) m ρ c (Proc.devRef .tc main_v22)) shapeCasts_S32_S1x32 := by
    show StableHlo.after hostOps3 (W6 m ρ c) (Proc.devRef .tc main_v37) = _
    after_results_simp
    rfl
  have h6 : W6 (F := Ideal) m ρ c (Proc.devRef .tc main_v22) = W5 (F := Ideal) m ρ c (Proc.devRef .tc main_v22) :=
    W6_of_ne m ρ c main_v22 (by decide)
  have h5 : W5 (F := Ideal) m ρ c (Proc.devRef .tc main_v22)
      = shapeCast S32 (extractStridedSlice S1x32 ![0, 0] (W4 (F := Ideal) m ρ c (Proc.devRef .tc main_arg5)) slices_S4x32_S1x32_0_0)
          shapeCasts_S1x32_S32 := by
    show StableHlo.after hostOps2 (W4 m ρ c) (Proc.devRef .tc main_v22) = _
    after_results_simp
    rfl
  rw [cur_apply, h7, h6, h5, Hidden.row_of_slice (0 : Fin 4), arg5_at4]
  all_goals rfl

/-- The node table after layer 1, as the layer with the projection taken before the neighbour sum. -/
theorem layer1 (c : Dev nD) :
    cur (a := 100000) (b := 32) (W8 (F := Ideal) m ρ c (Proc.devRef .tc main_v38))
      = kLayer (cur (a := 100000) (b := 32) (W4 (F := Ideal) m ρ c (Proc.devRef .tc main_v18)))
          (slab (a := 4) (b := 32) (d := 32) (m ((c : Thread nD τ).loc main_arg4)) 0) (slab (a := 4) (b := 32) (d := 32) (m ((c : Thread nD τ).loc main_arg6)) 0) (rowOf (a := 4) (b := 32) (m ((c : Thread nD τ).loc main_arg5)) 0)
          (srcRow (P := 2500000) (m ((c : Thread nD τ).loc main_arg11))) (inEdges (P := 2500000) (m ((c : Thread nD τ).loc main_arg11))) := by
  have h8 : W8 (F := Ideal) m ρ c (Proc.devRef .tc main_v38) = (dat3 (F := Ideal) (V7 m ρ) c).arrAt 3 cfg3.N :=
    W8_arr m ρ c 3
  rw [h8, reg3_out, cur_tbl]
  funext n j
  show max (cur (a := 100000) (b := 32) (W7 (F := Ideal) m ρ c (Proc.devRef .tc main_v36)) n j
        + cur (a := 100000) (b := 32) (W7 (F := Ideal) m ρ c (Proc.devRef .tc main_v26_1)) n j
        + cur (a := 1) (b := 32) (W7 (F := Ideal) m ρ c (Proc.devRef .tc main_v37)) 0 j) 0 = _
  rw [cur_W7_main_v36, cur_W7_main_v26_1, cur_W7_main_v37]
  unfold kLayer
  rfl

end Cert.KernelIdeal.Val

end
-- ==== Proof.RegProj4.lean ====
/-
  Region 4: every block of ten thousand node rows is multiplied by the side-by-side weight table; the left half of
  the product goes to one output array and the right half to the other. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

/-! ## The product at an index -/

/-- The product's left operand is read at the output's row and the contraction's position … -/
theorem reg4_lhs_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem reg4_lhs_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- … and the right operand at the contraction's position and the output's column. -/
theorem reg4_rhs_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem reg4_rhs_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The whole product of a block of rows with the weight table, entry by entry: the sum over the shared axis. -/
theorem reg4_prod_apply (x0 : Vec Ideal S10000x32 .f32) (x1 : Vec Ideal S32x64 .f32) (p : Fin 10000) (r : Fin 64) :
    k4_pay1 (F := Ideal) x0 x1 (ix2 p r) = ∑ k : Fin 32, x0 (ix2 p k) * x1 (ix2 k r) := by
  unfold k4_pay1
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p r) ((contrEquiv1 dot_S10000x32_S32x64_S10000x64_1_0_0_1_n_n 32 rfl rfl).symm k) = ix2 p k := funext fun a => Fin.ext (by
    match a with
    | ⟨0, _⟩ => exact reg4_lhs_0 _ _
    | ⟨1, _⟩ => exact (reg4_lhs_1 _ _).trans hk)
  have er : dot_S10000x32_S32x64_S10000x64_1_0_0_1_n_n.rhsIdx (ix2 p r) ((contrEquiv1 dot_S10000x32_S32x64_S10000x64_1_0_0_1_n_n 32 rfl rfl).symm k) = ix2 k r := funext fun a => Fin.ext (by
    match a with
    | ⟨0, _⟩ => exact (reg4_rhs_0 _ _).trans hk
    | ⟨1, _⟩ => exact reg4_rhs_1 _ _)
  rw [el, er, truncf_apply, truncf_apply, shapeCast_self, shapeCast_self]

/-- The left half of the product, entry by entry. -/
theorem reg4_left_apply (x0 : Vec Ideal S10000x32 .f32) (x1 : Vec Ideal S32x64 .f32) (p : Fin 10000) (q : Fin 32) :
    k4_pay2 (F := Ideal) x0 x1 (ix2 p q) = ∑ k : Fin 32, x0 (ix2 p k) * x1 (ix2 k (⟨q.val, by have := q.isLt; omega⟩ : Fin 64)) := by
  unfold k4_pay2
  refine (extractStridedSlice_apply _ _ _ (ix2 p q) (ix2 p (⟨q.val, by have := q.isLt; omega⟩ : Fin 64)) (fun a => ?_)).trans (reg4_prod_apply x0 x1 p _)
  match a with
  | ⟨0, _⟩ => show p.val = 0 + p.val; omega
  | ⟨1, _⟩ => show q.val = 0 + q.val; omega

/-- The right half of the product, entry by entry. -/
theorem reg4_right_apply (x0 : Vec Ideal S10000x32 .f32) (x1 : Vec Ideal S32x64 .f32) (p : Fin 10000) (q : Fin 32) :
    k4_pay3 (F := Ideal) x0 x1 (ix2 p q) = ∑ k : Fin 32, x0 (ix2 p k) * x1 (ix2 k (⟨32 + q.val, by have := q.isLt; omega⟩ : Fin 64)) := by
  unfold k4_pay3
  refine (extractStridedSlice_apply _ _ _ (ix2 p q) (ix2 p (⟨32 + q.val, by have := q.isLt; omega⟩ : Fin 64)) (fun a => ?_)).trans (reg4_prod_apply x0 x1 p _)
  match a with
  | ⟨0, _⟩ => show p.val = 0 + p.val; omega
  | ⟨1, _⟩ => show 32 + q.val = 32 + q.val; rfl

variable (V : (c : Dev nD) → (b : Ref sig .tc) → Buf (Elt Ideal) ((c : Thread nD τ).loc b))

/-! ## From the blocks to the arrays -/

/-- The zero offsets, however spelt. -/
theorem reg4_hz : (![0, 0] : Fin 2 → Nat) = fun _ => 0 :=
  funext fun a => by match a with | ⟨0, _⟩ => rfl | ⟨1, _⟩ => rfl

/-- The index maps over the grid: the node rows and both outputs move one block of rows per point, the weight
    table stays. -/
theorem reg4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What the body leaves in the first output's buffer is the left half of the product of its two blocks. -/
theorem reg4_out_left (x0 : Vec Ideal S10000x32 .f32) (x1 : Vec Ideal S32x64 .f32) :
    out4_2 (F := Ideal) x0 x1 = k4_pay2 x0 x1 := by
  unfold out4_2
  rw [View.canon_unit_zero reg4_hz]
  simp only [View.ld_unit_zero (S := S10000x32) reg4_hz, View.ld_unit_zero (S := S32x64) reg4_hz]

/-- What the body leaves in the second output's buffer is the right half of the product of its two blocks. -/
theorem reg4_out_right (x0 : Vec Ideal S10000x32 .f32) (x1 : Vec Ideal S32x64 .f32) :
    out4_3 (F := Ideal) x0 x1 = k4_pay3 x0 x1 := by
  unfold out4_3
  rw [View.canon_unit_zero reg4_hz]
  simp only [View.ld_unit_zero (S := S10000x32) reg4_hz, View.ld_unit_zero (S := S32x64) reg4_hz]

/-- The node table as the region finds it. -/
abbrev reg4_nodes (c : Dev nD) : Tbl 100000 32 := V c (Pipeline.arrRef spec4 0)
/-- The side-by-side weight table as the region finds it. -/
abbrev reg4_wts (c : Dev nD) : Tbl 32 64 := V c (Pipeline.arrRef spec4 1)

/-- The node rows' block at point `t` is rows `10000 t … 10000 t + 9999` of the node table. -/
theorem reg4_rows (c : Dev nD) (t : Fin cfg4.N) (y : S10000x32.Idx) (i : S100000x32.Idx)
    (h0 : (i 0).val = 10000 * t.val + (y 0).val) (h1 : (i 1).val = (y 1).val) :
    (iblk4 (F := Ideal) V c 0 t : Vec Ideal S10000x32 .f32) y = reg4_nodes V c i := by
  obtain ⟨e0, e1, -⟩ := reg4_idx t
  unfold iblk4
  show reg4_nodes V c (((cfg4.win 0).blk t).view.emb y) = _
  refine congrArg (reg4_nodes V c) (funext fun a => Fin.ext ?_)
  match a with
  | ⟨0, _⟩ => show win4_0.index t (0 : Fin 2) * 10000 + 1 * (y 0).val = (i 0).val; rw [e0, h0]; omega
  | ⟨1, _⟩ => show win4_0.index t (1 : Fin 2) * 32 + 1 * (y 1).val = (i 1).val; rw [e1, h1]; omega

/-- The weight table's block at every point is the whole table. -/
theorem reg4_weights (c : Dev nD) (t : Fin cfg4.N) (y : S32x64.Idx) :
    (iblk4 (F := Ideal) V c 1 t : Vec Ideal S32x64 .f32) y = reg4_wts V c y := by
  obtain ⟨-, -, e0, e1, -⟩ := reg4_idx t
  unfold iblk4
  show reg4_wts V c (((cfg4.win 1).blk t).view.emb y) = _
  refine congrArg (reg4_wts V c) (funext fun a => Fin.ext ?_)
  match a with
  | ⟨0, _⟩ => show win4_1.index t (0 : Fin 2) * 32 + 1 * (y 0).val = (y 0).val; rw [e0]; omega
  | ⟨1, _⟩ => show win4_1.index t (1 : Fin 2) * 64 + 1 * (y 1).val = (y 1).val; rw [e1]; omega

/-- One entry of the left half of the product of the blocks at point `t` is the entry of the whole arrays' product
    in the row that the block's row is of the table. -/
theorem reg4_entry_left (c : Dev nD) (t : Fin cfg4.N) (p : Fin 10000) (q : Fin 32) (P : Fin 100000)
    (hP : P.val = 10000 * t.val + p.val) :
    k4_pay2 (F := Ideal) (iblk4 V c 0 t) (iblk4 V c 1 t) (ix2 p q)
      = tbl (mm (cur (reg4_nodes V c)) (lo (cur (reg4_wts V c)))) (ix2 P q) := by
  refine (reg4_left_apply (iblk4 V c 0 t) (iblk4 V c 1 t) p q).trans ?_
  show _ = ∑ k : Fin 32, reg4_nodes V c (ix2 P k)
      * reg4_wts V c (ix2 k (⟨q.val, by have := q.isLt; omega⟩ : Fin 64))
  refine Finset.sum_congr rfl fun k _ => ?_
  exact congrArg₂ (· * ·) (reg4_rows V c t (ix2 p k) (ix2 P k) hP rfl) (reg4_weights V c t (ix2 k _))

/-- One entry of the right half, likewise. -/
theorem reg4_entry_right (c : Dev nD) (t : Fin cfg4.N) (p : Fin 10000) (q : Fin 32) (P : Fin 100000)
    (hP : P.val = 10000 * t.val + p.val) :
    k4_pay3 (F := Ideal) (iblk4 V c 0 t) (iblk4 V c 1 t) (ix2 p q)
      = tbl (mm (cur (reg4_nodes V c)) (hi (cur (reg4_wts V c)))) (ix2 P q) := by
  refine (reg4_right_apply (iblk4 V c 0 t) (iblk4 V c 1 t) p q).trans ?_
  show _ = ∑ k : Fin 32, reg4_nodes V c (ix2 P k)
      * reg4_wts V c (ix2 k (⟨32 + q.val, by have := q.isLt; omega⟩ : Fin 64))
  refine Finset.sum_congr rfl fun k _ => ?_
  exact congrArg₂ (· * ·) (reg4_rows V c t (ix2 p k) (ix2 P k) hP rfl) (reg4_weights V c t (ix2 k _))

/-- What point `t` writes back to the first output is block `t` of the left half of the whole arrays' product. -/
theorem reg4_flushed_left (c : Dev nD) (t : Fin cfg4.N) :
    (dat4 (F := Ideal) V c).flushed 2 t = ((cfg4.win 2).blk t).view.read (Elt Ideal)
      (tbl (mm (cur (reg4_nodes V c)) (lo (cur (reg4_wts V c))))) := by
  show (cfg4.win 2).cut (grid4.coords t) ((dat4 V c).after 2 t) = _
  rw [after4_2, reg4_out_left]
  obtain ⟨-, -, -, -, e0, e1, -⟩ := reg4_idx t
  funext j
  have hj0 : (j 0).val < 10000 := (j 0).isLt
  have hj1 : (j 1).val < 32 := (j 1).isLt
  have ht : t.val < 10 := lt_of_lt_of_eq t.isLt N_4
  have hx : (cfg4.win 2).xinj (grid4.coords t) j = ix2 (⟨(j 0).val, hj0⟩ : Fin 10000) (⟨(j 1).val, hj1⟩ : Fin 32) :=
    funext fun a => by match a with | ⟨0, _⟩ => rfl | ⟨1, _⟩ => rfl
  have hemb : ((cfg4.win 2).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win4_2.index t (0 : Fin 2) * 10000 + 1 * (j 0).val = 10000 * t.val + (j 0).val; rw [e0]; omega
      | ⟨1, _⟩ => show win4_2.index t (1 : Fin 2) * 32 + 1 * (j 1).val = (j 1).val; rw [e1]; omega)
  show k4_pay2 (F := Ideal) (iblk4 V c 0 t) (iblk4 V c 1 t) ((cfg4.win 2).xinj (grid4.coords t) j)
    = (tbl (mm (cur (reg4_nodes V c)) (lo (cur (reg4_wts V c)))) : S100000x32.Idx → EReal)
        (((cfg4.win 2).blk t).view.emb j)
  rw [hx, hemb]
  exact reg4_entry_left V c t _ _ _ rfl

/-- What point `t` writes back to the second output is block `t` of the right half of the whole arrays' product. -/
theorem reg4_flushed_right (c : Dev nD) (t : Fin cfg4.N) :
    (dat4 (F := Ideal) V c).flushed 3 t = ((cfg4.win 3).blk t).view.read (Elt Ideal)
      (tbl (mm (cur (reg4_nodes V c)) (hi (cur (reg4_wts V c))))) := by
  show (cfg4.win 3).cut (grid4.coords t) ((dat4 V c).after 3 t) = _
  rw [after4_3, reg4_out_right]
  obtain ⟨-, -, -, -, -, -, e0, e1⟩ := reg4_idx t
  funext j
  have hj0 : (j 0).val < 10000 := (j 0).isLt
  have hj1 : (j 1).val < 32 := (j 1).isLt
  have ht : t.val < 10 := lt_of_lt_of_eq t.isLt N_4
  have hx : (cfg4.win 3).xinj (grid4.coords t) j = ix2 (⟨(j 0).val, hj0⟩ : Fin 10000) (⟨(j 1).val, hj1⟩ : Fin 32) :=
    funext fun a => by match a with | ⟨0, _⟩ => rfl | ⟨1, _⟩ => rfl
  have hemb : ((cfg4.win 3).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win4_3.index t (0 : Fin 2) * 10000 + 1 * (j 0).val = 10000 * t.val + (j 0).val; rw [e0]; omega
      | ⟨1, _⟩ => show win4_3.index t (1 : Fin 2) * 32 + 1 * (j 1).val = (j 1).val; rw [e1]; omega)
  show k4_pay3 (F := Ideal) (iblk4 V c 0 t) (iblk4 V c 1 t) ((cfg4.win 3).xinj (grid4.coords t) j)
    = (tbl (mm (cur (reg4_nodes V c)) (hi (cur (reg4_wts V c)))) : S100000x32.Idx → EReal)
        (((cfg4.win 3).blk t).view.emb j)
  rw [hx, hemb]
  exact reg4_entry_right V c t _ _ _ rfl

/-- An index of the first output is in point `t`'s block iff each coordinate is in the block's range on its axis. -/
theorem reg4_mem_left (t : Fin cfg4.N) (i : S100000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole (Pipeline.arrRef spec4 2)).slice (win4_2.rect t)).set ↔ _
  rw [View.set_slice_whole, Rect.mem_set_unit]
  exact Iff.rfl

/-- The same for the second output. -/
theorem reg4_mem_right (t : Fin cfg4.N) (i : S100000x32.Idx) :
    i ∈ ((cfg4.win 3).blk t).view.set ↔ ∀ a : Fin 2, win4_3.index t a * S10000x32.size a ≤ (i a).val
      ∧ (i a).val < win4_3.index t a * S10000x32.size a + S10000x32.size a := by
  show i ∈ ((View.whole (Pipeline.arrRef spec4 3)).slice (win4_3.rect t)).set ↔ _
  rw [View.set_slice_whole, Rect.mem_set_unit]
  exact Iff.rfl

/-- Every row of the first output is in the block of the point that is its row number over ten thousand. -/
theorem reg4_cover_left (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have hN : cfg4.N = 10 := N_4
  obtain ⟨t, ht⟩ : ∃ t : Fin cfg4.N, t.val = (i 0).val / 10000 := ⟨⟨(i 0).val / 10000, by omega⟩, rfl⟩
  obtain ⟨-, -, -, -, e0, e1, -⟩ := reg4_idx t
  refine ⟨t, flush4_2 t, ?_⟩
  rw [reg4_mem_left]
  intro a
  match a with
  | ⟨0, _⟩ =>
    show win4_2.index t (0 : Fin 2) * 10000 ≤ (i 0).val ∧ (i 0).val < win4_2.index t (0 : Fin 2) * 10000 + 10000
    rw [e0, ht]; omega
  | ⟨1, _⟩ =>
    show win4_2.index t (1 : Fin 2) * 32 ≤ (i 1).val ∧ (i 1).val < win4_2.index t (1 : Fin 2) * 32 + 32
    rw [e1]; omega

/-- The same for the second output. -/
theorem reg4_cover_right (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 10 := N_4
  obtain ⟨t, ht⟩ : ∃ t : Fin cfg4.N, t.val = (i 0).val / 10000 := ⟨⟨(i 0).val / 10000, by omega⟩, rfl⟩
  obtain ⟨-, -, -, -, -, -, e0, e1⟩ := reg4_idx t
  refine ⟨t, flush4_3 t, ?_⟩
  rw [reg4_mem_right]
  intro a
  match a with
  | ⟨0, _⟩ =>
    show win4_3.index t (0 : Fin 2) * 10000 ≤ (i 0).val ∧ (i 0).val < win4_3.index t (0 : Fin 2) * 10000 + 10000
    rw [e0, ht]; omega
  | ⟨1, _⟩ =>
    show win4_3.index t (1 : Fin 2) * 32 ≤ (i 1).val ∧ (i 1).val < win4_3.index t (1 : Fin 2) * 32 + 32
    rw [e1]; omega

/-- The first output array of region 4: the node table times the left half of the weight table. -/
theorem reg4_t (c : Dev nD) :
    (dat4 (F := Ideal) V c).arrAt 2 cfg4.N = tbl (mm (cur (a := 100000) (b := 32) (V c main_v38)) (lo (cur (a := 32) (b := 64) (V c main_v45)))) :=
  (dat4 (F := Ideal) V c).arrAt_eq_of_cover 2 (tbl (mm (cur (reg4_nodes V c)) (lo (cur (reg4_wts V c)))))
    (fun t _ => reg4_flushed_left V c t) reg4_cover_left

/-- The second output array of region 4: the node table times the right half of the weight table. -/
theorem reg4_root (c : Dev nD) :
    (dat4 (F := Ideal) V c).arrAt 3 cfg4.N = tbl (mm (cur (a := 100000) (b := 32) (V c main_v38)) (hi (cur (a := 32) (b := 64) (V c main_v45)))) :=
  (dat4 (F := Ideal) V c).arrAt_eq_of_cover 3 (tbl (mm (cur (reg4_nodes V c)) (hi (cur (reg4_wts V c)))))
    (fun t _ => reg4_flushed_right V c t) reg4_cover_right

end Cert.KernelIdeal.Val

end
-- ==== Proof.RegComb5.lean ====
/-
  Region 5: entry by entry, the neighbour sum plus the node's own projection plus the bias of its column, clipped
  below at zero. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (V : (c : Dev nD) → (b : Ref sig .tc) → Buf (Elt Ideal) ((c : Thread nD τ).loc b))

/-- The zero offsets of a whole-buffer access, as the constant function. -/
theorem reg5_zero_off : (![0, 0] : Fin 2 → Nat) = fun _ => 0 := funext fun a => by fin_cases a <;> rfl

/-- The payload at an entry: the two blocks' entries and the bias of the column added, clipped below at zero. The
    bias block has one row, so every row of the sum reads its row 0. -/
theorem reg5_pay_apply (xa xb : Vec Ideal S10000x32 .f32) (xc : Vec Ideal S1x32 .f32) (p : Fin 10000) (q : Fin 32) :
    k5_pay1 xa xb xc (ix2 p q) = max (xa (ix2 p q) + xb (ix2 p q) + xc (ix2 (0 : Fin 1) q)) 0 := by
  unfold k5_pay1
  rw [maximumf_apply, addf_apply, addf_apply, broadcast_apply, shapeCast_self, shapeCast_self, shapeCast_self,
    broadcastTo_apply xc broadcasts_S1x32_S10000x32 (ix2 p q) (ix2 (0 : Fin 1) q)
      (fun a => by match a with | ⟨0, _⟩ => rfl | ⟨1, _⟩ => rfl),
    show (FloatOps.ofBits FTy.f32 0#32 : Ideal .f32) = 0 from Ideal.ofBits_zero_f32]

/-- The index maps over the ten points: the two row-block inputs move with the output, block `t` on the row axis and
    block 0 on the column axis; the bias window stays at block (0, 0). -/
theorem reg5_idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The clipped sum as one function of the three whole arrays: at row `n`, column `j`, the two tables' entries and
    the bias of column `j` added, clipped below at zero. -/
def reg5_comb (a b : S100000x32.Idx → EReal) (bias : S1x32.Idx → EReal) : S100000x32.Idx → EReal :=
  fun i => max (a (ix2 (i 0) (i 1)) + b (ix2 (i 0) (i 1)) + bias (ix2 (0 : Fin 1) (i 1))) 0

/-- An entry of the payload is the clipped sum at the array index `i`, once each block's entry is its array's entry
    at `i` and the bias block's entry is the bias of `i`'s column. -/
theorem reg5_pay_eq_comb (A B : S100000x32.Idx → EReal) (bias : S1x32.Idx → EReal)
    (xa xb : Vec Ideal S10000x32 .f32) (xc : Vec Ideal S1x32 .f32) (j : S10000x32.Idx) (i : S100000x32.Idx)
    (ha : xa (ix2 (j 0) (j 1)) = A (ix2 (i 0) (i 1))) (hb : xb (ix2 (j 0) (j 1)) = B (ix2 (i 0) (i 1)))
    (hc : xc (ix2 (0 : Fin 1) (j 1)) = bias (ix2 (0 : Fin 1) (i 1))) :
    k5_pay1 xa xb xc j = reg5_comb A B bias i := by
  refine (congrArg (k5_pay1 xa xb xc) (eq_ix2 j)).trans ((reg5_pay_apply xa xb xc (j 0) (j 1)).trans ?_)
  rw [ha, hb, hc]
  rfl

/-- WHAT POINT `t` WRITES BACK is block `t` of the clipped sum of the three arrays as the region finds them: the two
    row-block windows sit on the output block's own rows `10000 t … 10000 t + 9999` and columns, and the bias window's
    one block is the whole bias row. A block's coordinate on an axis is its index times its size plus the coordinate
    inside the block. -/
theorem reg5_flushed_eq (c : Dev nD) (t : Fin cfg5.N) :
    (dat5 (F := Ideal) V c).flushed 3 t
      = ((cfg5.win 3).blk t).view.read (Elt Ideal) (reg5_comb (V c main_v56) (V c main_v46_1) (V c main_v57)) := by
  show (cfg5.win 3).cut (grid5.coords t) ((dat5 V c).after 3 t) = _
  rw [after5_3]
  unfold out5_3
  rw [View.canon_unit_zero reg5_zero_off]
  simp only [View.ld_unit_zero (S := S10000x32) reg5_zero_off, View.ld_unit_zero (S := S1x32) reg5_zero_off]
  obtain ⟨hxrow, hxcol, hyrow, hycol, hbrow, hbcol, horow, hocol⟩ := reg5_idx_facts t
  funext j
  have hp : (j 0).val < 10000 := (j 0).isLt
  have hq : (j 1).val < 32 := (j 1).isLt
  refine reg5_pay_eq_comb (V c main_v56) (V c main_v46_1) (V c main_v57) (iblk5 V c 0 t) (iblk5 V c 1 t) (iblk5 V c 2 t) j
    (((cfg5.win 3).blk t).view.emb j) ?_ ?_ ?_
  · show V c main_v56 (((cfg5.win 0).blk t).view.emb (ix2 (j 0) (j 1))) = _
    refine congrArg (V c main_v56) (funext fun a => Fin.ext ?_)
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 32 + 1 * (j 1).val = win5_3.index t (1 : Fin 2) * 32 + 1 * (j 1).val; omega
  · show V c main_v46_1 (((cfg5.win 1).blk t).view.emb (ix2 (j 0) (j 1))) = _
    refine congrArg (V c main_v46_1) (funext fun a => Fin.ext ?_)
    match a with
    | ⟨0, _⟩ => show win5_1.index t (0 : Fin 2) * 10000 + 1 * (j 0).val = win5_3.index t (0 : Fin 2) * 10000 + 1 * (j 0).val; omega
    | ⟨1, _⟩ => show win5_1.index t (1 : Fin 2) * 32 + 1 * (j 1).val = win5_3.index t (1 : Fin 2) * 32 + 1 * (j 1).val; omega
  · show V c main_v57 (((cfg5.win 2).blk t).view.emb (ix2 (0 : Fin 1) (j 1))) = _
    refine congrArg (V c main_v57) (funext fun a => Fin.ext ?_)
    match a with
    | ⟨0, _⟩ => show win5_2.index t (0 : Fin 2) * 1 + 1 * 0 = 0; omega
    | ⟨1, _⟩ => show win5_2.index t (1 : Fin 2) * 32 + 1 * (j 1).val = win5_3.index t (1 : Fin 2) * 32 + 1 * (j 1).val; omega

/-- An index of the array is in point `t`'s block iff each coordinate is in the block's range on its axis. -/
theorem reg5_mem_blk (t : Fin cfg5.N) (i : S100000x32.Idx) :
    i ∈ ((cfg5.win 3).blk t).view.set ↔ ∀ a : Fin 2, win5_3.index t a * S10000x32.size a ≤ (i a).val
      ∧ (i a).val < win5_3.index t a * S10000x32.size a + S10000x32.size a := by
  show i ∈ ((View.whole (Pipeline.arrRef spec5 3)).slice (win5_3.rect t)).set ↔ _
  rw [View.set_slice_whole, Rect.mem_set_unit]
  exact Iff.rfl

/-- The ten row blocks tile the array: row `r` lies in the block of point `r / 10000`, and the one column block
    holds every column. -/
theorem reg5_cover (i : S100000x32.Idx) :
    ∃ t : Fin cfg5.N, (cfg5.win 3).flush t = true ∧ i ∈ ((cfg5.win 3).blk t).view.set := by
  have hrow : (i 0).val < 100000 := (i 0).isLt
  have hcol : (i 1).val < 32 := (i 1).isLt
  have hN : cfg5.N = 10 := by decide
  obtain ⟨t, ht⟩ : ∃ t : Fin cfg5.N, t.val = (i 0).val / 10000 := ⟨⟨(i 0).val / 10000, by rw [hN]; omega⟩, rfl⟩
  obtain ⟨-, -, -, -, -, -, horow, hocol⟩ := reg5_idx_facts t
  refine ⟨t, flush5_3 t, ?_⟩
  rw [reg5_mem_blk]
  intro a
  match a with
  | ⟨0, _⟩ =>
    show win5_3.index t (0 : Fin 2) * 10000 ≤ (i 0).val ∧ (i 0).val < win5_3.index t (0 : Fin 2) * 10000 + 10000
    omega
  | ⟨1, _⟩ =>
    show win5_3.index t (1 : Fin 2) * 32 ≤ (i 1).val ∧ (i 1).val < win5_3.index t (1 : Fin 2) * 32 + 32
    omega

/-- The output array of region 5. -/
theorem reg5_out (c : Dev nD) :
    (dat5 (F := Ideal) V c).arrAt 3 cfg5.N
      = tbl (fun n j => max (cur (a := 100000) (b := 32) (V c main_v56) n j + cur (a := 100000) (b := 32) (V c main_v46_1) n j
          + cur (a := 1) (b := 32) (V c main_v57) 0 j) 0) := by
  exact (dat5 V c).arrAt_eq_of_cover 3 (reg5_comb (V c main_v56) (V c main_v46_1) (V c main_v57))
    (fun t _ => reg5_flushed_eq V c t) reg5_cover

end Cert.KernelIdeal.Val

end
-- ==== Proof.KLayer2.lean ====
/-
  Layer 2 of the kernel's program, from the boundary before its weight tables are laid side by side to the boundary after
  its second region: the node rows are projected by both weight tables at once, the first projection travels along the
  edges and is summed at the destinations, and the sum, the second projection and the bias are joined and clipped.
-/
import Idealize.ShloMosaic.PureOps.Ideal.Laws
import Idealize.ShloMosaic.Lib.ValueIdx
import Idealize.ShloMosaic.Lib.Pipeline.Value
import proofs.«401169_j5540507812347_2_alg».proof.Proof.Gen.KernelIdeal.Frame
import proofs.«401169_j5540507812347_2_alg».proof.Proof.Spec
import proofs.«401169_j5540507812347_2_alg».proof.Proof.Keep
import proofs.«401169_j5540507812347_2_alg».proof.Proof.HostRead
import proofs.«401169_j5540507812347_2_alg».proof.Proof.RegProj4
import proofs.«401169_j5540507812347_2_alg».proof.Proof.RegComb5

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (m : (ℓ : Loc nD τ sig) → Buf (Elt Ideal) ℓ) (ρ : Dev nD → PrngReg)

/-! ## Host operations of a hidden layer read at an entry (the same for every hidden layer)

A hidden layer's weight tables are slabs of two stacks `[4, 32, 32]` and its bias a row of a table `[4, 32]`; its
neighbour sum is a row lookup at the normalised source words accumulated into zeros at the destination words. -/

namespace Hidden2

/-- A slab `[1, 32, 32]` cut from a stack at offset `(o, 0, 0)` and read as a table `[32, 32]` is slab `o`. -/
theorem slab_of_slice (i : Fin 4) {o : Nat} (x : S4x32x32.Idx → EReal)
    (hs : S4x32x32.Slices ![o, 0, 0] S1x32x32) (hc : S1x32x32.ShapeCasts S32x32) (ho : o = i.val) :
    cur (a := 32) (b := 32) (shapeCast S32x32 (extractStridedSlice S1x32x32 ![o, 0, 0] x hs) hc)
      = slab (a := 4) (b := 32) (d := 32) x i := by
  funext p q
  show shapeCast S32x32 (extractStridedSlice S1x32x32 ![o, 0, 0] x hs) hc (ix2 p q) = x (ix3 i p q)
  refine (shapeCast_apply _ hc (ix2 p q) (ix3 (0 : Fin 1) p q) ?_).trans ?_
  · rw [Shape.rowMajor_val_three, Shape.rowMajor_val_two]
    show (0 * 32 + p.val) * 32 + q.val = p.val * 32 + q.val
    omega
  · refine extractStridedSlice_apply _ x hs (ix3 (0 : Fin 1) p q) (ix3 i p q) fun a => ?_
    match a with
    | ⟨0, _⟩ => show i.val = o + 0; omega
    | ⟨1, _⟩ => show p.val = 0 + p.val; omega
    | ⟨2, _⟩ => show q.val = 0 + q.val; omega

/-- A row `[1, 32]` cut from a table at offset `(o, 0)`, read as a vector `[32]` and again as a row `[1, 32]`, is
    row `o`. -/
theorem row_of_slice (i : Fin 4) {o : Nat} (x : S4x32.Idx → EReal)
    (hs : S4x32.Slices ![o, 0] S1x32) (hc : S1x32.ShapeCasts S32) (hc' : S32.ShapeCasts S1x32) (j : Fin 32) (ho : o = i.val) :
    shapeCast S1x32 (shapeCast S32 (extractStridedSlice S1x32 ![o, 0] x hs) hc) hc' (ix2 (0 : Fin 1) j)
      = rowOf (a := 4) (b := 32) x i j := by
  show _ = x (ix2 i j)
  refine (shapeCast_apply _ hc' (ix2 (0 : Fin 1) j) (ix1 j) ?_).trans ?_
  · rw [Shape.rowMajor_val_one, Shape.rowMajor_val_two]
    show j.val = 0 * 32 + j.val
    omega
  refine (shapeCast_apply _ hc (ix1 j) (ix2 (0 : Fin 1) j) ?_).trans ?_
  · rw [Shape.rowMajor_val_one, Shape.rowMajor_val_two]
    show 0 * 32 + j.val = j.val
    omega
  · refine extractStridedSlice_apply _ x hs (ix2 (0 : Fin 1) j) (ix2 i j) fun a => ?_
    match a with
    | ⟨0, _⟩ => show i.val = o + 0; omega
    | ⟨1, _⟩ => show j.val = 0 + j.val; omega

/-- The zero word spread over a table is zero at every entry. -/
theorem zeros_apply (i : S100000x32.Idx) :
    broadcastInDim S100000x32 ![] bcast_S_S100000x32 (constant (F := Ideal) S_ .f32 0x00000000#32) i = 0 := by
  refine (broadcastInDim_apply _ bcast_S_S100000x32 _ i ix0 fun a => a.elim0).trans ?_
  rw [constant_apply]
  exact Ideal.ofBits_zero_f32

/-- A vector of words as a column `[P, 1]`, read at `(e, 0)`. -/
theorem col_apply (v : IVec S2500000 32) (e : Fin 2500000) :
    broadcastInDim S2500000x1 ![0] bcast_S2500000_S2500000x1_0 v (ix2 e (0 : Fin 1)) = v (ix1 e) := by
  refine broadcastInDim_apply _ bcast_S2500000_S2500000x1_0 v (ix2 e (0 : Fin 1)) (ix1 e) fun a => ?_
  match a with
  | ⟨0, _⟩ =>
    show e.val = if (2500000 : Nat) = 1 then 0 else e.val
    rw [if_neg (by omega)]

/-- The source column: a word below zero (signed) has the row count added, read at `(e, 0)`. -/
theorem srcCol_apply (v : IVec S2500000 32) (e : Fin 2500000) :
    broadcastInDim S2500000x1 ![0] bcast_S2500000_S2500000x1_0
        (select (cmpi CmpIPredicate.slt v (broadcastInDim S2500000 ![] bcast_S_S2500000 (constantI S_ 32 0#32)))
          (addi v (broadcastInDim S2500000 ![] bcast_S_S2500000 (constantI S_ 32 100000#32))) v) (ix2 e (0 : Fin 1))
      = normWord (v (ix1 e)) := by
  rw [col_apply]
  rfl

/-- The lookup of whole rows at the source column accumulated into zeros at the destination column is the neighbour
    sum over the edges that land on a node, of the rows their normalised, clamped source words name. -/
theorem nbr_of_hostChain (x : S100000x32.Idx → EReal) (v1 v3 : IVec S2500000 32) :
    cur (a := 100000) (b := 32)
        (Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 v3)
          (Host.gather gather_S100000x32_S2500000x1_S2500000x32_1_0_n_n_0_1_132 x
            (broadcastInDim S2500000x1 ![0] bcast_S2500000_S2500000x1_0
              (select (cmpi CmpIPredicate.slt v1 (broadcastInDim S2500000 ![] bcast_S_S2500000 (constantI S_ 32 0#32)))
                (addi v1 (broadcastInDim S2500000 ![] bcast_S_S2500000 (constantI S_ 32 100000#32))) v1))))
      = nbr (cur (a := 100000) (b := 32) x) (fun e : Fin 2500000 => EdgeAgg.clampTo 100000 (by decide) (normWord (v1 (ix1 e))))
          (fun n : Fin 100000 => Finset.univ.filter fun e : Fin 2500000 => (v3 (ix1 e)).toInt = (n.val : Int)) := by
  have hrows := srcCol_apply v1
  have hdst := col_apply v3
  have hz := zeros_apply
  generalize broadcastInDim S2500000x1 ![0] bcast_S2500000_S2500000x1_0
      (select (cmpi CmpIPredicate.slt v1 (broadcastInDim S2500000 ![] bcast_S_S2500000 (constantI S_ 32 0#32)))
        (addi v1 (broadcastInDim S2500000 ![] bcast_S_S2500000 (constantI S_ 32 100000#32))) v1) = rows at hrows ⊢
  generalize broadcastInDim S2500000x1 ![0] bcast_S2500000_S2500000x1_0 v3 = dstc at hdst ⊢
  generalize broadcastInDim S100000x32 ![] bcast_S_S100000x32 (constant (F := Ideal) S_ .f32 0x00000000#32) = z at hz ⊢
  have e := nbr_of_lookup_accum (N := 100000) (C := 32) (P := 2500000) (by decide)
    gather_S100000x32_S2500000x1_S2500000x32_1_0_n_n_0_1_132_wf scatter_S100000x32_S2500000x1_S2500000x32_1_0_0_1_wf
    x rows dstc z hz
  simp only [hrows, hdst] at e
  exact e

end Hidden2

/-! ## Layer 2, segment by segment -/

/-- The stretch that cuts the layer's weight tables and bias does not write the node table. -/
theorem W9_main_v38 (c : Dev nD) :
    W9 (F := Ideal) m ρ c (Proc.devRef .tc main_v38) = W8 (F := Ideal) m ρ c (Proc.devRef .tc main_v38) := by
  show StableHlo.after hostOps4 (W8 m ρ c) (Proc.devRef .tc main_v38) = _
  after_results_simp

/-- The side-by-side weight table: slab 0 of the first stack beside slab 0 of the second. -/
theorem cur_W9_main_v45 (c : Dev nD) :
    cur (a := 32) (b := 64) (W9 (F := Ideal) m ρ c (Proc.devRef .tc main_v45))
      = cat (slab (a := 4) (b := 32) (d := 32) (m ((c : Thread nD τ).loc main_arg4)) (1 : Fin 4))
          (slab (a := 4) (b := 32) (d := 32) (m ((c : Thread nD τ).loc main_arg6)) (1 : Fin 4)) := by
  have h : W9 (F := Ideal) m ρ c (Proc.devRef .tc main_v45)
      = concatenate S32x64 1
          [⟨S32x32, shapeCast S32x32 (extractStridedSlice S1x32x32 ![1, 0, 0] (W8 (F := Ideal) m ρ c (Proc.devRef .tc main_arg4))
              slices_S4x32x32_S1x32x32_1_0_0) shapeCasts_S1x32x32_S32x32⟩,
            ⟨S32x32, shapeCast S32x32 (extractStridedSlice S1x32x32 ![1, 0, 0] (W8 (F := Ideal) m ρ c (Proc.devRef .tc main_arg6))
              slices_S4x32x32_S1x32x32_1_0_0) shapeCasts_S1x32x32_S32x32⟩]
          concatenates_S32x32_S32x32_S32x64_d1 := by
    show StableHlo.after hostOps4 (W8 m ρ c) (Proc.devRef .tc main_v45) = _
    after_results
    rfl
  rw [h, cur_concat, Hidden2.slab_of_slice (1 : Fin 4), Hidden2.slab_of_slice (1 : Fin 4), arg4_at8, arg6_at8]
  all_goals rfl

/-- The first output of the projection region: the node table times slab 0 of the first stack. -/
theorem cur_W10_main_v46_0 (c : Dev nD) :
    cur (a := 100000) (b := 32) (W10 (F := Ideal) m ρ c (Proc.devRef .tc main_v46_0))
      = mm (cur (a := 100000) (b := 32) (W8 (F := Ideal) m ρ c (Proc.devRef .tc main_v38)))
          (slab (a := 4) (b := 32) (d := 32) (m ((c : Thread nD τ).loc main_arg4)) (1 : Fin 4)) := by
  have h6 : W10 (F := Ideal) m ρ c (Proc.devRef .tc main_v46_0) = (dat4 (F := Ideal) (V9 m ρ) c).arrAt 2 cfg4.N :=
    W10_arr m ρ c 2
  rw [h6, reg4_t, cur_tbl]
  show mm (cur (a := 100000) (b := 32) (W9 (F := Ideal) m ρ c (Proc.devRef .tc main_v38)))
      (lo (cur (a := 32) (b := 64) (W9 (F := Ideal) m ρ c (Proc.devRef .tc main_v45)))) = _
  rw [W9_main_v38, cur_W9_main_v45, lo_cat]

/-- The second output of the projection region, still there after the neighbour-sum stretch: the node table times
    slab 0 of the second stack. -/
theorem cur_W11_main_v46_1 (c : Dev nD) :
    cur (a := 100000) (b := 32) (W11 (F := Ideal) m ρ c (Proc.devRef .tc main_v46_1))
      = mm (cur (a := 100000) (b := 32) (W8 (F := Ideal) m ρ c (Proc.devRef .tc main_v38)))
          (slab (a := 4) (b := 32) (d := 32) (m ((c : Thread nD τ).loc main_arg6)) (1 : Fin 4)) := by
  have h7 : W11 (F := Ideal) m ρ c (Proc.devRef .tc main_v46_1) = W10 (F := Ideal) m ρ c (Proc.devRef .tc main_v46_1) := by
    show StableHlo.after hostOps5 (W10 m ρ c) (Proc.devRef .tc main_v46_1) = _
    after_results_simp
  have h6 : W10 (F := Ideal) m ρ c (Proc.devRef .tc main_v46_1) = (dat4 (F := Ideal) (V9 m ρ) c).arrAt 3 cfg4.N :=
    W10_arr m ρ c 3
  rw [h7, h6, reg4_root, cur_tbl]
  show mm (cur (a := 100000) (b := 32) (W9 (F := Ideal) m ρ c (Proc.devRef .tc main_v38)))
      (hi (cur (a := 32) (b := 64) (W9 (F := Ideal) m ρ c (Proc.devRef .tc main_v45)))) = _
  rw [W9_main_v38, cur_W9_main_v45, hi_cat]

/-- The neighbour-sum stretch: the first projection carried along the edges and summed at their destinations. -/
theorem cur_W11_main_v56 (c : Dev nD) :
    cur (a := 100000) (b := 32) (W11 (F := Ideal) m ρ c (Proc.devRef .tc main_v56))
      = nbr (mm (cur (a := 100000) (b := 32) (W8 (F := Ideal) m ρ c (Proc.devRef .tc main_v38)))
            (slab (a := 4) (b := 32) (d := 32) (m ((c : Thread nD τ).loc main_arg4)) (1 : Fin 4)))
          (srcRow (P := 2500000) (m ((c : Thread nD τ).loc main_arg11))) (inEdges (P := 2500000) (m ((c : Thread nD τ).loc main_arg11))) := by
  have h : W11 (F := Ideal) m ρ c (Proc.devRef .tc main_v56)
      = Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 (W10 (F := Ideal) m ρ c (Proc.devRef .tc main_v3)))
          (Host.gather gather_S100000x32_S2500000x1_S2500000x32_1_0_n_n_0_1_132 (W10 (F := Ideal) m ρ c (Proc.devRef .tc main_v46_0))
            (broadcastInDim S2500000x1 ![0] bcast_S2500000_S2500000x1_0
              (select (cmpi CmpIPredicate.slt (W10 (F := Ideal) m ρ c (Proc.devRef .tc main_v1)) (broadcastInDim S2500000 ![] bcast_S_S2500000 (constantI S_ 32 0#32)))
                (addi (W10 (F := Ideal) m ρ c (Proc.devRef .tc main_v1)) (broadcastInDim S2500000 ![] bcast_S_S2500000 (constantI S_ 32 100000#32)))
                (W10 (F := Ideal) m ρ c (Proc.devRef .tc main_v1))))) := by
    show StableHlo.after hostOps5 (W10 m ρ c) (Proc.devRef .tc main_v56) = _
    after_results_simp
  have hr : (fun e : Fin 2500000 => EdgeAgg.clampTo 100000 (by decide)
        (normWord (W10 (F := Ideal) m ρ c (Proc.devRef .tc main_v1) (ix1 e))))
      = srcRow (P := 2500000) (m ((c : Thread nD τ).loc main_arg11)) := by
    funext e
    rw [v1_at10, W1_v1_apply]
    rfl
  have hD : (fun n : Fin 100000 => Finset.univ.filter fun e : Fin 2500000 =>
        (W10 (F := Ideal) m ρ c (Proc.devRef .tc main_v3) (ix1 e)).toInt = (n.val : Int))
      = inEdges (P := 2500000) (m ((c : Thread nD τ).loc main_arg11)) := by
    funext n
    show _ = Finset.univ.filter fun e : Fin 2500000 =>
      (m ((c : Thread nD τ).loc main_arg11) (ix2 (1 : Fin 2) e)).toInt = (n.val : Int)
    refine Finset.filter_congr fun e _ => ?_
    rw [v3_at10, W1_v3_apply]
  rw [h, Hidden2.nbr_of_hostChain, cur_W10_main_v46_0, hr, hD]

/-- The bias as a row `[1, 32]`: row 0 of the bias table. -/
theorem cur_W11_main_v57 (c : Dev nD) (j : Fin 32) :
    cur (a := 1) (b := 32) (W11 (F := Ideal) m ρ c (Proc.devRef .tc main_v57)) 0 j
      = rowOf (a := 4) (b := 32) (m ((c : Thread nD τ).loc main_arg5)) (1 : Fin 4) j := by
  have h7 : W11 (F := Ideal) m ρ c (Proc.devRef .tc main_v57)
      = shapeCast S1x32 (W10 (F := Ideal) m ρ c (Proc.devRef .tc main_v42)) shapeCasts_S32_S1x32 := by
    show StableHlo.after hostOps5 (W10 m ρ c) (Proc.devRef .tc main_v57) = _
    after_results_simp
    rfl
  have h6 : W10 (F := Ideal) m ρ c (Proc.devRef .tc main_v42) = W9 (F := Ideal) m ρ c (Proc.devRef .tc main_v42) :=
    W10_of_ne m ρ c main_v42 (by decide)
  have h5 : W9 (F := Ideal) m ρ c (Proc.devRef .tc main_v42)
      = shapeCast S32 (extractStridedSlice S1x32 ![1, 0] (W8 (F := Ideal) m ρ c (Proc.devRef .tc main_arg5)) slices_S4x32_S1x32_1_0)
          shapeCasts_S1x32_S32 := by
    show StableHlo.after hostOps4 (W8 m ρ c) (Proc.devRef .tc main_v42) = _
    after_results_simp
    rfl
  rw [cur_apply, h7, h6, h5, Hidden2.row_of_slice (1 : Fin 4), arg5_at8]
  all_goals rfl

/-- The node table after layer 2, as the layer with the projection taken before the neighbour sum. -/
theorem layer2 (c : Dev nD) :
    cur (a := 100000) (b := 32) (W12 (F := Ideal) m ρ c (Proc.devRef .tc main_v58))
      = kLayer (cur (a := 100000) (b := 32) (W8 (F := Ideal) m ρ c (Proc.devRef .tc main_v38)))
          (slab (a := 4) (b := 32) (d := 32) (m ((c : Thread nD τ).loc main_arg4)) 1) (slab (a := 4) (b := 32) (d := 32) (m ((c : Thread nD τ).loc main_arg6)) 1) (rowOf (a := 4) (b := 32) (m ((c : Thread nD τ).loc main_arg5)) 1)
          (srcRow (P := 2500000) (m ((c : Thread nD τ).loc main_arg11))) (inEdges (P := 2500000) (m ((c : Thread nD τ).loc main_arg11))) := by
  have h8 : W12 (F := Ideal) m ρ c (Proc.devRef .tc main_v58) = (dat5 (F := Ideal) (V11 m ρ) c).arrAt 3 cfg5.N :=
    W12_arr m ρ c 3
  rw [h8, reg5_out, cur_tbl]
  funext n j
  show max (cur (a := 100000) (b := 32) (W11 (F := Ideal) m ρ c (Proc.devRef .tc main_v56)) n j
        + cur (a := 100000) (b := 32) (W11 (F := Ideal) m ρ c (Proc.devRef .tc main_v46_1)) n j
        + cur (a := 1) (b := 32) (W11 (F := Ideal) m ρ c (Proc.devRef .tc main_v57)) 0 j) 0 = _
  rw [cur_W11_main_v56, cur_W11_main_v46_1, cur_W11_main_v57]
  unfold kLayer
  rfl

end Cert.KernelIdeal.Val

end
-- ==== Proof.RegProj6.lean ====
/-
  Region 6: every block of ten thousand node rows is multiplied by the side-by-side weight table; the left half of
  the product goes to one output array and the right half to the other. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

/-! ## The product at an index -/

/-- The product's left operand is read at the output's row and the contraction's position … -/
theorem reg6_lhs_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem reg6_lhs_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- … and the right operand at the contraction's position and the output's column. -/
theorem reg6_rhs_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem reg6_rhs_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The whole product of a block of rows with the weight table, entry by entry: the sum over the shared axis. -/
theorem reg6_prod_apply (x0 : Vec Ideal S10000x32 .f32) (x1 : Vec Ideal S32x64 .f32) (p : Fin 10000) (r : Fin 64) :
    k6_pay1 (F := Ideal) x0 x1 (ix2 p r) = ∑ k : Fin 32, x0 (ix2 p k) * x1 (ix2 k r) := by
  unfold k6_pay1
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p r) ((contrEquiv1 dot_S10000x32_S32x64_S10000x64_1_0_0_1_n_n 32 rfl rfl).symm k) = ix2 p k := funext fun a => Fin.ext (by
    match a with
    | ⟨0, _⟩ => exact reg6_lhs_0 _ _
    | ⟨1, _⟩ => exact (reg6_lhs_1 _ _).trans hk)
  have er : dot_S10000x32_S32x64_S10000x64_1_0_0_1_n_n.rhsIdx (ix2 p r) ((contrEquiv1 dot_S10000x32_S32x64_S10000x64_1_0_0_1_n_n 32 rfl rfl).symm k) = ix2 k r := funext fun a => Fin.ext (by
    match a with
    | ⟨0, _⟩ => exact (reg6_rhs_0 _ _).trans hk
    | ⟨1, _⟩ => exact reg6_rhs_1 _ _)
  rw [el, er, truncf_apply, truncf_apply, shapeCast_self, shapeCast_self]

/-- The left half of the product, entry by entry. -/
theorem reg6_left_apply (x0 : Vec Ideal S10000x32 .f32) (x1 : Vec Ideal S32x64 .f32) (p : Fin 10000) (q : Fin 32) :
    k6_pay2 (F := Ideal) x0 x1 (ix2 p q) = ∑ k : Fin 32, x0 (ix2 p k) * x1 (ix2 k (⟨q.val, by have := q.isLt; omega⟩ : Fin 64)) := by
  unfold k6_pay2
  refine (extractStridedSlice_apply _ _ _ (ix2 p q) (ix2 p (⟨q.val, by have := q.isLt; omega⟩ : Fin 64)) (fun a => ?_)).trans (reg6_prod_apply x0 x1 p _)
  match a with
  | ⟨0, _⟩ => show p.val = 0 + p.val; omega
  | ⟨1, _⟩ => show q.val = 0 + q.val; omega

/-- The right half of the product, entry by entry. -/
theorem reg6_right_apply (x0 : Vec Ideal S10000x32 .f32) (x1 : Vec Ideal S32x64 .f32) (p : Fin 10000) (q : Fin 32) :
    k6_pay3 (F := Ideal) x0 x1 (ix2 p q) = ∑ k : Fin 32, x0 (ix2 p k) * x1 (ix2 k (⟨32 + q.val, by have := q.isLt; omega⟩ : Fin 64)) := by
  unfold k6_pay3
  refine (extractStridedSlice_apply _ _ _ (ix2 p q) (ix2 p (⟨32 + q.val, by have := q.isLt; omega⟩ : Fin 64)) (fun a => ?_)).trans (reg6_prod_apply x0 x1 p _)
  match a with
  | ⟨0, _⟩ => show p.val = 0 + p.val; omega
  | ⟨1, _⟩ => show 32 + q.val = 32 + q.val; rfl

variable (V : (c : Dev nD) → (b : Ref sig .tc) → Buf (Elt Ideal) ((c : Thread nD τ).loc b))

/-! ## From the blocks to the arrays -/

/-- The zero offsets, however spelt. -/
theorem reg6_hz : (![0, 0] : Fin 2 → Nat) = fun _ => 0 :=
  funext fun a => by match a with | ⟨0, _⟩ => rfl | ⟨1, _⟩ => rfl

/-- The index maps over the grid: the node rows and both outputs move one block of rows per point, the weight
    table stays. -/
theorem reg6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- What the body leaves in the first output's buffer is the left half of the product of its two blocks. -/
theorem reg6_out_left (x0 : Vec Ideal S10000x32 .f32) (x1 : Vec Ideal S32x64 .f32) :
    out6_2 (F := Ideal) x0 x1 = k6_pay2 x0 x1 := by
  unfold out6_2
  rw [View.canon_unit_zero reg6_hz]
  simp only [View.ld_unit_zero (S := S10000x32) reg6_hz, View.ld_unit_zero (S := S32x64) reg6_hz]

/-- What the body leaves in the second output's buffer is the right half of the product of its two blocks. -/
theorem reg6_out_right (x0 : Vec Ideal S10000x32 .f32) (x1 : Vec Ideal S32x64 .f32) :
    out6_3 (F := Ideal) x0 x1 = k6_pay3 x0 x1 := by
  unfold out6_3
  rw [View.canon_unit_zero reg6_hz]
  simp only [View.ld_unit_zero (S := S10000x32) reg6_hz, View.ld_unit_zero (S := S32x64) reg6_hz]

/-- The node table as the region finds it. -/
abbrev reg6_nodes (c : Dev nD) : Tbl 100000 32 := V c (Pipeline.arrRef spec6 0)
/-- The side-by-side weight table as the region finds it. -/
abbrev reg6_wts (c : Dev nD) : Tbl 32 64 := V c (Pipeline.arrRef spec6 1)

/-- The node rows' block at point `t` is rows `10000 t … 10000 t + 9999` of the node table. -/
theorem reg6_rows (c : Dev nD) (t : Fin cfg6.N) (y : S10000x32.Idx) (i : S100000x32.Idx)
    (h0 : (i 0).val = 10000 * t.val + (y 0).val) (h1 : (i 1).val = (y 1).val) :
    (iblk6 (F := Ideal) V c 0 t : Vec Ideal S10000x32 .f32) y = reg6_nodes V c i := by
  obtain ⟨e0, e1, -⟩ := reg6_idx t
  unfold iblk6
  show reg6_nodes V c (((cfg6.win 0).blk t).view.emb y) = _
  refine congrArg (reg6_nodes V c) (funext fun a => Fin.ext ?_)
  match a with
  | ⟨0, _⟩ => show win6_0.index t (0 : Fin 2) * 10000 + 1 * (y 0).val = (i 0).val; rw [e0, h0]; omega
  | ⟨1, _⟩ => show win6_0.index t (1 : Fin 2) * 32 + 1 * (y 1).val = (i 1).val; rw [e1, h1]; omega

/-- The weight table's block at every point is the whole table. -/
theorem reg6_weights (c : Dev nD) (t : Fin cfg6.N) (y : S32x64.Idx) :
    (iblk6 (F := Ideal) V c 1 t : Vec Ideal S32x64 .f32) y = reg6_wts V c y := by
  obtain ⟨-, -, e0, e1, -⟩ := reg6_idx t
  unfold iblk6
  show reg6_wts V c (((cfg6.win 1).blk t).view.emb y) = _
  refine congrArg (reg6_wts V c) (funext fun a => Fin.ext ?_)
  match a with
  | ⟨0, _⟩ => show win6_1.index t (0 : Fin 2) * 32 + 1 * (y 0).val = (y 0).val; rw [e0]; omega
  | ⟨1, _⟩ => show win6_1.index t (1 : Fin 2) * 64 + 1 * (y 1).val = (y 1).val; rw [e1]; omega

/-- One entry of the left half of the product of the blocks at point `t` is the entry of the whole arrays' product
    in the row that the block's row is of the table. -/
theorem reg6_entry_left (c : Dev nD) (t : Fin cfg6.N) (p : Fin 10000) (q : Fin 32) (P : Fin 100000)
    (hP : P.val = 10000 * t.val + p.val) :
    k6_pay2 (F := Ideal) (iblk6 V c 0 t) (iblk6 V c 1 t) (ix2 p q)
      = tbl (mm (cur (reg6_nodes V c)) (lo (cur (reg6_wts V c)))) (ix2 P q) := by
  refine (reg6_left_apply (iblk6 V c 0 t) (iblk6 V c 1 t) p q).trans ?_
  show _ = ∑ k : Fin 32, reg6_nodes V c (ix2 P k)
      * reg6_wts V c (ix2 k (⟨q.val, by have := q.isLt; omega⟩ : Fin 64))
  refine Finset.sum_congr rfl fun k _ => ?_
  exact congrArg₂ (· * ·) (reg6_rows V c t (ix2 p k) (ix2 P k) hP rfl) (reg6_weights V c t (ix2 k _))

/-- One entry of the right half, likewise. -/
theorem reg6_entry_right (c : Dev nD) (t : Fin cfg6.N) (p : Fin 10000) (q : Fin 32) (P : Fin 100000)
    (hP : P.val = 10000 * t.val + p.val) :
    k6_pay3 (F := Ideal) (iblk6 V c 0 t) (iblk6 V c 1 t) (ix2 p q)
      = tbl (mm (cur (reg6_nodes V c)) (hi (cur (reg6_wts V c)))) (ix2 P q) := by
  refine (reg6_right_apply (iblk6 V c 0 t) (iblk6 V c 1 t) p q).trans ?_
  show _ = ∑ k : Fin 32, reg6_nodes V c (ix2 P k)
      * reg6_wts V c (ix2 k (⟨32 + q.val, by have := q.isLt; omega⟩ : Fin 64))
  refine Finset.sum_congr rfl fun k _ => ?_
  exact congrArg₂ (· * ·) (reg6_rows V c t (ix2 p k) (ix2 P k) hP rfl) (reg6_weights V c t (ix2 k _))

/-- What point `t` writes back to the first output is block `t` of the left half of the whole arrays' product. -/
theorem reg6_flushed_left (c : Dev nD) (t : Fin cfg6.N) :
    (dat6 (F := Ideal) V c).flushed 2 t = ((cfg6.win 2).blk t).view.read (Elt Ideal)
      (tbl (mm (cur (reg6_nodes V c)) (lo (cur (reg6_wts V c))))) := by
  show (cfg6.win 2).cut (grid6.coords t) ((dat6 V c).after 2 t) = _
  rw [after6_2, reg6_out_left]
  obtain ⟨-, -, -, -, e0, e1, -⟩ := reg6_idx t
  funext j
  have hj0 : (j 0).val < 10000 := (j 0).isLt
  have hj1 : (j 1).val < 32 := (j 1).isLt
  have ht : t.val < 10 := lt_of_lt_of_eq t.isLt N_6
  have hx : (cfg6.win 2).xinj (grid6.coords t) j = ix2 (⟨(j 0).val, hj0⟩ : Fin 10000) (⟨(j 1).val, hj1⟩ : Fin 32) :=
    funext fun a => by match a with | ⟨0, _⟩ => rfl | ⟨1, _⟩ => rfl
  have hemb : ((cfg6.win 2).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win6_2.index t (0 : Fin 2) * 10000 + 1 * (j 0).val = 10000 * t.val + (j 0).val; rw [e0]; omega
      | ⟨1, _⟩ => show win6_2.index t (1 : Fin 2) * 32 + 1 * (j 1).val = (j 1).val; rw [e1]; omega)
  show k6_pay2 (F := Ideal) (iblk6 V c 0 t) (iblk6 V c 1 t) ((cfg6.win 2).xinj (grid6.coords t) j)
    = (tbl (mm (cur (reg6_nodes V c)) (lo (cur (reg6_wts V c)))) : S100000x32.Idx → EReal)
        (((cfg6.win 2).blk t).view.emb j)
  rw [hx, hemb]
  exact reg6_entry_left V c t _ _ _ rfl

/-- What point `t` writes back to the second output is block `t` of the right half of the whole arrays' product. -/
theorem reg6_flushed_right (c : Dev nD) (t : Fin cfg6.N) :
    (dat6 (F := Ideal) V c).flushed 3 t = ((cfg6.win 3).blk t).view.read (Elt Ideal)
      (tbl (mm (cur (reg6_nodes V c)) (hi (cur (reg6_wts V c))))) := by
  show (cfg6.win 3).cut (grid6.coords t) ((dat6 V c).after 3 t) = _
  rw [after6_3, reg6_out_right]
  obtain ⟨-, -, -, -, -, -, e0, e1⟩ := reg6_idx t
  funext j
  have hj0 : (j 0).val < 10000 := (j 0).isLt
  have hj1 : (j 1).val < 32 := (j 1).isLt
  have ht : t.val < 10 := lt_of_lt_of_eq t.isLt N_6
  have hx : (cfg6.win 3).xinj (grid6.coords t) j = ix2 (⟨(j 0).val, hj0⟩ : Fin 10000) (⟨(j 1).val, hj1⟩ : Fin 32) :=
    funext fun a => by match a with | ⟨0, _⟩ => rfl | ⟨1, _⟩ => rfl
  have hemb : ((cfg6.win 3).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win6_3.index t (0 : Fin 2) * 10000 + 1 * (j 0).val = 10000 * t.val + (j 0).val; rw [e0]; omega
      | ⟨1, _⟩ => show win6_3.index t (1 : Fin 2) * 32 + 1 * (j 1).val = (j 1).val; rw [e1]; omega)
  show k6_pay3 (F := Ideal) (iblk6 V c 0 t) (iblk6 V c 1 t) ((cfg6.win 3).xinj (grid6.coords t) j)
    = (tbl (mm (cur (reg6_nodes V c)) (hi (cur (reg6_wts V c)))) : S100000x32.Idx → EReal)
        (((cfg6.win 3).blk t).view.emb j)
  rw [hx, hemb]
  exact reg6_entry_right V c t _ _ _ rfl

/-- An index of the first output is in point `t`'s block iff each coordinate is in the block's range on its axis. -/
theorem reg6_mem_left (t : Fin cfg6.N) (i : S100000x32.Idx) :
    i ∈ ((cfg6.win 2).blk t).view.set ↔ ∀ a : Fin 2, win6_2.index t a * S10000x32.size a ≤ (i a).val
      ∧ (i a).val < win6_2.index t a * S10000x32.size a + S10000x32.size a := by
  show i ∈ ((View.whole (Pipeline.arrRef spec6 2)).slice (win6_2.rect t)).set ↔ _
  rw [View.set_slice_whole, Rect.mem_set_unit]
  exact Iff.rfl

/-- The same for the second output. -/
theorem reg6_mem_right (t : Fin cfg6.N) (i : S100000x32.Idx) :
    i ∈ ((cfg6.win 3).blk t).view.set ↔ ∀ a : Fin 2, win6_3.index t a * S10000x32.size a ≤ (i a).val
      ∧ (i a).val < win6_3.index t a * S10000x32.size a + S10000x32.size a := by
  show i ∈ ((View.whole (Pipeline.arrRef spec6 3)).slice (win6_3.rect t)).set ↔ _
  rw [View.set_slice_whole, Rect.mem_set_unit]
  exact Iff.rfl

/-- Every row of the first output is in the block of the point that is its row number over ten thousand. -/
theorem reg6_cover_left (i : S100000x32.Idx) :
    ∃ t : Fin cfg6.N, (cfg6.win 2).flush t = true ∧ i ∈ ((cfg6.win 2).blk t).view.set := by
  have hi0 : (i 0).val < 100000 := (i 0).isLt
  have hi1 : (i 1).val < 32 := (i 1).isLt
  have hN : cfg6.N = 10 := N_6
  obtain ⟨t, ht⟩ : ∃ t : Fin cfg6.N, t.val = (i 0).val / 10000 := ⟨⟨(i 0).val / 10000, by omega⟩, rfl⟩
  obtain ⟨-, -, -, -, e0, e1, -⟩ := reg6_idx t
  refine ⟨t, flush6_2 t, ?_⟩
  rw [reg6_mem_left]
  intro a
  match a with
  | ⟨0, _⟩ =>
    show win6_2.index t (0 : Fin 2) * 10000 ≤ (i 0).val ∧ (i 0).val < win6_2.index t (0 : Fin 2) * 10000 + 10000
    rw [e0, ht]; omega
  | ⟨1, _⟩ =>
    show win6_2.index t (1 : Fin 2) * 32 ≤ (i 1).val ∧ (i 1).val < win6_2.index t (1 : Fin 2) * 32 + 32
    rw [e1]; omega

/-- The same for the second output. -/
theorem reg6_cover_right (i : S100000x32.Idx) :
    ∃ t : Fin cfg6.N, (cfg6.win 3).flush t = true ∧ i ∈ ((cfg6.win 3).blk t).view.set := by
  have hi0 : (i 0).val < 100000 := (i 0).isLt
  have hi1 : (i 1).val < 32 := (i 1).isLt
  have hN : cfg6.N = 10 := N_6
  obtain ⟨t, ht⟩ : ∃ t : Fin cfg6.N, t.val = (i 0).val / 10000 := ⟨⟨(i 0).val / 10000, by omega⟩, rfl⟩
  obtain ⟨-, -, -, -, -, -, e0, e1⟩ := reg6_idx t
  refine ⟨t, flush6_3 t, ?_⟩
  rw [reg6_mem_right]
  intro a
  match a with
  | ⟨0, _⟩ =>
    show win6_3.index t (0 : Fin 2) * 10000 ≤ (i 0).val ∧ (i 0).val < win6_3.index t (0 : Fin 2) * 10000 + 10000
    rw [e0, ht]; omega
  | ⟨1, _⟩ =>
    show win6_3.index t (1 : Fin 2) * 32 ≤ (i 1).val ∧ (i 1).val < win6_3.index t (1 : Fin 2) * 32 + 32
    rw [e1]; omega

/-- The first output array of region 6: the node table times the left half of the weight table. -/
theorem reg6_t (c : Dev nD) :
    (dat6 (F := Ideal) V c).arrAt 2 cfg6.N = tbl (mm (cur (a := 100000) (b := 32) (V c main_v58)) (lo (cur (a := 32) (b := 64) (V c main_v65)))) :=
  (dat6 (F := Ideal) V c).arrAt_eq_of_cover 2 (tbl (mm (cur (reg6_nodes V c)) (lo (cur (reg6_wts V c)))))
    (fun t _ => reg6_flushed_left V c t) reg6_cover_left

/-- The second output array of region 6: the node table times the right half of the weight table. -/
theorem reg6_root (c : Dev nD) :
    (dat6 (F := Ideal) V c).arrAt 3 cfg6.N = tbl (mm (cur (a := 100000) (b := 32) (V c main_v58)) (hi (cur (a := 32) (b := 64) (V c main_v65)))) :=
  (dat6 (F := Ideal) V c).arrAt_eq_of_cover 3 (tbl (mm (cur (reg6_nodes V c)) (hi (cur (reg6_wts V c)))))
    (fun t _ => reg6_flushed_right V c t) reg6_cover_right

end Cert.KernelIdeal.Val

end
-- ==== Proof.RegComb7.lean ====
/-
  Region 7: entry by entry, the neighbour sum plus the node's own projection plus the bias of its column, clipped
  below at zero. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (V : (c : Dev nD) → (b : Ref sig .tc) → Buf (Elt Ideal) ((c : Thread nD τ).loc b))

/-- The zero offsets of a whole-buffer access, as the constant function. -/
theorem reg7_zero_off : (![0, 0] : Fin 2 → Nat) = fun _ => 0 := funext fun a => by fin_cases a <;> rfl

/-- The payload at an entry: the two blocks' entries and the bias of the column added, clipped below at zero. The
    bias block has one row, so every row of the sum reads its row 0. -/
theorem reg7_pay_apply (xa xb : Vec Ideal S10000x32 .f32) (xc : Vec Ideal S1x32 .f32) (p : Fin 10000) (q : Fin 32) :
    k7_pay1 xa xb xc (ix2 p q) = max (xa (ix2 p q) + xb (ix2 p q) + xc (ix2 (0 : Fin 1) q)) 0 := by
  unfold k7_pay1
  rw [maximumf_apply, addf_apply, addf_apply, broadcast_apply, shapeCast_self, shapeCast_self, shapeCast_self,
    broadcastTo_apply xc broadcasts_S1x32_S10000x32 (ix2 p q) (ix2 (0 : Fin 1) q)
      (fun a => by match a with | ⟨0, _⟩ => rfl | ⟨1, _⟩ => rfl),
    show (FloatOps.ofBits FTy.f32 0#32 : Ideal .f32) = 0 from Ideal.ofBits_zero_f32]

/-- The index maps over the ten points: the two row-block inputs move with the output, block `t` on the row axis and
    block 0 on the column axis; the bias window stays at block (0, 0). -/
theorem reg7_idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The clipped sum as one function of the three whole arrays: at row `n`, column `j`, the two tables' entries and
    the bias of column `j` added, clipped below at zero. -/
def reg7_comb (a b : S100000x32.Idx → EReal) (bias : S1x32.Idx → EReal) : S100000x32.Idx → EReal :=
  fun i => max (a (ix2 (i 0) (i 1)) + b (ix2 (i 0) (i 1)) + bias (ix2 (0 : Fin 1) (i 1))) 0

/-- An entry of the payload is the clipped sum at the array index `i`, once each block's entry is its array's entry
    at `i` and the bias block's entry is the bias of `i`'s column. -/
theorem reg7_pay_eq_comb (A B : S100000x32.Idx → EReal) (bias : S1x32.Idx → EReal)
    (xa xb : Vec Ideal S10000x32 .f32) (xc : Vec Ideal S1x32 .f32) (j : S10000x32.Idx) (i : S100000x32.Idx)
    (ha : xa (ix2 (j 0) (j 1)) = A (ix2 (i 0) (i 1))) (hb : xb (ix2 (j 0) (j 1)) = B (ix2 (i 0) (i 1)))
    (hc : xc (ix2 (0 : Fin 1) (j 1)) = bias (ix2 (0 : Fin 1) (i 1))) :
    k7_pay1 xa xb xc j = reg7_comb A B bias i := by
  refine (congrArg (k7_pay1 xa xb xc) (eq_ix2 j)).trans ((reg7_pay_apply xa xb xc (j 0) (j 1)).trans ?_)
  rw [ha, hb, hc]
  rfl

/-- WHAT POINT `t` WRITES BACK is block `t` of the clipped sum of the three arrays as the region finds them: the two
    row-block windows sit on the output block's own rows `10000 t … 10000 t + 9999` and columns, and the bias window's
    one block is the whole bias row. A block's coordinate on an axis is its index times its size plus the coordinate
    inside the block. -/
theorem reg7_flushed_eq (c : Dev nD) (t : Fin cfg7.N) :
    (dat7 (F := Ideal) V c).flushed 3 t
      = ((cfg7.win 3).blk t).view.read (Elt Ideal) (reg7_comb (V c main_v76) (V c main_v66_1) (V c main_v77)) := by
  show (cfg7.win 3).cut (grid7.coords t) ((dat7 V c).after 3 t) = _
  rw [after7_3]
  unfold out7_3
  rw [View.canon_unit_zero reg7_zero_off]
  simp only [View.ld_unit_zero (S := S10000x32) reg7_zero_off, View.ld_unit_zero (S := S1x32) reg7_zero_off]
  obtain ⟨hxrow, hxcol, hyrow, hycol, hbrow, hbcol, horow, hocol⟩ := reg7_idx_facts t
  funext j
  have hp : (j 0).val < 10000 := (j 0).isLt
  have hq : (j 1).val < 32 := (j 1).isLt
  refine reg7_pay_eq_comb (V c main_v76) (V c main_v66_1) (V c main_v77) (iblk7 V c 0 t) (iblk7 V c 1 t) (iblk7 V c 2 t) j
    (((cfg7.win 3).blk t).view.emb j) ?_ ?_ ?_
  · show V c main_v76 (((cfg7.win 0).blk t).view.emb (ix2 (j 0) (j 1))) = _
    refine congrArg (V c main_v76) (funext fun a => Fin.ext ?_)
    match a with
    | ⟨0, _⟩ => show win7_0.index t (0 : Fin 2) * 10000 + 1 * (j 0).val = win7_3.index t (0 : Fin 2) * 10000 + 1 * (j 0).val; omega
    | ⟨1, _⟩ => show win7_0.index t (1 : Fin 2) * 32 + 1 * (j 1).val = win7_3.index t (1 : Fin 2) * 32 + 1 * (j 1).val; omega
  · show V c main_v66_1 (((cfg7.win 1).blk t).view.emb (ix2 (j 0) (j 1))) = _
    refine congrArg (V c main_v66_1) (funext fun a => Fin.ext ?_)
    match a with
    | ⟨0, _⟩ => show win7_1.index t (0 : Fin 2) * 10000 + 1 * (j 0).val = win7_3.index t (0 : Fin 2) * 10000 + 1 * (j 0).val; omega
    | ⟨1, _⟩ => show win7_1.index t (1 : Fin 2) * 32 + 1 * (j 1).val = win7_3.index t (1 : Fin 2) * 32 + 1 * (j 1).val; omega
  · show V c main_v77 (((cfg7.win 2).blk t).view.emb (ix2 (0 : Fin 1) (j 1))) = _
    refine congrArg (V c main_v77) (funext fun a => Fin.ext ?_)
    match a with
    | ⟨0, _⟩ => show win7_2.index t (0 : Fin 2) * 1 + 1 * 0 = 0; omega
    | ⟨1, _⟩ => show win7_2.index t (1 : Fin 2) * 32 + 1 * (j 1).val = win7_3.index t (1 : Fin 2) * 32 + 1 * (j 1).val; omega

/-- An index of the array is in point `t`'s block iff each coordinate is in the block's range on its axis. -/
theorem reg7_mem_blk (t : Fin cfg7.N) (i : S100000x32.Idx) :
    i ∈ ((cfg7.win 3).blk t).view.set ↔ ∀ a : Fin 2, win7_3.index t a * S10000x32.size a ≤ (i a).val
      ∧ (i a).val < win7_3.index t a * S10000x32.size a + S10000x32.size a := by
  show i ∈ ((View.whole (Pipeline.arrRef spec7 3)).slice (win7_3.rect t)).set ↔ _
  rw [View.set_slice_whole, Rect.mem_set_unit]
  exact Iff.rfl

/-- The ten row blocks tile the array: row `r` lies in the block of point `r / 10000`, and the one column block
    holds every column. -/
theorem reg7_cover (i : S100000x32.Idx) :
    ∃ t : Fin cfg7.N, (cfg7.win 3).flush t = true ∧ i ∈ ((cfg7.win 3).blk t).view.set := by
  have hrow : (i 0).val < 100000 := (i 0).isLt
  have hcol : (i 1).val < 32 := (i 1).isLt
  have hN : cfg7.N = 10 := by decide
  obtain ⟨t, ht⟩ : ∃ t : Fin cfg7.N, t.val = (i 0).val / 10000 := ⟨⟨(i 0).val / 10000, by rw [hN]; omega⟩, rfl⟩
  obtain ⟨-, -, -, -, -, -, horow, hocol⟩ := reg7_idx_facts t
  refine ⟨t, flush7_3 t, ?_⟩
  rw [reg7_mem_blk]
  intro a
  match a with
  | ⟨0, _⟩ =>
    show win7_3.index t (0 : Fin 2) * 10000 ≤ (i 0).val ∧ (i 0).val < win7_3.index t (0 : Fin 2) * 10000 + 10000
    omega
  | ⟨1, _⟩ =>
    show win7_3.index t (1 : Fin 2) * 32 ≤ (i 1).val ∧ (i 1).val < win7_3.index t (1 : Fin 2) * 32 + 32
    omega

/-- The output array of region 7. -/
theorem reg7_out (c : Dev nD) :
    (dat7 (F := Ideal) V c).arrAt 3 cfg7.N
      = tbl (fun n j => max (cur (a := 100000) (b := 32) (V c main_v76) n j + cur (a := 100000) (b := 32) (V c main_v66_1) n j
          + cur (a := 1) (b := 32) (V c main_v77) 0 j) 0) := by
  exact (dat7 V c).arrAt_eq_of_cover 3 (reg7_comb (V c main_v76) (V c main_v66_1) (V c main_v77))
    (fun t _ => reg7_flushed_eq V c t) reg7_cover

end Cert.KernelIdeal.Val

end
-- ==== Proof.KLayer3.lean ====
/-
  Layer 3 of the kernel's program, from the boundary before its weight tables are laid side by side to the boundary after
  its second region: the node rows are projected by both weight tables at once, the first projection travels along the
  edges and is summed at the destinations, and the sum, the second projection and the bias are joined and clipped.
-/
import Idealize.ShloMosaic.PureOps.Ideal.Laws
import Idealize.ShloMosaic.Lib.ValueIdx
import Idealize.ShloMosaic.Lib.Pipeline.Value
import proofs.«401169_j5540507812347_2_alg».proof.Proof.Gen.KernelIdeal.Frame
import proofs.«401169_j5540507812347_2_alg».proof.Proof.Spec
import proofs.«401169_j5540507812347_2_alg».proof.Proof.Keep
import proofs.«401169_j5540507812347_2_alg».proof.Proof.HostRead
import proofs.«401169_j5540507812347_2_alg».proof.Proof.RegProj6
import proofs.«401169_j5540507812347_2_alg».proof.Proof.RegComb7

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (m : (ℓ : Loc nD τ sig) → Buf (Elt Ideal) ℓ) (ρ : Dev nD → PrngReg)

/-! ## Host operations of a hidden layer read at an entry (the same for every hidden layer)

A hidden layer's weight tables are slabs of two stacks `[4, 32, 32]` and its bias a row of a table `[4, 32]`; its
neighbour sum is a row lookup at the normalised source words accumulated into zeros at the destination words. -/

namespace Hidden3

/-- A slab `[1, 32, 32]` cut from a stack at offset `(o, 0, 0)` and read as a table `[32, 32]` is slab `o`. -/
theorem slab_of_slice (i : Fin 4) {o : Nat} (x : S4x32x32.Idx → EReal)
    (hs : S4x32x32.Slices ![o, 0, 0] S1x32x32) (hc : S1x32x32.ShapeCasts S32x32) (ho : o = i.val) :
    cur (a := 32) (b := 32) (shapeCast S32x32 (extractStridedSlice S1x32x32 ![o, 0, 0] x hs) hc)
      = slab (a := 4) (b := 32) (d := 32) x i := by
  funext p q
  show shapeCast S32x32 (extractStridedSlice S1x32x32 ![o, 0, 0] x hs) hc (ix2 p q) = x (ix3 i p q)
  refine (shapeCast_apply _ hc (ix2 p q) (ix3 (0 : Fin 1) p q) ?_).trans ?_
  · rw [Shape.rowMajor_val_three, Shape.rowMajor_val_two]
    show (0 * 32 + p.val) * 32 + q.val = p.val * 32 + q.val
    omega
  · refine extractStridedSlice_apply _ x hs (ix3 (0 : Fin 1) p q) (ix3 i p q) fun a => ?_
    match a with
    | ⟨0, _⟩ => show i.val = o + 0; omega
    | ⟨1, _⟩ => show p.val = 0 + p.val; omega
    | ⟨2, _⟩ => show q.val = 0 + q.val; omega

/-- A row `[1, 32]` cut from a table at offset `(o, 0)`, read as a vector `[32]` and again as a row `[1, 32]`, is
    row `o`. -/
theorem row_of_slice (i : Fin 4) {o : Nat} (x : S4x32.Idx → EReal)
    (hs : S4x32.Slices ![o, 0] S1x32) (hc : S1x32.ShapeCasts S32) (hc' : S32.ShapeCasts S1x32) (j : Fin 32) (ho : o = i.val) :
    shapeCast S1x32 (shapeCast S32 (extractStridedSlice S1x32 ![o, 0] x hs) hc) hc' (ix2 (0 : Fin 1) j)
      = rowOf (a := 4) (b := 32) x i j := by
  show _ = x (ix2 i j)
  refine (shapeCast_apply _ hc' (ix2 (0 : Fin 1) j) (ix1 j) ?_).trans ?_
  · rw [Shape.rowMajor_val_one, Shape.rowMajor_val_two]
    show j.val = 0 * 32 + j.val
    omega
  refine (shapeCast_apply _ hc (ix1 j) (ix2 (0 : Fin 1) j) ?_).trans ?_
  · rw [Shape.rowMajor_val_one, Shape.rowMajor_val_two]
    show 0 * 32 + j.val = j.val
    omega
  · refine extractStridedSlice_apply _ x hs (ix2 (0 : Fin 1) j) (ix2 i j) fun a => ?_
    match a with
    | ⟨0, _⟩ => show i.val = o + 0; omega
    | ⟨1, _⟩ => show j.val = 0 + j.val; omega

/-- The zero word spread over a table is zero at every entry. -/
theorem zeros_apply (i : S100000x32.Idx) :
    broadcastInDim S100000x32 ![] bcast_S_S100000x32 (constant (F := Ideal) S_ .f32 0x00000000#32) i = 0 := by
  refine (broadcastInDim_apply _ bcast_S_S100000x32 _ i ix0 fun a => a.elim0).trans ?_
  rw [constant_apply]
  exact Ideal.ofBits_zero_f32

/-- A vector of words as a column `[P, 1]`, read at `(e, 0)`. -/
theorem col_apply (v : IVec S2500000 32) (e : Fin 2500000) :
    broadcastInDim S2500000x1 ![0] bcast_S2500000_S2500000x1_0 v (ix2 e (0 : Fin 1)) = v (ix1 e) := by
  refine broadcastInDim_apply _ bcast_S2500000_S2500000x1_0 v (ix2 e (0 : Fin 1)) (ix1 e) fun a => ?_
  match a with
  | ⟨0, _⟩ =>
    show e.val = if (2500000 : Nat) = 1 then 0 else e.val
    rw [if_neg (by omega)]

/-- The source column: a word below zero (signed) has the row count added, read at `(e, 0)`. -/
theorem srcCol_apply (v : IVec S2500000 32) (e : Fin 2500000) :
    broadcastInDim S2500000x1 ![0] bcast_S2500000_S2500000x1_0
        (select (cmpi CmpIPredicate.slt v (broadcastInDim S2500000 ![] bcast_S_S2500000 (constantI S_ 32 0#32)))
          (addi v (broadcastInDim S2500000 ![] bcast_S_S2500000 (constantI S_ 32 100000#32))) v) (ix2 e (0 : Fin 1))
      = normWord (v (ix1 e)) := by
  rw [col_apply]
  rfl

/-- The lookup of whole rows at the source column accumulated into zeros at the destination column is the neighbour
    sum over the edges that land on a node, of the rows their normalised, clamped source words name. -/
theorem nbr_of_hostChain (x : S100000x32.Idx → EReal) (v1 v3 : IVec S2500000 32) :
    cur (a := 100000) (b := 32)
        (Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 v3)
          (Host.gather gather_S100000x32_S2500000x1_S2500000x32_1_0_n_n_0_1_132 x
            (broadcastInDim S2500000x1 ![0] bcast_S2500000_S2500000x1_0
              (select (cmpi CmpIPredicate.slt v1 (broadcastInDim S2500000 ![] bcast_S_S2500000 (constantI S_ 32 0#32)))
                (addi v1 (broadcastInDim S2500000 ![] bcast_S_S2500000 (constantI S_ 32 100000#32))) v1))))
      = nbr (cur (a := 100000) (b := 32) x) (fun e : Fin 2500000 => EdgeAgg.clampTo 100000 (by decide) (normWord (v1 (ix1 e))))
          (fun n : Fin 100000 => Finset.univ.filter fun e : Fin 2500000 => (v3 (ix1 e)).toInt = (n.val : Int)) := by
  have hrows := srcCol_apply v1
  have hdst := col_apply v3
  have hz := zeros_apply
  generalize broadcastInDim S2500000x1 ![0] bcast_S2500000_S2500000x1_0
      (select (cmpi CmpIPredicate.slt v1 (broadcastInDim S2500000 ![] bcast_S_S2500000 (constantI S_ 32 0#32)))
        (addi v1 (broadcastInDim S2500000 ![] bcast_S_S2500000 (constantI S_ 32 100000#32))) v1) = rows at hrows ⊢
  generalize broadcastInDim S2500000x1 ![0] bcast_S2500000_S2500000x1_0 v3 = dstc at hdst ⊢
  generalize broadcastInDim S100000x32 ![] bcast_S_S100000x32 (constant (F := Ideal) S_ .f32 0x00000000#32) = z at hz ⊢
  have e := nbr_of_lookup_accum (N := 100000) (C := 32) (P := 2500000) (by decide)
    gather_S100000x32_S2500000x1_S2500000x32_1_0_n_n_0_1_132_wf scatter_S100000x32_S2500000x1_S2500000x32_1_0_0_1_wf
    x rows dstc z hz
  simp only [hrows, hdst] at e
  exact e

end Hidden3

/-! ## Layer 3, segment by segment -/

/-- The stretch that cuts the layer's weight tables and bias does not write the node table. -/
theorem W13_main_v58 (c : Dev nD) :
    W13 (F := Ideal) m ρ c (Proc.devRef .tc main_v58) = W12 (F := Ideal) m ρ c (Proc.devRef .tc main_v58) := by
  show StableHlo.after hostOps6 (W12 m ρ c) (Proc.devRef .tc main_v58) = _
  after_results_simp

/-- The side-by-side weight table: slab 0 of the first stack beside slab 0 of the second. -/
theorem cur_W13_main_v65 (c : Dev nD) :
    cur (a := 32) (b := 64) (W13 (F := Ideal) m ρ c (Proc.devRef .tc main_v65))
      = cat (slab (a := 4) (b := 32) (d := 32) (m ((c : Thread nD τ).loc main_arg4)) (2 : Fin 4))
          (slab (a := 4) (b := 32) (d := 32) (m ((c : Thread nD τ).loc main_arg6)) (2 : Fin 4)) := by
  have h : W13 (F := Ideal) m ρ c (Proc.devRef .tc main_v65)
      = concatenate S32x64 1
          [⟨S32x32, shapeCast S32x32 (extractStridedSlice S1x32x32 ![2, 0, 0] (W12 (F := Ideal) m ρ c (Proc.devRef .tc main_arg4))
              slices_S4x32x32_S1x32x32_2_0_0) shapeCasts_S1x32x32_S32x32⟩,
            ⟨S32x32, shapeCast S32x32 (extractStridedSlice S1x32x32 ![2, 0, 0] (W12 (F := Ideal) m ρ c (Proc.devRef .tc main_arg6))
              slices_S4x32x32_S1x32x32_2_0_0) shapeCasts_S1x32x32_S32x32⟩]
          concatenates_S32x32_S32x32_S32x64_d1 := by
    show StableHlo.after hostOps6 (W12 m ρ c) (Proc.devRef .tc main_v65) = _
    after_results
    rfl
  rw [h, cur_concat, Hidden3.slab_of_slice (2 : Fin 4), Hidden3.slab_of_slice (2 : Fin 4), arg4_at12, arg6_at12]
  all_goals rfl

/-- The first output of the projection region: the node table times slab 0 of the first stack. -/
theorem cur_W14_main_v66_0 (c : Dev nD) :
    cur (a := 100000) (b := 32) (W14 (F := Ideal) m ρ c (Proc.devRef .tc main_v66_0))
      = mm (cur (a := 100000) (b := 32) (W12 (F := Ideal) m ρ c (Proc.devRef .tc main_v58)))
          (slab (a := 4) (b := 32) (d := 32) (m ((c : Thread nD τ).loc main_arg4)) (2 : Fin 4)) := by
  have h6 : W14 (F := Ideal) m ρ c (Proc.devRef .tc main_v66_0) = (dat6 (F := Ideal) (V13 m ρ) c).arrAt 2 cfg6.N :=
    W14_arr m ρ c 2
  rw [h6, reg6_t, cur_tbl]
  show mm (cur (a := 100000) (b := 32) (W13 (F := Ideal) m ρ c (Proc.devRef .tc main_v58)))
      (lo (cur (a := 32) (b := 64) (W13 (F := Ideal) m ρ c (Proc.devRef .tc main_v65)))) = _
  rw [W13_main_v58, cur_W13_main_v65, lo_cat]

/-- The second output of the projection region, still there after the neighbour-sum stretch: the node table times
    slab 0 of the second stack. -/
theorem cur_W15_main_v66_1 (c : Dev nD) :
    cur (a := 100000) (b := 32) (W15 (F := Ideal) m ρ c (Proc.devRef .tc main_v66_1))
      = mm (cur (a := 100000) (b := 32) (W12 (F := Ideal) m ρ c (Proc.devRef .tc main_v58)))
          (slab (a := 4) (b := 32) (d := 32) (m ((c : Thread nD τ).loc main_arg6)) (2 : Fin 4)) := by
  have h7 : W15 (F := Ideal) m ρ c (Proc.devRef .tc main_v66_1) = W14 (F := Ideal) m ρ c (Proc.devRef .tc main_v66_1) := by
    show StableHlo.after hostOps7 (W14 m ρ c) (Proc.devRef .tc main_v66_1) = _
    after_results_simp
  have h6 : W14 (F := Ideal) m ρ c (Proc.devRef .tc main_v66_1) = (dat6 (F := Ideal) (V13 m ρ) c).arrAt 3 cfg6.N :=
    W14_arr m ρ c 3
  rw [h7, h6, reg6_root, cur_tbl]
  show mm (cur (a := 100000) (b := 32) (W13 (F := Ideal) m ρ c (Proc.devRef .tc main_v58)))
      (hi (cur (a := 32) (b := 64) (W13 (F := Ideal) m ρ c (Proc.devRef .tc main_v65)))) = _
  rw [W13_main_v58, cur_W13_main_v65, hi_cat]

/-- The neighbour-sum stretch: the first projection carried along the edges and summed at their destinations. -/
theorem cur_W15_main_v76 (c : Dev nD) :
    cur (a := 100000) (b := 32) (W15 (F := Ideal) m ρ c (Proc.devRef .tc main_v76))
      = nbr (mm (cur (a := 100000) (b := 32) (W12 (F := Ideal) m ρ c (Proc.devRef .tc main_v58)))
            (slab (a := 4) (b := 32) (d := 32) (m ((c : Thread nD τ).loc main_arg4)) (2 : Fin 4)))
          (srcRow (P := 2500000) (m ((c : Thread nD τ).loc main_arg11))) (inEdges (P := 2500000) (m ((c : Thread nD τ).loc main_arg11))) := by
  have h : W15 (F := Ideal) m ρ c (Proc.devRef .tc main_v76)
      = Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 (W14 (F := Ideal) m ρ c (Proc.devRef .tc main_v3)))
          (Host.gather gather_S100000x32_S2500000x1_S2500000x32_1_0_n_n_0_1_132 (W14 (F := Ideal) m ρ c (Proc.devRef .tc main_v66_0))
            (broadcastInDim S2500000x1 ![0] bcast_S2500000_S2500000x1_0
              (select (cmpi CmpIPredicate.slt (W14 (F := Ideal) m ρ c (Proc.devRef .tc main_v1)) (broadcastInDim S2500000 ![] bcast_S_S2500000 (constantI S_ 32 0#32)))
                (addi (W14 (F := Ideal) m ρ c (Proc.devRef .tc main_v1)) (broadcastInDim S2500000 ![] bcast_S_S2500000 (constantI S_ 32 100000#32)))
                (W14 (F := Ideal) m ρ c (Proc.devRef .tc main_v1))))) := by
    show StableHlo.after hostOps7 (W14 m ρ c) (Proc.devRef .tc main_v76) = _
    after_results_simp
  have hr : (fun e : Fin 2500000 => EdgeAgg.clampTo 100000 (by decide)
        (normWord (W14 (F := Ideal) m ρ c (Proc.devRef .tc main_v1) (ix1 e))))
      = srcRow (P := 2500000) (m ((c : Thread nD τ).loc main_arg11)) := by
    funext e
    rw [v1_at14, W1_v1_apply]
    rfl
  have hD : (fun n : Fin 100000 => Finset.univ.filter fun e : Fin 2500000 =>
        (W14 (F := Ideal) m ρ c (Proc.devRef .tc main_v3) (ix1 e)).toInt = (n.val : Int))
      = inEdges (P := 2500000) (m ((c : Thread nD τ).loc main_arg11)) := by
    funext n
    show _ = Finset.univ.filter fun e : Fin 2500000 =>
      (m ((c : Thread nD τ).loc main_arg11) (ix2 (1 : Fin 2) e)).toInt = (n.val : Int)
    refine Finset.filter_congr fun e _ => ?_
    rw [v3_at14, W1_v3_apply]
  rw [h, Hidden3.nbr_of_hostChain, cur_W14_main_v66_0, hr, hD]

/-- The bias as a row `[1, 32]`: row 0 of the bias table. -/
theorem cur_W15_main_v77 (c : Dev nD) (j : Fin 32) :
    cur (a := 1) (b := 32) (W15 (F := Ideal) m ρ c (Proc.devRef .tc main_v77)) 0 j
      = rowOf (a := 4) (b := 32) (m ((c : Thread nD τ).loc main_arg5)) (2 : Fin 4) j := by
  have h7 : W15 (F := Ideal) m ρ c (Proc.devRef .tc main_v77)
      = shapeCast S1x32 (W14 (F := Ideal) m ρ c (Proc.devRef .tc main_v62)) shapeCasts_S32_S1x32 := by
    show StableHlo.after hostOps7 (W14 m ρ c) (Proc.devRef .tc main_v77) = _
    after_results_simp
    rfl
  have h6 : W14 (F := Ideal) m ρ c (Proc.devRef .tc main_v62) = W13 (F := Ideal) m ρ c (Proc.devRef .tc main_v62) :=
    W14_of_ne m ρ c main_v62 (by decide)
  have h5 : W13 (F := Ideal) m ρ c (Proc.devRef .tc main_v62)
      = shapeCast S32 (extractStridedSlice S1x32 ![2, 0] (W12 (F := Ideal) m ρ c (Proc.devRef .tc main_arg5)) slices_S4x32_S1x32_2_0)
          shapeCasts_S1x32_S32 := by
    show StableHlo.after hostOps6 (W12 m ρ c) (Proc.devRef .tc main_v62) = _
    after_results_simp
    rfl
  rw [cur_apply, h7, h6, h5, Hidden3.row_of_slice (2 : Fin 4), arg5_at12]
  all_goals rfl

/-- The node table after layer 3, as the layer with the projection taken before the neighbour sum. -/
theorem layer3 (c : Dev nD) :
    cur (a := 100000) (b := 32) (W16 (F := Ideal) m ρ c (Proc.devRef .tc main_v78))
      = kLayer (cur (a := 100000) (b := 32) (W12 (F := Ideal) m ρ c (Proc.devRef .tc main_v58)))
          (slab (a := 4) (b := 32) (d := 32) (m ((c : Thread nD τ).loc main_arg4)) 2) (slab (a := 4) (b := 32) (d := 32) (m ((c : Thread nD τ).loc main_arg6)) 2) (rowOf (a := 4) (b := 32) (m ((c : Thread nD τ).loc main_arg5)) 2)
          (srcRow (P := 2500000) (m ((c : Thread nD τ).loc main_arg11))) (inEdges (P := 2500000) (m ((c : Thread nD τ).loc main_arg11))) := by
  have h8 : W16 (F := Ideal) m ρ c (Proc.devRef .tc main_v78) = (dat7 (F := Ideal) (V15 m ρ) c).arrAt 3 cfg7.N :=
    W16_arr m ρ c 3
  rw [h8, reg7_out, cur_tbl]
  funext n j
  show max (cur (a := 100000) (b := 32) (W15 (F := Ideal) m ρ c (Proc.devRef .tc main_v76)) n j
        + cur (a := 100000) (b := 32) (W15 (F := Ideal) m ρ c (Proc.devRef .tc main_v66_1)) n j
        + cur (a := 1) (b := 32) (W15 (F := Ideal) m ρ c (Proc.devRef .tc main_v77)) 0 j) 0 = _
  rw [cur_W15_main_v76, cur_W15_main_v66_1, cur_W15_main_v77]
  unfold kLayer
  rfl

end Cert.KernelIdeal.Val

end
-- ==== Proof.RegProj8.lean ====
/-
  Region 8: every block of ten thousand node rows is multiplied by the side-by-side weight table; the left half of
  the product goes to one output array and the right half to the other. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

/-! ## The product at an index -/

/-- The product's left operand is read at the output's row and the contraction's position … -/
theorem reg8_lhs_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem reg8_lhs_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- … and the right operand at the contraction's position and the output's column. -/
theorem reg8_rhs_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem reg8_rhs_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The whole product of a block of rows with the weight table, entry by entry: the sum over the shared axis. -/
theorem reg8_prod_apply (x0 : Vec Ideal S10000x32 .f32) (x1 : Vec Ideal S32x64 .f32) (p : Fin 10000) (r : Fin 64) :
    k8_pay1 (F := Ideal) x0 x1 (ix2 p r) = ∑ k : Fin 32, x0 (ix2 p k) * x1 (ix2 k r) := by
  unfold k8_pay1
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p r) ((contrEquiv1 dot_S10000x32_S32x64_S10000x64_1_0_0_1_n_n 32 rfl rfl).symm k) = ix2 p k := funext fun a => Fin.ext (by
    match a with
    | ⟨0, _⟩ => exact reg8_lhs_0 _ _
    | ⟨1, _⟩ => exact (reg8_lhs_1 _ _).trans hk)
  have er : dot_S10000x32_S32x64_S10000x64_1_0_0_1_n_n.rhsIdx (ix2 p r) ((contrEquiv1 dot_S10000x32_S32x64_S10000x64_1_0_0_1_n_n 32 rfl rfl).symm k) = ix2 k r := funext fun a => Fin.ext (by
    match a with
    | ⟨0, _⟩ => exact (reg8_rhs_0 _ _).trans hk
    | ⟨1, _⟩ => exact reg8_rhs_1 _ _)
  rw [el, er, truncf_apply, truncf_apply, shapeCast_self, shapeCast_self]

/-- The left half of the product, entry by entry. -/
theorem reg8_left_apply (x0 : Vec Ideal S10000x32 .f32) (x1 : Vec Ideal S32x64 .f32) (p : Fin 10000) (q : Fin 32) :
    k8_pay2 (F := Ideal) x0 x1 (ix2 p q) = ∑ k : Fin 32, x0 (ix2 p k) * x1 (ix2 k (⟨q.val, by have := q.isLt; omega⟩ : Fin 64)) := by
  unfold k8_pay2
  refine (extractStridedSlice_apply _ _ _ (ix2 p q) (ix2 p (⟨q.val, by have := q.isLt; omega⟩ : Fin 64)) (fun a => ?_)).trans (reg8_prod_apply x0 x1 p _)
  match a with
  | ⟨0, _⟩ => show p.val = 0 + p.val; omega
  | ⟨1, _⟩ => show q.val = 0 + q.val; omega

/-- The right half of the product, entry by entry. -/
theorem reg8_right_apply (x0 : Vec Ideal S10000x32 .f32) (x1 : Vec Ideal S32x64 .f32) (p : Fin 10000) (q : Fin 32) :
    k8_pay3 (F := Ideal) x0 x1 (ix2 p q) = ∑ k : Fin 32, x0 (ix2 p k) * x1 (ix2 k (⟨32 + q.val, by have := q.isLt; omega⟩ : Fin 64)) := by
  unfold k8_pay3
  refine (extractStridedSlice_apply _ _ _ (ix2 p q) (ix2 p (⟨32 + q.val, by have := q.isLt; omega⟩ : Fin 64)) (fun a => ?_)).trans (reg8_prod_apply x0 x1 p _)
  match a with
  | ⟨0, _⟩ => show p.val = 0 + p.val; omega
  | ⟨1, _⟩ => show 32 + q.val = 32 + q.val; rfl

variable (V : (c : Dev nD) → (b : Ref sig .tc) → Buf (Elt Ideal) ((c : Thread nD τ).loc b))

/-! ## From the blocks to the arrays -/

/-- The zero offsets, however spelt. -/
theorem reg8_hz : (![0, 0] : Fin 2 → Nat) = fun _ => 0 :=
  funext fun a => by match a with | ⟨0, _⟩ => rfl | ⟨1, _⟩ => rfl

/-- The index maps over the grid: the node rows and both outputs move one block of rows per point, the weight
    table stays. -/
theorem reg8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- What the body leaves in the first output's buffer is the left half of the product of its two blocks. -/
theorem reg8_out_left (x0 : Vec Ideal S10000x32 .f32) (x1 : Vec Ideal S32x64 .f32) :
    out8_2 (F := Ideal) x0 x1 = k8_pay2 x0 x1 := by
  unfold out8_2
  rw [View.canon_unit_zero reg8_hz]
  simp only [View.ld_unit_zero (S := S10000x32) reg8_hz, View.ld_unit_zero (S := S32x64) reg8_hz]

/-- What the body leaves in the second output's buffer is the right half of the product of its two blocks. -/
theorem reg8_out_right (x0 : Vec Ideal S10000x32 .f32) (x1 : Vec Ideal S32x64 .f32) :
    out8_3 (F := Ideal) x0 x1 = k8_pay3 x0 x1 := by
  unfold out8_3
  rw [View.canon_unit_zero reg8_hz]
  simp only [View.ld_unit_zero (S := S10000x32) reg8_hz, View.ld_unit_zero (S := S32x64) reg8_hz]

/-- The node table as the region finds it. -/
abbrev reg8_nodes (c : Dev nD) : Tbl 100000 32 := V c (Pipeline.arrRef spec8 0)
/-- The side-by-side weight table as the region finds it. -/
abbrev reg8_wts (c : Dev nD) : Tbl 32 64 := V c (Pipeline.arrRef spec8 1)

/-- The node rows' block at point `t` is rows `10000 t … 10000 t + 9999` of the node table. -/
theorem reg8_rows (c : Dev nD) (t : Fin cfg8.N) (y : S10000x32.Idx) (i : S100000x32.Idx)
    (h0 : (i 0).val = 10000 * t.val + (y 0).val) (h1 : (i 1).val = (y 1).val) :
    (iblk8 (F := Ideal) V c 0 t : Vec Ideal S10000x32 .f32) y = reg8_nodes V c i := by
  obtain ⟨e0, e1, -⟩ := reg8_idx t
  unfold iblk8
  show reg8_nodes V c (((cfg8.win 0).blk t).view.emb y) = _
  refine congrArg (reg8_nodes V c) (funext fun a => Fin.ext ?_)
  match a with
  | ⟨0, _⟩ => show win8_0.index t (0 : Fin 2) * 10000 + 1 * (y 0).val = (i 0).val; rw [e0, h0]; omega
  | ⟨1, _⟩ => show win8_0.index t (1 : Fin 2) * 32 + 1 * (y 1).val = (i 1).val; rw [e1, h1]; omega

/-- The weight table's block at every point is the whole table. -/
theorem reg8_weights (c : Dev nD) (t : Fin cfg8.N) (y : S32x64.Idx) :
    (iblk8 (F := Ideal) V c 1 t : Vec Ideal S32x64 .f32) y = reg8_wts V c y := by
  obtain ⟨-, -, e0, e1, -⟩ := reg8_idx t
  unfold iblk8
  show reg8_wts V c (((cfg8.win 1).blk t).view.emb y) = _
  refine congrArg (reg8_wts V c) (funext fun a => Fin.ext ?_)
  match a with
  | ⟨0, _⟩ => show win8_1.index t (0 : Fin 2) * 32 + 1 * (y 0).val = (y 0).val; rw [e0]; omega
  | ⟨1, _⟩ => show win8_1.index t (1 : Fin 2) * 64 + 1 * (y 1).val = (y 1).val; rw [e1]; omega

/-- One entry of the left half of the product of the blocks at point `t` is the entry of the whole arrays' product
    in the row that the block's row is of the table. -/
theorem reg8_entry_left (c : Dev nD) (t : Fin cfg8.N) (p : Fin 10000) (q : Fin 32) (P : Fin 100000)
    (hP : P.val = 10000 * t.val + p.val) :
    k8_pay2 (F := Ideal) (iblk8 V c 0 t) (iblk8 V c 1 t) (ix2 p q)
      = tbl (mm (cur (reg8_nodes V c)) (lo (cur (reg8_wts V c)))) (ix2 P q) := by
  refine (reg8_left_apply (iblk8 V c 0 t) (iblk8 V c 1 t) p q).trans ?_
  show _ = ∑ k : Fin 32, reg8_nodes V c (ix2 P k)
      * reg8_wts V c (ix2 k (⟨q.val, by have := q.isLt; omega⟩ : Fin 64))
  refine Finset.sum_congr rfl fun k _ => ?_
  exact congrArg₂ (· * ·) (reg8_rows V c t (ix2 p k) (ix2 P k) hP rfl) (reg8_weights V c t (ix2 k _))

/-- One entry of the right half, likewise. -/
theorem reg8_entry_right (c : Dev nD) (t : Fin cfg8.N) (p : Fin 10000) (q : Fin 32) (P : Fin 100000)
    (hP : P.val = 10000 * t.val + p.val) :
    k8_pay3 (F := Ideal) (iblk8 V c 0 t) (iblk8 V c 1 t) (ix2 p q)
      = tbl (mm (cur (reg8_nodes V c)) (hi (cur (reg8_wts V c)))) (ix2 P q) := by
  refine (reg8_right_apply (iblk8 V c 0 t) (iblk8 V c 1 t) p q).trans ?_
  show _ = ∑ k : Fin 32, reg8_nodes V c (ix2 P k)
      * reg8_wts V c (ix2 k (⟨32 + q.val, by have := q.isLt; omega⟩ : Fin 64))
  refine Finset.sum_congr rfl fun k _ => ?_
  exact congrArg₂ (· * ·) (reg8_rows V c t (ix2 p k) (ix2 P k) hP rfl) (reg8_weights V c t (ix2 k _))

/-- What point `t` writes back to the first output is block `t` of the left half of the whole arrays' product. -/
theorem reg8_flushed_left (c : Dev nD) (t : Fin cfg8.N) :
    (dat8 (F := Ideal) V c).flushed 2 t = ((cfg8.win 2).blk t).view.read (Elt Ideal)
      (tbl (mm (cur (reg8_nodes V c)) (lo (cur (reg8_wts V c))))) := by
  show (cfg8.win 2).cut (grid8.coords t) ((dat8 V c).after 2 t) = _
  rw [after8_2, reg8_out_left]
  obtain ⟨-, -, -, -, e0, e1, -⟩ := reg8_idx t
  funext j
  have hj0 : (j 0).val < 10000 := (j 0).isLt
  have hj1 : (j 1).val < 32 := (j 1).isLt
  have ht : t.val < 10 := lt_of_lt_of_eq t.isLt N_8
  have hx : (cfg8.win 2).xinj (grid8.coords t) j = ix2 (⟨(j 0).val, hj0⟩ : Fin 10000) (⟨(j 1).val, hj1⟩ : Fin 32) :=
    funext fun a => by match a with | ⟨0, _⟩ => rfl | ⟨1, _⟩ => rfl
  have hemb : ((cfg8.win 2).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win8_2.index t (0 : Fin 2) * 10000 + 1 * (j 0).val = 10000 * t.val + (j 0).val; rw [e0]; omega
      | ⟨1, _⟩ => show win8_2.index t (1 : Fin 2) * 32 + 1 * (j 1).val = (j 1).val; rw [e1]; omega)
  show k8_pay2 (F := Ideal) (iblk8 V c 0 t) (iblk8 V c 1 t) ((cfg8.win 2).xinj (grid8.coords t) j)
    = (tbl (mm (cur (reg8_nodes V c)) (lo (cur (reg8_wts V c)))) : S100000x32.Idx → EReal)
        (((cfg8.win 2).blk t).view.emb j)
  rw [hx, hemb]
  exact reg8_entry_left V c t _ _ _ rfl

/-- What point `t` writes back to the second output is block `t` of the right half of the whole arrays' product. -/
theorem reg8_flushed_right (c : Dev nD) (t : Fin cfg8.N) :
    (dat8 (F := Ideal) V c).flushed 3 t = ((cfg8.win 3).blk t).view.read (Elt Ideal)
      (tbl (mm (cur (reg8_nodes V c)) (hi (cur (reg8_wts V c))))) := by
  show (cfg8.win 3).cut (grid8.coords t) ((dat8 V c).after 3 t) = _
  rw [after8_3, reg8_out_right]
  obtain ⟨-, -, -, -, -, -, e0, e1⟩ := reg8_idx t
  funext j
  have hj0 : (j 0).val < 10000 := (j 0).isLt
  have hj1 : (j 1).val < 32 := (j 1).isLt
  have ht : t.val < 10 := lt_of_lt_of_eq t.isLt N_8
  have hx : (cfg8.win 3).xinj (grid8.coords t) j = ix2 (⟨(j 0).val, hj0⟩ : Fin 10000) (⟨(j 1).val, hj1⟩ : Fin 32) :=
    funext fun a => by match a with | ⟨0, _⟩ => rfl | ⟨1, _⟩ => rfl
  have hemb : ((cfg8.win 3).blk t).view.emb j
      = (ix2 (⟨10000 * t.val + (j 0).val, by omega⟩ : Fin 100000) (⟨(j 1).val, hj1⟩ : Fin 32) : S100000x32.Idx) :=
    funext fun a => Fin.ext (by
      match a with
      | ⟨0, _⟩ => show win8_3.index t (0 : Fin 2) * 10000 + 1 * (j 0).val = 10000 * t.val + (j 0).val; rw [e0]; omega
      | ⟨1, _⟩ => show win8_3.index t (1 : Fin 2) * 32 + 1 * (j 1).val = (j 1).val; rw [e1]; omega)
  show k8_pay3 (F := Ideal) (iblk8 V c 0 t) (iblk8 V c 1 t) ((cfg8.win 3).xinj (grid8.coords t) j)
    = (tbl (mm (cur (reg8_nodes V c)) (hi (cur (reg8_wts V c)))) : S100000x32.Idx → EReal)
        (((cfg8.win 3).blk t).view.emb j)
  rw [hx, hemb]
  exact reg8_entry_right V c t _ _ _ rfl

/-- An index of the first output is in point `t`'s block iff each coordinate is in the block's range on its axis. -/
theorem reg8_mem_left (t : Fin cfg8.N) (i : S100000x32.Idx) :
    i ∈ ((cfg8.win 2).blk t).view.set ↔ ∀ a : Fin 2, win8_2.index t a * S10000x32.size a ≤ (i a).val
      ∧ (i a).val < win8_2.index t a * S10000x32.size a + S10000x32.size a := by
  show i ∈ ((View.whole (Pipeline.arrRef spec8 2)).slice (win8_2.rect t)).set ↔ _
  rw [View.set_slice_whole, Rect.mem_set_unit]
  exact Iff.rfl

/-- The same for the second output. -/
theorem reg8_mem_right (t : Fin cfg8.N) (i : S100000x32.Idx) :
    i ∈ ((cfg8.win 3).blk t).view.set ↔ ∀ a : Fin 2, win8_3.index t a * S10000x32.size a ≤ (i a).val
      ∧ (i a).val < win8_3.index t a * S10000x32.size a + S10000x32.size a := by
  show i ∈ ((View.whole (Pipeline.arrRef spec8 3)).slice (win8_3.rect t)).set ↔ _
  rw [View.set_slice_whole, Rect.mem_set_unit]
  exact Iff.rfl

/-- Every row of the first output is in the block of the point that is its row number over ten thousand. -/
theorem reg8_cover_left (i : S100000x32.Idx) :
    ∃ t : Fin cfg8.N, (cfg8.win 2).flush t = true ∧ i ∈ ((cfg8.win 2).blk t).view.set := by
  have hi0 : (i 0).val < 100000 := (i 0).isLt
  have hi1 : (i 1).val < 32 := (i 1).isLt
  have hN : cfg8.N = 10 := N_8
  obtain ⟨t, ht⟩ : ∃ t : Fin cfg8.N, t.val = (i 0).val / 10000 := ⟨⟨(i 0).val / 10000, by omega⟩, rfl⟩
  obtain ⟨-, -, -, -, e0, e1, -⟩ := reg8_idx t
  refine ⟨t, flush8_2 t, ?_⟩
  rw [reg8_mem_left]
  intro a
  match a with
  | ⟨0, _⟩ =>
    show win8_2.index t (0 : Fin 2) * 10000 ≤ (i 0).val ∧ (i 0).val < win8_2.index t (0 : Fin 2) * 10000 + 10000
    rw [e0, ht]; omega
  | ⟨1, _⟩ =>
    show win8_2.index t (1 : Fin 2) * 32 ≤ (i 1).val ∧ (i 1).val < win8_2.index t (1 : Fin 2) * 32 + 32
    rw [e1]; omega

/-- The same for the second output. -/
theorem reg8_cover_right (i : S100000x32.Idx) :
    ∃ t : Fin cfg8.N, (cfg8.win 3).flush t = true ∧ i ∈ ((cfg8.win 3).blk t).view.set := by
  have hi0 : (i 0).val < 100000 := (i 0).isLt
  have hi1 : (i 1).val < 32 := (i 1).isLt
  have hN : cfg8.N = 10 := N_8
  obtain ⟨t, ht⟩ : ∃ t : Fin cfg8.N, t.val = (i 0).val / 10000 := ⟨⟨(i 0).val / 10000, by omega⟩, rfl⟩
  obtain ⟨-, -, -, -, -, -, e0, e1⟩ := reg8_idx t
  refine ⟨t, flush8_3 t, ?_⟩
  rw [reg8_mem_right]
  intro a
  match a with
  | ⟨0, _⟩ =>
    show win8_3.index t (0 : Fin 2) * 10000 ≤ (i 0).val ∧ (i 0).val < win8_3.index t (0 : Fin 2) * 10000 + 10000
    rw [e0, ht]; omega
  | ⟨1, _⟩ =>
    show win8_3.index t (1 : Fin 2) * 32 ≤ (i 1).val ∧ (i 1).val < win8_3.index t (1 : Fin 2) * 32 + 32
    rw [e1]; omega

/-- The first output array of region 8: the node table times the left half of the weight table. -/
theorem reg8_t (c : Dev nD) :
    (dat8 (F := Ideal) V c).arrAt 2 cfg8.N = tbl (mm (cur (a := 100000) (b := 32) (V c main_v78)) (lo (cur (a := 32) (b := 64) (V c main_v85)))) :=
  (dat8 (F := Ideal) V c).arrAt_eq_of_cover 2 (tbl (mm (cur (reg8_nodes V c)) (lo (cur (reg8_wts V c)))))
    (fun t _ => reg8_flushed_left V c t) reg8_cover_left

/-- The second output array of region 8: the node table times the right half of the weight table. -/
theorem reg8_root (c : Dev nD) :
    (dat8 (F := Ideal) V c).arrAt 3 cfg8.N = tbl (mm (cur (a := 100000) (b := 32) (V c main_v78)) (hi (cur (a := 32) (b := 64) (V c main_v85)))) :=
  (dat8 (F := Ideal) V c).arrAt_eq_of_cover 3 (tbl (mm (cur (reg8_nodes V c)) (hi (cur (reg8_wts V c)))))
    (fun t _ => reg8_flushed_right V c t) reg8_cover_right

end Cert.KernelIdeal.Val

end
-- ==== Proof.RegComb9.lean ====
/-
  Region 9: entry by entry, the neighbour sum plus the node's own projection plus the bias of its column, clipped
  below at zero. Read over the whole arrays.
-/
import proofs.«401169_j5540507812347_2_alg».proof.Proof.Gen.KernelIdeal.Frame
import proofs.«401169_j5540507812347_2_alg».proof.Proof.Spec
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (V : (c : Dev nD) → (b : Ref sig .tc) → Buf (Elt Ideal) ((c : Thread nD τ).loc b))

/-- The zero offsets of a whole-buffer access, as the constant function. -/
theorem reg9_zero_off : (![0, 0] : Fin 2 → Nat) = fun _ => 0 := funext fun a => by fin_cases a <;> rfl

/-- The payload at an entry: the two blocks' entries and the bias of the column added, clipped below at zero. The
    bias block has one row, so every row of the sum reads its row 0. -/
theorem reg9_pay_apply (xa xb : Vec Ideal S10000x32 .f32) (xc : Vec Ideal S1x32 .f32) (p : Fin 10000) (q : Fin 32) :
    k9_pay1 xa xb xc (ix2 p q) = max (xa (ix2 p q) + xb (ix2 p q) + xc (ix2 (0 : Fin 1) q)) 0 := by
  unfold k9_pay1
  rw [maximumf_apply, addf_apply, addf_apply, broadcast_apply, shapeCast_self, shapeCast_self, shapeCast_self,
    broadcastTo_apply xc broadcasts_S1x32_S10000x32 (ix2 p q) (ix2 (0 : Fin 1) q)
      (fun a => by match a with | ⟨0, _⟩ => rfl | ⟨1, _⟩ => rfl),
    show (FloatOps.ofBits FTy.f32 0#32 : Ideal .f32) = 0 from Ideal.ofBits_zero_f32]

/-- The index maps over the ten points: the two row-block inputs move with the output, block `t` on the row axis and
    block 0 on the column axis; the bias window stays at block (0, 0). -/
theorem reg9_idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The clipped sum as one function of the three whole arrays: at row `n`, column `j`, the two tables' entries and
    the bias of column `j` added, clipped below at zero. -/
def reg9_comb (a b : S100000x32.Idx → EReal) (bias : S1x32.Idx → EReal) : S100000x32.Idx → EReal :=
  fun i => max (a (ix2 (i 0) (i 1)) + b (ix2 (i 0) (i 1)) + bias (ix2 (0 : Fin 1) (i 1))) 0

/-- An entry of the payload is the clipped sum at the array index `i`, once each block's entry is its array's entry
    at `i` and the bias block's entry is the bias of `i`'s column. -/
theorem reg9_pay_eq_comb (A B : S100000x32.Idx → EReal) (bias : S1x32.Idx → EReal)
    (xa xb : Vec Ideal S10000x32 .f32) (xc : Vec Ideal S1x32 .f32) (j : S10000x32.Idx) (i : S100000x32.Idx)
    (ha : xa (ix2 (j 0) (j 1)) = A (ix2 (i 0) (i 1))) (hb : xb (ix2 (j 0) (j 1)) = B (ix2 (i 0) (i 1)))
    (hc : xc (ix2 (0 : Fin 1) (j 1)) = bias (ix2 (0 : Fin 1) (i 1))) :
    k9_pay1 xa xb xc j = reg9_comb A B bias i := by
  refine (congrArg (k9_pay1 xa xb xc) (eq_ix2 j)).trans ((reg9_pay_apply xa xb xc (j 0) (j 1)).trans ?_)
  rw [ha, hb, hc]
  rfl

/-- WHAT POINT `t` WRITES BACK is block `t` of the clipped sum of the three arrays as the region finds them: the two
    row-block windows sit on the output block's own rows `10000 t … 10000 t + 9999` and columns, and the bias window's
    one block is the whole bias row. A block's coordinate on an axis is its index times its size plus the coordinate
    inside the block. -/
theorem reg9_flushed_eq (c : Dev nD) (t : Fin cfg9.N) :
    (dat9 (F := Ideal) V c).flushed 3 t
      = ((cfg9.win 3).blk t).view.read (Elt Ideal) (reg9_comb (V c main_v96) (V c main_v86_1) (V c main_v97)) := by
  show (cfg9.win 3).cut (grid9.coords t) ((dat9 V c).after 3 t) = _
  rw [after9_3]
  unfold out9_3
  rw [View.canon_unit_zero reg9_zero_off]
  simp only [View.ld_unit_zero (S := S10000x32) reg9_zero_off, View.ld_unit_zero (S := S1x32) reg9_zero_off]
  obtain ⟨hxrow, hxcol, hyrow, hycol, hbrow, hbcol, horow, hocol⟩ := reg9_idx_facts t
  funext j
  have hp : (j 0).val < 10000 := (j 0).isLt
  have hq : (j 1).val < 32 := (j 1).isLt
  refine reg9_pay_eq_comb (V c main_v96) (V c main_v86_1) (V c main_v97) (iblk9 V c 0 t) (iblk9 V c 1 t) (iblk9 V c 2 t) j
    (((cfg9.win 3).blk t).view.emb j) ?_ ?_ ?_
  · show V c main_v96 (((cfg9.win 0).blk t).view.emb (ix2 (j 0) (j 1))) = _
    refine congrArg (V c main_v96) (funext fun a => Fin.ext ?_)
    match a with
    | ⟨0, _⟩ => show win9_0.index t (0 : Fin 2) * 10000 + 1 * (j 0).val = win9_3.index t (0 : Fin 2) * 10000 + 1 * (j 0).val; omega
    | ⟨1, _⟩ => show win9_0.index t (1 : Fin 2) * 32 + 1 * (j 1).val = win9_3.index t (1 : Fin 2) * 32 + 1 * (j 1).val; omega
  · show V c main_v86_1 (((cfg9.win 1).blk t).view.emb (ix2 (j 0) (j 1))) = _
    refine congrArg (V c main_v86_1) (funext fun a => Fin.ext ?_)
    match a with
    | ⟨0, _⟩ => show win9_1.index t (0 : Fin 2) * 10000 + 1 * (j 0).val = win9_3.index t (0 : Fin 2) * 10000 + 1 * (j 0).val; omega
    | ⟨1, _⟩ => show win9_1.index t (1 : Fin 2) * 32 + 1 * (j 1).val = win9_3.index t (1 : Fin 2) * 32 + 1 * (j 1).val; omega
  · show V c main_v97 (((cfg9.win 2).blk t).view.emb (ix2 (0 : Fin 1) (j 1))) = _
    refine congrArg (V c main_v97) (funext fun a => Fin.ext ?_)
    match a with
    | ⟨0, _⟩ => show win9_2.index t (0 : Fin 2) * 1 + 1 * 0 = 0; omega
    | ⟨1, _⟩ => show win9_2.index t (1 : Fin 2) * 32 + 1 * (j 1).val = win9_3.index t (1 : Fin 2) * 32 + 1 * (j 1).val; omega

/-- An index of the array is in point `t`'s block iff each coordinate is in the block's range on its axis. -/
theorem reg9_mem_blk (t : Fin cfg9.N) (i : S100000x32.Idx) :
    i ∈ ((cfg9.win 3).blk t).view.set ↔ ∀ a : Fin 2, win9_3.index t a * S10000x32.size a ≤ (i a).val
      ∧ (i a).val < win9_3.index t a * S10000x32.size a + S10000x32.size a := by
  show i ∈ ((View.whole (Pipeline.arrRef spec9 3)).slice (win9_3.rect t)).set ↔ _
  rw [View.set_slice_whole, Rect.mem_set_unit]
  exact Iff.rfl

/-- The ten row blocks tile the array: row `r` lies in the block of point `r / 10000`, and the one column block
    holds every column. -/
theorem reg9_cover (i : S100000x32.Idx) :
    ∃ t : Fin cfg9.N, (cfg9.win 3).flush t = true ∧ i ∈ ((cfg9.win 3).blk t).view.set := by
  have hrow : (i 0).val < 100000 := (i 0).isLt
  have hcol : (i 1).val < 32 := (i 1).isLt
  have hN : cfg9.N = 10 := by decide
  obtain ⟨t, ht⟩ : ∃ t : Fin cfg9.N, t.val = (i 0).val / 10000 := ⟨⟨(i 0).val / 10000, by rw [hN]; omega⟩, rfl⟩
  obtain ⟨-, -, -, -, -, -, horow, hocol⟩ := reg9_idx_facts t
  refine ⟨t, flush9_3 t, ?_⟩
  rw [reg9_mem_blk]
  intro a
  match a with
  | ⟨0, _⟩ =>
    show win9_3.index t (0 : Fin 2) * 10000 ≤ (i 0).val ∧ (i 0).val < win9_3.index t (0 : Fin 2) * 10000 + 10000
    omega
  | ⟨1, _⟩ =>
    show win9_3.index t (1 : Fin 2) * 32 ≤ (i 1).val ∧ (i 1).val < win9_3.index t (1 : Fin 2) * 32 + 32
    omega

/-- The output array of region 9. -/
theorem reg9_out (c : Dev nD) :
    (dat9 (F := Ideal) V c).arrAt 3 cfg9.N
      = tbl (fun n j => max (cur (a := 100000) (b := 32) (V c main_v96) n j + cur (a := 100000) (b := 32) (V c main_v86_1) n j
          + cur (a := 1) (b := 32) (V c main_v97) 0 j) 0) := by
  exact (dat9 V c).arrAt_eq_of_cover 3 (reg9_comb (V c main_v96) (V c main_v86_1) (V c main_v97))
    (fun t _ => reg9_flushed_eq V c t) reg9_cover

end Cert.KernelIdeal.Val

end
-- ==== Proof.KLayer4.lean ====
/-
  Layer 4 of the kernel's program, from the boundary before its weight tables are laid side by side to the boundary after
  its second region: the node rows are projected by both weight tables at once, the first projection travels along the
  edges and is summed at the destinations, and the sum, the second projection and the bias are joined and clipped.
-/
import Idealize.ShloMosaic.PureOps.Ideal.Laws
import Idealize.ShloMosaic.Lib.ValueIdx
import Idealize.ShloMosaic.Lib.Pipeline.Value
import proofs.«401169_j5540507812347_2_alg».proof.Proof.Gen.KernelIdeal.Frame
import proofs.«401169_j5540507812347_2_alg».proof.Proof.Spec
import proofs.«401169_j5540507812347_2_alg».proof.Proof.Keep
import proofs.«401169_j5540507812347_2_alg».proof.Proof.HostRead
import proofs.«401169_j5540507812347_2_alg».proof.Proof.RegProj8
import proofs.«401169_j5540507812347_2_alg».proof.Proof.RegComb9

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (m : (ℓ : Loc nD τ sig) → Buf (Elt Ideal) ℓ) (ρ : Dev nD → PrngReg)

/-! ## Host operations of a hidden layer read at an entry (the same for every hidden layer)

A hidden layer's weight tables are slabs of two stacks `[4, 32, 32]` and its bias a row of a table `[4, 32]`; its
neighbour sum is a row lookup at the normalised source words accumulated into zeros at the destination words. -/

namespace Hidden4

/-- A slab `[1, 32, 32]` cut from a stack at offset `(o, 0, 0)` and read as a table `[32, 32]` is slab `o`. -/
theorem slab_of_slice (i : Fin 4) {o : Nat} (x : S4x32x32.Idx → EReal)
    (hs : S4x32x32.Slices ![o, 0, 0] S1x32x32) (hc : S1x32x32.ShapeCasts S32x32) (ho : o = i.val) :
    cur (a := 32) (b := 32) (shapeCast S32x32 (extractStridedSlice S1x32x32 ![o, 0, 0] x hs) hc)
      = slab (a := 4) (b := 32) (d := 32) x i := by
  funext p q
  show shapeCast S32x32 (extractStridedSlice S1x32x32 ![o, 0, 0] x hs) hc (ix2 p q) = x (ix3 i p q)
  refine (shapeCast_apply _ hc (ix2 p q) (ix3 (0 : Fin 1) p q) ?_).trans ?_
  · rw [Shape.rowMajor_val_three, Shape.rowMajor_val_two]
    show (0 * 32 + p.val) * 32 + q.val = p.val * 32 + q.val
    omega
  · refine extractStridedSlice_apply _ x hs (ix3 (0 : Fin 1) p q) (ix3 i p q) fun a => ?_
    match a with
    | ⟨0, _⟩ => show i.val = o + 0; omega
    | ⟨1, _⟩ => show p.val = 0 + p.val; omega
    | ⟨2, _⟩ => show q.val = 0 + q.val; omega

/-- A row `[1, 32]` cut from a table at offset `(o, 0)`, read as a vector `[32]` and again as a row `[1, 32]`, is
    row `o`. -/
theorem row_of_slice (i : Fin 4) {o : Nat} (x : S4x32.Idx → EReal)
    (hs : S4x32.Slices ![o, 0] S1x32) (hc : S1x32.ShapeCasts S32) (hc' : S32.ShapeCasts S1x32) (j : Fin 32) (ho : o = i.val) :
    shapeCast S1x32 (shapeCast S32 (extractStridedSlice S1x32 ![o, 0] x hs) hc) hc' (ix2 (0 : Fin 1) j)
      = rowOf (a := 4) (b := 32) x i j := by
  show _ = x (ix2 i j)
  refine (shapeCast_apply _ hc' (ix2 (0 : Fin 1) j) (ix1 j) ?_).trans ?_
  · rw [Shape.rowMajor_val_one, Shape.rowMajor_val_two]
    show j.val = 0 * 32 + j.val
    omega
  refine (shapeCast_apply _ hc (ix1 j) (ix2 (0 : Fin 1) j) ?_).trans ?_
  · rw [Shape.rowMajor_val_one, Shape.rowMajor_val_two]
    show 0 * 32 + j.val = j.val
    omega
  · refine extractStridedSlice_apply _ x hs (ix2 (0 : Fin 1) j) (ix2 i j) fun a => ?_
    match a with
    | ⟨0, _⟩ => show i.val = o + 0; omega
    | ⟨1, _⟩ => show j.val = 0 + j.val; omega

/-- The zero word spread over a table is zero at every entry. -/
theorem zeros_apply (i : S100000x32.Idx) :
    broadcastInDim S100000x32 ![] bcast_S_S100000x32 (constant (F := Ideal) S_ .f32 0x00000000#32) i = 0 := by
  refine (broadcastInDim_apply _ bcast_S_S100000x32 _ i ix0 fun a => a.elim0).trans ?_
  rw [constant_apply]
  exact Ideal.ofBits_zero_f32

/-- A vector of words as a column `[P, 1]`, read at `(e, 0)`. -/
theorem col_apply (v : IVec S2500000 32) (e : Fin 2500000) :
    broadcastInDim S2500000x1 ![0] bcast_S2500000_S2500000x1_0 v (ix2 e (0 : Fin 1)) = v (ix1 e) := by
  refine broadcastInDim_apply _ bcast_S2500000_S2500000x1_0 v (ix2 e (0 : Fin 1)) (ix1 e) fun a => ?_
  match a with
  | ⟨0, _⟩ =>
    show e.val = if (2500000 : Nat) = 1 then 0 else e.val
    rw [if_neg (by omega)]

/-- The source column: a word below zero (signed) has the row count added, read at `(e, 0)`. -/
theorem srcCol_apply (v : IVec S2500000 32) (e : Fin 2500000) :
    broadcastInDim S2500000x1 ![0] bcast_S2500000_S2500000x1_0
        (select (cmpi CmpIPredicate.slt v (broadcastInDim S2500000 ![] bcast_S_S2500000 (constantI S_ 32 0#32)))
          (addi v (broadcastInDim S2500000 ![] bcast_S_S2500000 (constantI S_ 32 100000#32))) v) (ix2 e (0 : Fin 1))
      = normWord (v (ix1 e)) := by
  rw [col_apply]
  rfl

/-- The lookup of whole rows at the source column accumulated into zeros at the destination column is the neighbour
    sum over the edges that land on a node, of the rows their normalised, clamped source words name. -/
theorem nbr_of_hostChain (x : S100000x32.Idx → EReal) (v1 v3 : IVec S2500000 32) :
    cur (a := 100000) (b := 32)
        (Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 v3)
          (Host.gather gather_S100000x32_S2500000x1_S2500000x32_1_0_n_n_0_1_132 x
            (broadcastInDim S2500000x1 ![0] bcast_S2500000_S2500000x1_0
              (select (cmpi CmpIPredicate.slt v1 (broadcastInDim S2500000 ![] bcast_S_S2500000 (constantI S_ 32 0#32)))
                (addi v1 (broadcastInDim S2500000 ![] bcast_S_S2500000 (constantI S_ 32 100000#32))) v1))))
      = nbr (cur (a := 100000) (b := 32) x) (fun e : Fin 2500000 => EdgeAgg.clampTo 100000 (by decide) (normWord (v1 (ix1 e))))
          (fun n : Fin 100000 => Finset.univ.filter fun e : Fin 2500000 => (v3 (ix1 e)).toInt = (n.val : Int)) := by
  have hrows := srcCol_apply v1
  have hdst := col_apply v3
  have hz := zeros_apply
  generalize broadcastInDim S2500000x1 ![0] bcast_S2500000_S2500000x1_0
      (select (cmpi CmpIPredicate.slt v1 (broadcastInDim S2500000 ![] bcast_S_S2500000 (constantI S_ 32 0#32)))
        (addi v1 (broadcastInDim S2500000 ![] bcast_S_S2500000 (constantI S_ 32 100000#32))) v1) = rows at hrows ⊢
  generalize broadcastInDim S2500000x1 ![0] bcast_S2500000_S2500000x1_0 v3 = dstc at hdst ⊢
  generalize broadcastInDim S100000x32 ![] bcast_S_S100000x32 (constant (F := Ideal) S_ .f32 0x00000000#32) = z at hz ⊢
  have e := nbr_of_lookup_accum (N := 100000) (C := 32) (P := 2500000) (by decide)
    gather_S100000x32_S2500000x1_S2500000x32_1_0_n_n_0_1_132_wf scatter_S100000x32_S2500000x1_S2500000x32_1_0_0_1_wf
    x rows dstc z hz
  simp only [hrows, hdst] at e
  exact e

end Hidden4

/-! ## Layer 4, segment by segment -/

/-- The stretch that cuts the layer's weight tables and bias does not write the node table. -/
theorem W17_main_v78 (c : Dev nD) :
    W17 (F := Ideal) m ρ c (Proc.devRef .tc main_v78) = W16 (F := Ideal) m ρ c (Proc.devRef .tc main_v78) := by
  show StableHlo.after hostOps8 (W16 m ρ c) (Proc.devRef .tc main_v78) = _
  after_results_simp

/-- The side-by-side weight table: slab 0 of the first stack beside slab 0 of the second. -/
theorem cur_W17_main_v85 (c : Dev nD) :
    cur (a := 32) (b := 64) (W17 (F := Ideal) m ρ c (Proc.devRef .tc main_v85))
      = cat (slab (a := 4) (b := 32) (d := 32) (m ((c : Thread nD τ).loc main_arg4)) (3 : Fin 4))
          (slab (a := 4) (b := 32) (d := 32) (m ((c : Thread nD τ).loc main_arg6)) (3 : Fin 4)) := by
  have h : W17 (F := Ideal) m ρ c (Proc.devRef .tc main_v85)
      = concatenate S32x64 1
          [⟨S32x32, shapeCast S32x32 (extractStridedSlice S1x32x32 ![3, 0, 0] (W16 (F := Ideal) m ρ c (Proc.devRef .tc main_arg4))
              slices_S4x32x32_S1x32x32_3_0_0) shapeCasts_S1x32x32_S32x32⟩,
            ⟨S32x32, shapeCast S32x32 (extractStridedSlice S1x32x32 ![3, 0, 0] (W16 (F := Ideal) m ρ c (Proc.devRef .tc main_arg6))
              slices_S4x32x32_S1x32x32_3_0_0) shapeCasts_S1x32x32_S32x32⟩]
          concatenates_S32x32_S32x32_S32x64_d1 := by
    show StableHlo.after hostOps8 (W16 m ρ c) (Proc.devRef .tc main_v85) = _
    after_results
    rfl
  rw [h, cur_concat, Hidden4.slab_of_slice (3 : Fin 4), Hidden4.slab_of_slice (3 : Fin 4), arg4_at16, arg6_at16]
  all_goals rfl

/-- The first output of the projection region: the node table times slab 0 of the first stack. -/
theorem cur_W18_main_v86_0 (c : Dev nD) :
    cur (a := 100000) (b := 32) (W18 (F := Ideal) m ρ c (Proc.devRef .tc main_v86_0))
      = mm (cur (a := 100000) (b := 32) (W16 (F := Ideal) m ρ c (Proc.devRef .tc main_v78)))
          (slab (a := 4) (b := 32) (d := 32) (m ((c : Thread nD τ).loc main_arg4)) (3 : Fin 4)) := by
  have h6 : W18 (F := Ideal) m ρ c (Proc.devRef .tc main_v86_0) = (dat8 (F := Ideal) (V17 m ρ) c).arrAt 2 cfg8.N :=
    W18_arr m ρ c 2
  rw [h6, reg8_t, cur_tbl]
  show mm (cur (a := 100000) (b := 32) (W17 (F := Ideal) m ρ c (Proc.devRef .tc main_v78)))
      (lo (cur (a := 32) (b := 64) (W17 (F := Ideal) m ρ c (Proc.devRef .tc main_v85)))) = _
  rw [W17_main_v78, cur_W17_main_v85, lo_cat]

/-- The second output of the projection region, still there after the neighbour-sum stretch: the node table times
    slab 0 of the second stack. -/
theorem cur_W19_main_v86_1 (c : Dev nD) :
    cur (a := 100000) (b := 32) (W19 (F := Ideal) m ρ c (Proc.devRef .tc main_v86_1))
      = mm (cur (a := 100000) (b := 32) (W16 (F := Ideal) m ρ c (Proc.devRef .tc main_v78)))
          (slab (a := 4) (b := 32) (d := 32) (m ((c : Thread nD τ).loc main_arg6)) (3 : Fin 4)) := by
  have h7 : W19 (F := Ideal) m ρ c (Proc.devRef .tc main_v86_1) = W18 (F := Ideal) m ρ c (Proc.devRef .tc main_v86_1) := by
    show StableHlo.after hostOps9 (W18 m ρ c) (Proc.devRef .tc main_v86_1) = _
    after_results_simp
  have h6 : W18 (F := Ideal) m ρ c (Proc.devRef .tc main_v86_1) = (dat8 (F := Ideal) (V17 m ρ) c).arrAt 3 cfg8.N :=
    W18_arr m ρ c 3
  rw [h7, h6, reg8_root, cur_tbl]
  show mm (cur (a := 100000) (b := 32) (W17 (F := Ideal) m ρ c (Proc.devRef .tc main_v78)))
      (hi (cur (a := 32) (b := 64) (W17 (F := Ideal) m ρ c (Proc.devRef .tc main_v85)))) = _
  rw [W17_main_v78, cur_W17_main_v85, hi_cat]

/-- The neighbour-sum stretch: the first projection carried along the edges and summed at their destinations. -/
theorem cur_W19_main_v96 (c : Dev nD) :
    cur (a := 100000) (b := 32) (W19 (F := Ideal) m ρ c (Proc.devRef .tc main_v96))
      = nbr (mm (cur (a := 100000) (b := 32) (W16 (F := Ideal) m ρ c (Proc.devRef .tc main_v78)))
            (slab (a := 4) (b := 32) (d := 32) (m ((c : Thread nD τ).loc main_arg4)) (3 : Fin 4)))
          (srcRow (P := 2500000) (m ((c : Thread nD τ).loc main_arg11))) (inEdges (P := 2500000) (m ((c : Thread nD τ).loc main_arg11))) := by
  have h : W19 (F := Ideal) m ρ c (Proc.devRef .tc main_v96)
      = Host.scatterAdd (F := Ideal) scatter_S100000x32_S2500000x1_S2500000x32_1_0_0_1
          (broadcastInDim S100000x32 ![] bcast_S_S100000x32 (constant (F := Ideal) S_ .f32 0x00000000#32))
          (broadcastInDim S2500000x1 ![0] bcast_S2500000_S2500000x1_0 (W18 (F := Ideal) m ρ c (Proc.devRef .tc main_v3)))
          (Host.gather gather_S100000x32_S2500000x1_S2500000x32_1_0_n_n_0_1_132 (W18 (F := Ideal) m ρ c (Proc.devRef .tc main_v86_0))
            (broadcastInDim S2500000x1 ![0] bcast_S2500000_S2500000x1_0
              (select (cmpi CmpIPredicate.slt (W18 (F := Ideal) m ρ c (Proc.devRef .tc main_v1)) (broadcastInDim S2500000 ![] bcast_S_S2500000 (constantI S_ 32 0#32)))
                (addi (W18 (F := Ideal) m ρ c (Proc.devRef .tc main_v1)) (broadcastInDim S2500000 ![] bcast_S_S2500000 (constantI S_ 32 100000#32)))
                (W18 (F := Ideal) m ρ c (Proc.devRef .tc main_v1))))) := by
    show StableHlo.after hostOps9 (W18 m ρ c) (Proc.devRef .tc main_v96) = _
    after_results_simp
  have hr : (fun e : Fin 2500000 => EdgeAgg.clampTo 100000 (by decide)
        (normWord (W18 (F := Ideal) m ρ c (Proc.devRef .tc main_v1) (ix1 e))))
      = srcRow (P := 2500000) (m ((c : Thread nD τ).loc main_arg11)) := by
    funext e
    rw [v1_at18, W1_v1_apply]
    rfl
  have hD : (fun n : Fin 100000 => Finset.univ.filter fun e : Fin 2500000 =>
        (W18 (F := Ideal) m ρ c (Proc.devRef .tc main_v3) (ix1 e)).toInt = (n.val : Int))
      = inEdges (P := 2500000) (m ((c : Thread nD τ).loc main_arg11)) := by
    funext n
    show _ = Finset.univ.filter fun e : Fin 2500000 =>
      (m ((c : Thread nD τ).loc main_arg11) (ix2 (1 : Fin 2) e)).toInt = (n.val : Int)
    refine Finset.filter_congr fun e _ => ?_
    rw [v3_at18, W1_v3_apply]
  rw [h, Hidden4.nbr_of_hostChain, cur_W18_main_v86_0, hr, hD]

/-- The bias as a row `[1, 32]`: row 0 of the bias table. -/
theorem cur_W19_main_v97 (c : Dev nD) (j : Fin 32) :
    cur (a := 1) (b := 32) (W19 (F := Ideal) m ρ c (Proc.devRef .tc main_v97)) 0 j
      = rowOf (a := 4) (b := 32) (m ((c : Thread nD τ).loc main_arg5)) (3 : Fin 4) j := by
  have h7 : W19 (F := Ideal) m ρ c (Proc.devRef .tc main_v97)
      = shapeCast S1x32 (W18 (F := Ideal) m ρ c (Proc.devRef .tc main_v82)) shapeCasts_S32_S1x32 := by
    show StableHlo.after hostOps9 (W18 m ρ c) (Proc.devRef .tc main_v97) = _
    after_results_simp
    rfl
  have h6 : W18 (F := Ideal) m ρ c (Proc.devRef .tc main_v82) = W17 (F := Ideal) m ρ c (Proc.devRef .tc main_v82) :=
    W18_of_ne m ρ c main_v82 (by decide)
  have h5 : W17 (F := Ideal) m ρ c (Proc.devRef .tc main_v82)
      = shapeCast S32 (extractStridedSlice S1x32 ![3, 0] (W16 (F := Ideal) m ρ c (Proc.devRef .tc main_arg5)) slices_S4x32_S1x32_3_0)
          shapeCasts_S1x32_S32 := by
    show StableHlo.after hostOps8 (W16 m ρ c) (Proc.devRef .tc main_v82) = _
    after_results_simp
    rfl
  rw [cur_apply, h7, h6, h5, Hidden4.row_of_slice (3 : Fin 4), arg5_at16]
  all_goals rfl

/-- The node table after layer 4, as the layer with the projection taken before the neighbour sum. -/
theorem layer4 (c : Dev nD) :
    cur (a := 100000) (b := 32) (W20 (F := Ideal) m ρ c (Proc.devRef .tc main_v98))
      = kLayer (cur (a := 100000) (b := 32) (W16 (F := Ideal) m ρ c (Proc.devRef .tc main_v78)))
          (slab (a := 4) (b := 32) (d := 32) (m ((c : Thread nD τ).loc main_arg4)) 3) (slab (a := 4) (b := 32) (d := 32) (m ((c : Thread nD τ).loc main_arg6)) 3) (rowOf (a := 4) (b := 32) (m ((c : Thread nD τ).loc main_arg5)) 3)
          (srcRow (P := 2500000) (m ((c : Thread nD τ).loc main_arg11))) (inEdges (P := 2500000) (m ((c : Thread nD τ).loc main_arg11))) := by
  have h8 : W20 (F := Ideal) m ρ c (Proc.devRef .tc main_v98) = (dat9 (F := Ideal) (V19 m ρ) c).arrAt 3 cfg9.N :=
    W20_arr m ρ c 3
  rw [h8, reg9_out, cur_tbl]
  funext n j
  show max (cur (a := 100000) (b := 32) (W19 (F := Ideal) m ρ c (Proc.devRef .tc main_v96)) n j
        + cur (a := 100000) (b := 32) (W19 (F := Ideal) m ρ c (Proc.devRef .tc main_v86_1)) n j
        + cur (a := 1) (b := 32) (W19 (F := Ideal) m ρ c (Proc.devRef .tc main_v97)) 0 j) 0 = _
  rw [cur_W19_main_v96, cur_W19_main_v86_1, cur_W19_main_v97]
  unfold kLayer
  rfl

end Cert.KernelIdeal.Val

end
-- ==== Proof.RegPool.lean ====
/-
  Region 10: the node table is read in fifty blocks of two thousand rows; each block adds, for every graph, the rows of
  its nodes whose graph word is that graph's number, into one accumulator that the first block starts from zero.

  At a block the body forms the zero-one table `onehot (r, g) = 1` if row `r`'s graph word is `g`, else `0`, and adds to
  the accumulator the product contracted over the rows, `(g, j) ↦ ∑ r, onehot (r, g) * h (r, j)`. After the last block the
  accumulator holds, at `(g, j)`, `0 + c₀ + c₁ + … + c₄₉` of the blocks' shares, which is the sum over all hundred thousand
  nodes `∑ n, (if word n = g then 1 else 0) * h (n, j)` — node `n` being row `n % 2000` of block `n / 2000`. The
  accumulator is written to the array once, after the last block, and its one block is the whole array.
-/
import proofs.«401169_j5540507812347_2_alg».proof.Proof.Gen.KernelIdeal.Frame
import proofs.«401169_j5540507812347_2_alg».proof.Proof.Spec
import Idealize.ShloMosaic.Lib.Pipeline.Value
import Idealize.ShloMosaic.Lib.Tactic
import Idealize.ShloMosaic.Lib.IdealHost
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

namespace Pool

/-! ## What each of the two cases leaves in the accumulator -/

/-- The zero offsets, as a constant function. -/
theorem hz10 : (![0, 0] : Fin 2 → Nat) = fun _ => 0 := funext fun a => by fin_cases a <;> rfl

/-- At a block that is not the first the accumulator ends at the accumulating payload of the node block `x0`, the word
    block `x1` and what it held before, `xo`: the body's one store covers it, and its loads read the whole blocks. -/
theorem out10_B_eq {F : FTy → Type} [FloatOps F] (c : Dev nD) (i : grid10.Coords)
    (a1 : Memref sig .tc .vmem S2000x32 .f32) (h1 : a1.IsWhole) (a2 : Memref sig .tc .vmem S2000x1 .i32) (h2 : a2.IsWhole)
    (a3 : Memref sig .tc .vmem S512x32 .f32) (h3 : a3.IsWhole) (hc : ¬cond10_0 i)
    (x0 : Vec F S2000x32 .f32) (x1 : Vec F S2000x1 .i32) (xo : Vec F S512x32 .f32) :
    out10_B_2 c i a1 h1 a2 h2 a3 h3 hc x0 x1 xo = k10_pay2 x0 x1 xo := by
  unfold out10_B_2
  rw [View.read_writes_eq_canon _ _ _ (cover10_B_2 c i a1 h1 a2 h2 a3 h3 hc x0 x1 xo)]
  unfold kernelRun10_B
  dsimp only
  sl_unfold_words
  rw [View.canon_unit_zero hz10]
  simp only [View.readAt_eq_ld, h1.read_unread, h2.read_unread, h3.read_unread, View.ld_unit_zero (S := S2000x32) hz10,
    View.ld_unit_zero (S := S2000x1) hz10, View.ld_unit_zero (S := S512x32) hz10]

/-- At the first block the accumulator is first set to the zero block, which the accumulating payload then reads back:
    it ends at that payload of the two input blocks and the zero block. -/
theorem out10_A_eq {F : FTy → Type} [FloatOps F] (c : Dev nD) (i : grid10.Coords)
    (a1 : Memref sig .tc .vmem S2000x32 .f32) (h1 : a1.IsWhole) (a2 : Memref sig .tc .vmem S2000x1 .i32) (h2 : a2.IsWhole)
    (a3 : Memref sig .tc .vmem S512x32 .f32) (h3 : a3.IsWhole) (hc : cond10_0 i)
    (x0 : Vec F S2000x32 .f32) (x1 : Vec F S2000x1 .i32) :
    out10_A_2 c i a1 h1 a2 h2 a3 h3 hc x0 x1 = k10_pay2 x0 x1 (k10_pay1 (F := F)) := by
  unfold out10_A_2
  rw [View.read_writes_eq_canon _ _ _ (cover10_A_2 c i a1 h1 a2 h2 a3 h3 hc x0 x1)]
  unfold kernelRun10_A
  dsimp only
  sl_unfold_words
  rw [View.canon_cons_unit_zero (S := S512x32) hz10]
  simp only [View.readAt_eq_ld, h1.read_unread, h2.read_unread, View.ld_unit_zero (S := S2000x32) hz10,
    View.ld_unit_zero (S := S2000x1) hz10, View.readCov_unit_zero (S := S512x32) _ hz10]

/-! ## The accumulating payload at an entry -/

/-- The product contracts the rows: on each operand's row axis the operand index is the contraction's coordinate, on its
    other axis the output's coordinate (graph for the zero-one table, column for the node block). -/
theorem pool_lhs_0 (i : S512x32.Idx) (q : dot_S2000x512_S2000x32_S512x32_0_0_1_1_n_n.contr.Idx) :
    (dot_S2000x512_S2000x32_S512x32_0_0_1_1_n_n.lhsIdx i q 0).val = (q ⟨0, by decide⟩).val :=
  dot_S2000x512_S2000x32_S512x32_0_0_1_1_n_n.lhsIdx_val_of_single rfl i q
theorem pool_lhs_1 (i : S512x32.Idx) (q : dot_S2000x512_S2000x32_S512x32_0_0_1_1_n_n.contr.Idx) :
    (dot_S2000x512_S2000x32_S512x32_0_0_1_1_n_n.lhsIdx i q 1).val = (i 0).val := by
  unfold DotDims.lhsIdx
  rw [dif_neg (show ¬(1 : Fin S2000x512.rank) ∈ dot_S2000x512_S2000x32_S512x32_0_0_1_1_n_n.lhsBatch by decide), dif_pos (show (1 : Fin S2000x512.rank) ∈ dot_S2000x512_S2000x32_S512x32_0_0_1_1_n_n.lhsNonContracting by decide)]
  rfl
theorem pool_rhs_0 (i : S512x32.Idx) (q : dot_S2000x512_S2000x32_S512x32_0_0_1_1_n_n.contr.Idx) :
    (dot_S2000x512_S2000x32_S512x32_0_0_1_1_n_n.rhsIdx i q 0).val = (q ⟨0, by decide⟩).val :=
  dot_S2000x512_S2000x32_S512x32_0_0_1_1_n_n.rhsIdx_val_of_single rfl i q
theorem pool_rhs_1 (i : S512x32.Idx) (q : dot_S2000x512_S2000x32_S512x32_0_0_1_1_n_n.contr.Idx) :
    (dot_S2000x512_S2000x32_S512x32_0_0_1_1_n_n.rhsIdx i q 1).val = (i 1).val := by
  unfold DotDims.rhsIdx
  rw [dif_neg (show ¬(1 : Fin S2000x32.rank) ∈ dot_S2000x512_S2000x32_S512x32_0_0_1_1_n_n.rhsBatch by decide), dif_pos (show (1 : Fin S2000x32.rank) ∈ dot_S2000x512_S2000x32_S512x32_0_0_1_1_n_n.rhsNonContracting by decide)]
  rfl

/-- A select on an equality test of two words is the `if` on their equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    simp [hb, h]

/-- The accumulating payload at graph `g`, column `j`: the old entry plus the sum over the block's rows of the zero-one
    weight (the row's word is `g`) times the row's entry. -/
theorem pay2_apply (x0 : Vec Ideal S2000x32 .f32) (x1 : Vec Ideal S2000x1 .i32) (xo : Vec Ideal S512x32 .f32)
    (g : Fin 512) (j : Fin 32) :
    k10_pay2 (F := Ideal) x0 x1 xo (ix2 g j)
      = xo (ix2 g j) + ∑ r : Fin 2000, (if x1 (ix2 r (0 : Fin 1)) = BitVec.ofNat 32 g.val then (1 : EReal) else 0) * x0 (ix2 r j) := by
  unfold k10_pay2
  simp only [shapeCast_self, matmul]
  refine (addf_apply _ _ _).trans ?_
  refine congrArg (xo (ix2 g j) + ·) ?_
  refine (Ideal.matmul_constant_zero_apply dot_S2000x512_S2000x32_S512x32_0_0_1_1_n_n none _ _ (ix2 g j)).trans ?_
  rw [← Equiv.sum_comp (contrEquiv1 dot_S2000x512_S2000x32_S512x32_0_0_1_1_n_n 2000 rfl rfl).symm]
  refine Finset.sum_congr rfl fun r _ => ?_
  have hk := contrEquiv1_symm_val dot_S2000x512_S2000x32_S512x32_0_0_1_1_n_n 2000 rfl rfl r
  have el : dot_S2000x512_S2000x32_S512x32_0_0_1_1_n_n.lhsIdx (ix2 g j) ((contrEquiv1 dot_S2000x512_S2000x32_S512x32_0_0_1_1_n_n 2000 rfl rfl).symm r) = ix2 r g := funext fun a => Fin.ext (by
    match a with
    | ⟨0, _⟩ => exact (pool_lhs_0 _ _).trans hk
    | ⟨1, _⟩ => exact pool_lhs_1 _ _)
  have er : dot_S2000x512_S2000x32_S512x32_0_0_1_1_n_n.rhsIdx (ix2 g j) ((contrEquiv1 dot_S2000x512_S2000x32_S512x32_0_0_1_1_n_n 2000 rfl rfl).symm r) = ix2 r j := funext fun a => Fin.ext (by
    match a with
    | ⟨0, _⟩ => exact (pool_rhs_0 _ _).trans hk
    | ⟨1, _⟩ => exact pool_rhs_1 _ _)
  rw [el, er]
  refine congrArg (· * x0 (ix2 r j)) ?_
  show Scalar.select (IntOp.cmpi .eq (broadcastTo S2000x512 x1 broadcasts_S2000x1_S2000x512 (ix2 r g)) (iota .tc S2000x512 32 [1] iota_S2000x512_d1_w32 (ix2 r g)))
    (Ideal.ofBits .f32 0x3F800000#32) (Ideal.ofBits .f32 0x00000000#32) = _
  rw [select_cmpi_eq, Ideal.ofBits_one_f32, Ideal.ofBits_zero_f32, iota_single_apply,
    broadcastTo_apply x1 broadcasts_S2000x1_S2000x512 (ix2 r g) (ix2 r (0 : Fin 1)) (fun a => by
      match a with
      | ⟨0, _⟩ => rfl
      | ⟨1, _⟩ => rfl)]

variable (V : (c : Dev nD) → (b : Ref sig .tc) → Buf (Elt Ideal) ((c : Thread nD τ).loc b))

/-! ## The node table, the graph words, and their blocks -/

/-- The node table by coordinates. -/
abbrev hmat (c : Dev nD) : Mat 100000 32 := cur (a := 100000) (b := 32) (V c main_v98)
/-- Node `n`'s graph word. -/
abbrev bwv (c : Dev nD) : Fin 100000 → BitVec 32 := fun n => V c main_v4 (ix2 n (0 : Fin 1))
/-- Rows `2000 t … 2000 t + 1999` of the node table. -/
abbrev hblk (c : Dev nD) (t : Fin cfg10.N) : Vec Ideal S2000x32 .f32 := iblk10 V c 0 t
/-- The graph words of those rows. -/
abbrev bblk (c : Dev nD) (t : Fin cfg10.N) : Vec Ideal S2000x1 .i32 := iblk10 V c 1 t

/-- Block `t` of either input starts at row `2000 t`, column `0`. -/
theorem idx10_0 : ∀ t : Fin cfg10.N, win10_0.index t 0 = t.val ∧ win10_0.index t 1 = 0 :=
  (by decide +kernel : ∀ t : Fin grid10.N, win10_0.index t 0 = t.val ∧ win10_0.index t 1 = 0)
theorem idx10_1 : ∀ t : Fin cfg10.N, win10_1.index t 0 = t.val ∧ win10_1.index t 1 = 0 :=
  (by decide +kernel : ∀ t : Fin grid10.N, win10_1.index t 0 = t.val ∧ win10_1.index t 1 = 0)

/-- Row `r` of block `t` of the node table is row `2000 t + r` of the table. -/
theorem hblk_apply (c : Dev nD) (t : Fin cfg10.N) (r : Fin 2000) (j : Fin 32) (hlt : 2000 * t.val + r.val < 100000) :
    hblk V c t (ix2 r j) = hmat V c ⟨2000 * t.val + r.val, hlt⟩ j := by
  have hi := idx10_0 t
  show iblk10 V c 0 t (ix2 r j) = V c main_v98 (ix2 (⟨2000 * t.val + r.val, hlt⟩ : Fin 100000) j)
  unfold iblk10
  rw [View.read_apply]
  show V c main_v98 _ = V c main_v98 _
  congr 1
  funext a
  apply Fin.ext
  match a with
  | ⟨0, _⟩ => show win10_0.index t 0 * 2000 + 1 * r.val = 2000 * t.val + r.val; rw [hi.1]; omega
  | ⟨1, _⟩ => show win10_0.index t 1 * 32 + 1 * j.val = j.val; rw [hi.2]; omega

/-- Row `r` of block `t` of the graph words is the word of node `2000 t + r`. -/
theorem bblk_apply (c : Dev nD) (t : Fin cfg10.N) (r : Fin 2000) (hlt : 2000 * t.val + r.val < 100000) :
    bblk V c t (ix2 r (0 : Fin 1)) = bwv V c ⟨2000 * t.val + r.val, hlt⟩ := by
  have hi := idx10_1 t
  show iblk10 V c 1 t (ix2 r (0 : Fin 1)) = V c main_v4 (ix2 (⟨2000 * t.val + r.val, hlt⟩ : Fin 100000) (0 : Fin 1))
  unfold iblk10
  rw [View.read_apply]
  show V c main_v4 _ = V c main_v4 _
  congr 1
  funext a
  apply Fin.ext
  match a with
  | ⟨0, _⟩ => show win10_1.index t 0 * 2000 + 1 * r.val = 2000 * t.val + r.val; rw [hi.1]; omega
  | ⟨1, _⟩ => show win10_1.index t 1 * 1 + 1 * 0 = 0; rw [hi.2]

/-! ## The sum over the nodes, block by block -/

/-- Node `n`'s summand for graph `g` and column `j`: its row's entry if its word is `g`, else nothing. -/
def nodeTerm (c : Dev nD) (g : Fin 512) (j : Fin 32) (n : Fin 100000) : EReal :=
  (if bwv V c n = BitVec.ofNat 32 g.val then (1 : EReal) else 0) * hmat V c n j
/-- The same by a natural row number, nothing past the table's end. -/
def rowTerm (c : Dev nD) (g : Fin 512) (j : Fin 32) (k : ℕ) : EReal :=
  if hk : k < 100000 then nodeTerm V c g j ⟨k, hk⟩ else 0
/-- What block `s` adds: the summands of rows `2000 s … 2000 s + 1999`. -/
def blockSum (c : Dev nD) (g : Fin 512) (j : Fin 32) (s : ℕ) : EReal :=
  ∑ r : Fin 2000, rowTerm V c g j (2000 * s + r.val)

/-- The payload's sum over a block's rows is that block's share of the sum over the nodes. -/
theorem blk_sum (c : Dev nD) (t : Fin cfg10.N) (g : Fin 512) (j : Fin 32) :
    ∑ r : Fin 2000, (if bblk V c t (ix2 r (0 : Fin 1)) = BitVec.ofNat 32 g.val then (1 : EReal) else 0) * hblk V c t (ix2 r j)
      = blockSum V c g j t.val := by
  have hN : t.val < 50 := lt_of_lt_of_eq t.isLt (show cfg10.N = 50 from N_10)
  unfold blockSum
  refine Finset.sum_congr rfl fun r _ => ?_
  have hlt : 2000 * t.val + r.val < 100000 := by have := r.isLt; omega
  unfold rowTerm nodeTerm
  rw [dif_pos hlt, hblk_apply V c t r j hlt, bblk_apply V c t r hlt]

/-- The fifty blocks' shares make the sum over all hundred thousand nodes: node `n` is row `n % 2000` of block `n / 2000`. -/
theorem sum_blocks (c : Dev nD) (g : Fin 512) (j : Fin 32) :
    ∑ s ∈ Finset.range 50, blockSum V c g j s = kPool (hmat V c) (bwv V c) g j := by
  rw [Finset.sum_range]
  unfold blockSum
  rw [← Fintype.sum_prod_type' (fun (s : Fin 50) (r : Fin 2000) => rowTerm V c g j (2000 * s.val + r.val))]
  unfold kPool
  refine Fintype.sum_equiv (finProdFinEquiv : Fin 50 × Fin 2000 ≃ Fin 100000) _ _ fun x => ?_
  have hlt : 2000 * x.1.val + x.2.val < 100000 := by have := x.1.isLt; have := x.2.isLt; omega
  unfold rowTerm
  rw [dif_pos hlt]
  have e : (⟨2000 * x.1.val + x.2.val, hlt⟩ : Fin 100000) = (finProdFinEquiv : Fin 50 × Fin 2000 ≃ Fin 100000) x :=
    Fin.ext (by show 2000 * x.1.val + x.2.val = x.2.val + 2000 * x.1.val; omega)
  rw [e]
  rfl

/-! ## What the accumulator holds after each block -/

/-- The zero block at an entry. -/
theorem pay1_apply (g : Fin 512) (j : Fin 32) : k10_pay1 (F := Ideal) (ix2 g j) = 0 := by
  unfold k10_pay1
  show Ideal.ofBits .f32 0x00000000#32 = 0
  exact Ideal.ofBits_zero_f32

/-- The first block starts the accumulator from zero and adds its share. -/
theorem step_first (c : Dev nD) (t : Fin cfg10.N) (h0 : t.val % 50 = 0) (g : Fin 512) (j : Fin 32) :
    outsAt10 V c t.val t.isLt (ix2 g j) = blockSum V c g j t.val := by
  rw [outsAt10_A V c t h0]
  refine (congrFun (out10_A_eq (F := Ideal) c (grid10.coords t) (ms10_0 t) (hs10_0 t) (ms10_1 t) (hs10_1 t) (ms10_2 t) (hs10_2 t)
    ((hcond10_0 t).mpr h0) (hblk V c t) (bblk V c t)) (ix2 g j)).trans ?_
  refine (pay2_apply (hblk V c t) (bblk V c t) (k10_pay1 (F := Ideal)) g j).trans ?_
  rw [pay1_apply, zero_add]
  exact blk_sum V c t g j

/-- Every later block adds its share to what the block before left. -/
theorem step_next (c : Dev nD) (t : Fin cfg10.N) (h0 : ¬t.val % 50 = 0) (g : Fin 512) (j : Fin 32) :
    outsAt10 V c t.val t.isLt (ix2 g j)
      = outsAt10 V c (t.val - 1) (Nat.lt_of_le_of_lt (Nat.sub_le _ _) t.isLt) (ix2 g j) + blockSum V c g j t.val := by
  rw [outsAt10_B V c t h0]
  refine (congrFun (out10_B_eq (F := Ideal) c (grid10.coords t) (ms10_0 t) (hs10_0 t) (ms10_1 t) (hs10_1 t) (ms10_2 t) (hs10_2 t)
    (fun h => h0 ((hcond10_0 t).mp h)) (hblk V c t) (bblk V c t)
    (outsAt10 V c (t.val - 1) (Nat.lt_of_le_of_lt (Nat.sub_le _ _) t.isLt))) (ix2 g j)).trans ?_
  refine (pay2_apply (hblk V c t) (bblk V c t) (outsAt10 V c (t.val - 1) (Nat.lt_of_le_of_lt (Nat.sub_le _ _) t.isLt)) g j).trans ?_
  exact congrArg (outsAt10 V c (t.val - 1) (Nat.lt_of_le_of_lt (Nat.sub_le _ _) t.isLt) (ix2 g j) + ·) (blk_sum V c t g j)

/-- After block `n` the accumulator holds the shares of blocks `0 … n`. -/
theorem outsAt10_eq (c : Dev nD) : ∀ (n : ℕ) (hn : n < cfg10.N) (g : Fin 512) (j : Fin 32),
    outsAt10 V c n hn (ix2 g j) = ∑ s ∈ Finset.range (n + 1), blockSum V c g j s
  | 0, hn, g, j => by
    rw [Finset.sum_range_one]
    exact step_first V c ⟨0, hn⟩ (Nat.zero_mod _) g j
  | n + 1, hn, g, j => by
    have hN : n + 1 < 50 := lt_of_lt_of_eq hn (show cfg10.N = 50 from N_10)
    have hB : ¬(⟨n + 1, hn⟩ : Fin cfg10.N).val % 50 = 0 := by dsimp only; omega
    rw [Finset.sum_range_succ, ← outsAt10_eq c n (Nat.lt_of_succ_lt hn) g j]
    exact step_next V c ⟨n + 1, hn⟩ hB g j

/-! ## The array after the region -/

/-- The per-graph sums as an array. -/
abbrev pooled (c : Dev nD) : Buf (Elt Ideal) ((c : Thread nD τ).loc main_v99) :=
  tbl (kPool (hmat V c) (bwv V c))

/-- The last point. -/
def tLast : Fin cfg10.N := ⟨49, by rw [show cfg10.N = 50 from N_10]; decide⟩

/-- After the last block the accumulator holds the per-graph sums. -/
theorem outsAt10_last (c : Dev nD) : outsAt10 V c tLast.val tLast.isLt = pooled V c := by
  funext i
  obtain ⟨g, j, rfl⟩ : ∃ (g : Fin 512) (j : Fin 32), i = ix2 g j := ⟨i 0, i 1, eq_ix2 i⟩
  refine (outsAt10_eq V c 49 tLast.isLt g j).trans ?_
  exact sum_blocks V c g j

/-- The output's one block is the whole array, at every point. -/
theorem idx10_2 : ∀ (t : Fin cfg10.N) (a : Fin 2), win10_2.index t a = 0 :=
  (by decide +kernel : ∀ (t : Fin grid10.N) (a : Fin 2), win10_2.index t a = 0)

/-- The one write-back, after the last block, writes the per-graph sums. -/
theorem flushed10_eq (c : Dev nD) (t : Fin cfg10.N) (hf : (cfg10.win 2).flush t = true) :
    (dat10 (F := Ideal) V c).flushed 2 t = ((cfg10.win 2).blk t).view.read (Elt Ideal) (pooled V c) := by
  have hN : t.val < 50 := lt_of_lt_of_eq t.isLt (show cfg10.N = 50 from N_10)
  have h49 : t.val = 49 := by have := (flush10_2 t).mp hf; omega
  obtain rfl : t = tLast := Fin.ext h49
  show (cfg10.win 2).cut (grid10.coords tLast) ((dat10 (F := Ideal) V c).after 2 tLast) = _
  rw [after10_2, outsAt10_last]
  have hz' : (fun a => win10_2.index tLast a * main_v99.ty.shape.size a) = fun _ => 0 :=
    funext fun a => by rw [idx10_2 tLast a, Nat.zero_mul]
  exact (Memref.read_access_unit_zero (Elt Ideal) main_v99 hz' (fun a => by rw [congrFun hz' a]; simp) (pooled V c)).symm

end Pool

variable (V : (c : Dev nD) → (b : Ref sig .tc) → Buf (Elt Ideal) ((c : Thread nD τ).loc b))

/-- The output array of region 10: for every graph the sum of its nodes' rows, with a zero-one weight per node. -/
theorem reg10_out (c : Dev nD) :
    (dat10 (F := Ideal) V c).arrAt 2 cfg10.N
      = tbl (kPool (cur (a := 100000) (b := 32) (V c main_v98)) (fun n => V c main_v4 (ix2 n (0 : Fin 1)))) :=
  (dat10 (F := Ideal) V c).arrAt_eq_of_cover 2 (Pool.pooled V c) (Pool.flushed10_eq V c) fun i =>
    ⟨Pool.tLast, (flush10_2 Pool.tLast).mpr rfl, by
      show i ∈ ((View.whole main_v99).slice (win10_2.rect Pool.tLast)).set
      rw [View.set_slice_whole, Rect.mem_set_unit]
      intro a
      show win10_2.index Pool.tLast a * win10_2.size a ≤ (i a : Nat)
        ∧ (i a : Nat) < win10_2.index Pool.tLast a * win10_2.size a + win10_2.xsize (grid10.coords Pool.tLast) a
      rw [Pool.idx10_2 Pool.tLast a, Nat.zero_mul, Nat.zero_add]
      exact ⟨Nat.zero_le _, (i a).isLt⟩⟩

end Cert.KernelIdeal.Val

end
-- ==== Proof.RegHead.lean ====
/-
  Region 11: one block; the two-layer head and the row-wise log-softmax of its two logits.

  The region's grid has ONE point, and each of its six windows has one block, the whole array. The body reads the
  pooled table g [512, 32], the weights w1 [32, 32] and w2 [32, 2] and the one-row biases b1 [1, 32] and b2 [1, 2], and
  stores, at row r and lane j,
      z j − log (∑ q, exp (z q)),   z q = lg q − max (lg 0) (lg 1),
      lg q = ∑ k, max (∑ k', g r k' · w1 k' k + b1 k) 0 · w2 k q + b2 q:
  two products into zero accumulators (each a sum over the 32 shared coordinates; the change of float format before
  them is the identity on extended reals), a clip at zero, the row maximum and the row sum over the two lanes kept as
  a column and laid back along the lanes. The first part reads the body's operations at an entry, one lemma per
  operation that is not elementwise; the second reads the whole body at an entry as the head of the specification; the third says
  that each input block is its whole array, that the one point writes back the whole output, and that its block covers
  the array.
-/
import proofs.«401169_j5540507812347_2_alg».proof.Proof.Gen.KernelIdeal.Frame
import proofs.«401169_j5540507812347_2_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

namespace Head

/-! ## The two products read at an entry -/

theorem lhsA_0 (i : S512x32.Idx) (q : dot_S512x32_S32x32_S512x32_1_0_0_1_n_n.contr.Idx) :
    (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
  rfl
theorem lhsA_1 (i : S512x32.Idx) (q : dot_S512x32_S32x32_S512x32_1_0_0_1_n_n.contr.Idx) :
    (dot_S512x32_S32x32_S512x32_1_0_0_1_n_n.lhsIdx i q 1).val = (q ⟨0, by decide⟩).val :=
  dot_S512x32_S32x32_S512x32_1_0_0_1_n_n.lhsIdx_val_of_single rfl i q
theorem rhsA_0 (i : S512x32.Idx) (q : dot_S512x32_S32x32_S512x32_1_0_0_1_n_n.contr.Idx) :
    (dot_S512x32_S32x32_S512x32_1_0_0_1_n_n.rhsIdx i q 0).val = (q ⟨0, by decide⟩).val :=
  dot_S512x32_S32x32_S512x32_1_0_0_1_n_n.rhsIdx_val_of_single rfl i q
theorem rhsA_1 (i : S512x32.Idx) (q : dot_S512x32_S32x32_S512x32_1_0_0_1_n_n.contr.Idx) :
    (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
  rfl

/-- The first product into a zero accumulator, at row r and column j: the sum over the 32 shared coordinates. -/
theorem prodA_apply (a : FVec Ideal S512x32 .bf16) (b : FVec Ideal S32x32 .bf16) (r : Fin 512) (j : Fin 32) :
    matmul dot_S512x32_S32x32_S512x32_1_0_0_1_n_n none a b (constant (F := Ideal) S512x32 .f32 0x00000000#32) (ix2 r j)
      = ∑ k : Fin 32, a (ix2 r k) * b (ix2 k j) := by
  simp only [matmul]
  rw [Ideal.matmul_constant_zero_apply, ← Equiv.sum_comp (contrEquiv1 dot_S512x32_S32x32_S512x32_1_0_0_1_n_n 32 rfl rfl).symm]
  refine Finset.sum_congr rfl fun k _ => ?_
  have hk := contrEquiv1_symm_val dot_S512x32_S32x32_S512x32_1_0_0_1_n_n 32 rfl rfl k
  have el : dot_S512x32_S32x32_S512x32_1_0_0_1_n_n.lhsIdx (ix2 r j) ((contrEquiv1 dot_S512x32_S32x32_S512x32_1_0_0_1_n_n 32 rfl rfl).symm k) = ix2 r k := funext fun a => Fin.ext (by
    match a with
    | ⟨0, _⟩ => exact lhsA_0 _ _
    | ⟨1, _⟩ => exact (lhsA_1 _ _).trans hk)
  have er : dot_S512x32_S32x32_S512x32_1_0_0_1_n_n.rhsIdx (ix2 r j) ((contrEquiv1 dot_S512x32_S32x32_S512x32_1_0_0_1_n_n 32 rfl rfl).symm k) = ix2 k j := funext fun a => Fin.ext (by
    match a with
    | ⟨0, _⟩ => exact (rhsA_0 _ _).trans hk
    | ⟨1, _⟩ => exact rhsA_1 _ _)
  rw [el, er]

theorem lhsB_0 (i : S512x2.Idx) (q : dot_S512x32_S32x2_S512x2_1_0_0_1_n_n.contr.Idx) :
    (dot_S512x32_S32x2_S512x2_1_0_0_1_n_n.lhsIdx i q 0).val = (i 0).val := by
  unfold DotDims.lhsIdx
  rw [dif_neg (show ¬(0 : Fin S512x32.rank) ∈ dot_S512x32_S32x2_S512x2_1_0_0_1_n_n.lhsBatch by decide), dif_pos (show (0 : Fin S512x32.rank) ∈ dot_S512x32_S32x2_S512x2_1_0_0_1_n_n.lhsNonContracting by decide)]
  rfl
theorem lhsB_1 (i : S512x2.Idx) (q : dot_S512x32_S32x2_S512x2_1_0_0_1_n_n.contr.Idx) :
    (dot_S512x32_S32x2_S512x2_1_0_0_1_n_n.lhsIdx i q 1).val = (q ⟨0, by decide⟩).val :=
  dot_S512x32_S32x2_S512x2_1_0_0_1_n_n.lhsIdx_val_of_single rfl i q
theorem rhsB_0 (i : S512x2.Idx) (q : dot_S512x32_S32x2_S512x2_1_0_0_1_n_n.contr.Idx) :
    (dot_S512x32_S32x2_S512x2_1_0_0_1_n_n.rhsIdx i q 0).val = (q ⟨0, by decide⟩).val :=
  dot_S512x32_S32x2_S512x2_1_0_0_1_n_n.rhsIdx_val_of_single rfl i q
theorem rhsB_1 (i : S512x2.Idx) (q : dot_S512x32_S32x2_S512x2_1_0_0_1_n_n.contr.Idx) :
    (dot_S512x32_S32x2_S512x2_1_0_0_1_n_n.rhsIdx i q 1).val = (i 1).val := by
  unfold DotDims.rhsIdx
  rw [dif_neg (show ¬(1 : Fin S32x2.rank) ∈ dot_S512x32_S32x2_S512x2_1_0_0_1_n_n.rhsBatch by decide), dif_pos (show (1 : Fin S32x2.rank) ∈ dot_S512x32_S32x2_S512x2_1_0_0_1_n_n.rhsNonContracting by decide)]
  rfl

/-- The second product into a zero accumulator, at row r and lane q. -/
theorem prodB_apply (a : FVec Ideal S512x32 .bf16) (b : FVec Ideal S32x2 .bf16) (r : Fin 512) (q : Fin 2) :
    matmul dot_S512x32_S32x2_S512x2_1_0_0_1_n_n none a b (constant (F := Ideal) S512x2 .f32 0x00000000#32) (ix2 r q)
      = ∑ k : Fin 32, a (ix2 r k) * b (ix2 k q) := by
  simp only [matmul]
  rw [Ideal.matmul_constant_zero_apply, ← Equiv.sum_comp (contrEquiv1 dot_S512x32_S32x2_S512x2_1_0_0_1_n_n 32 rfl rfl).symm]
  refine Finset.sum_congr rfl fun k _ => ?_
  have hk := contrEquiv1_symm_val dot_S512x32_S32x2_S512x2_1_0_0_1_n_n 32 rfl rfl k
  have el : dot_S512x32_S32x2_S512x2_1_0_0_1_n_n.lhsIdx (ix2 r q) ((contrEquiv1 dot_S512x32_S32x2_S512x2_1_0_0_1_n_n 32 rfl rfl).symm k) = ix2 r k := funext fun a => Fin.ext (by
    match a with
    | ⟨0, _⟩ => exact lhsB_0 _ _
    | ⟨1, _⟩ => exact (lhsB_1 _ _).trans hk)
  have er : dot_S512x32_S32x2_S512x2_1_0_0_1_n_n.rhsIdx (ix2 r q) ((contrEquiv1 dot_S512x32_S32x2_S512x2_1_0_0_1_n_n 32 rfl rfl).symm k) = ix2 k q := funext fun a => Fin.ext (by
    match a with
    | ⟨0, _⟩ => exact (rhsB_0 _ _).trans hk
    | ⟨1, _⟩ => exact rhsB_1 _ _)
  rw [el, er]

/-! ## The two lane reductions and the column forms -/

/-- The index over row r with lane k inserted is (r, k). -/
theorem lift_row (r : Fin 512) (k : Fin 2) :
    (reduces_S512x2_S512 : S512x2.Reduces [1] S512).lift (ix1 r) k = ix2 r k := by
  funext c; refine Fin.ext ?_
  match c with
  | ⟨0, _⟩ => rfl
  | ⟨1, _⟩ => rfl

/-- The word of minus infinity reads as the bottom element. -/
theorem ofBits_neg_inf : Ideal.ofBits .f32 0xFF800000#32 = ⊥ := by
  simp [Ideal.ofBits, Ideal.ieee]

/-- The fold of the maximum from the bottom element over two lanes is the larger lane. -/
theorem fold_max_two (b : EReal) (hb : b = ⊥) (f : Fin 2 → EReal) :
    (Finset.univ : Finset (Fin 2)).fold max b f = max (f 0) (f 1) := by
  subst hb
  rw [show (Finset.univ : Finset (Fin 2)) = insert 0 {1} from by decide, Finset.fold_insert (by decide),
    Finset.fold_singleton, max_bot_right]

/-- A row's maximum over its two lanes. -/
theorem rowMax_apply (v : FVec Ideal S512x2 .f32) (hφ : FKind.Formats .f32)
    (hacc : (0xFF800000#32 : BitVec 32) = 0xFF800000#32) (r : Fin 512) :
    multiReduction (F := Ideal) .maximumf [1] S512 v 0xFF800000#32 reduces_S512x2_S512 hφ hacc (ix1 r)
      = max (v (ix2 r 0)) (v (ix2 r 1)) := by
  refine (Ideal.multiReduction_maximumf_single v 0xFF800000#32 reduces_S512x2_S512 hφ hacc (ix1 r)).trans ?_
  refine (fold_max_two _ ofBits_neg_inf (fun k => v (reduces_S512x2_S512.lift (ix1 r) k))).trans ?_
  exact congrArg₂ max (congrArg v (lift_row r 0)) (congrArg v (lift_row r 1))

/-- A row's sum over its two lanes. -/
theorem rowSum_apply (v : FVec Ideal S512x2 .f32) (hφ : FKind.Formats .f32)
    (hacc : (0x00000000#32 : BitVec 32) = 0x00000000#32) (r : Fin 512) :
    multiReduction (F := Ideal) .add [1] S512 v 0x00000000#32 reduces_S512x2_S512 hφ hacc (ix1 r)
      = ∑ q : Fin 2, v (ix2 r q) := by
  refine (Ideal.multiReduction_add_single v 0x00000000#32 reduces_S512x2_S512 hφ hacc (ix1 r)).trans ?_
  exact Finset.sum_congr rfl fun k _ => congrArg v (lift_row r k)

/-- A vector of 512 entries as a column: entry (r, 0) is entry r. -/
theorem colCast_apply {α : Type} (v : S512.Idx → α) (r : Fin 512) :
    shapeCast S512x1 v shapeCasts_S512_S512x1 (ix2 r (0 : Fin 1)) = v (ix1 r) := by
  refine shapeCast_apply v shapeCasts_S512_S512x1 (ix2 r (0 : Fin 1)) (ix1 r) ?_
  rw [Shape.rowMajor_val_two, Shape.rowMajor_val_one]
  show r.val = r.val * 1 + 0
  omega

/-- A column laid along both lanes: entry (r, q) is the column's entry (r, 0). -/
theorem colBcast_apply {α : Type} (v : S512x1.Idx → α) (r : Fin 512) (q : Fin 2) :
    broadcastTo S512x2 v broadcasts_S512x1_S512x2 (ix2 r q) = v (ix2 r (0 : Fin 1)) := by
  refine broadcastTo_apply v broadcasts_S512x1_S512x2 (ix2 r q) (ix2 r (0 : Fin 1)) fun ax => ?_
  match ax with
  | ⟨0, _⟩ =>
    show r.val = if (512 : Nat) = 1 then 0 else r.val
    rw [if_neg (by decide)]
  | ⟨1, _⟩ => rfl

/-! ## The elementwise exponential and logarithm at an entry -/

theorem vexp_apply {s : Shape} {φ : FTy} (v : FVec Ideal s φ) (i : s.Idx) : Idealize.ShloMosaic.exp v i = Ideal.exp (v i) := rfl
theorem vlog_apply {s : Shape} {φ : FTy} (v : FVec Ideal s φ) (i : s.Idx) : Idealize.ShloMosaic.log v i = Ideal.log (v i) := rfl
theorem scalar_zero : (Scalar.ofBits (F := Ideal) .f32 0x00000000#32 : Ideal .f32) = (0 : EReal) := Ideal.ofBits_zero_f32

/-! ## The whole body at an entry -/

theorem pay_apply (x0 : Vec Ideal S512x32 .f32) (x1 : Vec Ideal S32x32 .f32) (x2 : Vec Ideal S1x32 .f32)
    (x3 : Vec Ideal S32x2 .f32) (x4 : Vec Ideal S1x2 .f32) (r : Fin 512) (q : Fin 2) :
    k11_pay1 (F := Ideal) x0 x1 x2 x3 x4 (ix2 r q)
      = head (cur (a := 512) (b := 32) x0) (cur (a := 32) (b := 32) x1) (fun j => x2 (ix2 (0 : Fin 1) j))
          (cur (a := 32) (b := 2) x3) (fun j => x4 (ix2 (0 : Fin 1) j)) r q := by
  unfold k11_pay1
  simp only [subf_apply, colBcast_apply, vlog_apply, colCast_apply]
  rw [rowSum_apply]
  simp only [vexp_apply, subf_apply, colBcast_apply, colCast_apply]
  rw [rowMax_apply]
  simp only [addf_apply, prodB_apply, truncf_apply, maximumf_apply, prodA_apply, shapeCast_self, broadcastTo_1b_ab_apply,
    broadcast_apply, scalar_zero]
  rfl

end Head

variable (V : (c : Dev nD) → (b : Ref sig .tc) → Buf (Elt Ideal) ((c : Thread nD τ).loc b))

namespace Head

/-! ## The blocks: each is its whole array -/

/-- Both offsets of every window's one block are zero. -/
theorem offs_zero : (![0, 0] : Fin 2 → Nat) = fun _ => 0 :=
  funext fun a => match a with | ⟨0, _⟩ => rfl | ⟨1, _⟩ => rfl

/-- The pooled table's block is the table. -/
theorem blk0 (c : Dev nD) (t : Fin cfg11.N) :
    iblk11 (F := Ideal) V c 0 t = (V c main_v99 : S512x32.Idx → Elt Ideal .f32) := by
  funext j
  unfold iblk11
  rw [View.read_apply]
  show V c main_v99 (((cfg11.win 0).blk t).view.emb j) = V c main_v99 j
  refine congrArg (V c main_v99) (funext fun a => Fin.ext ?_)
  match a with
  | ⟨0, _⟩ =>
    show win11_0.index t (0 : Fin 2) * 512 + 1 * (j 0).val = (j 0).val
    rw [show win11_0.index t (0 : Fin 2) = 0 from rfl]; omega
  | ⟨1, _⟩ =>
    show win11_0.index t (1 : Fin 2) * 32 + 1 * (j 1).val = (j 1).val
    rw [show win11_0.index t (1 : Fin 2) = 0 from rfl]; omega

/-- The first weight table's block is the table. -/
theorem blk1 (c : Dev nD) (t : Fin cfg11.N) :
    iblk11 (F := Ideal) V c 1 t = (V c main_arg7 : S32x32.Idx → Elt Ideal .f32) := by
  funext j
  unfold iblk11
  rw [View.read_apply]
  show V c main_arg7 (((cfg11.win 1).blk t).view.emb j) = V c main_arg7 j
  refine congrArg (V c main_arg7) (funext fun a => Fin.ext ?_)
  match a with
  | ⟨0, _⟩ =>
    show win11_1.index t (0 : Fin 2) * 32 + 1 * (j 0).val = (j 0).val
    rw [show win11_1.index t (0 : Fin 2) = 0 from rfl]; omega
  | ⟨1, _⟩ =>
    show win11_1.index t (1 : Fin 2) * 32 + 1 * (j 1).val = (j 1).val
    rw [show win11_1.index t (1 : Fin 2) = 0 from rfl]; omega

/-- The first bias row's block is the row. -/
theorem blk2 (c : Dev nD) (t : Fin cfg11.N) :
    iblk11 (F := Ideal) V c 2 t = (V c main_v100 : S1x32.Idx → Elt Ideal .f32) := by
  funext j
  unfold iblk11
  rw [View.read_apply]
  show V c main_v100 (((cfg11.win 2).blk t).view.emb j) = V c main_v100 j
  refine congrArg (V c main_v100) (funext fun a => Fin.ext ?_)
  match a with
  | ⟨0, _⟩ =>
    show win11_2.index t (0 : Fin 2) * 1 + 1 * (j 0).val = (j 0).val
    rw [show win11_2.index t (0 : Fin 2) = 0 from rfl]; omega
  | ⟨1, _⟩ =>
    show win11_2.index t (1 : Fin 2) * 32 + 1 * (j 1).val = (j 1).val
    rw [show win11_2.index t (1 : Fin 2) = 0 from rfl]; omega

/-- The second weight table's block is the table. -/
theorem blk3 (c : Dev nD) (t : Fin cfg11.N) :
    iblk11 (F := Ideal) V c 3 t = (V c main_arg9 : S32x2.Idx → Elt Ideal .f32) := by
  funext j
  unfold iblk11
  rw [View.read_apply]
  show V c main_arg9 (((cfg11.win 3).blk t).view.emb j) = V c main_arg9 j
  refine congrArg (V c main_arg9) (funext fun a => Fin.ext ?_)
  match a with
  | ⟨0, _⟩ =>
    show win11_3.index t (0 : Fin 2) * 32 + 1 * (j 0).val = (j 0).val
    rw [show win11_3.index t (0 : Fin 2) = 0 from rfl]; omega
  | ⟨1, _⟩ =>
    show win11_3.index t (1 : Fin 2) * 2 + 1 * (j 1).val = (j 1).val
    rw [show win11_3.index t (1 : Fin 2) = 0 from rfl]; omega

/-- The second bias row's block is the row. -/
theorem blk4 (c : Dev nD) (t : Fin cfg11.N) :
    iblk11 (F := Ideal) V c 4 t = (V c main_v101 : S1x2.Idx → Elt Ideal .f32) := by
  funext j
  unfold iblk11
  rw [View.read_apply]
  show V c main_v101 (((cfg11.win 4).blk t).view.emb j) = V c main_v101 j
  refine congrArg (V c main_v101) (funext fun a => Fin.ext ?_)
  match a with
  | ⟨0, _⟩ =>
    show win11_4.index t (0 : Fin 2) * 1 + 1 * (j 0).val = (j 0).val
    rw [show win11_4.index t (0 : Fin 2) = 0 from rfl]; omega
  | ⟨1, _⟩ =>
    show win11_4.index t (1 : Fin 2) * 2 + 1 * (j 1).val = (j 1).val
    rw [show win11_4.index t (1 : Fin 2) = 0 from rfl]; omega

/-! ## What the one point writes back, and the array after it -/

/-- The head of the region's five input arrays, as one array. -/
abbrev headArr (c : Dev nD) : Tbl 512 2 :=
  tbl (head (cur (a := 512) (b := 32) (V c main_v99)) (cur (a := 32) (b := 32) (V c main_arg7))
    (fun j => V c main_v100 (ix2 (0 : Fin 1) j)) (cur (a := 32) (b := 2) (V c main_arg9))
    (fun j => V c main_v101 (ix2 (0 : Fin 1) j)))

/-- The point writes back the whole of that array: its output block is the array. -/
theorem flushed_eq (c : Dev nD) (t : Fin cfg11.N) :
    (dat11 (F := Ideal) V c).flushed 5 t = ((cfg11.win 5).blk t).view.read (Elt Ideal) (headArr V c) := by
  show (cfg11.win 5).cut (grid11.coords t) ((dat11 (F := Ideal) V c).after 5 t) = _
  rw [after11_5]
  unfold out11_5
  rw [View.canon_unit_zero offs_zero]
  simp only [View.ld_unit_zero (S := S512x32) offs_zero, View.ld_unit_zero (S := S32x32) offs_zero,
    View.ld_unit_zero (S := S1x32) offs_zero, View.ld_unit_zero (S := S32x2) offs_zero,
    View.ld_unit_zero (S := S1x2) offs_zero]
  rw [blk0, blk1, blk2, blk3, blk4]
  funext j
  rw [View.read_apply]
  have hr : (j 0).val < 512 := (j 0).isLt
  have hq : (j 1).val < 2 := (j 1).isLt
  have e1 : (cfg11.win 5).xinj (grid11.coords t) j = ix2 (⟨(j 0).val, hr⟩ : Fin 512) (⟨(j 1).val, hq⟩ : Fin 2) :=
    funext fun a => Fin.ext (by
      match a with
      | ⟨0, _⟩ => rfl
      | ⟨1, _⟩ => rfl)
  have e2 : ((cfg11.win 5).blk t).view.emb j = ix2 (⟨(j 0).val, hr⟩ : Fin 512) (⟨(j 1).val, hq⟩ : Fin 2) :=
    funext fun a => Fin.ext (by
      match a with
      | ⟨0, _⟩ =>
        show win11_5.index t (0 : Fin 2) * 512 + 1 * (j 0).val = (j 0).val
        rw [show win11_5.index t (0 : Fin 2) = 0 from rfl]; omega
      | ⟨1, _⟩ =>
        show win11_5.index t (1 : Fin 2) * 2 + 1 * (j 1).val = (j 1).val
        rw [show win11_5.index t (1 : Fin 2) = 0 from rfl]; omega)
  show k11_pay1 (F := Ideal) (V c main_v99) (V c main_arg7) (V c main_v100) (V c main_arg9) (V c main_v101)
      ((cfg11.win 5).xinj (grid11.coords t) j) = headArr V c (((cfg11.win 5).blk t).view.emb j)
  rw [e1, e2, pay_apply]
  rfl

/-- Every entry of the output array lies in the one point's block. -/
theorem cover (i : S512x2.Idx) :
    ∃ t : Fin cfg11.N, (cfg11.win 5).flush t = true ∧ i ∈ ((cfg11.win 5).blk t).view.set := by
  refine ⟨t11_0, flush11_5 t11_0, ?_⟩
  show i ∈ ((View.whole main_v102).slice (win11_5.rect t11_0)).set
  rw [View.set_slice_whole, Rect.mem_set_unit]
  intro a
  have h0 : (i 0).val < 512 := (i 0).isLt
  have h1 : (i 1).val < 2 := (i 1).isLt
  match a with
  | ⟨0, _⟩ =>
    show win11_5.index t11_0 (0 : Fin 2) * 512 ≤ (i 0).val ∧ (i 0).val < win11_5.index t11_0 (0 : Fin 2) * 512 + 512
    rw [show win11_5.index t11_0 (0 : Fin 2) = 0 from rfl]; omega
  | ⟨1, _⟩ =>
    show win11_5.index t11_0 (1 : Fin 2) * 2 ≤ (i 1).val ∧ (i 1).val < win11_5.index t11_0 (1 : Fin 2) * 2 + 2
    rw [show win11_5.index t11_0 (1 : Fin 2) = 0 from rfl]; omega

end Head

/-- The output array of region 11. -/
theorem reg11_out (c : Dev nD) :
    (dat11 (F := Ideal) V c).arrAt 5 cfg11.N
      = tbl (head (cur (a := 512) (b := 32) (V c main_v99)) (cur (a := 32) (b := 32) (V c main_arg7))
          (fun j => V c main_v100 (ix2 (0 : Fin 1) j)) (cur (a := 32) (b := 2) (V c main_arg9))
          (fun j => V c main_v101 (ix2 (0 : Fin 1) j))) :=
  (dat11 (F := Ideal) V c).arrAt_eq_of_cover 5 (Head.headArr V c) (fun t _ => Head.flushed_eq V c t) Head.cover

end Cert.KernelIdeal.Val

end
-- ==== Proof.KTail.lean ====
/-
  The end of the kernel's program: the per-graph sum of the last node table and the head.

  The per-graph sum reads the node table after the fifth layer and the graph words as a column; the column holds the
  graph-word vector entry by entry. Between the sum and the head the two bias vectors are recast as one-row tables,
  which read, at column `j` of their only row, the vector's entry `j`; nothing else is written there, so the summed
  table and the two weight tables reach the head as they were.
-/
import proofs.«401169_j5540507812347_2_alg».proof.Proof.Gen.KernelIdeal.Frame
import proofs.«401169_j5540507812347_2_alg».proof.Proof.Spec
import proofs.«401169_j5540507812347_2_alg».proof.Proof.Keep
import proofs.«401169_j5540507812347_2_alg».proof.Proof.RegPool
import proofs.«401169_j5540507812347_2_alg».proof.Proof.RegHead
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (m : (ℓ : Loc nD τ sig) → Buf (Elt Ideal) ℓ) (ρ : Dev nD → PrngReg)

/-- The head of equal operands is equal. -/
theorem head_congr {g g' : Mat 512 32} {w1 w1' : Mat 32 32} {b1 b1' : Fin 32 → EReal} {w2 w2' : Mat 32 2}
    {b2 b2' : Fin 2 → EReal} (hg : g = g') (h1 : w1 = w1') (h2 : b1 = b1') (h3 : w2 = w2') (h4 : b2 = b2') :
    head g w1 b1 w2 b2 = head g' w1' b1' w2' b2' := by
  subst hg h1 h2 h3 h4; rfl

/-- The two recasts write only the one-row tables, so the summed table is still what the sum left. -/
theorem v99_at22 (c : Dev nD) :
    W22 (F := Ideal) m ρ c (Proc.devRef .tc main_v99) = W21 (F := Ideal) m ρ c (Proc.devRef .tc main_v99) :=
  StableHlo.after_of_forall_not_mem (b := Proc.devRef .tc main_v99) _ _ (List.forall_iff_forall_mem.mp (by
    simp only [hostOps11, List.Forall, StableHlo.reshape_writes, Finset.mem_singleton]
    repeat' apply And.intro
    all_goals exact StableHlo.devRef_ne_of_ne (by decide)))

/-- The first bias as a one-row table: column `j` of row `0` is entry `j` of the vector. -/
theorem v100_at22 (c : Dev nD) (j : Fin 32) :
    W22 (F := Ideal) m ρ c (Proc.devRef .tc main_v100) (ix2 (0 : Fin 1) j)
      = m ((c : Thread nD τ).loc main_arg8) (ix1 j) := by
  have e : W22 (F := Ideal) m ρ c (Proc.devRef .tc main_v100)
      = fun i => shapeCast S1x32 (W21 (F := Ideal) m ρ c (Proc.devRef .tc main_arg8)) shapeCasts_S32_S1x32 i := by
    show StableHlo.after hostOps11 (W21 m ρ c) (Proc.devRef .tc main_v100) = _
    after_results
    rfl
  refine (congrFun e (ix2 (0 : Fin 1) j)).trans ?_
  refine (shapeCast_a_1a_apply (a := 32) _ shapeCasts_S32_S1x32 (0 : Fin 1) j).trans ?_
  exact congrFun (arg8_at21 m ρ c) (ix1 j)

/-- The second bias as a one-row table: column `j` of row `0` is entry `j` of the vector. -/
theorem v101_at22 (c : Dev nD) (j : Fin 2) :
    W22 (F := Ideal) m ρ c (Proc.devRef .tc main_v101) (ix2 (0 : Fin 1) j)
      = m ((c : Thread nD τ).loc main_arg10) (ix1 j) := by
  have e : W22 (F := Ideal) m ρ c (Proc.devRef .tc main_v101)
      = fun i => shapeCast S1x2 (W21 (F := Ideal) m ρ c (Proc.devRef .tc main_arg10)) shapeCasts_S2_S1x2 i := by
    show StableHlo.after hostOps11 (W21 m ρ c) (Proc.devRef .tc main_v101) = _
    after_results
    rfl
  refine (congrFun e (ix2 (0 : Fin 1) j)).trans ?_
  refine (shapeCast_a_1a_apply (a := 2) _ shapeCasts_S2_S1x2 (0 : Fin 1) j).trans ?_
  exact congrFun (arg10_at21 m ρ c) (ix1 j)

/-- The summed table as the head meets it: for every graph the sum of its nodes' rows of the node table after the
    fifth layer, a node counted for the graph its word names. The column of graph words read at `(n, 0)` is the
    graph-word vector at `n`. -/
theorem v99_at22_eq (c : Dev nD) :
    W22 (F := Ideal) m ρ c (Proc.devRef .tc main_v99)
      = tbl (kPool (cur (a := 100000) (b := 32) (W20 (F := Ideal) m ρ c (Proc.devRef .tc main_v98)))
          (graphWord (N := 100000) (m ((c : Thread nD τ).loc main_arg12)))) := by
  refine (v99_at22 m ρ c).trans ?_
  refine (W21_arr m ρ c 2).trans ?_
  refine (reg10_out (V20 m ρ) c).trans ?_
  refine congrArg (fun bw => tbl (kPool (cur (a := 100000) (b := 32)
    (W20 (F := Ideal) m ρ c (Proc.devRef .tc main_v98))) bw)) ?_
  funext n
  refine (congrFun (v4_at20 m ρ c) (ix2 n (0 : Fin 1))).trans ?_
  exact W1_v4_apply m ρ c n

/-- The result array from the node table after the fifth layer. -/
theorem tail (c : Dev nD) :
    W23 (F := Ideal) m ρ c (Proc.devRef .tc main_v102)
      = tbl (head (kPool (cur (a := 100000) (b := 32) (W20 (F := Ideal) m ρ c (Proc.devRef .tc main_v98))) (graphWord (N := 100000) (m ((c : Thread nD τ).loc main_arg12))))
          (cur (a := 32) (b := 32) (m ((c : Thread nD τ).loc main_arg7))) (vec (a := 32) (m ((c : Thread nD τ).loc main_arg8))) (cur (a := 32) (b := 2) (m ((c : Thread nD τ).loc main_arg9))) (vec (a := 2) (m ((c : Thread nD τ).loc main_arg10)))) := by
  refine (W23_arr m ρ c 5).trans ?_
  refine (reg11_out (V22 m ρ) c).trans ?_
  refine congrArg tbl (head_congr ?_ ?_ ?_ ?_ ?_)
  · exact (congrArg (cur (a := 512) (b := 32)) (v99_at22_eq m ρ c)).trans (cur_tbl _)
  · exact congrArg (cur (a := 32) (b := 32)) (arg7_at22 m ρ c)
  · funext j; exact v100_at22 m ρ c j
  · exact congrArg (cur (a := 32) (b := 2)) (arg9_at22 m ρ c)
  · funext j; exact v101_at22 m ρ c j

end Cert.KernelIdeal.Val

end
-- ==== Proof.KValue.lean ====
/-
  The kernel program's result array as one function of its thirteen argument arrays: five layers, the per-graph sum, the head.
-/
import proofs.«401169_j5540507812347_2_alg».proof.Proof.Gen.KernelIdeal.Frame
import proofs.«401169_j5540507812347_2_alg».proof.Proof.Spec
import proofs.«401169_j5540507812347_2_alg».proof.Proof.KLayer0
import proofs.«401169_j5540507812347_2_alg».proof.Proof.KLayer1
import proofs.«401169_j5540507812347_2_alg».proof.Proof.KLayer2
import proofs.«401169_j5540507812347_2_alg».proof.Proof.KLayer3
import proofs.«401169_j5540507812347_2_alg».proof.Proof.KLayer4
import proofs.«401169_j5540507812347_2_alg».proof.Proof.KTail

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Gnn
open scoped BigOperators

variable (m : (ℓ : Loc nD τ sig) → Buf (Elt Ideal) ℓ) (ρ : Dev nD → PrngReg)

theorem kernel_value (c : Dev nD) :
    W23 (F := Ideal) m ρ c (Proc.devRef .tc main_v102)
      = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail m ρ c, layer4 m ρ c, layer3 m ρ c, layer2 m ρ c, layer1 m ρ c, layer0 m ρ c]
  rfl

end Cert.KernelIdeal.Val

end
-- ==== Proof.RLayer0.lean ====
/-
  Layer 0 of the reference: the node rows travel along the edges and are summed at the destinations; the sum is projected,
  the bias added, the node's own projection added, and the result clipped below at zero.
-/
import proofs.«401169_j5540507812347_2_alg».proof.Proof.Gen.ReferenceIdeal.Read
import proofs.«401169_j5540507812347_2_alg».proof.Proof.Spec
import proofs.«401169_j5540507812347_2_alg».proof.Proof.HostRead

set_option maxRecDepth 16384

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.ReferenceIdeal.Read Gnn
open scoped BigOperators

variable (x0 : (⟨S100000x14, .f32⟩ : BufTy).Contents (Elt Ideal))
  (x1 : (⟨S14x32, .f32⟩ : BufTy).Contents (Elt Ideal))
  (x2 : (⟨S32, .f32⟩ : BufTy).Contents (Elt Ideal))
  (x3 : (⟨S14x32, .f32⟩ : BufTy).Contents (Elt Ideal))
  (x11 : (⟨S2x2500000, .i32⟩ : BufTy).Contents (Elt Ideal))

/-! ## The two columns of edge words -/

/-- The source column at edge e: the word in row 0 of the edge array, counted from the end when negative. -/
theorem l0_src_col (e : Fin 2500000) :
    val_main_v9 (F := Ideal) x11 (ix2 e (0 : Fin 1)) = normWord (x11 (ix2 (0 : Fin 2) e)) := by
  have e9 : idx_main_v9 (ix2 e (0 : Fin 1)) = ix1 e :=
    funext fun a => Fin.ext (by match a with | ⟨0, _⟩ => rfl)
  have e1 : idx_main_v1 (ix1 e) = ix2 (0 : Fin 1) e :=
    funext fun a => Fin.ext (by
      match a with
      | ⟨0, _⟩ => rfl
      | ⟨1, _⟩ => exact Nat.mod_eq_of_lt e.isLt)
  have e0 : idx_main_v0 (ix2 (0 : Fin 1) e) = ix2 (0 : Fin 2) e :=
    funext fun a => Fin.ext (by match a with | ⟨0, _⟩ => rfl | ⟨1, _⟩ => rfl)
  rw [val_main_v9_apply, e9, val_main_v8_apply, val_main_v5_apply, val_main_v7_apply, val_main_v4_apply,
    val_main_v6_apply, val_main_c_apply, val_main_c_0_apply, val_main_v1_apply, e1, val_main_v0_apply, e0]
  rfl

/-- The destination column at edge e: the word in row 1 of the edge array. -/
theorem l0_dst_col (e : Fin 2500000) :
    val_main_v12 (F := Ideal) x11 (ix2 e (0 : Fin 1)) = x11 (ix2 (1 : Fin 2) e) := by
  have e12 : idx_main_v12 (ix2 e (0 : Fin 1)) = ix1 e :=
    funext fun a => Fin.ext (by match a with | ⟨0, _⟩ => rfl)
  have e3 : idx_main_v3 (ix1 e) = ix2 (0 : Fin 1) e :=
    funext fun a => Fin.ext (by
      match a with
      | ⟨0, _⟩ => rfl
      | ⟨1, _⟩ => exact Nat.mod_eq_of_lt e.isLt)
  have e2 : idx_main_v2 (ix2 (0 : Fin 1) e) = ix2 (1 : Fin 2) e :=
    funext fun a => Fin.ext (by match a with | ⟨0, _⟩ => rfl | ⟨1, _⟩ => rfl)
  rw [val_main_v12_apply, e12, val_main_v3_apply, e3, val_main_v2_apply, e2]

/-- The accumulator the neighbour sum starts from is zero everywhere. -/
theorem l0_zeros (i : S100000x14.Idx) : val_main_v11 (F := Ideal) i = 0 := by
  rw [val_main_v11_apply, val_main_cst_apply, Ideal.ofBits_def]
  exact Ideal.ofBits_zero_f32

/-! ## The neighbour sum -/

/-- The rows of the node table looked up at the source column and accumulated into zeros at the destination column
    are the neighbour sum of the node table. -/
theorem l0_nbr :
    cur (a := 100000) (b := 14) (val_main_v13 (F := Ideal) x0 x11)
      = nbr (cur (a := 100000) (b := 14) x0) (srcRow (P := 2500000) x11) (inEdges (P := 2500000) x11) := by
  have h := nbr_of_lookup_accum (N := 100000) (C := 14) (P := 2500000) (by decide)
    gather_S100000x14_S2500000x1_S2500000x14_1_0_n_n_0_1_114.wf
    scatter_S100000x14_S2500000x1_S2500000x14_1_0_0_1.wf
    x0 (val_main_v9 (F := Ideal) x11) (val_main_v12 (F := Ideal) x11) (val_main_v11 (F := Ideal)) l0_zeros
  -- the row each edge reads is the one its normalised source word names
  have hr : (fun e : Fin 2500000 => EdgeAgg.clampTo 100000 (by decide) (val_main_v9 (F := Ideal) x11 (ix2 e (0 : Fin 1))))
      = srcRow (P := 2500000) x11 := by
    funext e
    rw [l0_src_col]
    rfl
  -- the edges landing on a node are those whose destination word is the node's number
  have hd : (fun n : Fin 100000 => Finset.univ.filter fun e : Fin 2500000 =>
        (val_main_v12 (F := Ideal) x11 (ix2 e (0 : Fin 1))).toInt = (n.val : Int))
      = inEdges (P := 2500000) x11 := by
    funext n
    unfold inEdges
    exact Finset.filter_congr fun e _ => by rw [l0_dst_col]
  exact h.trans (congr (congrArg (nbr (cur (a := 100000) (b := 14) x0)) hr) hd)

/-! ## The layer -/

/-- The node table after layer 0, as the layer with the projection taken after the neighbour sum. -/
theorem rlayer0 :
    cur (a := 100000) (b := 32) (val_main_v20 (F := Ideal) x0 x1 x2 x3 x11)
      = rLayer (cur (a := 100000) (b := 14) x0) (cur (a := 14) (b := 32) x1) (cur (a := 14) (b := 32) x3) (vec (a := 32) x2)
          (srcRow (P := 2500000) x11) (inEdges (P := 2500000) x11) := by
  funext n j
  -- the contraction indices of the two products, and the bias's index, by coordinates
  have i14l : ∀ k : Fin 14, lidx_main_v14 (ix2 n j) k = ix2 n k := fun k =>
    funext fun a => Fin.ext (by match a with | ⟨0, _⟩ => rfl | ⟨1, _⟩ => rfl)
  have i14r : ∀ k : Fin 14, ridx_main_v14 (ix2 n j) k = ix2 k j := fun k =>
    funext fun a => Fin.ext (by match a with | ⟨0, _⟩ => rfl | ⟨1, _⟩ => rfl)
  have i18l : ∀ k : Fin 14, lidx_main_v18 (ix2 n j) k = ix2 n k := fun k =>
    funext fun a => Fin.ext (by match a with | ⟨0, _⟩ => rfl | ⟨1, _⟩ => rfl)
  have i18r : ∀ k : Fin 14, ridx_main_v18 (ix2 n j) k = ix2 k j := fun k =>
    funext fun a => Fin.ext (by match a with | ⟨0, _⟩ => rfl | ⟨1, _⟩ => rfl)
  have i16 : idx_main_v15 (idx_main_v16 (ix2 n j)) = ix1 j :=
    funext fun a => Fin.ext (by match a with | ⟨0, _⟩ => rfl)
  -- the accumulated table at (n, k) is the neighbour sum there
  have hN : ∀ k : Fin 14, val_main_v13 (F := Ideal) x0 x11 (ix2 n k)
      = nbr (cur (a := 100000) (b := 14) x0) (srcRow (P := 2500000) x11) (inEdges (P := 2500000) x11) n k := fun k =>
    (cur_apply (a := 100000) (b := 14) (val_main_v13 (F := Ideal) x0 x11) n k).symm.trans
      (congrFun (congrFun (l0_nbr x0 x11) n) k)
  -- the left side at (n, j), stage by stage from the clip inwards
  rw [cur_apply]
  rw [val_main_v20_apply, val_main_v19_apply, val_main_v17_apply, val_main_v14_apply, val_main_v16_apply,
    val_main_v15_apply, val_main_v18_apply, val_main_call0_v0_apply, val_main_call0_cst_apply]
  simp only [i14l, i14r, i18l, i18r, i16, hN, Ideal.maximumf_def, Ideal.addf_def, Ideal.ofBits_def,
    Ideal.ofBits_zero_f32]
  -- the right side at (n, j): the same two products, the bias entry and the clip at zero
  unfold rLayer mm vec
  simp only [cur_apply]

end Cert.ReferenceIdeal.Val

end
-- ==== Proof.RLayer1.lean ====
/-
  Layer 1 of the reference: the node rows travel along the edges and are summed at the destinations; the sum is projected,
  the bias added, the node's own projection added, and the result clipped below at zero.

  The stages of this layer, read at an entry:
  * the source column holds, for edge `e`, the source word of `e` (row 0 of the edge array) counted from the end when
    negative; the destination column holds row 1 of the edge array;
  * the row lookup at the source column, accumulated into zeros at the destination column, is the neighbour sum `nbr`
    of the incoming node table;
  * slab `(0 : Fin 4)` of the two weight stacks and row `(0 : Fin 4)` of the bias table are read through a slice and a
    reshape;
  * the two contractions are the products `mm`, and the clip is the maximum with the zero table.
-/
import proofs.«401169_j5540507812347_2_alg».proof.Proof.Gen.ReferenceIdeal.Read
import proofs.«401169_j5540507812347_2_alg».proof.Proof.Spec
import proofs.«401169_j5540507812347_2_alg».proof.Proof.HostRead

set_option maxRecDepth 16384

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.ReferenceIdeal.Read Gnn
open scoped BigOperators

variable (x0 : (⟨S100000x14, .f32⟩ : BufTy).Contents (Elt Ideal))
  (x1 : (⟨S14x32, .f32⟩ : BufTy).Contents (Elt Ideal))
  (x2 : (⟨S32, .f32⟩ : BufTy).Contents (Elt Ideal))
  (x3 : (⟨S14x32, .f32⟩ : BufTy).Contents (Elt Ideal))
  (x4 : (⟨S4x32x32, .f32⟩ : BufTy).Contents (Elt Ideal))
  (x5 : (⟨S4x32, .f32⟩ : BufTy).Contents (Elt Ideal))
  (x6 : (⟨S4x32x32, .f32⟩ : BufTy).Contents (Elt Ideal))
  (x11 : (⟨S2x2500000, .i32⟩ : BufTy).Contents (Elt Ideal))

/-- The node table that enters this layer. -/
local notation "tblIn" => val_main_v20 (F := Ideal) x0 x1 x2 x3 x11

/-! ## The same for every layer: the two rows of the edge array, and the layer at an entry -/

section Common

/-- The flattened first row of the edge array holds, at `e`, the source word of edge `e`. -/
private theorem read_src_word (e : Fin 2500000) :
    val_main_v1 (F := Ideal) x11 (ix1 e) = x11 (ix2 (0 : Fin 2) e) := by
  rw [val_main_v1_apply, val_main_v0_apply]
  refine congrArg x11 (funext fun a => Fin.ext ?_)
  match a with
  | ⟨0, _⟩ => rfl
  | ⟨1, _⟩ => exact Nat.mod_eq_of_lt e.isLt

/-- The flattened second row of the edge array holds, at `e`, the destination word of edge `e`. -/
private theorem read_dst_word (e : Fin 2500000) :
    val_main_v3 (F := Ideal) x11 (ix1 e) = x11 (ix2 (1 : Fin 2) e) := by
  rw [val_main_v3_apply, val_main_v2_apply]
  refine congrArg x11 (funext fun a => Fin.ext ?_)
  match a with
  | ⟨0, _⟩ => rfl
  | ⟨1, _⟩ => exact Nat.mod_eq_of_lt e.isLt

/-- The layer at an entry, with the incoming table read at its own entries. -/
private theorem rLayer_at {N P : Nat} (t : Tbl N 32) (wr wroot : Mat 32 32) (b : Fin 32 → EReal)
    (r : Fin P → Fin N) (D : Fin N → Finset (Fin P)) (n : Fin N) (j : Fin 32) :
    rLayer (cur t) wr wroot b r D n j
      = max (∑ k : Fin 32, nbr (cur t) r D n k * wr k j + b j + ∑ k : Fin 32, t (ix2 n k) * wroot k j) 0 := rfl

end Common

/-! ## This layer's stages at an entry -/

section Stages

/-- The source column at edge `e`: the source word, counted from the end when negative. -/
private theorem read_main_v32 (e : Fin 2500000) :
    val_main_v32 (F := Ideal) x11 (ix2 e (0 : Fin 1)) = normWord (x11 (ix2 (0 : Fin 2) e)) := by
  have hi : idx_main_v32 (ix2 e (0 : Fin 1)) = ix1 e :=
    funext fun a => Fin.ext (by match a with | ⟨0, _⟩ => rfl)
  rw [val_main_v32_apply, hi, val_main_v31_apply, val_main_v28_apply, val_main_v30_apply, val_main_v27_apply,
    val_main_v29_apply, val_main_c_1_apply, val_main_c_2_apply, read_src_word]
  rfl

/-- The destination column at edge `e`: the destination word. -/
private theorem read_main_v35 (e : Fin 2500000) :
    val_main_v35 (F := Ideal) x11 (ix2 e (0 : Fin 1)) = x11 (ix2 (1 : Fin 2) e) := by
  have hi : idx_main_v35 (ix2 e (0 : Fin 1)) = ix1 e :=
    funext fun a => Fin.ext (by match a with | ⟨0, _⟩ => rfl)
  rw [val_main_v35_apply, hi, read_dst_word]

/-- The table the rows are accumulated into is zero everywhere. -/
private theorem read_main_v34 (i : S100000x32.Idx) : val_main_v34 (F := Ideal) i = 0 := by
  rw [val_main_v34_apply, val_main_cst_3_apply]
  exact Ideal.ofBits_zero_f32

/-- The table the result is clipped against is zero everywhere. -/
private theorem read_main_call1_v0 (i : S100000x32.Idx) : val_main_call1_v0 (F := Ideal) i = 0 := by
  rw [val_main_call1_v0_apply, val_main_call1_cst_apply]
  exact Ideal.ofBits_zero_f32

/-- The row lookup at the source column accumulated into zeros at the destination column is the neighbour sum:
    entry `(n, k)` is the sum of entry `k` of the rows `srcRow e` over the edges `e` landing on `n`. -/
private theorem read_main_v36 (t : Tbl 100000 32) (n : Fin 100000) (k : Fin 32) :
    Host.scatterAdd (F := Ideal) (φ := .f32) scatter_S100000x32_S2500000x1_S2500000x32_1_0_0_1 (val_main_v34 (F := Ideal))
        (val_main_v35 (F := Ideal) x11)
        (Host.gather gather_S100000x32_S2500000x1_S2500000x32_1_0_n_n_0_1_132 t (val_main_v32 (F := Ideal) x11)) (ix2 n k)
      = nbr (cur t) (srcRow (P := 2500000) x11) (inEdges (P := 2500000) x11) n k := by
  have hN : 0 < 100000 := by decide
  -- the printed dimension numbers are those of a whole-row lookup and a whole-row accumulation
  have hg : gather_S100000x32_S2500000x1_S2500000x32_1_0_n_n_0_1_132
      = EdgeAgg.lookupDims 100000 32 2500000 gather_S100000x32_S2500000x1_S2500000x32_1_0_n_n_0_1_132_wf := rfl
  have hs : scatter_S100000x32_S2500000x1_S2500000x32_1_0_0_1
      = EdgeAgg.accumDims 100000 32 2500000 scatter_S100000x32_S2500000x1_S2500000x32_1_0_0_1_wf := rfl
  have h := nbr_of_lookup_accum (N := 100000) (C := 32) (P := 2500000) hN
    gather_S100000x32_S2500000x1_S2500000x32_1_0_n_n_0_1_132_wf scatter_S100000x32_S2500000x1_S2500000x32_1_0_0_1_wf
    t (val_main_v32 (F := Ideal) x11) (val_main_v35 (F := Ideal) x11) (val_main_v34 (F := Ideal)) read_main_v34
  -- the row an edge reads is `srcRow`, the edges landing on a node are `inEdges`
  have hr : (fun e : Fin 2500000 => EdgeAgg.clampTo 100000 hN (val_main_v32 (F := Ideal) x11 (ix2 e (0 : Fin 1))))
      = srcRow (P := 2500000) x11 := funext fun e => by rw [read_main_v32]; rfl
  have hD : (fun m : Fin 100000 => Finset.univ.filter fun e : Fin 2500000 =>
        (val_main_v35 (F := Ideal) x11 (ix2 e (0 : Fin 1))).toInt = (m.val : Int))
      = inEdges (P := 2500000) x11 := funext fun m => by simp only [read_main_v35]; rfl
  rw [hr, hD] at h
  rw [Host.scatterAdd, Ideal.hostScatterAdd_def, hg, hs]
  exact (cur_apply _ n k).symm.trans (congrFun (congrFun h n) k)

/-- Slab `(0 : Fin 4)` of the first weight stack, through the slice and the reshape. -/
private theorem read_main_v22 (k j : Fin 32) :
    val_main_v22 (F := Ideal) x4 (ix2 k j) = slab (a := 4) (b := 32) (d := 32) x4 (0 : Fin 4) k j := by
  rw [val_main_v22_apply, val_main_v21_apply]
  refine congrArg x4 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Slab `(0 : Fin 4)` of the second weight stack, through the slice and the reshape. -/
private theorem read_main_v26 (k j : Fin 32) :
    val_main_v26 (F := Ideal) x6 (ix2 k j) = slab (a := 4) (b := 32) (d := 32) x6 (0 : Fin 4) k j := by
  rw [val_main_v26_apply, val_main_v25_apply]
  refine congrArg x6 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Row `(0 : Fin 4)` of the bias table, spread over the nodes. -/
private theorem read_main_v39 (n : Fin 100000) (j : Fin 32) :
    val_main_v39 (F := Ideal) x5 (ix2 n j) = rowOf (a := 4) (b := 32) x5 (0 : Fin 4) j := by
  rw [val_main_v39_apply, val_main_v38_apply, val_main_v24_apply, val_main_v23_apply]
  refine congrArg x5 (funext fun a => Fin.ext ?_)
  match a with
  | ⟨0, _⟩ => rfl
  | ⟨1, _⟩ => exact Nat.mod_eq_of_lt j.isLt

/-- The first contraction pairs entry `(n, k)` of the neighbour sum with entry `(k, j)` of the weights. -/
private theorem lidx_main_v37_ix (n : Fin 100000) (j k : Fin 32) : lidx_main_v37 (ix2 n j) k = ix2 n k :=
  funext fun a => Fin.ext (by match a with | ⟨0, _⟩ => rfl | ⟨1, _⟩ => rfl)
private theorem ridx_main_v37_ix (n : Fin 100000) (j k : Fin 32) : ridx_main_v37 (ix2 n j) k = ix2 k j :=
  funext fun a => Fin.ext (by match a with | ⟨0, _⟩ => rfl | ⟨1, _⟩ => rfl)
/-- The second contraction pairs entry `(n, k)` of the node table with entry `(k, j)` of the weights. -/
private theorem lidx_main_v41_ix (n : Fin 100000) (j k : Fin 32) : lidx_main_v41 (ix2 n j) k = ix2 n k :=
  funext fun a => Fin.ext (by match a with | ⟨0, _⟩ => rfl | ⟨1, _⟩ => rfl)
private theorem ridx_main_v41_ix (n : Fin 100000) (j k : Fin 32) : ridx_main_v41 (ix2 n j) k = ix2 k j :=
  funext fun a => Fin.ext (by match a with | ⟨0, _⟩ => rfl | ⟨1, _⟩ => rfl)

end Stages

/-! ## The layer -/

/-- The node table after layer 1, as the layer with the projection taken after the neighbour sum. -/
theorem rlayer1 :
    cur (a := 100000) (b := 32) (val_main_v43 (F := Ideal) x0 x1 x2 x3 x4 x5 x6 x11)
      = rLayer (cur (a := 100000) (b := 32) tblIn)
          (slab (a := 4) (b := 32) (d := 32) x4 (0 : Fin 4)) (slab (a := 4) (b := 32) (d := 32) x6 (0 : Fin 4))
          (rowOf (a := 4) (b := 32) x5 (0 : Fin 4))
          (srcRow (P := 2500000) x11) (inEdges (P := 2500000) x11) := by
  funext n j
  -- the layer at an entry on the right; on the left the stages of this layer, outermost first, down to the incoming table
  rw [rLayer_at, cur_apply, val_main_v43_apply, val_main_v42_apply, val_main_v40_apply, val_main_v37_apply,
    val_main_v41_apply, val_main_v36, val_main_v33]
  generalize tblIn = t
  simp only [lidx_main_v37_ix, ridx_main_v37_ix, lidx_main_v41_ix, ridx_main_v41_ix, read_main_v36, read_main_v22,
    read_main_v26, read_main_v39, read_main_call1_v0, Ideal.addf_def, Ideal.maximumf_def]

end Cert.ReferenceIdeal.Val

end
-- ==== Proof.RLayer2.lean ====
/-
  Layer 2 of the reference: the node rows travel along the edges and are summed at the destinations; the sum is projected,
  the bias added, the node's own projection added, and the result clipped below at zero.

  The stages of this layer, read at an entry:
  * the source column holds, for edge `e`, the source word of `e` (row 0 of the edge array) counted from the end when
    negative; the destination column holds row 1 of the edge array;
  * the row lookup at the source column, accumulated into zeros at the destination column, is the neighbour sum `nbr`
    of the incoming node table;
  * slab `(1 : Fin 4)` of the two weight stacks and row `(1 : Fin 4)` of the bias table are read through a slice and a
    reshape;
  * the two contractions are the products `mm`, and the clip is the maximum with the zero table.
-/
import proofs.«401169_j5540507812347_2_alg».proof.Proof.Gen.ReferenceIdeal.Read
import proofs.«401169_j5540507812347_2_alg».proof.Proof.Spec
import proofs.«401169_j5540507812347_2_alg».proof.Proof.HostRead

set_option maxRecDepth 16384

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.ReferenceIdeal.Read Gnn
open scoped BigOperators

variable (x0 : (⟨S100000x14, .f32⟩ : BufTy).Contents (Elt Ideal))
  (x1 : (⟨S14x32, .f32⟩ : BufTy).Contents (Elt Ideal))
  (x2 : (⟨S32, .f32⟩ : BufTy).Contents (Elt Ideal))
  (x3 : (⟨S14x32, .f32⟩ : BufTy).Contents (Elt Ideal))
  (x4 : (⟨S4x32x32, .f32⟩ : BufTy).Contents (Elt Ideal))
  (x5 : (⟨S4x32, .f32⟩ : BufTy).Contents (Elt Ideal))
  (x6 : (⟨S4x32x32, .f32⟩ : BufTy).Contents (Elt Ideal))
  (x11 : (⟨S2x2500000, .i32⟩ : BufTy).Contents (Elt Ideal))

/-- The node table that enters this layer. -/
local notation "tblIn" => val_main_v43 (F := Ideal) x0 x1 x2 x3 x4 x5 x6 x11

/-! ## The same for every layer: the two rows of the edge array, and the layer at an entry -/

section Common

/-- The flattened first row of the edge array holds, at `e`, the source word of edge `e`. -/
private theorem read_src_word (e : Fin 2500000) :
    val_main_v1 (F := Ideal) x11 (ix1 e) = x11 (ix2 (0 : Fin 2) e) := by
  rw [val_main_v1_apply, val_main_v0_apply]
  refine congrArg x11 (funext fun a => Fin.ext ?_)
  match a with
  | ⟨0, _⟩ => rfl
  | ⟨1, _⟩ => exact Nat.mod_eq_of_lt e.isLt

/-- The flattened second row of the edge array holds, at `e`, the destination word of edge `e`. -/
private theorem read_dst_word (e : Fin 2500000) :
    val_main_v3 (F := Ideal) x11 (ix1 e) = x11 (ix2 (1 : Fin 2) e) := by
  rw [val_main_v3_apply, val_main_v2_apply]
  refine congrArg x11 (funext fun a => Fin.ext ?_)
  match a with
  | ⟨0, _⟩ => rfl
  | ⟨1, _⟩ => exact Nat.mod_eq_of_lt e.isLt

/-- The layer at an entry, with the incoming table read at its own entries. -/
private theorem rLayer_at {N P : Nat} (t : Tbl N 32) (wr wroot : Mat 32 32) (b : Fin 32 → EReal)
    (r : Fin P → Fin N) (D : Fin N → Finset (Fin P)) (n : Fin N) (j : Fin 32) :
    rLayer (cur t) wr wroot b r D n j
      = max (∑ k : Fin 32, nbr (cur t) r D n k * wr k j + b j + ∑ k : Fin 32, t (ix2 n k) * wroot k j) 0 := rfl

end Common

/-! ## This layer's stages at an entry -/

section Stages

/-- The source column at edge `e`: the source word, counted from the end when negative. -/
private theorem read_main_v55 (e : Fin 2500000) :
    val_main_v55 (F := Ideal) x11 (ix2 e (0 : Fin 1)) = normWord (x11 (ix2 (0 : Fin 2) e)) := by
  have hi : idx_main_v55 (ix2 e (0 : Fin 1)) = ix1 e :=
    funext fun a => Fin.ext (by match a with | ⟨0, _⟩ => rfl)
  rw [val_main_v55_apply, hi, val_main_v54_apply, val_main_v51_apply, val_main_v53_apply, val_main_v50_apply,
    val_main_v52_apply, val_main_c_4_apply, val_main_c_5_apply, read_src_word]
  rfl

/-- The destination column at edge `e`: the destination word. -/
private theorem read_main_v58 (e : Fin 2500000) :
    val_main_v58 (F := Ideal) x11 (ix2 e (0 : Fin 1)) = x11 (ix2 (1 : Fin 2) e) := by
  have hi : idx_main_v58 (ix2 e (0 : Fin 1)) = ix1 e :=
    funext fun a => Fin.ext (by match a with | ⟨0, _⟩ => rfl)
  rw [val_main_v58_apply, hi, read_dst_word]

/-- The table the rows are accumulated into is zero everywhere. -/
private theorem read_main_v57 (i : S100000x32.Idx) : val_main_v57 (F := Ideal) i = 0 := by
  rw [val_main_v57_apply, val_main_cst_6_apply]
  exact Ideal.ofBits_zero_f32

/-- The table the result is clipped against is zero everywhere. -/
private theorem read_main_call2_v0 (i : S100000x32.Idx) : val_main_call2_v0 (F := Ideal) i = 0 := by
  rw [val_main_call2_v0_apply, val_main_call2_cst_apply]
  exact Ideal.ofBits_zero_f32

/-- The row lookup at the source column accumulated into zeros at the destination column is the neighbour sum:
    entry `(n, k)` is the sum of entry `k` of the rows `srcRow e` over the edges `e` landing on `n`. -/
private theorem read_main_v59 (t : Tbl 100000 32) (n : Fin 100000) (k : Fin 32) :
    Host.scatterAdd (F := Ideal) (φ := .f32) scatter_S100000x32_S2500000x1_S2500000x32_1_0_0_1 (val_main_v57 (F := Ideal))
        (val_main_v58 (F := Ideal) x11)
        (Host.gather gather_S100000x32_S2500000x1_S2500000x32_1_0_n_n_0_1_132 t (val_main_v55 (F := Ideal) x11)) (ix2 n k)
      = nbr (cur t) (srcRow (P := 2500000) x11) (inEdges (P := 2500000) x11) n k := by
  have hN : 0 < 100000 := by decide
  -- the printed dimension numbers are those of a whole-row lookup and a whole-row accumulation
  have hg : gather_S100000x32_S2500000x1_S2500000x32_1_0_n_n_0_1_132
      = EdgeAgg.lookupDims 100000 32 2500000 gather_S100000x32_S2500000x1_S2500000x32_1_0_n_n_0_1_132_wf := rfl
  have hs : scatter_S100000x32_S2500000x1_S2500000x32_1_0_0_1
      = EdgeAgg.accumDims 100000 32 2500000 scatter_S100000x32_S2500000x1_S2500000x32_1_0_0_1_wf := rfl
  have h := nbr_of_lookup_accum (N := 100000) (C := 32) (P := 2500000) hN
    gather_S100000x32_S2500000x1_S2500000x32_1_0_n_n_0_1_132_wf scatter_S100000x32_S2500000x1_S2500000x32_1_0_0_1_wf
    t (val_main_v55 (F := Ideal) x11) (val_main_v58 (F := Ideal) x11) (val_main_v57 (F := Ideal)) read_main_v57
  -- the row an edge reads is `srcRow`, the edges landing on a node are `inEdges`
  have hr : (fun e : Fin 2500000 => EdgeAgg.clampTo 100000 hN (val_main_v55 (F := Ideal) x11 (ix2 e (0 : Fin 1))))
      = srcRow (P := 2500000) x11 := funext fun e => by rw [read_main_v55]; rfl
  have hD : (fun m : Fin 100000 => Finset.univ.filter fun e : Fin 2500000 =>
        (val_main_v58 (F := Ideal) x11 (ix2 e (0 : Fin 1))).toInt = (m.val : Int))
      = inEdges (P := 2500000) x11 := funext fun m => by simp only [read_main_v58]; rfl
  rw [hr, hD] at h
  rw [Host.scatterAdd, Ideal.hostScatterAdd_def, hg, hs]
  exact (cur_apply _ n k).symm.trans (congrFun (congrFun h n) k)

/-- Slab `(1 : Fin 4)` of the first weight stack, through the slice and the reshape. -/
private theorem read_main_v45 (k j : Fin 32) :
    val_main_v45 (F := Ideal) x4 (ix2 k j) = slab (a := 4) (b := 32) (d := 32) x4 (1 : Fin 4) k j := by
  rw [val_main_v45_apply, val_main_v44_apply]
  refine congrArg x4 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Slab `(1 : Fin 4)` of the second weight stack, through the slice and the reshape. -/
private theorem read_main_v49 (k j : Fin 32) :
    val_main_v49 (F := Ideal) x6 (ix2 k j) = slab (a := 4) (b := 32) (d := 32) x6 (1 : Fin 4) k j := by
  rw [val_main_v49_apply, val_main_v48_apply]
  refine congrArg x6 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Row `(1 : Fin 4)` of the bias table, spread over the nodes. -/
private theorem read_main_v62 (n : Fin 100000) (j : Fin 32) :
    val_main_v62 (F := Ideal) x5 (ix2 n j) = rowOf (a := 4) (b := 32) x5 (1 : Fin 4) j := by
  rw [val_main_v62_apply, val_main_v61_apply, val_main_v47_apply, val_main_v46_apply]
  refine congrArg x5 (funext fun a => Fin.ext ?_)
  match a with
  | ⟨0, _⟩ => rfl
  | ⟨1, _⟩ => exact Nat.mod_eq_of_lt j.isLt

/-- The first contraction pairs entry `(n, k)` of the neighbour sum with entry `(k, j)` of the weights. -/
private theorem lidx_main_v60_ix (n : Fin 100000) (j k : Fin 32) : lidx_main_v60 (ix2 n j) k = ix2 n k :=
  funext fun a => Fin.ext (by match a with | ⟨0, _⟩ => rfl | ⟨1, _⟩ => rfl)
private theorem ridx_main_v60_ix (n : Fin 100000) (j k : Fin 32) : ridx_main_v60 (ix2 n j) k = ix2 k j :=
  funext fun a => Fin.ext (by match a with | ⟨0, _⟩ => rfl | ⟨1, _⟩ => rfl)
/-- The second contraction pairs entry `(n, k)` of the node table with entry `(k, j)` of the weights. -/
private theorem lidx_main_v64_ix (n : Fin 100000) (j k : Fin 32) : lidx_main_v64 (ix2 n j) k = ix2 n k :=
  funext fun a => Fin.ext (by match a with | ⟨0, _⟩ => rfl | ⟨1, _⟩ => rfl)
private theorem ridx_main_v64_ix (n : Fin 100000) (j k : Fin 32) : ridx_main_v64 (ix2 n j) k = ix2 k j :=
  funext fun a => Fin.ext (by match a with | ⟨0, _⟩ => rfl | ⟨1, _⟩ => rfl)

end Stages

/-! ## The layer -/

/-- The node table after layer 2, as the layer with the projection taken after the neighbour sum. -/
theorem rlayer2 :
    cur (a := 100000) (b := 32) (val_main_v66 (F := Ideal) x0 x1 x2 x3 x4 x5 x6 x11)
      = rLayer (cur (a := 100000) (b := 32) tblIn)
          (slab (a := 4) (b := 32) (d := 32) x4 (1 : Fin 4)) (slab (a := 4) (b := 32) (d := 32) x6 (1 : Fin 4))
          (rowOf (a := 4) (b := 32) x5 (1 : Fin 4))
          (srcRow (P := 2500000) x11) (inEdges (P := 2500000) x11) := by
  funext n j
  -- the layer at an entry on the right; on the left the stages of this layer, outermost first, down to the incoming table
  rw [rLayer_at, cur_apply, val_main_v66_apply, val_main_v65_apply, val_main_v63_apply, val_main_v60_apply,
    val_main_v64_apply, val_main_v59, val_main_v56]
  generalize tblIn = t
  simp only [lidx_main_v60_ix, ridx_main_v60_ix, lidx_main_v64_ix, ridx_main_v64_ix, read_main_v59, read_main_v45,
    read_main_v49, read_main_v62, read_main_call2_v0, Ideal.addf_def, Ideal.maximumf_def]

end Cert.ReferenceIdeal.Val

end
-- ==== Proof.RLayer3.lean ====
/-
  Layer 3 of the reference: the node rows travel along the edges and are summed at the destinations; the sum is projected,
  the bias added, the node's own projection added, and the result clipped below at zero.

  The stages of this layer, read at an entry:
  * the source column holds, for edge `e`, the source word of `e` (row 0 of the edge array) counted from the end when
    negative; the destination column holds row 1 of the edge array;
  * the row lookup at the source column, accumulated into zeros at the destination column, is the neighbour sum `nbr`
    of the incoming node table;
  * slab `(2 : Fin 4)` of the two weight stacks and row `(2 : Fin 4)` of the bias table are read through a slice and a
    reshape;
  * the two contractions are the products `mm`, and the clip is the maximum with the zero table.
-/
import proofs.«401169_j5540507812347_2_alg».proof.Proof.Gen.ReferenceIdeal.Read
import proofs.«401169_j5540507812347_2_alg».proof.Proof.Spec
import proofs.«401169_j5540507812347_2_alg».proof.Proof.HostRead

set_option maxRecDepth 16384

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.ReferenceIdeal.Read Gnn
open scoped BigOperators

variable (x0 : (⟨S100000x14, .f32⟩ : BufTy).Contents (Elt Ideal))
  (x1 : (⟨S14x32, .f32⟩ : BufTy).Contents (Elt Ideal))
  (x2 : (⟨S32, .f32⟩ : BufTy).Contents (Elt Ideal))
  (x3 : (⟨S14x32, .f32⟩ : BufTy).Contents (Elt Ideal))
  (x4 : (⟨S4x32x32, .f32⟩ : BufTy).Contents (Elt Ideal))
  (x5 : (⟨S4x32, .f32⟩ : BufTy).Contents (Elt Ideal))
  (x6 : (⟨S4x32x32, .f32⟩ : BufTy).Contents (Elt Ideal))
  (x11 : (⟨S2x2500000, .i32⟩ : BufTy).Contents (Elt Ideal))

/-- The node table that enters this layer. -/
local notation "tblIn" => val_main_v66 (F := Ideal) x0 x1 x2 x3 x4 x5 x6 x11

/-! ## The same for every layer: the two rows of the edge array, and the layer at an entry -/

section Common

/-- The flattened first row of the edge array holds, at `e`, the source word of edge `e`. -/
private theorem read_src_word (e : Fin 2500000) :
    val_main_v1 (F := Ideal) x11 (ix1 e) = x11 (ix2 (0 : Fin 2) e) := by
  rw [val_main_v1_apply, val_main_v0_apply]
  refine congrArg x11 (funext fun a => Fin.ext ?_)
  match a with
  | ⟨0, _⟩ => rfl
  | ⟨1, _⟩ => exact Nat.mod_eq_of_lt e.isLt

/-- The flattened second row of the edge array holds, at `e`, the destination word of edge `e`. -/
private theorem read_dst_word (e : Fin 2500000) :
    val_main_v3 (F := Ideal) x11 (ix1 e) = x11 (ix2 (1 : Fin 2) e) := by
  rw [val_main_v3_apply, val_main_v2_apply]
  refine congrArg x11 (funext fun a => Fin.ext ?_)
  match a with
  | ⟨0, _⟩ => rfl
  | ⟨1, _⟩ => exact Nat.mod_eq_of_lt e.isLt

/-- The layer at an entry, with the incoming table read at its own entries. -/
private theorem rLayer_at {N P : Nat} (t : Tbl N 32) (wr wroot : Mat 32 32) (b : Fin 32 → EReal)
    (r : Fin P → Fin N) (D : Fin N → Finset (Fin P)) (n : Fin N) (j : Fin 32) :
    rLayer (cur t) wr wroot b r D n j
      = max (∑ k : Fin 32, nbr (cur t) r D n k * wr k j + b j + ∑ k : Fin 32, t (ix2 n k) * wroot k j) 0 := rfl

end Common

/-! ## This layer's stages at an entry -/

section Stages

/-- The source column at edge `e`: the source word, counted from the end when negative. -/
private theorem read_main_v78 (e : Fin 2500000) :
    val_main_v78 (F := Ideal) x11 (ix2 e (0 : Fin 1)) = normWord (x11 (ix2 (0 : Fin 2) e)) := by
  have hi : idx_main_v78 (ix2 e (0 : Fin 1)) = ix1 e :=
    funext fun a => Fin.ext (by match a with | ⟨0, _⟩ => rfl)
  rw [val_main_v78_apply, hi, val_main_v77_apply, val_main_v74_apply, val_main_v76_apply, val_main_v73_apply,
    val_main_v75_apply, val_main_c_7_apply, val_main_c_8_apply, read_src_word]
  rfl

/-- The destination column at edge `e`: the destination word. -/
private theorem read_main_v81 (e : Fin 2500000) :
    val_main_v81 (F := Ideal) x11 (ix2 e (0 : Fin 1)) = x11 (ix2 (1 : Fin 2) e) := by
  have hi : idx_main_v81 (ix2 e (0 : Fin 1)) = ix1 e :=
    funext fun a => Fin.ext (by match a with | ⟨0, _⟩ => rfl)
  rw [val_main_v81_apply, hi, read_dst_word]

/-- The table the rows are accumulated into is zero everywhere. -/
private theorem read_main_v80 (i : S100000x32.Idx) : val_main_v80 (F := Ideal) i = 0 := by
  rw [val_main_v80_apply, val_main_cst_9_apply]
  exact Ideal.ofBits_zero_f32

/-- The table the result is clipped against is zero everywhere. -/
private theorem read_main_call3_v0 (i : S100000x32.Idx) : val_main_call3_v0 (F := Ideal) i = 0 := by
  rw [val_main_call3_v0_apply, val_main_call3_cst_apply]
  exact Ideal.ofBits_zero_f32

/-- The row lookup at the source column accumulated into zeros at the destination column is the neighbour sum:
    entry `(n, k)` is the sum of entry `k` of the rows `srcRow e` over the edges `e` landing on `n`. -/
private theorem read_main_v82 (t : Tbl 100000 32) (n : Fin 100000) (k : Fin 32) :
    Host.scatterAdd (F := Ideal) (φ := .f32) scatter_S100000x32_S2500000x1_S2500000x32_1_0_0_1 (val_main_v80 (F := Ideal))
        (val_main_v81 (F := Ideal) x11)
        (Host.gather gather_S100000x32_S2500000x1_S2500000x32_1_0_n_n_0_1_132 t (val_main_v78 (F := Ideal) x11)) (ix2 n k)
      = nbr (cur t) (srcRow (P := 2500000) x11) (inEdges (P := 2500000) x11) n k := by
  have hN : 0 < 100000 := by decide
  -- the printed dimension numbers are those of a whole-row lookup and a whole-row accumulation
  have hg : gather_S100000x32_S2500000x1_S2500000x32_1_0_n_n_0_1_132
      = EdgeAgg.lookupDims 100000 32 2500000 gather_S100000x32_S2500000x1_S2500000x32_1_0_n_n_0_1_132_wf := rfl
  have hs : scatter_S100000x32_S2500000x1_S2500000x32_1_0_0_1
      = EdgeAgg.accumDims 100000 32 2500000 scatter_S100000x32_S2500000x1_S2500000x32_1_0_0_1_wf := rfl
  have h := nbr_of_lookup_accum (N := 100000) (C := 32) (P := 2500000) hN
    gather_S100000x32_S2500000x1_S2500000x32_1_0_n_n_0_1_132_wf scatter_S100000x32_S2500000x1_S2500000x32_1_0_0_1_wf
    t (val_main_v78 (F := Ideal) x11) (val_main_v81 (F := Ideal) x11) (val_main_v80 (F := Ideal)) read_main_v80
  -- the row an edge reads is `srcRow`, the edges landing on a node are `inEdges`
  have hr : (fun e : Fin 2500000 => EdgeAgg.clampTo 100000 hN (val_main_v78 (F := Ideal) x11 (ix2 e (0 : Fin 1))))
      = srcRow (P := 2500000) x11 := funext fun e => by rw [read_main_v78]; rfl
  have hD : (fun m : Fin 100000 => Finset.univ.filter fun e : Fin 2500000 =>
        (val_main_v81 (F := Ideal) x11 (ix2 e (0 : Fin 1))).toInt = (m.val : Int))
      = inEdges (P := 2500000) x11 := funext fun m => by simp only [read_main_v81]; rfl
  rw [hr, hD] at h
  rw [Host.scatterAdd, Ideal.hostScatterAdd_def, hg, hs]
  exact (cur_apply _ n k).symm.trans (congrFun (congrFun h n) k)

/-- Slab `(2 : Fin 4)` of the first weight stack, through the slice and the reshape. -/
private theorem read_main_v68 (k j : Fin 32) :
    val_main_v68 (F := Ideal) x4 (ix2 k j) = slab (a := 4) (b := 32) (d := 32) x4 (2 : Fin 4) k j := by
  rw [val_main_v68_apply, val_main_v67_apply]
  refine congrArg x4 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Slab `(2 : Fin 4)` of the second weight stack, through the slice and the reshape. -/
private theorem read_main_v72 (k j : Fin 32) :
    val_main_v72 (F := Ideal) x6 (ix2 k j) = slab (a := 4) (b := 32) (d := 32) x6 (2 : Fin 4) k j := by
  rw [val_main_v72_apply, val_main_v71_apply]
  refine congrArg x6 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Row `(2 : Fin 4)` of the bias table, spread over the nodes. -/
private theorem read_main_v85 (n : Fin 100000) (j : Fin 32) :
    val_main_v85 (F := Ideal) x5 (ix2 n j) = rowOf (a := 4) (b := 32) x5 (2 : Fin 4) j := by
  rw [val_main_v85_apply, val_main_v84_apply, val_main_v70_apply, val_main_v69_apply]
  refine congrArg x5 (funext fun a => Fin.ext ?_)
  match a with
  | ⟨0, _⟩ => rfl
  | ⟨1, _⟩ => exact Nat.mod_eq_of_lt j.isLt

/-- The first contraction pairs entry `(n, k)` of the neighbour sum with entry `(k, j)` of the weights. -/
private theorem lidx_main_v83_ix (n : Fin 100000) (j k : Fin 32) : lidx_main_v83 (ix2 n j) k = ix2 n k :=
  funext fun a => Fin.ext (by match a with | ⟨0, _⟩ => rfl | ⟨1, _⟩ => rfl)
private theorem ridx_main_v83_ix (n : Fin 100000) (j k : Fin 32) : ridx_main_v83 (ix2 n j) k = ix2 k j :=
  funext fun a => Fin.ext (by match a with | ⟨0, _⟩ => rfl | ⟨1, _⟩ => rfl)
/-- The second contraction pairs entry `(n, k)` of the node table with entry `(k, j)` of the weights. -/
private theorem lidx_main_v87_ix (n : Fin 100000) (j k : Fin 32) : lidx_main_v87 (ix2 n j) k = ix2 n k :=
  funext fun a => Fin.ext (by match a with | ⟨0, _⟩ => rfl | ⟨1, _⟩ => rfl)
private theorem ridx_main_v87_ix (n : Fin 100000) (j k : Fin 32) : ridx_main_v87 (ix2 n j) k = ix2 k j :=
  funext fun a => Fin.ext (by match a with | ⟨0, _⟩ => rfl | ⟨1, _⟩ => rfl)

end Stages

/-! ## The layer -/

/-- The node table after layer 3, as the layer with the projection taken after the neighbour sum. -/
theorem rlayer3 :
    cur (a := 100000) (b := 32) (val_main_v89 (F := Ideal) x0 x1 x2 x3 x4 x5 x6 x11)
      = rLayer (cur (a := 100000) (b := 32) tblIn)
          (slab (a := 4) (b := 32) (d := 32) x4 (2 : Fin 4)) (slab (a := 4) (b := 32) (d := 32) x6 (2 : Fin 4))
          (rowOf (a := 4) (b := 32) x5 (2 : Fin 4))
          (srcRow (P := 2500000) x11) (inEdges (P := 2500000) x11) := by
  funext n j
  -- the layer at an entry on the right; on the left the stages of this layer, outermost first, down to the incoming table
  rw [rLayer_at, cur_apply, val_main_v89_apply, val_main_v88_apply, val_main_v86_apply, val_main_v83_apply,
    val_main_v87_apply, val_main_v82, val_main_v79]
  generalize tblIn = t
  simp only [lidx_main_v83_ix, ridx_main_v83_ix, lidx_main_v87_ix, ridx_main_v87_ix, read_main_v82, read_main_v68,
    read_main_v72, read_main_v85, read_main_call3_v0, Ideal.addf_def, Ideal.maximumf_def]

end Cert.ReferenceIdeal.Val

end
-- ==== Proof.RLayer4.lean ====
/-
  Layer 4 of the reference: the node rows travel along the edges and are summed at the destinations; the sum is projected,
  the bias added, the node's own projection added, and the result clipped below at zero.

  The stages of this layer, read at an entry:
  * the source column holds, for edge `e`, the source word of `e` (row 0 of the edge array) counted from the end when
    negative; the destination column holds row 1 of the edge array;
  * the row lookup at the source column, accumulated into zeros at the destination column, is the neighbour sum `nbr`
    of the incoming node table;
  * slab `(3 : Fin 4)` of the two weight stacks and row `(3 : Fin 4)` of the bias table are read through a slice and a
    reshape;
  * the two contractions are the products `mm`, and the clip is the maximum with the zero table.
-/
import proofs.«401169_j5540507812347_2_alg».proof.Proof.Gen.ReferenceIdeal.Read
import proofs.«401169_j5540507812347_2_alg».proof.Proof.Spec
import proofs.«401169_j5540507812347_2_alg».proof.Proof.HostRead

set_option maxRecDepth 16384

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.ReferenceIdeal.Read Gnn
open scoped BigOperators

variable (x0 : (⟨S100000x14, .f32⟩ : BufTy).Contents (Elt Ideal))
  (x1 : (⟨S14x32, .f32⟩ : BufTy).Contents (Elt Ideal))
  (x2 : (⟨S32, .f32⟩ : BufTy).Contents (Elt Ideal))
  (x3 : (⟨S14x32, .f32⟩ : BufTy).Contents (Elt Ideal))
  (x4 : (⟨S4x32x32, .f32⟩ : BufTy).Contents (Elt Ideal))
  (x5 : (⟨S4x32, .f32⟩ : BufTy).Contents (Elt Ideal))
  (x6 : (⟨S4x32x32, .f32⟩ : BufTy).Contents (Elt Ideal))
  (x11 : (⟨S2x2500000, .i32⟩ : BufTy).Contents (Elt Ideal))

/-- The node table that enters this layer. -/
local notation "tblIn" => val_main_v89 (F := Ideal) x0 x1 x2 x3 x4 x5 x6 x11

/-! ## The same for every layer: the two rows of the edge array, and the layer at an entry -/

section Common

/-- The flattened first row of the edge array holds, at `e`, the source word of edge `e`. -/
private theorem read_src_word (e : Fin 2500000) :
    val_main_v1 (F := Ideal) x11 (ix1 e) = x11 (ix2 (0 : Fin 2) e) := by
  rw [val_main_v1_apply, val_main_v0_apply]
  refine congrArg x11 (funext fun a => Fin.ext ?_)
  match a with
  | ⟨0, _⟩ => rfl
  | ⟨1, _⟩ => exact Nat.mod_eq_of_lt e.isLt

/-- The flattened second row of the edge array holds, at `e`, the destination word of edge `e`. -/
private theorem read_dst_word (e : Fin 2500000) :
    val_main_v3 (F := Ideal) x11 (ix1 e) = x11 (ix2 (1 : Fin 2) e) := by
  rw [val_main_v3_apply, val_main_v2_apply]
  refine congrArg x11 (funext fun a => Fin.ext ?_)
  match a with
  | ⟨0, _⟩ => rfl
  | ⟨1, _⟩ => exact Nat.mod_eq_of_lt e.isLt

/-- The layer at an entry, with the incoming table read at its own entries. -/
private theorem rLayer_at {N P : Nat} (t : Tbl N 32) (wr wroot : Mat 32 32) (b : Fin 32 → EReal)
    (r : Fin P → Fin N) (D : Fin N → Finset (Fin P)) (n : Fin N) (j : Fin 32) :
    rLayer (cur t) wr wroot b r D n j
      = max (∑ k : Fin 32, nbr (cur t) r D n k * wr k j + b j + ∑ k : Fin 32, t (ix2 n k) * wroot k j) 0 := rfl

end Common

/-! ## This layer's stages at an entry -/

section Stages

/-- The source column at edge `e`: the source word, counted from the end when negative. -/
private theorem read_main_v101 (e : Fin 2500000) :
    val_main_v101 (F := Ideal) x11 (ix2 e (0 : Fin 1)) = normWord (x11 (ix2 (0 : Fin 2) e)) := by
  have hi : idx_main_v101 (ix2 e (0 : Fin 1)) = ix1 e :=
    funext fun a => Fin.ext (by match a with | ⟨0, _⟩ => rfl)
  rw [val_main_v101_apply, hi, val_main_v100_apply, val_main_v97_apply, val_main_v99_apply, val_main_v96_apply,
    val_main_v98_apply, val_main_c_10_apply, val_main_c_11_apply, read_src_word]
  rfl

/-- The destination column at edge `e`: the destination word. -/
private theorem read_main_v104 (e : Fin 2500000) :
    val_main_v104 (F := Ideal) x11 (ix2 e (0 : Fin 1)) = x11 (ix2 (1 : Fin 2) e) := by
  have hi : idx_main_v104 (ix2 e (0 : Fin 1)) = ix1 e :=
    funext fun a => Fin.ext (by match a with | ⟨0, _⟩ => rfl)
  rw [val_main_v104_apply, hi, read_dst_word]

/-- The table the rows are accumulated into is zero everywhere. -/
private theorem read_main_v103 (i : S100000x32.Idx) : val_main_v103 (F := Ideal) i = 0 := by
  rw [val_main_v103_apply, val_main_cst_12_apply]
  exact Ideal.ofBits_zero_f32

/-- The table the result is clipped against is zero everywhere. -/
private theorem read_main_call4_v0 (i : S100000x32.Idx) : val_main_call4_v0 (F := Ideal) i = 0 := by
  rw [val_main_call4_v0_apply, val_main_call4_cst_apply]
  exact Ideal.ofBits_zero_f32

/-- The row lookup at the source column accumulated into zeros at the destination column is the neighbour sum:
    entry `(n, k)` is the sum of entry `k` of the rows `srcRow e` over the edges `e` landing on `n`. -/
private theorem read_main_v105 (t : Tbl 100000 32) (n : Fin 100000) (k : Fin 32) :
    Host.scatterAdd (F := Ideal) (φ := .f32) scatter_S100000x32_S2500000x1_S2500000x32_1_0_0_1 (val_main_v103 (F := Ideal))
        (val_main_v104 (F := Ideal) x11)
        (Host.gather gather_S100000x32_S2500000x1_S2500000x32_1_0_n_n_0_1_132 t (val_main_v101 (F := Ideal) x11)) (ix2 n k)
      = nbr (cur t) (srcRow (P := 2500000) x11) (inEdges (P := 2500000) x11) n k := by
  have hN : 0 < 100000 := by decide
  -- the printed dimension numbers are those of a whole-row lookup and a whole-row accumulation
  have hg : gather_S100000x32_S2500000x1_S2500000x32_1_0_n_n_0_1_132
      = EdgeAgg.lookupDims 100000 32 2500000 gather_S100000x32_S2500000x1_S2500000x32_1_0_n_n_0_1_132_wf := rfl
  have hs : scatter_S100000x32_S2500000x1_S2500000x32_1_0_0_1
      = EdgeAgg.accumDims 100000 32 2500000 scatter_S100000x32_S2500000x1_S2500000x32_1_0_0_1_wf := rfl
  have h := nbr_of_lookup_accum (N := 100000) (C := 32) (P := 2500000) hN
    gather_S100000x32_S2500000x1_S2500000x32_1_0_n_n_0_1_132_wf scatter_S100000x32_S2500000x1_S2500000x32_1_0_0_1_wf
    t (val_main_v101 (F := Ideal) x11) (val_main_v104 (F := Ideal) x11) (val_main_v103 (F := Ideal)) read_main_v103
  -- the row an edge reads is `srcRow`, the edges landing on a node are `inEdges`
  have hr : (fun e : Fin 2500000 => EdgeAgg.clampTo 100000 hN (val_main_v101 (F := Ideal) x11 (ix2 e (0 : Fin 1))))
      = srcRow (P := 2500000) x11 := funext fun e => by rw [read_main_v101]; rfl
  have hD : (fun m : Fin 100000 => Finset.univ.filter fun e : Fin 2500000 =>
        (val_main_v104 (F := Ideal) x11 (ix2 e (0 : Fin 1))).toInt = (m.val : Int))
      = inEdges (P := 2500000) x11 := funext fun m => by simp only [read_main_v104]; rfl
  rw [hr, hD] at h
  rw [Host.scatterAdd, Ideal.hostScatterAdd_def, hg, hs]
  exact (cur_apply _ n k).symm.trans (congrFun (congrFun h n) k)

/-- Slab `(3 : Fin 4)` of the first weight stack, through the slice and the reshape. -/
private theorem read_main_v91 (k j : Fin 32) :
    val_main_v91 (F := Ideal) x4 (ix2 k j) = slab (a := 4) (b := 32) (d := 32) x4 (3 : Fin 4) k j := by
  rw [val_main_v91_apply, val_main_v90_apply]
  refine congrArg x4 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Slab `(3 : Fin 4)` of the second weight stack, through the slice and the reshape. -/
private theorem read_main_v95 (k j : Fin 32) :
    val_main_v95 (F := Ideal) x6 (ix2 k j) = slab (a := 4) (b := 32) (d := 32) x6 (3 : Fin 4) k j := by
  rw [val_main_v95_apply, val_main_v94_apply]
  refine congrArg x6 (funext fun a => Fin.ext ?_)
  have hk := k.isLt
  have hj := j.isLt
  match a with
  | ⟨0, _⟩ => rfl
  | ⟨1, _⟩ => show (k.val * 32 + j.val) / 32 % 32 = k.val; omega
  | ⟨2, _⟩ => show (k.val * 32 + j.val) % 32 = j.val; omega

/-- Row `(3 : Fin 4)` of the bias table, spread over the nodes. -/
private theorem read_main_v108 (n : Fin 100000) (j : Fin 32) :
    val_main_v108 (F := Ideal) x5 (ix2 n j) = rowOf (a := 4) (b := 32) x5 (3 : Fin 4) j := by
  rw [val_main_v108_apply, val_main_v107_apply, val_main_v93_apply, val_main_v92_apply]
  refine congrArg x5 (funext fun a => Fin.ext ?_)
  match a with
  | ⟨0, _⟩ => rfl
  | ⟨1, _⟩ => exact Nat.mod_eq_of_lt j.isLt

/-- The first contraction pairs entry `(n, k)` of the neighbour sum with entry `(k, j)` of the weights. -/
private theorem lidx_main_v106_ix (n : Fin 100000) (j k : Fin 32) : lidx_main_v106 (ix2 n j) k = ix2 n k :=
  funext fun a => Fin.ext (by match a with | ⟨0, _⟩ => rfl | ⟨1, _⟩ => rfl)
private theorem ridx_main_v106_ix (n : Fin 100000) (j k : Fin 32) : ridx_main_v106 (ix2 n j) k = ix2 k j :=
  funext fun a => Fin.ext (by match a with | ⟨0, _⟩ => rfl | ⟨1, _⟩ => rfl)
/-- The second contraction pairs entry `(n, k)` of the node table with entry `(k, j)` of the weights. -/
private theorem lidx_main_v110_ix (n : Fin 100000) (j k : Fin 32) : lidx_main_v110 (ix2 n j) k = ix2 n k :=
  funext fun a => Fin.ext (by match a with | ⟨0, _⟩ => rfl | ⟨1, _⟩ => rfl)
private theorem ridx_main_v110_ix (n : Fin 100000) (j k : Fin 32) : ridx_main_v110 (ix2 n j) k = ix2 k j :=
  funext fun a => Fin.ext (by match a with | ⟨0, _⟩ => rfl | ⟨1, _⟩ => rfl)

end Stages

/-! ## The layer -/

/-- The node table after layer 4, as the layer with the projection taken after the neighbour sum. -/
theorem rlayer4 :
    cur (a := 100000) (b := 32) (val_main_v112 (F := Ideal) x0 x1 x2 x3 x4 x5 x6 x11)
      = rLayer (cur (a := 100000) (b := 32) tblIn)
          (slab (a := 4) (b := 32) (d := 32) x4 (3 : Fin 4)) (slab (a := 4) (b := 32) (d := 32) x6 (3 : Fin 4))
          (rowOf (a := 4) (b := 32) x5 (3 : Fin 4))
          (srcRow (P := 2500000) x11) (inEdges (P := 2500000) x11) := by
  funext n j
  -- the layer at an entry on the right; on the left the stages of this layer, outermost first, down to the incoming table
  rw [rLayer_at, cur_apply, val_main_v112_apply, val_main_v111_apply, val_main_v109_apply, val_main_v106_apply,
    val_main_v110_apply, val_main_v105, val_main_v102]
  generalize tblIn = t
  simp only [lidx_main_v106_ix, ridx_main_v106_ix, lidx_main_v110_ix, ridx_main_v110_ix, read_main_v105, read_main_v91,
    read_main_v95, read_main_v108, read_main_call4_v0, Ideal.addf_def, Ideal.maximumf_def]

end Cert.ReferenceIdeal.Val

end
-- ==== Proof.RTail.lean ====
/-
  The end of the reference: the per-graph sum of the last node table, the head and the row-wise log-softmax.

  The last node table's rows are added into 512 zero rows at each node's graph word: entry `(g, j)` of the result is
  the sum of column `j` over the nodes whose word, read signed, is `g` (`rPool`). Two affine layers follow, the first
  clipped below at zero, giving two logits per graph. The log-softmax takes the row's maximum as a maximum-reduction
  from minus infinity (the larger of the two logits, since `⊥` is the maximum's unit), subtracts it, and subtracts the
  logarithm of the row's sum of exponentials (a sum from zero). Read entry by entry this is `head` of the pooled table.
-/
import proofs.«401169_j5540507812347_2_alg».proof.Proof.Gen.ReferenceIdeal.Read
import proofs.«401169_j5540507812347_2_alg».proof.Proof.Spec
import proofs.«401169_j5540507812347_2_alg».proof.Proof.HostRead
import Idealize.ShloMosaic.PureOps.Reduce

set_option maxRecDepth 16384

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.ReferenceIdeal.Read Gnn
open scoped BigOperators

variable (x0 : (⟨S100000x14, .f32⟩ : BufTy).Contents (Elt Ideal))
  (x1 : (⟨S14x32, .f32⟩ : BufTy).Contents (Elt Ideal))
  (x2 : (⟨S32, .f32⟩ : BufTy).Contents (Elt Ideal))
  (x3 : (⟨S14x32, .f32⟩ : BufTy).Contents (Elt Ideal))
  (x4 : (⟨S4x32x32, .f32⟩ : BufTy).Contents (Elt Ideal))
  (x5 : (⟨S4x32, .f32⟩ : BufTy).Contents (Elt Ideal))
  (x6 : (⟨S4x32x32, .f32⟩ : BufTy).Contents (Elt Ideal))
  (x7 : (⟨S32x32, .f32⟩ : BufTy).Contents (Elt Ideal))
  (x8 : (⟨S32, .f32⟩ : BufTy).Contents (Elt Ideal))
  (x9 : (⟨S32x2, .f32⟩ : BufTy).Contents (Elt Ideal))
  (x10 : (⟨S2, .f32⟩ : BufTy).Contents (Elt Ideal))
  (x11 : (⟨S2x2500000, .i32⟩ : BufTy).Contents (Elt Ideal))
  (x12 : (⟨S100000, .i32⟩ : BufTy).Contents (Elt Ideal))

namespace Tail

/-! ## The network's small definitions, opened at an entry -/

theorem mm_apply {N K J : Nat} (x : Mat N K) (w : Mat K J) (n : Fin N) (j : Fin J) :
    mm x w n j = ∑ k : Fin K, x n k * w k j := rfl

theorem vec_apply {a : Nat} (t : (⟨1, ![a]⟩ : Shape).Idx → EReal) (p : Fin a) : vec t p = t (ix1 p) := rfl

theorem rPool_apply {N : Nat} (h : Mat N 32) (bw : Fin N → BitVec 32) (g : Fin 512) (j : Fin 32) :
    rPool h bw g j = ∑ n ∈ Finset.univ.filter (fun n : Fin N => (bw n).toInt = (g.val : Int)), h n j := rfl

theorem graphWord_apply {N : Nat} (bt : IVec ⟨1, ![N]⟩ 32) (n : Fin N) : graphWord bt n = bt (ix1 n) := rfl

/-- At the extended reals the accumulation with an addition body is the exact sum. -/
theorem hostScatterAdd_eq {s si u : Shape} {w : Nat} (d : ScatterDims s si u) (x : FVec Ideal s .f32)
    (idx : IVec si w) (upd : FVec Ideal u .f32) :
    Host.scatterAdd (F := Ideal) d x idx upd = Ideal.hostScatterAdd d x idx upd := rfl

/-! ## A row's maximum over two columns -/

/-- The row index `r` with column `k` put back is `(r, k)`. -/
theorem lift_row (h : (⟨2, ![512, 2]⟩ : Shape).Reduces [1] (⟨1, ![512]⟩ : Shape)) (r : Fin 512)
    (k : Fin ((⟨2, ![512, 2]⟩ : Shape).size 1)) : h.lift (ix1 r) k = ix2 r (⟨k.val, k.isLt⟩ : Fin 2) := by
  funext c; apply Fin.ext
  match c with
  | ⟨0, _⟩ => rfl
  | ⟨1, _⟩ => rfl

/-- A fold of the maximum from `⊥` over two entries is the larger of the two. -/
theorem fold_max_two (g : Fin 2 → EReal) : (Finset.univ : Finset (Fin 2)).fold max ⊥ g = max (g 0) (g 1) := by
  simp only [Fin.univ_succ, Finset.fold_cons, Finset.fold_map, Finset.univ_unique, Finset.fold_singleton]
  show max (g 0) (max (g 1) ⊥) = max (g 0) (g 1)
  rw [max_bot_right]

/-- The pattern of minus infinity is `⊥`. -/
theorem ofBits_negInf : Ideal.ofBits .f32 0xFF800000#32 = ⊥ := by simp [Ideal.ofBits, Ideal.ieee]

/-- A maximum-reduction of a `[512, 2]` table over its columns, from `⊥`, is at row `r` the larger of the row's
    two entries: the maximum is commutative and associative, so the reduction is the fold over the row, and `⊥` is
    the maximum's unit. -/
theorem rowMax2 (x : (⟨2, ![512, 2]⟩ : Shape).Idx → Ideal .f32) (init : (⟨0, ![]⟩ : Shape).Idx → Ideal .f32)
    (h' : (⟨2, ![512, 2]⟩ : Shape).ReducesTo [1] (⟨1, ![512]⟩ : Shape)) (hu : 0 < (⟨0, ![]⟩ : Shape).numel)
    (hinit : ∀ i, init i = ⊥) (r : Fin 512) :
    Host.reduce (FloatOps.maximumf (F := Ideal) (φ := .f32)) x init h' hu (ix1 r)
      = max (x (ix2 r (0 : Fin 2))) (x (ix2 r (1 : Fin 2))) := by
  have h : (⟨2, ![512, 2]⟩ : Shape).Reduces [1] (⟨1, ![512]⟩ : Shape) := by decide
  rw [Host.reduce_eq_fold_single (FloatOps.maximumf (F := Ideal) (φ := .f32)) x init h' h hu, hinit]
  have hf : (x ∘ h.lift (ix1 r)) = fun k : Fin 2 => x (ix2 r k) := funext fun k => congrArg x (lift_row h r k)
  exact (congrArg (fun f => Finset.fold max (⊥ : EReal) f (Finset.univ : Finset (Fin 2))) hf).trans
    (fold_max_two fun k => x (ix2 r k))

/-! ## The head, by its two logits -/

/-- The two logits of a graph: the clipped affine layer of its pooled row, through the second affine layer. -/
def logit (g : Mat 512 32) (w1 : Mat 32 32) (b1 : Fin 32 → EReal) (w2 : Mat 32 2) (b2 : Fin 2 → EReal)
    (r : Fin 512) (q : Fin 2) : EReal :=
  mm (fun r' j' => max (mm g w1 r' j' + b1 j') 0) w2 r q + b2 q

theorem logit_def (g : Mat 512 32) (w1 : Mat 32 32) (b1 : Fin 32 → EReal) (w2 : Mat 32 2) (b2 : Fin 2 → EReal)
    (r : Fin 512) (q : Fin 2) :
    logit g w1 b1 w2 b2 r q = mm (fun r' j' => max (mm g w1 r' j' + b1 j') 0) w2 r q + b2 q := rfl

/-- A logit less the larger of its row's two. -/
def shifted (g : Mat 512 32) (w1 : Mat 32 32) (b1 : Fin 32 → EReal) (w2 : Mat 32 2) (b2 : Fin 2 → EReal)
    (r : Fin 512) (q : Fin 2) : EReal :=
  logit g w1 b1 w2 b2 r q - max (logit g w1 b1 w2 b2 r 0) (logit g w1 b1 w2 b2 r 1)

theorem shifted_def (g : Mat 512 32) (w1 : Mat 32 32) (b1 : Fin 32 → EReal) (w2 : Mat 32 2) (b2 : Fin 2 → EReal)
    (r : Fin 512) (q : Fin 2) :
    shifted g w1 b1 w2 b2 r q
      = logit g w1 b1 w2 b2 r q - max (logit g w1 b1 w2 b2 r 0) (logit g w1 b1 w2 b2 r 1) := rfl

/-- The head is the shifted logit less the logarithm of the row's sum of exponentials of shifted logits. -/
theorem head_apply (g : Mat 512 32) (w1 : Mat 32 32) (b1 : Fin 32 → EReal) (w2 : Mat 32 2) (b2 : Fin 2 → EReal)
    (r : Fin 512) (j : Fin 2) :
    head g w1 b1 w2 b2 r j
      = shifted g w1 b1 w2 b2 r j - Ideal.log (∑ q : Fin 2, Ideal.exp (shifted g w1 b1 w2 b2 r q)) := rfl

/-! ## Indices by coordinates -/

theorem lidx116 (r : Fin 512) (j k : Fin 32) : lidx_main_v116 (ix2 r j) k = ix2 r k :=
  funext fun a => Fin.ext (by match a with | ⟨0, _⟩ => rfl | ⟨1, _⟩ => rfl)
theorem ridx116 (r : Fin 512) (j k : Fin 32) : ridx_main_v116 (ix2 r j) k = ix2 k j :=
  funext fun a => Fin.ext (by match a with | ⟨0, _⟩ => rfl | ⟨1, _⟩ => rfl)
theorem lidx121 (r : Fin 512) (q : Fin 2) (k : Fin 32) : lidx_main_v121 (ix2 r q) k = ix2 r k :=
  funext fun a => Fin.ext (by match a with | ⟨0, _⟩ => rfl | ⟨1, _⟩ => rfl)
theorem ridx121 (r : Fin 512) (q : Fin 2) (k : Fin 32) : ridx_main_v121 (ix2 r q) k = ix2 k q :=
  funext fun a => Fin.ext (by match a with | ⟨0, _⟩ => rfl | ⟨1, _⟩ => rfl)
theorem idx114 (n : Fin 100000) : idx_main_v114 (ix2 n (0 : Fin 1)) = ix1 n :=
  funext fun a => Fin.ext (by match a with | ⟨0, _⟩ => rfl)
theorem idx118 (r : Fin 512) (j : Fin 32) : idx_main_v117 (idx_main_v118 (ix2 r j)) = ix1 j :=
  funext fun a => Fin.ext (by match a with | ⟨0, _⟩ => rfl)
theorem idx123 (r : Fin 512) (q : Fin 2) : idx_main_v122 (idx_main_v123 (ix2 r q)) = ix1 q :=
  funext fun a => Fin.ext (by match a with | ⟨0, _⟩ => rfl)
theorem idxc4 (r : Fin 512) (q : Fin 2) : idx_main_call6_v3 (idx_main_call6_v4 (ix2 r q)) = ix1 r :=
  funext fun a => Fin.ext (by match a with | ⟨0, _⟩ => rfl)
theorem idxc7 (r : Fin 512) (k : Fin 2) : idx_main_call6_v7 (ix1 r) k = ix2 r k :=
  funext fun a => Fin.ext (by match a with | ⟨0, _⟩ => rfl | ⟨1, _⟩ => rfl)
theorem idxc10 (r : Fin 512) (q : Fin 2) : idx_main_call6_v8 (idx_main_call6_v10 (ix2 r q)) = ix1 r :=
  funext fun a => Fin.ext (by match a with | ⟨0, _⟩ => rfl)

/-! ## The per-graph sum -/

/-- The accumulator of the per-graph sum is zero everywhere. -/
theorem zeros_apply (i : S512x32.Idx) : val_main_v113 (F := Ideal) i = 0 := by
  rw [val_main_v113_apply, val_main_cst_13_apply, Ideal.ofBits_def, Ideal.ofBits_zero_f32]

/-- The column of graph words holds at row `n` the word of node `n`. -/
theorem graph_col (n : Fin 100000) : val_main_v114 (F := Ideal) x12 (ix2 n (0 : Fin 1)) = x12 (ix1 n) := by
  rw [val_main_v114_apply, idx114]

/-- The accumulation's dimension numbers say "whole rows". -/
theorem accum_dims : scatter_S512x32_S100000x1_S100000x32_1_0_0_1
    = EdgeAgg.accumDims 512 32 100000 Facts₀.scatter_S512x32_S100000x1_S100000x32_1_0_0_1_wf := rfl

/-- The rows of the last node table, added into 512 zero rows at each node's graph word, are the per-graph sums:
    entry `(g, j)` is zero plus the sum of column `j` over the nodes whose word, read signed, is `g`. -/
theorem pool :
    cur (a := 512) (b := 32) (val_main_v115 (F := Ideal) x0 x1 x2 x3 x4 x5 x6 x11 x12)
      = rPool (cur (a := 100000) (b := 32) (val_main_v112 (F := Ideal) x0 x1 x2 x3 x4 x5 x6 x11))
          (graphWord (N := 100000) x12) := by
  funext g j
  rw [cur_apply, rPool_apply]
  unfold val_main_v115
  generalize val_main_v112 (F := Ideal) x0 x1 x2 x3 x4 x5 x6 x11 = V
  rw [hostScatterAdd_eq, accum_dims, EdgeAgg.accum_apply, zeros_apply, zero_add]
  refine Finset.sum_congr (Finset.filter_congr fun n _ => ?_) fun n _ => ?_
  · rw [graph_col, graphWord_apply]
  · rw [cur_apply]

/-! ## The two affine layers -/

section Head

variable {G : Mat 512 32}
  (hG : cur (a := 512) (b := 32) (val_main_v115 (F := Ideal) x0 x1 x2 x3 x4 x5 x6 x11 x12) = G)
include hG

/-- The pooled table times the first weight table. -/
theorem proj1_apply (r : Fin 512) (j : Fin 32) :
    val_main_v116 (F := Ideal) x0 x1 x2 x3 x4 x5 x6 x7 x11 x12 (ix2 r j) = mm G (cur (a := 32) (b := 32) x7) r j := by
  rw [mm_apply, val_main_v116_apply, ← hG]
  refine Finset.sum_congr rfl fun k _ => ?_
  rw [lidx116, ridx116, cur_apply, cur_apply]

omit hG in
/-- The first bias, spread over the rows. -/
theorem bias1_apply (r : Fin 512) (j : Fin 32) : val_main_v118 (F := Ideal) x8 (ix2 r j) = vec (a := 32) x8 j := by
  rw [val_main_v118_apply, val_main_v117_apply, idx118, vec_apply]

/-- The clipped first layer. -/
theorem hidden_apply (r : Fin 512) (j : Fin 32) :
    val_main_v120 (F := Ideal) x0 x1 x2 x3 x4 x5 x6 x7 x8 x11 x12 (ix2 r j)
      = max (mm G (cur (a := 32) (b := 32) x7) r j + vec (a := 32) x8 j) 0 := by
  rw [val_main_v120_apply, val_main_v119_apply, proj1_apply x0 x1 x2 x3 x4 x5 x6 x7 x11 x12 hG, bias1_apply,
    val_main_call5_v0_apply, val_main_call5_cst_apply, Ideal.maximumf_def, Ideal.addf_def, Ideal.ofBits_def,
    Ideal.ofBits_zero_f32]

/-- The clipped first layer times the second weight table. -/
theorem proj2_apply (r : Fin 512) (q : Fin 2) :
    val_main_v121 (F := Ideal) x0 x1 x2 x3 x4 x5 x6 x7 x8 x9 x11 x12 (ix2 r q)
      = mm (fun r' j' => max (mm G (cur (a := 32) (b := 32) x7) r' j' + vec (a := 32) x8 j') 0)
          (cur (a := 32) (b := 2) x9) r q := by
  rw [mm_apply, val_main_v121_apply]
  refine Finset.sum_congr rfl fun k _ => ?_
  rw [lidx121, ridx121, hidden_apply x0 x1 x2 x3 x4 x5 x6 x7 x8 x11 x12 hG, cur_apply]

omit hG in
/-- The second bias, spread over the rows. -/
theorem bias2_apply (r : Fin 512) (q : Fin 2) : val_main_v123 (F := Ideal) x10 (ix2 r q) = vec (a := 2) x10 q := by
  rw [val_main_v123_apply, val_main_v122_apply, idx123, vec_apply]

/-- The logits. -/
theorem logit_apply (r : Fin 512) (q : Fin 2) :
    val_main_v124 (F := Ideal) x0 x1 x2 x3 x4 x5 x6 x7 x8 x9 x10 x11 x12 (ix2 r q)
      = logit G (cur (a := 32) (b := 32) x7) (vec (a := 32) x8) (cur (a := 32) (b := 2) x9) (vec (a := 2) x10) r q := by
  rw [logit_def, val_main_v124_apply, proj2_apply x0 x1 x2 x3 x4 x5 x6 x7 x8 x9 x11 x12 hG, bias2_apply, Ideal.addf_def]

/-! ## The row-wise log-softmax -/

/-- The row maximum: the larger of the row's two logits. -/
theorem rowmax_apply (r : Fin 512) :
    val_main_call6_v0 (F := Ideal) x0 x1 x2 x3 x4 x5 x6 x7 x8 x9 x10 x11 x12 (ix1 r)
      = max (logit G (cur (a := 32) (b := 32) x7) (vec (a := 32) x8) (cur (a := 32) (b := 2) x9) (vec (a := 2) x10) r 0)
          (logit G (cur (a := 32) (b := 32) x7) (vec (a := 32) x8) (cur (a := 32) (b := 2) x9) (vec (a := 2) x10) r 1) := by
  rw [← logit_apply x0 x1 x2 x3 x4 x5 x6 x7 x8 x9 x10 x11 x12 hG, ← logit_apply x0 x1 x2 x3 x4 x5 x6 x7 x8 x9 x10 x11 x12 hG]
  unfold val_main_call6_v0
  generalize val_main_v124 (F := Ideal) x0 x1 x2 x3 x4 x5 x6 x7 x8 x9 x10 x11 x12 = L
  exact rowMax2 L _ _ _ (fun i => by rw [val_main_call6_cst_apply, Ideal.ofBits_def, ofBits_negInf]) r

/-- Joined with minus infinity and spread along the row, the row maximum is unchanged. -/
theorem rowmax_spread_apply (r : Fin 512) (q : Fin 2) :
    val_main_call6_v4 (F := Ideal) x0 x1 x2 x3 x4 x5 x6 x7 x8 x9 x10 x11 x12 (ix2 r q)
      = max (logit G (cur (a := 32) (b := 32) x7) (vec (a := 32) x8) (cur (a := 32) (b := 2) x9) (vec (a := 2) x10) r 0)
          (logit G (cur (a := 32) (b := 32) x7) (vec (a := 32) x8) (cur (a := 32) (b := 2) x9) (vec (a := 2) x10) r 1) := by
  rw [val_main_call6_v4_apply, val_main_call6_v3_apply, idxc4, val_main_call6_v2_apply, val_main_call6_v1_apply,
    val_main_call6_cst_0_apply, rowmax_apply x0 x1 x2 x3 x4 x5 x6 x7 x8 x9 x10 x11 x12 hG, Ideal.maximumf_def,
    Ideal.ofBits_def, ofBits_negInf, max_bot_left]

/-- The logits less their row maximum. -/
theorem shifted_apply (r : Fin 512) (q : Fin 2) :
    val_main_call6_v5 (F := Ideal) x0 x1 x2 x3 x4 x5 x6 x7 x8 x9 x10 x11 x12 (ix2 r q)
      = shifted G (cur (a := 32) (b := 32) x7) (vec (a := 32) x8) (cur (a := 32) (b := 2) x9) (vec (a := 2) x10) r q := by
  rw [shifted_def, val_main_call6_v5_apply, logit_apply x0 x1 x2 x3 x4 x5 x6 x7 x8 x9 x10 x11 x12 hG,
    rowmax_spread_apply x0 x1 x2 x3 x4 x5 x6 x7 x8 x9 x10 x11 x12 hG, Ideal.subf_def]

/-- The row's sum of exponentials, from zero. -/
theorem expsum_apply (r : Fin 512) :
    val_main_call6_v7 (F := Ideal) x0 x1 x2 x3 x4 x5 x6 x7 x8 x9 x10 x11 x12 (ix1 r)
      = ∑ q : Fin 2, Ideal.exp (shifted G (cur (a := 32) (b := 32) x7) (vec (a := 32) x8) (cur (a := 32) (b := 2) x9) (vec (a := 2) x10) r q) := by
  rw [val_main_call6_v7_apply, val_main_call6_cst_1_apply, Ideal.ofBits_def, Ideal.ofBits_zero_f32, zero_add]
  refine Finset.sum_congr rfl fun k _ => ?_
  rw [idxc7, val_main_call6_v6_apply, Ideal.hostUnary_exp_def, shifted_apply x0 x1 x2 x3 x4 x5 x6 x7 x8 x9 x10 x11 x12 hG]

/-- Its logarithm, spread along the row. -/
theorem logsum_apply (r : Fin 512) (q : Fin 2) :
    val_main_call6_v10 (F := Ideal) x0 x1 x2 x3 x4 x5 x6 x7 x8 x9 x10 x11 x12 (ix2 r q)
      = Ideal.log (∑ q' : Fin 2, Ideal.exp (shifted G (cur (a := 32) (b := 32) x7) (vec (a := 32) x8) (cur (a := 32) (b := 2) x9) (vec (a := 2) x10) r q')) := by
  rw [val_main_call6_v10_apply, val_main_call6_v9_apply, Ideal.hostUnary_log_def, val_main_call6_v8_apply, idxc10,
    expsum_apply x0 x1 x2 x3 x4 x5 x6 x7 x8 x9 x10 x11 x12 hG]

/-- The result at `(r, j)`: the head of the pooled table. -/
theorem out_apply (r : Fin 512) (j : Fin 2) :
    val_main_v125 (F := Ideal) x0 x1 x2 x3 x4 x5 x6 x7 x8 x9 x10 x11 x12 (ix2 r j)
      = head G (cur (a := 32) (b := 32) x7) (vec (a := 32) x8) (cur (a := 32) (b := 2) x9) (vec (a := 2) x10) r j := by
  rw [head_apply, val_main_v125_apply, shifted_apply x0 x1 x2 x3 x4 x5 x6 x7 x8 x9 x10 x11 x12 hG,
    logsum_apply x0 x1 x2 x3 x4 x5 x6 x7 x8 x9 x10 x11 x12 hG, Ideal.subf_def]

end Head

end Tail

/-- The result from the node table after the fifth layer. -/
theorem rtail :
    val_main_v125 (F := Ideal) x0 x1 x2 x3 x4 x5 x6 x7 x8 x9 x10 x11 x12
      = tbl (head (rPool (cur (a := 100000) (b := 32) (val_main_v112 (F := Ideal) x0 x1 x2 x3 x4 x5 x6 x11)) (graphWord (N := 100000) x12))
          (cur (a := 32) (b := 32) x7) (vec (a := 32) x8) (cur (a := 32) (b := 2) x9) (vec (a := 2) x10)) := by
  funext i
  obtain ⟨r, j, rfl⟩ : ∃ (r : Fin 512) (j : Fin 2), i = ix2 r j := ⟨i 0, i 1, eq_ix2 i⟩
  rw [tbl_apply]
  exact Tail.out_apply x0 x1 x2 x3 x4 x5 x6 x7 x8 x9 x10 x11 x12 (Tail.pool x0 x1 x2 x3 x4 x5 x6 x11 x12) r j

end Cert.ReferenceIdeal.Val

end
-- ==== Proof.RValue.lean ====
/-
  The reference's result as one function of its thirteen argument arrays: five layers, the per-graph sum, the head.
-/
import proofs.«401169_j5540507812347_2_alg».proof.Proof.Gen.ReferenceIdeal.Read
import proofs.«401169_j5540507812347_2_alg».proof.Proof.Spec
import proofs.«401169_j5540507812347_2_alg».proof.Proof.RLayer0
import proofs.«401169_j5540507812347_2_alg».proof.Proof.RLayer1
import proofs.«401169_j5540507812347_2_alg».proof.Proof.RLayer2
import proofs.«401169_j5540507812347_2_alg».proof.Proof.RLayer3
import proofs.«401169_j5540507812347_2_alg».proof.Proof.RLayer4
import proofs.«401169_j5540507812347_2_alg».proof.Proof.RTail

set_option maxRecDepth 16384

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.ReferenceIdeal.Read Gnn
open scoped BigOperators

variable (x0 : (⟨S100000x14, .f32⟩ : BufTy).Contents (Elt Ideal))
  (x1 : (⟨S14x32, .f32⟩ : BufTy).Contents (Elt Ideal))
  (x2 : (⟨S32, .f32⟩ : BufTy).Contents (Elt Ideal))
  (x3 : (⟨S14x32, .f32⟩ : BufTy).Contents (Elt Ideal))
  (x4 : (⟨S4x32x32, .f32⟩ : BufTy).Contents (Elt Ideal))
  (x5 : (⟨S4x32, .f32⟩ : BufTy).Contents (Elt Ideal))
  (x6 : (⟨S4x32x32, .f32⟩ : BufTy).Contents (Elt Ideal))
  (x7 : (⟨S32x32, .f32⟩ : BufTy).Contents (Elt Ideal))
  (x8 : (⟨S32, .f32⟩ : BufTy).Contents (Elt Ideal))
  (x9 : (⟨S32x2, .f32⟩ : BufTy).Contents (Elt Ideal))
  (x10 : (⟨S2, .f32⟩ : BufTy).Contents (Elt Ideal))
  (x11 : (⟨S2x2500000, .i32⟩ : BufTy).Contents (Elt Ideal))
  (x12 : (⟨S100000, .i32⟩ : BufTy).Contents (Elt Ideal))

theorem ref_value :
    val_main_v125 (F := Ideal) x0 x1 x2 x3 x4 x5 x6 x7 x8 x9 x10 x11 x12 = rOut x0 x1 x2 x3 x4 x5 x6 x7 x8 x9 x10 x11 x12 := by
  rw [rtail, rlayer4, rlayer3, rlayer2, rlayer1, rlayer0]
  rfl

end Cert.ReferenceIdeal.Val

end
-- ==== Proof.Law.lean ====
/-
  The two ways of writing the network agree on real inputs.

  With real entries the product with a weight table distributes over the neighbour sum and the two sums swap:
  `∑_{e ∈ D n} ∑_k h (r e) k · w k j = ∑_k (∑_{e ∈ D n} h (r e) k) · w k j`. On the extended reals this fails at the
  infinities, so every layer's output is shown real again (a clipped sum of products of reals). The zero-one weight
  of the per-graph sum picks exactly the nodes whose word is the graph's number.
-/
import proofs.«401169_j5540507812347_2_alg».proof.Proof.Spec

noncomputable section

namespace Gnn

open Idealize.ShloMosaic Idealize.ShloMosaic.ValueIdx
open scoped BigOperators

/-! ## Real tables as coerced real-valued functions -/

/-- The embedding of the reals in the extended reals carries a finite sum to the sum of the embedded terms. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real table is the embedding of a real-valued function (its entries' real parts). -/
theorem IsReal.lift {a b : Nat} {f : Mat a b} (hf : IsReal f) :
    ∃ g : Fin a → Fin b → ℝ, f = fun p q => (g p q : EReal) :=
  ⟨fun p q => (f p q).toReal,
    funext fun p => funext fun q => (EReal.coe_toReal (hf p q).1 (hf p q).2).symm⟩

/-- The same for a vector. -/
theorem IsRealV.lift {a : Nat} {f : Fin a → EReal} (hf : IsRealV f) :
    ∃ g : Fin a → ℝ, f = fun p => (g p : EReal) :=
  ⟨fun p => (f p).toReal, funext fun p => (EReal.coe_toReal (hf p).1 (hf p).2).symm⟩

/-- An embedded real clipped below at zero is neither infinity: it is the real itself or zero. -/
theorem max_coe_zero_real (x : ℝ) : max (x : EReal) 0 ≠ ⊤ ∧ max (x : EReal) 0 ≠ ⊥ := by
  rcases le_total (x : EReal) 0 with hx | hx
  · rw [max_eq_right hx]
    exact ⟨EReal.coe_ne_top 0, EReal.coe_ne_bot 0⟩
  · rw [max_eq_left hx]
    exact ⟨EReal.coe_ne_top x, EReal.coe_ne_bot x⟩

/-! ## The product distributes over the neighbour sum -/

/-- On real tables the neighbour sum of the projected rows is the projection of the neighbour sum:
    both are the embedding of the real double sum `∑_{e ∈ D n} ∑_k g (r e) k · v k j`, the two sums swapped and
    the common right factor taken out of the inner one. -/
theorem nbr_mm_comm {N P K J : Nat} (h : Mat N K) (w : Mat K J) (r : Fin P → Fin N)
    (D : Fin N → Finset (Fin P)) (hh : IsReal h) (hw : IsReal w) :
    nbr (mm h w) r D = mm (nbr h r D) w := by
  obtain ⟨g, rfl⟩ := hh.lift
  obtain ⟨v, rfl⟩ := hw.lift
  funext n j
  simp only [nbr, mm, ← EReal.coe_mul, ← coe_sum]
  rw [Finset.sum_comm]
  simp only [Finset.sum_mul]

theorem kLayer_eq_rLayer {N P K : Nat} (h : Mat N K) (wr wroot : Mat K 32) (b : Fin 32 → EReal)
    (r : Fin P → Fin N) (D : Fin N → Finset (Fin P)) (hh : IsReal h) (hwr : IsReal wr) :
    kLayer h wr wroot b r D = rLayer h wr wroot b r D := by
  funext n j
  unfold kLayer rLayer
  rw [nbr_mm_comm h wr r D hh hwr, add_right_comm]

theorem rLayer_isReal {N P K : Nat} (h : Mat N K) (wr wroot : Mat K 32) (b : Fin 32 → EReal)
    (r : Fin P → Fin N) (D : Fin N → Finset (Fin P)) (hh : IsReal h) (hwr : IsReal wr) (hwroot : IsReal wroot)
    (hb : IsRealV b) : IsReal (rLayer h wr wroot b r D) := by
  obtain ⟨g, rfl⟩ := hh.lift
  obtain ⟨v, rfl⟩ := hwr.lift
  obtain ⟨u, rfl⟩ := hwroot.lift
  obtain ⟨c, rfl⟩ := hb.lift
  intro n j
  simp only [rLayer, nbr, mm, ← EReal.coe_mul, ← coe_sum, ← EReal.coe_add]
  exact max_coe_zero_real _

/-! ## The zero-one weight picks the graph's nodes -/

/-- A 32-bit word is the word of a graph number below 512 exactly when its signed reading is that number:
    the number is below `2^31`, so its word reads back as itself, and a word whose signed reading is
    nonnegative has that reading as its unsigned value. -/
theorem word_eq_iff (w : BitVec 32) (g : Fin 512) :
    w = BitVec.ofNat 32 g.val ↔ w.toInt = (g.val : Int) := by
  have hg := g.isLt
  have hw := w.isLt
  constructor
  · intro h
    subst h
    rw [BitVec.toInt_eq_toNat_cond, BitVec.toNat_ofNat]
    split <;> omega
  · intro h
    apply BitVec.eq_of_toNat_eq
    rw [BitVec.toNat_ofNat]
    rw [BitVec.toInt_eq_toNat_cond] at h
    split at h <;> omega

theorem kPool_eq_rPool {N : Nat} (h : Mat N 32) (bw : Fin N → BitVec 32) : kPool h bw = rPool h bw := by
  funext g j
  unfold kPool rPool
  rw [Finset.sum_filter]
  refine Finset.sum_congr rfl fun n _ => ?_
  by_cases hc : (bw n).toInt = (g.val : Int)
  · rw [if_pos hc, if_pos ((word_eq_iff (bw n) g).2 hc), one_mul]
  · rw [if_neg hc, if_neg (fun hw => hc ((word_eq_iff (bw n) g).1 hw)), zero_mul]

/-- On real float inputs the two programs' outputs are one array. -/
theorem kOut_eq_rOut (a0 : Tbl 100000 14) (a1 : Tbl 14 32) (a2 : (⟨1, ![32]⟩ : Shape).Idx → EReal) (a3 : Tbl 14 32)
    (a4 : (⟨3, ![4, 32, 32]⟩ : Shape).Idx → EReal) (a5 : Tbl 4 32) (a6 : (⟨3, ![4, 32, 32]⟩ : Shape).Idx → EReal)
    (a7 : Tbl 32 32) (a8 : (⟨1, ![32]⟩ : Shape).Idx → EReal) (a9 : Tbl 32 2) (a10 : (⟨1, ![2]⟩ : Shape).Idx → EReal)
    (a11 : IVec ⟨2, ![2, 2500000]⟩ 32) (a12 : IVec ⟨1, ![100000]⟩ 32)
    (h0 : Fin_ a0) (h1 : Fin_ a1) (h2 : Fin_ a2) (h3 : Fin_ a3) (h4 : Fin_ a4) (h5 : Fin_ a5) (h6 : Fin_ a6) :
    kOut a0 a1 a2 a3 a4 a5 a6 a7 a8 a9 a10 a11 a12 = rOut a0 a1 a2 a3 a4 a5 a6 a7 a8 a9 a10 a11 a12 := by
  -- the node features, the first layer's weights and bias, and every later layer's weights and bias are real
  have r0 : IsReal (cur a0) := fun p q => h0 (ix2 p q)
  have r1 : IsReal (cur a1) := fun p q => h1 (ix2 p q)
  have r2 : IsRealV (vec a2) := fun p => h2 (ix1 p)
  have r3 : IsReal (cur a3) := fun p q => h3 (ix2 p q)
  have r4 : ∀ i, IsReal (slab a4 i) := fun i p q => h4 (ix3 i p q)
  have r5 : ∀ i, IsRealV (rowOf a5 i) := fun i q => h5 (ix2 i q)
  have r6 : ∀ i, IsReal (slab a6 i) := fun i p q => h6 (ix3 i p q)
  -- layer by layer: the input table is real, so the two layers agree and their common output is real again
  have e0 := kLayer_eq_rLayer (cur a0) (cur a1) (cur a3) (vec a2) (srcRow a11) (inEdges a11) r0 r1
  have q0 := rLayer_isReal (cur a0) (cur a1) (cur a3) (vec a2) (srcRow a11) (inEdges a11) r0 r1 r3 r2
  have e1 := kLayer_eq_rLayer _ (slab a4 0) (slab a6 0) (rowOf a5 0) (srcRow a11) (inEdges a11) q0 (r4 0)
  have q1 := rLayer_isReal _ (slab a4 0) (slab a6 0) (rowOf a5 0) (srcRow a11) (inEdges a11) q0 (r4 0) (r6 0) (r5 0)
  have e2 := kLayer_eq_rLayer _ (slab a4 1) (slab a6 1) (rowOf a5 1) (srcRow a11) (inEdges a11) q1 (r4 1)
  have q2 := rLayer_isReal _ (slab a4 1) (slab a6 1) (rowOf a5 1) (srcRow a11) (inEdges a11) q1 (r4 1) (r6 1) (r5 1)
  have e3 := kLayer_eq_rLayer _ (slab a4 2) (slab a6 2) (rowOf a5 2) (srcRow a11) (inEdges a11) q2 (r4 2)
  have q3 := rLayer_isReal _ (slab a4 2) (slab a6 2) (rowOf a5 2) (srcRow a11) (inEdges a11) q2 (r4 2) (r6 2) (r5 2)
  have e4 := kLayer_eq_rLayer _ (slab a4 3) (slab a6 3) (rowOf a5 3) (srcRow a11) (inEdges a11) q3 (r4 3)
  unfold kOut rOut kNet rNet
  rw [e0, e1, e2, e3, e4, kPool_eq_rPool]

end Gnn

end
-- ==== Proof.PreFin.lean ====
/-
  The precondition read: it says of every float argument that each entry's absolute value is below infinity, so every
  entry of the first seven argument arrays (the node features and the layers' weights and biases) is a real number.
-/
import proofs.«401169_j5540507812347_2_alg».proof.Pre_finite_inputs
import proofs.«401169_j5540507812347_2_alg».proof.Proof.Gen.Pre_finite_inputs
import proofs.«401169_j5540507812347_2_alg».proof.Proof.Spec
import Idealize.ShloMosaic.PureOps.Ideal.Laws
import Idealize.ShloMosaic.Lib.IdealHost
import Idealize.ShloMosaic.Lib.ReduceAll

noncomputable section

namespace Cert.PreFin

open Idealize.ShloMosaic Idealize.ShloMosaic.ValueIdx Cert.Pre_finite_inputs Gnn

/-- The scalar shape has one index. -/
instance : Subsingleton S_.Idx := ⟨fun a b => funext fun d => d.elim0⟩

/-- The word `0x7F800000` (sign 0, exponent all ones, fraction 0) denotes plus infinity. -/
theorem inf_word : Ideal.ofBits .f32 0x7F800000#32 = ⊤ := by
  simp [Ideal.ofBits, Ideal.ieee]

/-- An extended real whose absolute value `max x (-x)` compares below plus infinity is a real number:
    at either infinity the maximum is plus infinity itself. -/
theorem elem_fin (x : EReal)
    (h : Ideal.cmp .olt (max x (-x)) (Ideal.ofBits .f32 0x7F800000#32) = 1#1) : x ≠ ⊤ ∧ x ≠ ⊥ := by
  rw [inf_word] at h
  have hlt : max x (-x) < ⊤ := by
    by_contra hn
    simp [Ideal.cmp, hn] at h
  induction x using EReal.rec with
  | bot => simp at hlt
  | coe r => exact ⟨EReal.coe_ne_top r, EReal.coe_ne_bot r⟩
  | top => simp at hlt

/-- One argument's conjunct: the conjunction over all axes of "|entry| < +inf" is 1, so every entry compares
    below plus infinity (a conjunction that is 1 met only 1s), so every entry is a real number. -/
theorem fin_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf a) (broadcastInDim s ![] hb (constant S_ .f32 0x7F800000#32)))
      init hr hu ix0 = 1#1) : Fin_ a := by
  intro i
  have hi := Host.reduce_andi_all _ init hr hu ix0 e i
  rw [cmpf_apply, broadcastInDim_scalar_apply, constant_apply] at hi
  exact elem_fin (a i) hi

theorem fin_of_pre [Cert.Pre_finite_inputs.Facts] (a0 : FVec Ideal S100000x14 .f32) (a1 : FVec Ideal S14x32 .f32) (a2 : FVec Ideal S32 .f32)
    (a3 : FVec Ideal S14x32 .f32) (a4 : FVec Ideal S4x32x32 .f32) (a5 : FVec Ideal S4x32 .f32) (a6 : FVec Ideal S4x32x32 .f32)
    (a7 : FVec Ideal S32x32 .f32) (a8 : FVec Ideal S32 .f32) (a9 : FVec Ideal S32x2 .f32) (a10 : FVec Ideal S2 .f32)
    (a11 : IVec S2x2500000 32) (a12 : IVec S100000 32)
    (h : Cert.Pre_finite_inputs.fn (F := Ideal) a0 a1 a2 a3 a4 a5 a6 a7 a8 a9 a10 a11 a12 = (fun _ => 1#1)) :
    Fin_ a0 ∧ Fin_ a1 ∧ Fin_ a2 ∧ Fin_ a3 ∧ Fin_ a4 ∧ Fin_ a5 ∧ Fin_ a6 := by
  -- the predicate's one entry, as the running conjunction of the eleven arguments' conjuncts
  have h0 := congrFun h ix0
  dsimp only [fn, fn_part1, fn_part2, fn_part3, andi] at h0
  simp only [IntOp.andi_eq_one] at h0
  obtain ⟨⟨⟨⟨⟨⟨⟨⟨⟨⟨e0, e1⟩, e2⟩, e3⟩, e4⟩, e5⟩, e6⟩, _⟩, _⟩, _⟩, _⟩ := h0
  exact ⟨fin_of_all a0 _ _ _ _ e0, fin_of_all a1 _ _ _ _ e1, fin_of_all a2 _ _ _ _ e2, fin_of_all a3 _ _ _ _ e3,
    fin_of_all a4 _ _ _ _ e4, fin_of_all a5 _ _ _ _ e5, fin_of_all a6 _ _ _ _ e6⟩

end Cert.PreFin

end
-- ==== Proof.lean ====
/-
  The certificate of a five-layer message-passing network.

  The kernel's program projects every node row by a layer's two weight tables BEFORE the rows travel along the edges:
  with `t = h · W_rel` and `root = h · W_root` a layer is `max (Σ_{e → n} t[src e] + root[n] + b, 0)`. The reference lets the
  rows travel first: `max ((Σ_{e → n} h[src e]) · W_rel + b + h[n] · W_root, 0)`. On real numbers the product distributes
  over the neighbour sum, so the two agree; on the extended reals that needs every entry finite, which the precondition
  gives for the inputs and which every layer's clipped output keeps. The per-graph sum is a zero-one matrix product
  accumulated over fifty blocks of nodes on one side and a sum over the graph's nodes on the other; the two-layer head
  and the row-wise log-softmax are the same formula on both sides.

  The three frames: the two kernel programs' are the generated ones; the reference's is its generated run with the
  result dropped. The idealization rewrote nothing, so `preserves` asks nothing. For `algebraic` the kernel program's
  run is the generated frame's launch with the result array's final contents kept (`run_value`), those contents are read
  segment by segment to `kOut` of the argument arrays, the reference's run's term is read to `rOut` of them, and
  `kOut = rOut` on real inputs.
-/
import proofs.«401169_j5540507812347_2_alg».proof.Defs
import proofs.«401169_j5540507812347_2_alg».proof.Proof.Gen.Kernel
import proofs.«401169_j5540507812347_2_alg».proof.Proof.Gen.Kernel.Skeleton
import proofs.«401169_j5540507812347_2_alg».proof.Proof.Gen.Kernel.Launch
import proofs.«401169_j5540507812347_2_alg».proof.Proof.Gen.Kernel.Points
import proofs.«401169_j5540507812347_2_alg».proof.Proof.Gen.Kernel.Frame
import proofs.«401169_j5540507812347_2_alg».proof.Proof.Gen.KernelIdeal
import proofs.«401169_j5540507812347_2_alg».proof.Proof.Gen.KernelIdeal.Skeleton
import proofs.«401169_j5540507812347_2_alg».proof.Proof.Gen.KernelIdeal.Launch
import proofs.«401169_j5540507812347_2_alg».proof.Proof.Gen.KernelIdeal.Points
import proofs.«401169_j5540507812347_2_alg».proof.Proof.Gen.KernelIdeal.Frame
import proofs.«401169_j5540507812347_2_alg».proof.Proof.Gen.ReferenceIdeal
import proofs.«401169_j5540507812347_2_alg».proof.Proof.Gen.ReferenceIdeal.Run
import proofs.«401169_j5540507812347_2_alg».proof.Proof.Gen.ReferenceIdeal.Read
import proofs.«401169_j5540507812347_2_alg».proof.Proof.Gen.Pre_finite_inputs
import proofs.«401169_j5540507812347_2_alg».proof.Proof.ValueRun
import proofs.«401169_j5540507812347_2_alg».proof.Proof.KValue
import proofs.«401169_j5540507812347_2_alg».proof.Proof.RValue
import proofs.«401169_j5540507812347_2_alg».proof.Proof.Law
import proofs.«401169_j5540507812347_2_alg».proof.Proof.PreFin
import Idealize.ShloMosaic.Adequacy
import Idealize.ShloMosaic.Init

noncomputable section

namespace Cert.Proof

open Idealize.ShloMosaic Idealize.ShloMosaic.TcCoe Idealize.SL.Sem

/-- The word-level kernel program's frame: the generated one. -/
theorem frame_k [Cert.Kernel.Facts] [Cert.Pre_finite_inputs.Facts] : Cert.frame_Kernel := fun m ρ _ => Cert.Kernel.Gen.frame m ρ

/-- The idealized kernel program's frame: the generated one. -/
theorem frame_ki [Cert.KernelIdeal.Facts] [Cert.Pre_finite_inputs.Facts] : Cert.frame_KernelIdeal := fun m ρ _ => Cert.KernelIdeal.Gen.frame m ρ

/-- The reference's frame: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs end with one result array: the kernel program's is `kOut` of the argument arrays, the reference's
    `rOut` of arrays that agree with them, and on the real inputs the precondition grants the two are equal. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W23 (F := Ideal) m ρ c (Proc.devRef .tc Cert.KernelIdeal.main_v102),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  obtain ⟨h0, h1, h2, h3, h4, h5, h6⟩ := Cert.PreFin.fin_of_pre _ _ _ _ _ _ _ _ _ _ _ _ _ (hpre c)
  rw [Cert.ReferenceIdeal.Read.val_main_v125_eq, Cert.ReferenceIdeal.Val.ref_value, e0, e1, e2, e3, e4, e5, e6, e7, e8, e9,
    e10, e11, e12]
  show _ = Cert.KernelIdeal.Gen.W23 (F := Ideal) m ρ c (Proc.devRef .tc Cert.KernelIdeal.main_v102)
  rw [Cert.KernelIdeal.Val.kernel_value m ρ c]
  exact (Gnn.kOut_eq_rOut _ _ _ _ _ _ _ _ _ _ _ _ _ h0 h1 h2 h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
